-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v49 : IVec S_ 1) (main_v51 : IVec S1600000 32) : IVec S_ 1 :=
  let main_c_18 : IVec S_ 32 := constantI S_ 32 100000#32
  let main_v52 : IVec S1600000 32 := broadcastInDim S1600000 ![] bcast_S_S1600000 main_c_18
  let main_v53 : IVec S1600000 1 := cmpi .slt main_v51 main_v52
  let main_c_19 : IVec S_ 1 := constantI S_ 1 1#1
  let main_v54 : IVec S_ 1 := (fun x v => Host.reduce IntOp.andi x v reducesTo_S1600000_S_d0 h_S_) main_v53 main_c_19
  let main_v55 : IVec S_ 1 := andi main_v49 main_v54
  main_v55

def fn_part2 {F : FTy → Type} [FloatOps F] (main_arg1 : IVec S2x1600000 32) (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_c_17 : IVec S_ 1 := constantI S_ 1 1#1
  let main_v48 : IVec S_ 1 := (fun x v => Host.reduce IntOp.andi x v reducesTo_S1600000_S_d0 h_S_) main_v47 main_c_17
  let main_v49 : IVec S_ 1 := andi main_v43 main_v48
  let main_v50 : IVec S1x1600000 32 := (extractStridedSlice S1x1600000 ![0, 0] · slices_S2x1600000_S1x1600000_0_0) main_arg1
  let main_v51 : IVec S1600000 32 := shapeCast S1600000 main_v50 shapeCasts_S1x1600000_S1600000
  fn_part3 (F := F) main_v49 main_v51

def fn_part1 {F : FTy → Type} [FloatOps F] (main_arg1 : IVec S2x1600000 32) (main_arg6 : FVec F S64 .f32) (main_arg7 : FVec F S64x64 .f32) (main_arg8 : FVec F S64 .f32) (main_arg9 : FVec F S64x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S10000x64 : Shape := ⟨2, ![10000, 64]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S1x2 : Shape := ⟨2, ![1, 2]⟩
abbrev S10000x1 : Shape := ⟨2, ![10000, 1]⟩
abbrev S64x1 : Shape := ⟨2, ![64, 1]⟩

abbrev nBuf : Space → Nat
  | .hbm => 120
  | .vmem => 57
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1, .i32⟩
  | .hbm, ⟨37, _⟩ => ⟨S_, .i32⟩
  | .hbm, ⟨38, _⟩ => ⟨S1600000x1, .i32⟩
  | .hbm, ⟨39, _⟩ => ⟨S1600000x1, .i1⟩
  | .hbm, ⟨40, _⟩ => ⟨S1x1, .i32⟩
  | .hbm, ⟨41, _⟩ => ⟨S1600000x1, .i32⟩
  | .hbm, ⟨42, _⟩ => ⟨S1600000x1, .i1⟩
  | .hbm, ⟨43, _⟩ => ⟨S1600000x1, .i1⟩
  | .hbm, ⟨44, _⟩ => ⟨S_, .i1⟩
  | .hbm, ⟨45, _⟩ => ⟨S1600000, .i1⟩
  | .hbm, ⟨46, _⟩ => ⟨S1600000x64, .f32⟩
  | .hbm, ⟨47, _⟩ => ⟨S1600000x64, .i1⟩
  | .hbm, ⟨48, _⟩ => ⟨S_, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1, .i32⟩
  | .hbm, ⟨67, _⟩ => ⟨S_, .i32⟩
  | .hbm, ⟨68, _⟩ => ⟨S1600000x1, .i32⟩
  | .hbm, ⟨69, _⟩ => ⟨S1600000x1, .i1⟩
  | .hbm, ⟨70, _⟩ => ⟨S1x1, .i32⟩
  | .hbm, ⟨71, _⟩ => ⟨S1600000x1, .i32⟩
  | .hbm, ⟨72, _⟩ => ⟨S1600000x1, .i1⟩
  | .hbm, ⟨73, _⟩ => ⟨S1600000x1, .i1⟩
  | .hbm, ⟨74, _⟩ => ⟨S_, .i1⟩
  | .hbm, ⟨75, _⟩ => ⟨S1600000, .i1⟩
  | .hbm, ⟨76, _⟩ => ⟨S1600000x64, .f32⟩
  | .hbm, ⟨77, _⟩ => ⟨S1600000x64, .i1⟩
  | .hbm, ⟨78, _⟩ => ⟨S_, .f32⟩
  | .hbm, ⟨79, _⟩ => ⟨S1600000x64, .f32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1, .i32⟩
  | .hbm, ⟨97, _⟩ => ⟨S_, .i32⟩
  | .hbm, ⟨98, _⟩ => ⟨S1600000x1, .i32⟩
  | .hbm, ⟨99, _⟩ => ⟨S1600000x1, .i1⟩
  | .hbm, ⟨100, _⟩ => ⟨S1x1, .i32⟩
  | .hbm, ⟨101, _⟩ => ⟨S1600000x1, .i32⟩
  | .hbm, ⟨102, _⟩ => ⟨S1600000x1, .i1⟩
  | .hbm, ⟨103, _⟩ => ⟨S1600000x1, .i1⟩
  | .hbm, ⟨104, _⟩ => ⟨S_, .i1⟩
  | .hbm, ⟨105, _⟩ => ⟨S1600000, .i1⟩
  | .hbm, ⟨106, _⟩ => ⟨S1600000x64, .f32⟩
  | .hbm, ⟨107, _⟩ => ⟨S1600000x64, .i1⟩
  | .hbm, ⟨108, _⟩ => ⟨S_, .f32⟩
  | .hbm, ⟨109, _⟩ => ⟨S1600000x64, .f32⟩
  | .hbm, ⟨110, _⟩ => ⟨S1600000x64, .f32⟩
  | .hbm, ⟨111, _⟩ => ⟨S_, .f32⟩
  | .hbm, ⟨112, _⟩ => ⟨S100000x64, .f32⟩
  | .hbm, ⟨113, _⟩ => ⟨S1600000x1, .i32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x1, .i32⟩
  | .hbm, ⟨118, _⟩ => ⟨S1x2, .f32⟩
  | .hbm, ⟨119, _⟩ => ⟨S64x2, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x1, .i32⟩
  | .local _ .vmem, ⟨49, _⟩ => ⟨S10000x1, .i32⟩
  | .local _ .vmem, ⟨50, _⟩ => ⟨S10000x64, .f32⟩
  | .local _ .vmem, ⟨51, _⟩ => ⟨S10000x64, .f32⟩
  | .local _ .vmem, ⟨52, _⟩ => ⟨S64x2, .f32⟩
  | .local _ .vmem, ⟨53, _⟩ => ⟨S1x2, .f32⟩
  | .local _ .vmem, ⟨54, _⟩ => ⟨S64x2, .f32⟩
  | .local _ .vmem, ⟨55, _⟩ => ⟨S64x64, .f32⟩
  | .local _ .vmem, ⟨56, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v14 : Ref sig .tc := ⟨.hbm, 50, rfl⟩
abbrev main_cst_2 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v21 : Ref sig .tc := ⟨.hbm, 80, rfl⟩
abbrev main_cst_3 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v28 : Ref sig .tc := ⟨.hbm, 110, rfl⟩
abbrev main_cst_4 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_scratch0 : Ref sig .tc := ⟨.vmem, 55, rfl⟩
abbrev cc6_scratch1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S10000x64_S10000x64 : S10000x64.ShapeCasts S10000x64
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S100000_S100000x1 : S100000.ShapeCasts S100000x1
  shapeCasts_S2_S1x2 : S2.ShapeCasts S1x2
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S10000x64_d1_w32 : S10000x64.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  natLt_1_32 : 1 < 32
  broadcasts_S64x1_S64x64 : S64x1.Broadcasts S64x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x1.size a ≤ S100000x1.size a
  hwx6_0 : ∀ i : grid6.Coords, EltTy.bits .i32 = 32 ∨ (Rect.block (s := S100000x1) S10000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x2.size a ≤ S64x2.size a
  hwx6_2 : ∀ i : grid6.Coords, EltTy.bits .f32 = 32 ∨ (Rect.block (s := S64x2) S64x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x2.size a ≤ S1x2.size a
  hwx6_3 : ∀ i : grid6.Coords, EltTy.bits .f32 = 32 ∨ (Rect.block (s := S1x2) S1x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x2.size a ≤ S64x2.size a
  hwx6_4 : ∀ i : grid6.Coords, EltTy.bits .f32 = 32 ∨ (Rect.block (s := S64x2) S64x2.size (cc6_transform_4 i) (hinb6_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v24) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v26) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v27) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v31) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v33) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v34) S10000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S64x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v35) S1x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v36) S64x2.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x2 : Shape := ⟨2, ![1, 2]⟩

abbrev nBuf : Space → Nat
  | .hbm => 183
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x2, .f32⟩
  | 10 => ⟨S2, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x64, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S1600000x64, .f32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S64x64, .f32⟩
  | 37 => ⟨S100000x1, .i32⟩
  | 38 => ⟨S64x64, .f32⟩
  | 39 => ⟨S_, .f32⟩
  | 40 => ⟨S100000, .f32⟩
  | 41 => ⟨S_, .f32⟩
  | 42 => ⟨S64, .f32⟩
  | 43 => ⟨S100000x1, .i32⟩
  | 44 => ⟨S64, .f32⟩
  | 45 => ⟨S_, .f32⟩
  | 46 => ⟨S64, .f32⟩
  | 47 => ⟨S64, .f32⟩
  | 48 => ⟨S64x1, .f32⟩
  | 49 => ⟨S64x64, .f32⟩
  | 50 => ⟨S64x64, .f32⟩
  | 51 => ⟨S64x2, .f32⟩
  | 52 => ⟨S1x2, .f32⟩
  | 53 => ⟨S64x2, .f32⟩
  | 54 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_23 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x2_S64x2_1_0_0_1_n_n_wf : DotDims.WF S64x64 S64x2 S64x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KB.Reg0.lean ====
/- Region 0 of the printed program (custom_call 0, the kernel function cc0__matmul_scale_kernel), at a PARAMETER V:
   the TensorCore's buffer contents when the region is entered. Each window's block at a grid point, what the
   body leaves in the output window's buffer (its one whole-block store of the payload), the body's triple on whole
   staging memrefs, the pipeline's proof data and the body obligation at every point. Generic in the float
   interpretation. -/
import proofs.«431502_j9491877724720_3_alg».proof.Proof.Gen.Kernel.Launch
import proofs.«431502_j9491877724720_3_alg».proof.Proof.Gen.Kernel.Skeleton
import proofs.«431502_j9491877724720_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is V's
    and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one fixed block): fetched at the first point only; at a later point the block
    index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2, as window 0. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0

/-! ## What the body leaves in the output window's buffer -/

/-- Window 3's staging buffer after the body, from the input windows' blocks: its one store as a piece, the
    payload taken at the three loaded blocks. -/
def out0_3 (xa : Vec F S10000x64 .f32) (xb : Vec F S64x64 .f32) (xc : Vec F S10000x64 .f32) : Vec F S10000x64 .f32 :=
  View.canon [⟨r0_0, k0_pay1 (View.ld xa r0_0) (View.ld xb r0_1) (View.ld xc r0_0)⟩]

/-- The store tiles the buffer, so it covers it. -/
theorem cover0_3 (pay : Vec F S10000x64 .f32) (y : S10000x64.Idx) :
    ∃ pc ∈ ([⟨r0_0, pay⟩] : List (View.Piece (Elt F) S10000x64 .f32)), y ∈ pc.1.set :=
  View.cover_of_tiled [⟨r0_0, pay⟩] S10000x64.size (by rfl) y

/-! ## The body's triple -/

set_option maxHeartbeats 1000000 in
/-- The kernel body on whole staging memrefs, the inputs' at read contents and the output's at anything, runs to
    the continuation holding the inputs' as they were and the output's at out0_3 of the inputs'. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole) (arg4 : Memref sig .tc .vmem S10000x64 .f32) (harg4 : arg4.IsWhole)
    (xa : Vec F S10000x64 .f32) (xb : Vec F S64x64 .f32) (xc : Vec F S10000x64 .f32) (K : PUnit → sProp 𝕄) :
    iprop(owns (c : Thread nD τ) arg1 fullShare xa ∗ owns (c : Thread nD τ) arg2 fullShare xb ∗ owns (c : Thread nD τ) arg3 fullShare xc ∗ (∃ d, owns (c : Thread nD τ) arg4 fullShare d)
        ∗ (iprop(owns (c : Thread nD τ) arg1 fullShare xa ∗ owns (c : Thread nD τ) arg2 fullShare xb ∗ owns (c : Thread nD τ) arg3 fullShare xc ∗ owns (c : Thread nD τ) arg4 fullShare (out0_3 xa xb xc)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover0_3 _)

/-! ## The pipeline's proof data -/

/-- The proof data of pipeline 0 on core c: the arrays as the region finds them; after the body at point t each
    input's buffer at its block and the output's at out0_3 of the input blocks; the class's invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed counts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%da, Ha⟩, ⟨%db, Hb⟩, ⟨%dc, Hc⟩, ⟨%dd, Hd⟩⟩
  iapply (sound_kernel0 c Set.univ _ _ _ _ _ _ _ _ _ (iblk0 V c 0 t) (iblk0 V c 1 t) (iblk0 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Run
-- ==== Proof.KB.Reg1.lean ====
/- Region 1 of the printed program (custom_call 1, the kernel function cc1__combine_kernel), at a PARAMETER V — the
   TensorCore's buffer contents when the region is entered —: each window's block at a point, what the body finds in each
   input window's staging buffer and what it leaves in the output window's, the body's triple, the pipeline's proof data
   and the body obligation. The body reads four input blocks whole (the three row blocks of 10000 rows and the one row
   of 64 entries, which every point reads), reads the output's buffer without using the value, and stores one payload over
   the whole output block. -/
import proofs.«431502_j9491877724720_3_alg».proof.Proof.Gen.Kernel.Launch
import proofs.«431502_j9491877724720_3_alg».proof.Proof.Gen.Kernel.Skeleton
import proofs.«431502_j9491877724720_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural recursion goes once per coordinate of the long axis
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is V's and whose body leaves the block in place: where it was not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of input window 3, the one row every point reads: it is fetched at the first point only, its block index
    never moves, and the buffer holds that one block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of 10000 rows, and the whole row. -/
abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0

/-! ## What the body leaves in the output window's buffer -/

/-- Window 4's staging buffer after the body, from the input windows' blocks (xA … xD are windows 0 … 3's): its one store, of the
    payload of the blocks read whole — the body reads window 2's first, then windows 0, 1 and 3's. -/
def out1_4 (xA : Vec F S10000x64 .f32) (xB : Vec F S10000x64 .f32) (xC : Vec F S10000x64 .f32) (xD : Vec F S1x64 .f32) : Vec F S10000x64 .f32 :=
  View.canon [⟨r1_0, k1_pay1 (View.ld xC r1_0) (View.ld xA r1_0) (View.ld xB r1_0) (View.ld xD r1_1)⟩]

/-- The one store is of the whole block, so it covers the buffer. -/
theorem cover1_4 (p : Vec F S10000x64 .f32) (y : S10000x64.Idx) :
    ∃ pc ∈ ([⟨r1_0, p⟩] : List (View.Piece (Elt F) S10000x64 .f32)), y ∈ pc.1.set :=
  View.cover_of_tiled [⟨r1_0, p⟩] S10000x64.size (by rfl) y

/-! ## The body's triple -/

set_option maxHeartbeats 1000000 in
/-- The kernel body on whole staging memrefs, the inputs' at read contents xA … xD and the output's at anything, runs to the
    continuation holding the inputs' as they were and the output's at out1_4 of the inputs': the printed function is its
    skeleton of memory operations, which are run one by one. -/
theorem sound_kernel1 (c : Dev nD) (E : Set ℕ) (i : grid1.Coords) (mA : Memref sig .tc .vmem S10000x64 .f32) (hmA : mA.IsWhole) (mB : Memref sig .tc .vmem S10000x64 .f32) (hmB : mB.IsWhole) (mC : Memref sig .tc .vmem S10000x64 .f32) (hmC : mC.IsWhole) (mD : Memref sig .tc .vmem S1x64 .f32) (hmD : mD.IsWhole) (mE : Memref sig .tc .vmem S10000x64 .f32) (hmE : mE.IsWhole)
    (xA : Vec F S10000x64 .f32) (xB : Vec F S10000x64 .f32) (xC : Vec F S10000x64 .f32) (xD : Vec F S1x64 .f32) (K : PUnit → sProp 𝕄) :
    iprop(owns (c : Thread nD τ) mA fullShare xA ∗ owns (c : Thread nD τ) mB fullShare xB ∗ owns (c : Thread nD τ) mC fullShare xC ∗ owns (c : Thread nD τ) mD fullShare xD ∗ (∃ d, owns (c : Thread nD τ) mE fullShare d)
        ∗ (iprop(owns (c : Thread nD τ) mA fullShare xA ∗ owns (c : Thread nD τ) mB fullShare xB ∗ owns (c : Thread nD τ) mC fullShare xC ∗ owns (c : Thread nD τ) mD fullShare xD ∗ owns (c : Thread nD τ) mE fullShare (out1_4 xA xB xC xD)) -∗ K ⟨⟩))
      ⊢ wp frame (wpE (defs₀ (F := F)) Variants.none c none) E (cc1__combine_kernel i mA hmA mB hmB mC hmC mD hmD mE hmE) K := by
  simp only [cc1__combine_kernel_eq_skeleton]; unfold cc1__combine_kernel_skel
  unfold owns
  iintro ⟨⟨%fA, %hfA, HA⟩, ⟨%fB, %hfB, HB⟩, ⟨%fC, %hfC, HC⟩, ⟨%fD, %hfD, HD⟩, ⟨%dE, %fE, -, HE⟩, Hk⟩
  subst hfA hfB hfC hfD
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  iexists _; isplitr
  swap; · iexact HE
  ipureintro
  exact View.read_writes_eq_canon _ _ _ (cover1_4 _)

/-! ## The pipeline's proof data -/

/-- The proof data of pipeline 1 on core c: the arrays as the region finds them (V); after the body at point t each
    input's buffer at its block and the output's at out1_4 of the input blocks; the invariant that the scoped rest and
    the generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's owed amount pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%dA, HA⟩, ⟨%dB, HB⟩, ⟨%dC, HC⟩, ⟨%dD, HD⟩, ⟨%dE, HE⟩⟩
  iapply (sound_kernel1 c Set.univ (grid1.coords t) _ _ _ _ _ _ _ _ _ _ (iblk1 V c 0 t) (iblk1 V c 1 t) (iblk1 V c 2 t) (iblk1 V c 3 t) _)
  isplitl [HA]; · iexact HA
  isplitl [HB]; · iexact HB
  isplitl [HC]; · iexact HC
  isplitl [HD]; · iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run
-- ==== Proof.KB.Reg2.lean ====
/- Region 2 of the printed program (custom_call 2, the kernel function cc2__matmul_scale_kernel), at a PARAMETER V:
   the TensorCore's buffer contents when the region is entered. Each window's block at a grid point, what the
   body leaves in the output window's buffer (its one whole-block store of the payload), the body's triple on whole
   staging memrefs, the pipeline's proof data and the body obligation at every point. Generic in the float
   interpretation. -/
import proofs.«431502_j9491877724720_3_alg».proof.Proof.Gen.Kernel.Launch
import proofs.«431502_j9491877724720_3_alg».proof.Proof.Gen.Kernel.Skeleton
import proofs.«431502_j9491877724720_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is V's
    and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weights, one fixed block): fetched at the first point only; at a later point the block
    index has not moved, so the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2, as window 0. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0

/-! ## What the body leaves in the output window's buffer -/

/-- Window 3's staging buffer after the body, from the input windows' blocks: its one store as a piece, the
    payload taken at the three loaded blocks. -/
def out2_3 (xa : Vec F S10000x64 .f32) (xb : Vec F S64x64 .f32) (xc : Vec F S10000x64 .f32) : Vec F S10000x64 .f32 :=
  View.canon [⟨r2_0, k2_pay1 (View.ld xa r2_0) (View.ld xb r2_1) (View.ld xc r2_0)⟩]

/-- The store tiles the buffer, so it covers it. -/
theorem cover2_3 (pay : Vec F S10000x64 .f32) (y : S10000x64.Idx) :
    ∃ pc ∈ ([⟨r2_0, pay⟩] : List (View.Piece (Elt F) S10000x64 .f32)), y ∈ pc.1.set :=
  View.cover_of_tiled [⟨r2_0, pay⟩] S10000x64.size (by rfl) y

/-! ## The body's triple -/

set_option maxHeartbeats 1000000 in
/-- The kernel body on whole staging memrefs, the inputs' at read contents and the output's at anything, runs to
    the continuation holding the inputs' as they were and the output's at out2_3 of the inputs'. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole) (arg4 : Memref sig .tc .vmem S10000x64 .f32) (harg4 : arg4.IsWhole)
    (xa : Vec F S10000x64 .f32) (xb : Vec F S64x64 .f32) (xc : Vec F S10000x64 .f32) (K : PUnit → sProp 𝕄) :
    iprop(owns (c : Thread nD τ) arg1 fullShare xa ∗ owns (c : Thread nD τ) arg2 fullShare xb ∗ owns (c : Thread nD τ) arg3 fullShare xc ∗ (∃ d, owns (c : Thread nD τ) arg4 fullShare d)
        ∗ (iprop(owns (c : Thread nD τ) arg1 fullShare xa ∗ owns (c : Thread nD τ) arg2 fullShare xb ∗ owns (c : Thread nD τ) arg3 fullShare xc ∗ owns (c : Thread nD τ) arg4 fullShare (out2_3 xa xb xc)) -∗ K ⟨⟩))
      ⊢ wp frame (wpE (defs₀ (F := F)) Variants.none c none) E (cc2__matmul_scale_kernel i arg1 harg1 arg2 harg2 arg3 harg3 arg4 harg4) K := by
  simp only [cc2__matmul_scale_kernel_eq_skeleton]; unfold cc2__matmul_scale_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover2_3 _)

/-! ## The pipeline's proof data -/

/-- The proof data of pipeline 2 on core c: the arrays as the region finds them; after the body at point t each
    input's buffer at its block and the output's at out2_3 of the input blocks; the class's invariant (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's owed counts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%da, Ha⟩, ⟨%db, Hb⟩, ⟨%dc, Hc⟩, ⟨%dd, Hd⟩⟩
  iapply (sound_kernel2 c Set.univ _ _ _ _ _ _ _ _ _ (iblk2 V c 0 t) (iblk2 V c 1 t) (iblk2 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Run
-- ==== Proof.KB.Reg3.lean ====
/- Region 3 of the printed program (custom_call 3, the kernel function cc3__combine_kernel), at a PARAMETER V — the
   TensorCore's buffer contents when the region is entered —: each window's block at a point, what the body finds in each
   input window's staging buffer and what it leaves in the output window's, the body's triple, the pipeline's proof data
   and the body obligation. The body reads four input blocks whole (the three row blocks of 10000 rows and the one row
   of 64 entries, which every point reads), reads the output's buffer without using the value, and stores one payload over
   the whole output block. -/
import proofs.«431502_j9491877724720_3_alg».proof.Proof.Gen.Kernel.Launch
import proofs.«431502_j9491877724720_3_alg».proof.Proof.Gen.Kernel.Skeleton
import proofs.«431502_j9491877724720_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural recursion goes once per coordinate of the long axis
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof data
    whose array is V's and whose body leaves the block in place: where it was not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same of input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The same of input window 3, the one row every point reads: it is fetched at the first point only, its block index
    never moves, and the buffer holds that one block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole block of 10000 rows, and the whole row. -/
abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0

/-! ## What the body leaves in the output window's buffer -/

/-- Window 4's staging buffer after the body, from the input windows' blocks (xA … xD are windows 0 … 3's): its one store, of the
    payload of the blocks read whole — the body reads window 2's first, then windows 0, 1 and 3's. -/
def out3_4 (xA : Vec F S10000x64 .f32) (xB : Vec F S10000x64 .f32) (xC : Vec F S10000x64 .f32) (xD : Vec F S1x64 .f32) : Vec F S10000x64 .f32 :=
  View.canon [⟨r3_0, k3_pay1 (View.ld xC r3_0) (View.ld xA r3_0) (View.ld xB r3_0) (View.ld xD r3_1)⟩]

/-- The one store is of the whole block, so it covers the buffer. -/
theorem cover3_4 (p : Vec F S10000x64 .f32) (y : S10000x64.Idx) :
    ∃ pc ∈ ([⟨r3_0, p⟩] : List (View.Piece (Elt F) S10000x64 .f32)), y ∈ pc.1.set :=
  View.cover_of_tiled [⟨r3_0, p⟩] S10000x64.size (by rfl) y

/-! ## The body's triple -/

set_option maxHeartbeats 1000000 in
/-- The kernel body on whole staging memrefs, the inputs' at read contents xA … xD and the output's at anything, runs to the
    continuation holding the inputs' as they were and the output's at out3_4 of the inputs': the printed function is its
    skeleton of memory operations, which are run one by one. -/
theorem sound_kernel3 (c : Dev nD) (E : Set ℕ) (i : grid3.Coords) (mA : Memref sig .tc .vmem S10000x64 .f32) (hmA : mA.IsWhole) (mB : Memref sig .tc .vmem S10000x64 .f32) (hmB : mB.IsWhole) (mC : Memref sig .tc .vmem S10000x64 .f32) (hmC : mC.IsWhole) (mD : Memref sig .tc .vmem S1x64 .f32) (hmD : mD.IsWhole) (mE : Memref sig .tc .vmem S10000x64 .f32) (hmE : mE.IsWhole)
    (xA : Vec F S10000x64 .f32) (xB : Vec F S10000x64 .f32) (xC : Vec F S10000x64 .f32) (xD : Vec F S1x64 .f32) (K : PUnit → sProp 𝕄) :
    iprop(owns (c : Thread nD τ) mA fullShare xA ∗ owns (c : Thread nD τ) mB fullShare xB ∗ owns (c : Thread nD τ) mC fullShare xC ∗ owns (c : Thread nD τ) mD fullShare xD ∗ (∃ d, owns (c : Thread nD τ) mE fullShare d)
        ∗ (iprop(owns (c : Thread nD τ) mA fullShare xA ∗ owns (c : Thread nD τ) mB fullShare xB ∗ owns (c : Thread nD τ) mC fullShare xC ∗ owns (c : Thread nD τ) mD fullShare xD ∗ owns (c : Thread nD τ) mE fullShare (out3_4 xA xB xC xD)) -∗ K ⟨⟩))
      ⊢ wp frame (wpE (defs₀ (F := F)) Variants.none c none) E (cc3__combine_kernel i mA hmA mB hmB mC hmC mD hmD mE hmE) K := by
  simp only [cc3__combine_kernel_eq_skeleton]; unfold cc3__combine_kernel_skel
  unfold owns
  iintro ⟨⟨%fA, %hfA, HA⟩, ⟨%fB, %hfB, HB⟩, ⟨%fC, %hfC, HC⟩, ⟨%fD, %hfD, HD⟩, ⟨%dE, %fE, -, HE⟩, Hk⟩
  subst hfA hfB hfC hfD
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  iexists _; isplitr
  swap; · iexact HE
  ipureintro
  exact View.read_writes_eq_canon _ _ _ (cover3_4 _)

/-! ## The pipeline's proof data -/

/-- The proof data of pipeline 3 on core c: the arrays as the region finds them (V); after the body at point t each
    input's buffer at its block and the output's at out3_4 of the input blocks; the invariant that the scoped rest and
    the generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's match reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point t (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's owed amount pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%dA, HA⟩, ⟨%dB, HB⟩, ⟨%dC, HC⟩, ⟨%dD, HD⟩, ⟨%dE, HE⟩⟩
  iapply (sound_kernel3 c Set.univ (grid3.coords t) _ _ _ _ _ _ _ _ _ _ (iblk3 V c 0 t) (iblk3 V c 1 t) (iblk3 V c 2 t) (iblk3 V c 3 t) _)
  isplitl [HA]; · iexact HA
  isplitl [HB]; · iexact HB
  isplitl [HC]; · iexact HC
  isplitl [HD]; · iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Run
-- ==== Proof.KB.Reg4.lean ====
/- Region 4 of the printed program (custom_call 4, the kernel function cc4__matmul_scale_kernel), at a PARAMETER V:
   the TensorCore's buffer contents when the region is entered. Each window's block at a grid point, what the
   body leaves in the output window's buffer (its one whole-block store of the payload), the body's triple on whole
   staging memrefs, the pipeline's proof data and the body obligation at every point. Generic in the float
   interpretation. -/
import proofs.«431502_j9491877724720_3_alg».proof.Proof.Gen.Kernel.Launch
import proofs.«431502_j9491877724720_3_alg».proof.Proof.Gen.Kernel.Skeleton
import proofs.«431502_j9491877724720_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is V's
    and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the weights, one fixed block): fetched at the first point only; at a later point the block
    index has not moved, so the buffer still holds the block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2, as window 0. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0

/-! ## What the body leaves in the output window's buffer -/

/-- Window 3's staging buffer after the body, from the input windows' blocks: its one store as a piece, the
    payload taken at the three loaded blocks. -/
def out4_3 (xa : Vec F S10000x64 .f32) (xb : Vec F S64x64 .f32) (xc : Vec F S10000x64 .f32) : Vec F S10000x64 .f32 :=
  View.canon [⟨r4_0, k4_pay1 (View.ld xa r4_0) (View.ld xb r4_1) (View.ld xc r4_0)⟩]

/-- The store tiles the buffer, so it covers it. -/
theorem cover4_3 (pay : Vec F S10000x64 .f32) (y : S10000x64.Idx) :
    ∃ pc ∈ ([⟨r4_0, pay⟩] : List (View.Piece (Elt F) S10000x64 .f32)), y ∈ pc.1.set :=
  View.cover_of_tiled [⟨r4_0, pay⟩] S10000x64.size (by rfl) y

/-! ## The body's triple -/

set_option maxHeartbeats 1000000 in
/-- The kernel body on whole staging memrefs, the inputs' at read contents and the output's at anything, runs to
    the continuation holding the inputs' as they were and the output's at out4_3 of the inputs'. -/
theorem sound_kernel4 (c : Dev nD) (E : Set ℕ) (i : grid4.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole) (arg4 : Memref sig .tc .vmem S10000x64 .f32) (harg4 : arg4.IsWhole)
    (xa : Vec F S10000x64 .f32) (xb : Vec F S64x64 .f32) (xc : Vec F S10000x64 .f32) (K : PUnit → sProp 𝕄) :
    iprop(owns (c : Thread nD τ) arg1 fullShare xa ∗ owns (c : Thread nD τ) arg2 fullShare xb ∗ owns (c : Thread nD τ) arg3 fullShare xc ∗ (∃ d, owns (c : Thread nD τ) arg4 fullShare d)
        ∗ (iprop(owns (c : Thread nD τ) arg1 fullShare xa ∗ owns (c : Thread nD τ) arg2 fullShare xb ∗ owns (c : Thread nD τ) arg3 fullShare xc ∗ owns (c : Thread nD τ) arg4 fullShare (out4_3 xa xb xc)) -∗ K ⟨⟩))
      ⊢ wp frame (wpE (defs₀ (F := F)) Variants.none c none) E (cc4__matmul_scale_kernel i arg1 harg1 arg2 harg2 arg3 harg3 arg4 harg4) K := by
  simp only [cc4__matmul_scale_kernel_eq_skeleton]; unfold cc4__matmul_scale_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover4_3 _)

/-! ## The pipeline's proof data -/

/-- The proof data of pipeline 4 on core c: the arrays as the region finds them; after the body at point t each
    input's buffer at its block and the output's at out4_3 of the input blocks; the class's invariant (the scoped
    rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's owed counts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%da, Ha⟩, ⟨%db, Hb⟩, ⟨%dc, Hc⟩, ⟨%dd, Hd⟩⟩
  iapply (sound_kernel4 c Set.univ _ _ _ _ _ _ _ _ _ (iblk4 V c 0 t) (iblk4 V c 1 t) (iblk4 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Run
-- ==== Proof.KB.Reg5.lean ====
/- Region 5 of the printed program (custom_call 5, the kernel function cc5__combine_kernel), at a PARAMETER V — the
   TensorCore's buffer contents when the region is entered —: each window's block at a point, what the body finds in each
   input window's staging buffer and what it leaves in the output window's, the body's triple, the pipeline's proof data
   and the body obligation. The body reads four input blocks whole (the three row blocks of 10000 rows and the one row
   of 64 entries, which every point reads), reads the output's buffer without using the value, and stores one payload over
   the whole output block. -/
import proofs.«431502_j9491877724720_3_alg».proof.Proof.Gen.Kernel.Launch
import proofs.«431502_j9491877724720_3_alg».proof.Proof.Gen.Kernel.Skeleton
import proofs.«431502_j9491877724720_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural recursion goes once per coordinate of the long axis
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof data
    whose array is V's and whose body leaves the block in place: where it was not fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The same of input window 3, the one row every point reads: it is fetched at the first point only, its block index
    never moves, and the buffer holds that one block at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole block of 10000 rows, and the whole row. -/
abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0

/-! ## What the body leaves in the output window's buffer -/

/-- Window 4's staging buffer after the body, from the input windows' blocks (xA … xD are windows 0 … 3's): its one store, of the
    payload of the blocks read whole — the body reads window 2's first, then windows 0, 1 and 3's. -/
def out5_4 (xA : Vec F S10000x64 .f32) (xB : Vec F S10000x64 .f32) (xC : Vec F S10000x64 .f32) (xD : Vec F S1x64 .f32) : Vec F S10000x64 .f32 :=
  View.canon [⟨r5_0, k5_pay1 (View.ld xC r5_0) (View.ld xA r5_0) (View.ld xB r5_0) (View.ld xD r5_1)⟩]

/-- The one store is of the whole block, so it covers the buffer. -/
theorem cover5_4 (p : Vec F S10000x64 .f32) (y : S10000x64.Idx) :
    ∃ pc ∈ ([⟨r5_0, p⟩] : List (View.Piece (Elt F) S10000x64 .f32)), y ∈ pc.1.set :=
  View.cover_of_tiled [⟨r5_0, p⟩] S10000x64.size (by rfl) y

/-! ## The body's triple -/

set_option maxHeartbeats 1000000 in
/-- The kernel body on whole staging memrefs, the inputs' at read contents xA … xD and the output's at anything, runs to the
    continuation holding the inputs' as they were and the output's at out5_4 of the inputs': the printed function is its
    skeleton of memory operations, which are run one by one. -/
theorem sound_kernel5 (c : Dev nD) (E : Set ℕ) (i : grid5.Coords) (mA : Memref sig .tc .vmem S10000x64 .f32) (hmA : mA.IsWhole) (mB : Memref sig .tc .vmem S10000x64 .f32) (hmB : mB.IsWhole) (mC : Memref sig .tc .vmem S10000x64 .f32) (hmC : mC.IsWhole) (mD : Memref sig .tc .vmem S1x64 .f32) (hmD : mD.IsWhole) (mE : Memref sig .tc .vmem S10000x64 .f32) (hmE : mE.IsWhole)
    (xA : Vec F S10000x64 .f32) (xB : Vec F S10000x64 .f32) (xC : Vec F S10000x64 .f32) (xD : Vec F S1x64 .f32) (K : PUnit → sProp 𝕄) :
    iprop(owns (c : Thread nD τ) mA fullShare xA ∗ owns (c : Thread nD τ) mB fullShare xB ∗ owns (c : Thread nD τ) mC fullShare xC ∗ owns (c : Thread nD τ) mD fullShare xD ∗ (∃ d, owns (c : Thread nD τ) mE fullShare d)
        ∗ (iprop(owns (c : Thread nD τ) mA fullShare xA ∗ owns (c : Thread nD τ) mB fullShare xB ∗ owns (c : Thread nD τ) mC fullShare xC ∗ owns (c : Thread nD τ) mD fullShare xD ∗ owns (c : Thread nD τ) mE fullShare (out5_4 xA xB xC xD)) -∗ K ⟨⟩))
      ⊢ wp frame (wpE (defs₀ (F := F)) Variants.none c none) E (cc5__combine_kernel i mA hmA mB hmB mC hmC mD hmD mE hmE) K := by
  simp only [cc5__combine_kernel_eq_skeleton]; unfold cc5__combine_kernel_skel
  unfold owns
  iintro ⟨⟨%fA, %hfA, HA⟩, ⟨%fB, %hfB, HB⟩, ⟨%fC, %hfC, HC⟩, ⟨%fD, %hfD, HD⟩, ⟨%dE, %fE, -, HE⟩, Hk⟩
  subst hfA hfB hfC hfD
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  iexists _; isplitr
  swap; · iexact HE
  ipureintro
  exact View.read_writes_eq_canon _ _ _ (cover5_4 _)

/-! ## The pipeline's proof data -/

/-- The proof data of pipeline 5 on core c: the arrays as the region finds them (V); after the body at point t each
    input's buffer at its block and the output's at out5_4 of the input blocks; the invariant that the scoped rest and
    the generator register are untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the definition's match reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point t (the body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the body's triple applies; the invariant and the
    core's owed amount pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%dA, HA⟩, ⟨%dB, HB⟩, ⟨%dC, HC⟩, ⟨%dD, HD⟩, ⟨%dE, HE⟩⟩
  iapply (sound_kernel5 c Set.univ (grid5.coords t) _ _ _ _ _ _ _ _ _ _ (iblk5 V c 0 t) (iblk5 V c 1 t) (iblk5 V c 2 t) (iblk5 V c 3 t) _)
  isplitl [HA]; · iexact HA
  isplitl [HB]; · iexact HB
  isplitl [HC]; · iexact HC
  isplitl [HD]; · iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Run
-- ==== Proof.KB.Reg6.lean ====
/-
  The pooling region (the last kernel call): a mean over the nodes of each of 64 graphs followed by a 64 x 2 linear head.

  The grid has ten points; point t sees rows 10000 t .. 10000 t + 9999 of the graph-assignment column and of the node
  table.  Two buffers of the kernel's own are carried from point to point: a 64 x 64 one, to which each point adds the
  contraction over its 10000 rows of (row's graph is g) * (row's entry j), and a 64 x 1 one, to which each point adds the
  number of its rows in graph g.  Point 0 first zeroes both; point 9, after its own addition, stores into the output's
  block the quotient of the first by the second (clamped below by one), times the head's matrix, plus the bias.  At
  points 0..8 the output's buffer is not touched and not written back.

  This module runs the body once per control case (point 0, points 1..8, point 9), names what the two carried buffers hold
  after n points by recursion over the payloads, and proves the pipeline's body obligation for proof data that hold the
  carried buffers, at those contents, in the invariant.  It is generic in the float instance.
-/
import proofs.«431502_j9491877724720_3_alg».proof.Proof.Gen.Kernel.Launch
import proofs.«431502_j9491877724720_3_alg».proof.Proof.Gen.Kernel.Skeleton
import proofs.«431502_j9491877724720_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test as the body computes it from the grid coordinate: it holds at point 0 only. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)
/-- The second conditional's test: it holds at point 9 only. -/
abbrev cond6_1 (i : grid6.Coords) : Prop := k6_cond2 i = 1#1
theorem hcond6_1 : ∀ t : Fin cfg6.N, cond6_1 (grid6.coords t) ↔ t.val = 9 :=
  (by decide +kernel : ∀ t : Fin grid6.N, cond6_1 (grid6.coords t) ↔ t.val = 9)

/-- The zero offsets of a whole-block access, however spelt. -/
theorem hz6 : (![0, 0] : Fin 2 → Nat) = fun _ => 0 := funext fun a => by fin_cases a <;> rfl

set_option maxHeartbeats 1000000 in
/-- THE BODY AT POINT 0 (first conditional taken, second not): both scratch buffers, found at anything, are zeroed and then
    receive the first block's contribution; the inputs and the idle output are handed back as found. -/
theorem run6_A (c : Dev nD) (i : grid6.Coords)
    (arg1 : Memref sig .tc .vmem S10000x1 .i32) (harg1 : arg1.IsWhole) (arg2 : Memref sig .tc .vmem S10000x64 .f32) (harg2 : arg2.IsWhole)
    (arg3 : Memref sig .tc .vmem S64x2 .f32) (harg3 : arg3.IsWhole) (arg4 : Memref sig .tc .vmem S1x2 .f32) (harg4 : arg4.IsWhole)
    (arg5 : Memref sig .tc .vmem S64x2 .f32) (harg5 : arg5.IsWhole) (arg6 : Memref sig .tc .vmem S64x64 .f32) (harg6 : arg6.IsWhole)
    (arg7 : Memref sig .tc .vmem S64x1 .f32) (harg7 : arg7.IsWhole) (hc0 : cond6_0 i) (hc1 : ¬cond6_1 i)
    (x0 : Vec F S10000x1 .i32) (x1 : Vec F S10000x64 .f32) (x2 : Vec F S64x2 .f32) (x3 : Vec F S1x2 .f32) (xi4 : Vec F S64x2 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
            ∗ owns (c : Thread nD τ) arg6 fullShare (k6_pay4 x0 x1 (k6_pay1 (F := F))) ∗ owns (c : Thread nD τ) arg7 fullShare (k6_pay5 x0 (k6_pay2 (F := F)))) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    (try sl_unfold_words)
    rw [View.read_writes_eq_canon _ _ _ (fun y => ⟨_, List.mem_cons_self, View.mem_set_unit_zero hz6 inb_S64x64_S64x64_0_0 y⟩), View.canon_cons_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]
  · iexists _; isplitr
    swap; · iexact HS1
    ipureintro
    (try sl_unfold_words)
    rw [View.read_writes_eq_canon _ _ _ (fun y => ⟨_, List.mem_cons_self, View.mem_set_unit_zero hz6 inb_S64x1_S64x1_0_0 y⟩), View.canon_cons_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]

set_option maxHeartbeats 1000000 in
/-- THE BODY AT POINTS 1..8 (neither conditional taken): each scratch buffer, found at what the point before left, receives
    this block's contribution; the inputs and the idle output are handed back as found. -/
theorem run6_B (c : Dev nD) (i : grid6.Coords)
    (arg1 : Memref sig .tc .vmem S10000x1 .i32) (harg1 : arg1.IsWhole) (arg2 : Memref sig .tc .vmem S10000x64 .f32) (harg2 : arg2.IsWhole)
    (arg3 : Memref sig .tc .vmem S64x2 .f32) (harg3 : arg3.IsWhole) (arg4 : Memref sig .tc .vmem S1x2 .f32) (harg4 : arg4.IsWhole)
    (arg5 : Memref sig .tc .vmem S64x2 .f32) (harg5 : arg5.IsWhole) (arg6 : Memref sig .tc .vmem S64x64 .f32) (harg6 : arg6.IsWhole)
    (arg7 : Memref sig .tc .vmem S64x1 .f32) (harg7 : arg7.IsWhole) (hc0 : ¬cond6_0 i) (hc1 : ¬cond6_1 i)
    (x0 : Vec F S10000x1 .i32) (x1 : Vec F S10000x64 .f32) (x2 : Vec F S64x2 .f32) (x3 : Vec F S1x2 .f32) (xi4 : Vec F S64x2 .f32)
    (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
            ∗ owns (c : Thread nD τ) arg6 fullShare (k6_pay4 x0 x1 xs0) ∗ owns (c : Thread nD τ) arg7 fullShare (k6_pay5 x0 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    (try sl_unfold_words)
    rw [View.read_writes_eq_canon _ _ _ (fun y => ⟨_, List.mem_cons_self, View.mem_set_unit_zero hz6 inb_S64x64_S64x64_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]
  · iexists _; isplitr
    swap; · iexact HS1
    ipureintro
    (try sl_unfold_words)
    rw [View.read_writes_eq_canon _ _ _ (fun y => ⟨_, List.mem_cons_self, View.mem_set_unit_zero hz6 inb_S64x1_S64x1_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]

set_option maxHeartbeats 1000000 in
/-- THE BODY AT POINT 9 (first conditional not taken, second taken): each scratch buffer receives the last block's
    contribution, and the output's buffer, found at anything, is stored whole with the head applied to the two scratch
    buffers as just left and to the weight and bias blocks. -/
theorem run6_C (c : Dev nD) (i : grid6.Coords)
    (arg1 : Memref sig .tc .vmem S10000x1 .i32) (harg1 : arg1.IsWhole) (arg2 : Memref sig .tc .vmem S10000x64 .f32) (harg2 : arg2.IsWhole)
    (arg3 : Memref sig .tc .vmem S64x2 .f32) (harg3 : arg3.IsWhole) (arg4 : Memref sig .tc .vmem S1x2 .f32) (harg4 : arg4.IsWhole)
    (arg5 : Memref sig .tc .vmem S64x2 .f32) (harg5 : arg5.IsWhole) (arg6 : Memref sig .tc .vmem S64x64 .f32) (harg6 : arg6.IsWhole)
    (arg7 : Memref sig .tc .vmem S64x1 .f32) (harg7 : arg7.IsWhole) (hc0 : ¬cond6_0 i) (hc1 : cond6_1 i)
    (x0 : Vec F S10000x1 .i32) (x1 : Vec F S10000x64 .f32) (x2 : Vec F S64x2 .f32) (x3 : Vec F S1x2 .f32)
    (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k6_pay6 (k6_pay4 x0 x1 xs0) (k6_pay5 x0 xs1) x2 x3)
            ∗ owns (c : Thread nD τ) arg6 fullShare (k6_pay4 x0 x1 xs0) ∗ owns (c : Thread nD τ) arg7 fullShare (k6_pay5 x0 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    (try sl_unfold_words)
    rw [View.read_writes_eq_canon _ _ _ (fun y => ⟨_, List.mem_cons_self, View.mem_set_unit_zero hz6 inb_S64x2_S64x2_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]
  isplitl [HS0]
  · iexists _; isplitr
    swap; · iexact HS0
    ipureintro
    (try sl_unfold_words)
    rw [View.read_writes_eq_canon _ _ _ (fun y => ⟨_, List.mem_cons_self, View.mem_set_unit_zero hz6 inb_S64x64_S64x64_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]
  · iexists _; isplitr
    swap; · iexact HS1
    ipureintro
    (try sl_unfold_words)
    rw [View.read_writes_eq_canon _ _ _ (fun y => ⟨_, List.mem_cons_self, View.mem_set_unit_zero hz6 inb_S64x1_S64x1_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]

variable (V : (c : Dev nD) → (b : Ref sig .tc) → Buf (Elt F) ((c : Thread nD τ).loc b))

/-! ## The windows' blocks and the carried sums -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The grid point numbered `n` (numbers wrap at 10; only `n < 10` is ever consulted). -/
def pt6 (n : ℕ) : Fin cfg6.N := ⟨n % 10, lt_of_lt_of_eq (Nat.mod_lt n (by decide)) (show (10 : ℕ) = cfg6.N from N_6.symm)⟩

theorem pt6_val (t : Fin cfg6.N) : pt6 t.val = t :=
  Fin.ext (Nat.mod_eq_of_lt (lt_of_lt_of_eq t.isLt (show cfg6.N = 10 from N_6)))

/-- The 64x64 scratch buffer after `n` points: zeroed at point 0, then at every point (point 0 included) the point's
    one-hot contraction of its two blocks added to it. -/
def accS6 (c : Dev nD) : ℕ → Vec F S64x64 .f32
  | 0 => k6_pay1
  | n + 1 => k6_pay4 (iblk6 V c 0 (pt6 n)) (iblk6 V c 1 (pt6 n)) (if n = 0 then k6_pay1 else accS6 c n)

/-- The 64x1 scratch buffer (the per-graph counts) after `n` points, likewise. -/
def accC6 (c : Dev nD) : ℕ → Vec F S64x1 .f32
  | 0 => k6_pay2
  | n + 1 => k6_pay5 (iblk6 V c 0 (pt6 n)) (if n = 0 then k6_pay2 else accC6 c n)

theorem accS6_zero (c : Dev nD) : accS6 V c 0 = k6_pay1 := rfl
theorem accC6_zero (c : Dev nD) : accC6 V c 0 = k6_pay2 := rfl
theorem accS6_succ (c : Dev nD) (n : ℕ) :
    accS6 V c (n + 1) = k6_pay4 (iblk6 V c 0 (pt6 n)) (iblk6 V c 1 (pt6 n)) (if n = 0 then k6_pay1 else accS6 V c n) := rfl
theorem accC6_succ (c : Dev nD) (n : ℕ) :
    accC6 V c (n + 1) = k6_pay5 (iblk6 V c 0 (pt6 n)) (if n = 0 then k6_pay2 else accC6 V c n) := rfl
/-- After point `t`: the point's contribution over what the point before left (over zeros at point 0). -/
theorem accS6_at (c : Dev nD) (t : Fin cfg6.N) :
    accS6 V c (t.val + 1) = k6_pay4 (iblk6 V c 0 t) (iblk6 V c 1 t) (if t.val = 0 then k6_pay1 else accS6 V c t.val) := by
  rw [accS6_succ, pt6_val]
theorem accC6_at (c : Dev nD) (t : Fin cfg6.N) :
    accC6 V c (t.val + 1) = k6_pay5 (iblk6 V c 0 t) (if t.val = 0 then k6_pay2 else accC6 V c t.val) := by
  rw [accC6_succ, pt6_val]

/-! ## The region's invariant and proof data -/

/-- The two scratch operands: whole scoped buffers of the kernel's own, passed beside the windows. -/
abbrev scM6_0 : Memref sig .tc .vmem S64x64 .f32 := Memref.whole cc6_scratch0
abbrev scM6_1 : Memref sig .tc .vmem S64x1 .f32 := Memref.whole cc6_scratch1

/-- The invariant before position `n`: the two scratch buffers whole — at anything before the first point, afterwards at
    the carried sums after `n` points —, every other scoped buffer unopened, and the generator register at some state. -/
def Phi6 (c : Dev nD) : ℕ → sProp 𝕄
  | 0 => iprop(iprop((∃ d, owns (c : Thread nD τ) scM6_0 fullShare d) ∗ (∃ d, owns (c : Thread nD τ) scM6_1 fullShare d))
      ∗ Pipeline.scopedRestBut spec6 c [cc6_scratch0, cc6_scratch1] ∗ (∃ r, prngReg c r))
  | n + 1 => iprop(iprop(owns (c : Thread nD τ) scM6_0 fullShare (accS6 V c (n + 1)) ∗ owns (c : Thread nD τ) scM6_1 fullShare (accC6 V c (n + 1)))
      ∗ Pipeline.scopedRestBut spec6 c [cc6_scratch0, cc6_scratch1] ∗ (∃ r, prngReg c r))

theorem Phi6_zero (c : Dev nD) (n : ℕ) (hz : n = 0) :
    Phi6 V c n = iprop(iprop((∃ d, owns (c : Thread nD τ) scM6_0 fullShare d) ∗ (∃ d, owns (c : Thread nD τ) scM6_1 fullShare d))
      ∗ Pipeline.scopedRestBut spec6 c [cc6_scratch0, cc6_scratch1] ∗ (∃ r, prngReg c r)) := by
  subst hz; rfl

theorem Phi6_pos (c : Dev nD) (n : ℕ) (hz : n ≠ 0) :
    Phi6 V c n = iprop(iprop(owns (c : Thread nD τ) scM6_0 fullShare (accS6 V c n) ∗ owns (c : Thread nD τ) scM6_1 fullShare (accC6 V c n))
      ∗ Pipeline.scopedRestBut spec6 c [cc6_scratch0, cc6_scratch1] ∗ (∃ r, prngReg c r)) := by
  cases n with
  | zero => exact absurd rfl hz
  | succ n => rfl

/-- The proof data of the pooling region on core `c`: the arrays as the region finds them; after the body each input's
    buffer at its block, the output's at the head applied to the carried sums (consulted at the last point only); the
    invariant `Phi6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay6 (accS6 V c (t.val + 1)) (accC6 V c (t.val + 1)) (iblk6 V c 2 t) (iblk6 V c 3 t)
  Φ t := Phi6 V c t.val
  q _ := fullShare
  owed _ := 0

theorem A_eq6 (c : Dev nD) (w : Fin cfg6.W) : (dat6 V c).A w = V c (Pipeline.arrRef spec6 w) := by
  dsimp only [dat6]

theorem Phi6_castSucc (c : Dev nD) (t : Fin cfg6.N) : (dat6 V c).Φ t.castSucc = Phi6 V c t.val := by
  dsimp only [dat6]; simp only [Fin.coe_castSucc]
theorem Phi6_succ (c : Dev nD) (t : Fin cfg6.N) : (dat6 V c).Φ t.succ = Phi6 V c (t.val + 1) := by
  dsimp only [dat6]; simp only [Fin.val_succ]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = k6_pay6 (accS6 V c (t.val + 1)) (accC6 V c (t.val + 1)) (iblk6 V c 2 t) (iblk6 V c 3 t) := by dsimp only [dat6]

/-- Each input's current staging buffer holds its block at every point, fetched there or not (an input not fetched at a
    point has the block index it had at the point before, and the body leaves the block in place). -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Where the second conditional fails the output is idle: the body stores nothing into it, -/
theorem idleAt6_4 : ∀ t : Fin cfg6.N, ¬cond6_1 (grid6.coords t) → cfg6.idle 4 (grid6.coords t) = true := by decide +kernel
/-- and the pipeline does not write its block back there. -/
theorem noFlush6_4 : ∀ t : Fin cfg6.N, ¬cond6_1 (grid6.coords t) → (cfg6.win 4).flush t = false := by decide +kernel
/-- Where it holds (the last point) the output is live. -/
theorem liveAt6_4 : ∀ t : Fin cfg6.N, cond6_1 (grid6.coords t) → cfg6.idle 4 (grid6.coords t) = false := by decide +kernel

/-! ## The body obligation -/

/-- Each window's current staging memref at point `t`, spelled as the pipeline passes it, and its wholeness. -/
abbrev ms6_0 (t : Fin cfg6.N) : Memref sig .tc .vmem S10000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S10000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x2 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x2 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x2 .f32 := win6_4.stage (cfg6.slots t 4)
abbrev hs6_4 (t : Fin cfg6.N) : (ms6_4 t).IsWhole := hstage6_4 ((cfg6.slots t 4).cast nbuf6_4)

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point. The inputs' buffers hold their blocks; the point's number says which of the three control
    cases it is in; the invariant hands the body the two scratch buffers (at anything at point 0, else at the carried sums
    after the points before) and takes them back at the sums after this point; the output's buffer is handed back as found
    at points 0..8 and holds the head's result at point 9; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [Phi6_succ, Phi6_castSucc]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [Phi6_pos V c (t.val + 1) (Nat.succ_ne_zero _), accS6_at, accC6_at]
  have hN : t.val < 10 := lt_of_lt_of_eq t.isLt (show cfg6.N = 10 from N_6)
  by_cases h0 : t.val = 0
  · have h1 : ¬t.val = 9 := by omega
    have hc0 : cond6_0 (grid6.coords t) := (hcond6_0 t).mpr h0
    have hc1 : ¬cond6_1 (grid6.coords t) := fun h => h1 ((hcond6_1 t).mp h)
    rw [Dat.leavesExact_idle (dat6 V c) 4 t (idleAt6_4 t hc1) (noFlush6_4 t hc1)]
    rw [if_pos h0, if_pos h0, Phi6_zero V c _ h0]
    iintro ⟨⟨⟨HS0, HS1⟩, Hr, Hg⟩, Ho, ⟨%d0, H0⟩, ⟨%d1, H1⟩, ⟨%d2, H2⟩, ⟨%d3, H3⟩, ⟨%d4, H4⟩⟩
    iapply (run6_A c (grid6.coords t) _ _ _ _ _ _ _ _ _ _ _ _ _ _ hc0 hc1 (iblk6 V c 0 t) (iblk6 V c 1 t) (iblk6 V c 2 t) (iblk6 V c 3 t) _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 9
    · have hc0 : ¬cond6_0 (grid6.coords t) := fun h => h0 ((hcond6_0 t).mp h)
      have hc1 : cond6_1 (grid6.coords t) := (hcond6_1 t).mpr h1
      rw [show (dat6 V c).leavesExact 4 t = owns (c : Thread nD τ) (ms6_4 t) fullShare ((dat6 V c).after 4 t) from by
        unfold Dat.leavesExact; rw [liveAt6_4 t hc1], after6_4, accS6_at, accC6_at]
      rw [if_neg h0, if_neg h0, Phi6_pos V c _ h0]
      iintro ⟨⟨⟨HS0, HS1⟩, Hr, Hg⟩, Ho, ⟨%d0, H0⟩, ⟨%d1, H1⟩, ⟨%d2, H2⟩, ⟨%d3, H3⟩, ⟨%d4, H4⟩⟩
      iapply (run6_C c (grid6.coords t) _ _ _ _ _ _ _ _ _ _ _ _ _ _ hc0 hc1 (iblk6 V c 0 t) (iblk6 V c 1 t) (iblk6 V c 2 t) (iblk6 V c 3 t) (accS6 V c t.val) (accC6 V c t.val) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc0 : ¬cond6_0 (grid6.coords t) := fun h => h0 ((hcond6_0 t).mp h)
      have hc1 : ¬cond6_1 (grid6.coords t) := fun h => h1 ((hcond6_1 t).mp h)
      rw [Dat.leavesExact_idle (dat6 V c) 4 t (idleAt6_4 t hc1) (noFlush6_4 t hc1)]
      rw [if_neg h0, if_neg h0, Phi6_pos V c _ h0]
      iintro ⟨⟨⟨HS0, HS1⟩, Hr, Hg⟩, Ho, ⟨%d0, H0⟩, ⟨%d1, H1⟩, ⟨%d2, H2⟩, ⟨%d3, H3⟩, ⟨%d4, H4⟩⟩
      iapply (run6_B c (grid6.coords t) _ _ _ _ _ _ _ _ _ _ _ _ _ _ hc0 hc1 (iblk6 V c 0 t) (iblk6 V c 1 t) (iblk6 V c 2 t) (iblk6 V c 3 t) _ (accS6 V c t.val) (accC6 V c t.val) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends -/

/-- What the launch hands the region — the generator register and every scoped buffer — is the invariant before the
    first point: the scoped buffers split at the two scratch operands. -/
theorem Phi6_in (c : Dev nD) : iprop((∃ r, prngReg c r) ∗ Pipeline.scopedRest spec6 c) ⊢ ((dat6 (F := F) V c).Φ 0 : sProp 𝕄) := by
  rw [show (dat6 V c).Φ 0 = Phi6 V c 0 from rfl, Phi6_zero V c 0 rfl, scopedRest6_split]
  simp only [scM6_0, scM6_1, owns_whole]
  iintro ⟨Hg, ⟨HS0, HS1⟩, Hr⟩
  isplitl [HS0 HS1]
  · isplitl [HS0]; · iexact HS0
    iexact HS1
  isplitl [Hr]; · iexact Hr
  iexact Hg

/-- After the last point the invariant gives them back: the scratch buffers' named contents are forgotten. -/
theorem Phi6_out (c : Dev nD) : ((dat6 (F := F) V c).Φ (Fin.last cfg6.N) : sProp 𝕄) ⊢ iprop((∃ r, prngReg c r) ∗ Pipeline.scopedRest spec6 c) := by
  rw [show (dat6 V c).Φ (Fin.last cfg6.N) = Phi6 V c (Fin.last cfg6.N).val from rfl,
    Phi6_pos V c _ (by rw [Fin.val_last]; have : cfg6.N = 10 := N_6; omega), scopedRest6_split]
  simp only [scM6_0, scM6_1, owns_whole]
  iintro ⟨⟨HS0, HS1⟩, Hr, Hg⟩
  isplitl [Hg]; · iexact Hg
  isplitl [HS0 HS1]
  · isplitl [HS0]
    · iexists _; iexact HS0
    iexists _; iexact HS1
  iexact Hr

end Cert.Kernel.Run

end
-- ==== Proof.KB.Fold.lean ====
/- The TensorCore's buffer contents between the items of the main program, as a fold from the launch memory: a host
   stretch applies its operations, a kernel region replaces its output array by what its write-backs leave (the
   pipeline's array after all grid points).  Every region's proof data is taken at the contents its region is
   entered with.  Generic in the float interpretation. -/
import proofs.«431502_j9491877724720_3_alg».proof.Proof.Gen.Kernel.Regions
import proofs.«431502_j9491877724720_3_alg».proof.Proof.KB.Reg0
import proofs.«431502_j9491877724720_3_alg».proof.Proof.KB.Reg1
import proofs.«431502_j9491877724720_3_alg».proof.Proof.KB.Reg2
import proofs.«431502_j9491877724720_3_alg».proof.Proof.KB.Reg3
import proofs.«431502_j9491877724720_3_alg».proof.Proof.KB.Reg4
import proofs.«431502_j9491877724720_3_alg».proof.Proof.KB.Reg5
import proofs.«431502_j9491877724720_3_alg».proof.Proof.KB.Reg6

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-! ## The fold -/

/-- After the first host stretch: region 0's entry contents. -/
abbrev U1 (c : Dev nD) : Valuation τ sig (Elt F) := V1 m c
/-- Region 0 leaves its output array at what its ten write-backs make of it. -/
def U2 (c : Dev nD) : Valuation τ sig (Elt F) :=
  Function.update (U1 m c) main_v13 ((dat0 (atRefs (U1 m)) c).arrAt 3 cfg0.N)
abbrev U3 (c : Dev nD) : Valuation τ sig (Elt F) := StableHlo.after hostOps1 (U2 m c)
abbrev U4 (c : Dev nD) : Valuation τ sig (Elt F) := StableHlo.after hostOps1_1 (U3 m c)
def U5 (c : Dev nD) : Valuation τ sig (Elt F) :=
  Function.update (U4 m c) main_v19 ((dat1 (atRefs (U4 m)) c).arrAt 4 cfg1.N)
def U6 (c : Dev nD) : Valuation τ sig (Elt F) :=
  Function.update (U5 m c) main_v20 ((dat2 (atRefs (U5 m)) c).arrAt 3 cfg2.N)
abbrev U7 (c : Dev nD) : Valuation τ sig (Elt F) := StableHlo.after hostOps3 (U6 m c)
abbrev U8 (c : Dev nD) : Valuation τ sig (Elt F) := StableHlo.after hostOps3_1 (U7 m c)
def U9 (c : Dev nD) : Valuation τ sig (Elt F) :=
  Function.update (U8 m c) main_v26 ((dat3 (atRefs (U8 m)) c).arrAt 4 cfg3.N)
def U10 (c : Dev nD) : Valuation τ sig (Elt F) :=
  Function.update (U9 m c) main_v27 ((dat4 (atRefs (U9 m)) c).arrAt 3 cfg4.N)
abbrev U11 (c : Dev nD) : Valuation τ sig (Elt F) := StableHlo.after hostOps5 (U10 m c)
abbrev U12 (c : Dev nD) : Valuation τ sig (Elt F) := StableHlo.after hostOps5_1 (U11 m c)
def U13 (c : Dev nD) : Valuation τ sig (Elt F) :=
  Function.update (U12 m c) main_v33 ((dat5 (atRefs (U12 m)) c).arrAt 4 cfg5.N)
abbrev U14 (c : Dev nD) : Valuation τ sig (Elt F) := StableHlo.after hostOps6 (U13 m c)
def U15 (c : Dev nD) : Valuation τ sig (Elt F) :=
  Function.update (U14 m c) main_v36 ((dat6 (atRefs (U14 m)) c).arrAt 4 cfg6.N)

/-- What the regions leave, as the family the generated boundary valuations are written over: item J's contents read at
    the reference asked for. -/
def outs : Outs (F := F) := fun J r c =>
  match J with
  | 2 => U2 m c r
  | 5 => U5 m c r
  | 6 => U6 m c r
  | 9 => U9 m c r
  | 10 => U10 m c r
  | 13 => U13 m c r
  | 15 => U15 m c r
  | _ => V0 m c r

/-! ## The generated boundary valuations at these contents are the fold -/

theorem V2_eq (c : Dev nD) : V2 m (outs m) c = U2 m c := by
  show Function.update (V1 m c) main_v13 (U2 m c main_v13) = U2 m c
  unfold U2; rw [Function.update_self]
theorem V3_eq (c : Dev nD) : V3 m (outs m) c = U3 m c := by
  show StableHlo.after hostOps1 (V2 m (outs m) c) = _; rw [V2_eq]
theorem V4_eq (c : Dev nD) : V4 m (outs m) c = U4 m c := by
  show StableHlo.after hostOps1_1 (V3 m (outs m) c) = _; rw [V3_eq]
theorem V5_eq (c : Dev nD) : V5 m (outs m) c = U5 m c := by
  show Function.update (V4 m (outs m) c) main_v19 (U5 m c main_v19) = U5 m c
  rw [V4_eq]; unfold U5; rw [Function.update_self]
theorem V6_eq (c : Dev nD) : V6 m (outs m) c = U6 m c := by
  show Function.update (V5 m (outs m) c) main_v20 (U6 m c main_v20) = U6 m c
  rw [V5_eq]; unfold U6; rw [Function.update_self]
theorem V7_eq (c : Dev nD) : V7 m (outs m) c = U7 m c := by
  show StableHlo.after hostOps3 (V6 m (outs m) c) = _; rw [V6_eq]
theorem V8_eq (c : Dev nD) : V8 m (outs m) c = U8 m c := by
  show StableHlo.after hostOps3_1 (V7 m (outs m) c) = _; rw [V7_eq]
theorem V9_eq (c : Dev nD) : V9 m (outs m) c = U9 m c := by
  show Function.update (V8 m (outs m) c) main_v26 (U9 m c main_v26) = U9 m c
  rw [V8_eq]; unfold U9; rw [Function.update_self]
theorem V10_eq (c : Dev nD) : V10 m (outs m) c = U10 m c := by
  show Function.update (V9 m (outs m) c) main_v27 (U10 m c main_v27) = U10 m c
  rw [V9_eq]; unfold U10; rw [Function.update_self]
theorem V11_eq (c : Dev nD) : V11 m (outs m) c = U11 m c := by
  show StableHlo.after hostOps5 (V10 m (outs m) c) = _; rw [V10_eq]
theorem V12_eq (c : Dev nD) : V12 m (outs m) c = U12 m c := by
  show StableHlo.after hostOps5_1 (V11 m (outs m) c) = _; rw [V11_eq]
theorem V13_eq (c : Dev nD) : V13 m (outs m) c = U13 m c := by
  show Function.update (V12 m (outs m) c) main_v33 (U13 m c main_v33) = U13 m c
  rw [V12_eq]; unfold U13; rw [Function.update_self]
theorem V14_eq (c : Dev nD) : V14 m (outs m) c = U14 m c := by
  show StableHlo.after hostOps6 (V13 m (outs m) c) = _; rw [V13_eq]
theorem V15_eq (c : Dev nD) : V15 m (outs m) c = U15 m c := by
  show Function.update (V14 m (outs m) c) main_v36 (U15 m c main_v36) = U15 m c
  rw [V14_eq]; unfold U15; rw [Function.update_self]

/-! ## The proof data of every pipeline, each at its region's entry contents -/

/-- A literal match on the pipeline, so that the configuration at a numeral reduces to the printed one. -/
def pdats : (p : Fin 7) → (c : Dev nD) → Dat τ (Elt F) Unit ℕ (UR sig nD τ) ℕ (cfgs p) c
  | ⟨0, _⟩ => fun c => dat0 (atRefs (U1 m)) c
  | ⟨1, _⟩ => fun c => dat1 (atRefs (U4 m)) c
  | ⟨2, _⟩ => fun c => dat2 (atRefs (U5 m)) c
  | ⟨3, _⟩ => fun c => dat3 (atRefs (U8 m)) c
  | ⟨4, _⟩ => fun c => dat4 (atRefs (U9 m)) c
  | ⟨5, _⟩ => fun c => dat5 (atRefs (U12 m)) c
  | ⟨6, _⟩ => fun c => dat6 (atRefs (U14 m)) c

/-- No core owes another anything: no level is assigned, no variant is named. -/
abbrev 𝒱₀ : Variants := Variants.none
abbrev L : GSem nD τ sig → Finset Unit := fun _ => ∅
abbrev lv : GSem nD τ sig → Unit → ℕ := fun _ _ => 0

/-- What rides beside the buffers through every item: the core's generator register at some state and its owed counts,
    at nothing. -/
abbrev R (c : Dev nD) : sProp (MT nD τ sig Unit (Elt F) ℕ (UR sig nD τ) ℕ) :=
  iprop((∃ r, prngReg c r) ∗ ∃ W, owes (c : Thread nD τ) (0 : CellTallies nD τ sig Unit) W)

end Cert.Kernel.Run
-- ==== Proof.KB.SegReg0.lean ====
/- Region 0 of the main program as a segment between two boundaries of the fold: what enters its pipeline, what
   bypasses it, and what its exit puts back.  Generic in the float interpretation. -/
import proofs.«431502_j9491877724720_3_alg».proof.Proof.KB.Fold
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an input array is never written and the fold
    keeps it, the output array is the fold's new entry. -/
theorem hF0 (c : Dev nD) (w : Fin cfg0.W) : (pdats m 0 c).arrAt w cfg0.N = atRefs (U2 m) c (Pipeline.arrRef spec0 w) := by
  match w with
  | ⟨0, _⟩ =>
    refine (((pdats m 0 c).arrAt_in 0 rfl _).trans (A_eq0 (atRefs (U1 m)) c 0)).trans ?_
    unfold U2; exact (Function.update_of_ne (StableHlo.devRef_ne_of_ne (by decide)) _ _).symm
  | ⟨1, _⟩ =>
    refine (((pdats m 0 c).arrAt_in 1 rfl _).trans (A_eq0 (atRefs (U1 m)) c 1)).trans ?_
    unfold U2; exact (Function.update_of_ne (StableHlo.devRef_ne_of_ne (by decide)) _ _).symm
  | ⟨2, _⟩ =>
    refine (((pdats m 0 c).arrAt_in 2 rfl _).trans (A_eq0 (atRefs (U1 m)) c 2)).trans ?_
    unfold U2; exact (Function.update_of_ne (StableHlo.devRef_ne_of_ne (by decide)) _ _).symm
  | ⟨3, _⟩ =>
    show _ = Function.update (U1 m c) (Proc.devRef .tc main_v13) _ (Proc.devRef .tc main_v13)
    rw [Function.update_self]; rfl

/-- and every other buffer what it held at entry. -/
theorem hrest0 (c : Dev nD) : ∀ b, b ∉ Finset.univ.image (Pipeline.arrRef spec0) → atRefs (U2 m) c b = atRefs (U1 m) c b := by
  intro b hb
  have hne : b ≠ main_v13 := fun e => hb (Finset.mem_image.mpr ⟨3, Finset.mem_univ _, e.symm⟩)
  unfold U2; exact Function.update_of_ne (StableHlo.devRef_ne_of_ne hne) _ _

-- a library lemma stated over the pinned configuration unifies with the printed one only when unification may unfold
-- plain definitions in a metavariable's type
set_option backward.isDefEq.respectTransparency.types false in
/-- REGION 0 over the thread state: entered from every unscoped buffer at the fold's contents before it, left at
    the contents after it. Its arrays are split out of the unscoped buffers and put back at the exit contents; the
    generator register goes into the class's invariant and comes out; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atRefs (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (U1 m) c) (atRefs (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run
-- ==== Proof.KB.SegReg1.lean ====
/- Region 1 of the main program as a segment between two boundaries of the fold: what enters its pipeline, what
   bypasses it, and what its exit puts back.  Generic in the float interpretation. -/
import proofs.«431502_j9491877724720_3_alg».proof.Proof.KB.Fold
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At region 1's exit each of its arrays holds what the pipeline leaves: an input array is never written and the fold
    keeps it, the output array is the fold's new entry. -/
theorem hF1 (c : Dev nD) (w : Fin cfg1.W) : (pdats m 1 c).arrAt w cfg1.N = atRefs (U5 m) c (Pipeline.arrRef spec1 w) := by
  match w with
  | ⟨0, _⟩ =>
    refine (((pdats m 1 c).arrAt_in 0 rfl _).trans (A_eq1 (atRefs (U4 m)) c 0)).trans ?_
    unfold U5; exact (Function.update_of_ne (StableHlo.devRef_ne_of_ne (by decide)) _ _).symm
  | ⟨1, _⟩ =>
    refine (((pdats m 1 c).arrAt_in 1 rfl _).trans (A_eq1 (atRefs (U4 m)) c 1)).trans ?_
    unfold U5; exact (Function.update_of_ne (StableHlo.devRef_ne_of_ne (by decide)) _ _).symm
  | ⟨2, _⟩ =>
    refine (((pdats m 1 c).arrAt_in 2 rfl _).trans (A_eq1 (atRefs (U4 m)) c 2)).trans ?_
    unfold U5; exact (Function.update_of_ne (StableHlo.devRef_ne_of_ne (by decide)) _ _).symm
  | ⟨3, _⟩ =>
    refine (((pdats m 1 c).arrAt_in 3 rfl _).trans (A_eq1 (atRefs (U4 m)) c 3)).trans ?_
    unfold U5; exact (Function.update_of_ne (StableHlo.devRef_ne_of_ne (by decide)) _ _).symm
  | ⟨4, _⟩ =>
    show _ = Function.update (U4 m c) (Proc.devRef .tc main_v19) _ (Proc.devRef .tc main_v19)
    rw [Function.update_self]; rfl

/-- and every other buffer what it held at entry. -/
theorem hrest1 (c : Dev nD) : ∀ b, b ∉ Finset.univ.image (Pipeline.arrRef spec1) → atRefs (U5 m) c b = atRefs (U4 m) c b := by
  intro b hb
  have hne : b ≠ main_v19 := fun e => hb (Finset.mem_image.mpr ⟨4, Finset.mem_univ _, e.symm⟩)
  unfold U5; exact Function.update_of_ne (StableHlo.devRef_ne_of_ne hne) _ _

-- a library lemma stated over the pinned configuration unifies with the printed one only when unification may unfold
-- plain definitions in a metavariable's type
set_option backward.isDefEq.respectTransparency.types false in
/-- REGION 1 over the thread state: entered from every unscoped buffer at the fold's contents before it, left at
    the contents after it. Its arrays are split out of the unscoped buffers and put back at the exit contents; the
    generator register goes into the class's invariant and comes out; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (U4 m)) c).loose
  hwaits := Pipeline.hwaits_of_owed_zero _ _ _ _ L lv 1 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec1 c (atRefs (U4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (U4 m) c) (atRefs (U5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run
-- ==== Proof.KB.SegReg2.lean ====
/- Region 2 of the main program as a segment between two boundaries of the fold: what enters its pipeline, what
   bypasses it, and what its exit puts back.  Generic in the float interpretation. -/
import proofs.«431502_j9491877724720_3_alg».proof.Proof.KB.Fold
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an input array is never written and the fold
    keeps it, the output array is the fold's new entry. -/
theorem hF2 (c : Dev nD) (w : Fin cfg2.W) : (pdats m 2 c).arrAt w cfg2.N = atRefs (U6 m) c (Pipeline.arrRef spec2 w) := by
  match w with
  | ⟨0, _⟩ =>
    refine (((pdats m 2 c).arrAt_in 0 rfl _).trans (A_eq2 (atRefs (U5 m)) c 0)).trans ?_
    unfold U6; exact (Function.update_of_ne (StableHlo.devRef_ne_of_ne (by decide)) _ _).symm
  | ⟨1, _⟩ =>
    refine (((pdats m 2 c).arrAt_in 1 rfl _).trans (A_eq2 (atRefs (U5 m)) c 1)).trans ?_
    unfold U6; exact (Function.update_of_ne (StableHlo.devRef_ne_of_ne (by decide)) _ _).symm
  | ⟨2, _⟩ =>
    refine (((pdats m 2 c).arrAt_in 2 rfl _).trans (A_eq2 (atRefs (U5 m)) c 2)).trans ?_
    unfold U6; exact (Function.update_of_ne (StableHlo.devRef_ne_of_ne (by decide)) _ _).symm
  | ⟨3, _⟩ =>
    show _ = Function.update (U5 m c) (Proc.devRef .tc main_v20) _ (Proc.devRef .tc main_v20)
    rw [Function.update_self]; rfl

/-- and every other buffer what it held at entry. -/
theorem hrest2 (c : Dev nD) : ∀ b, b ∉ Finset.univ.image (Pipeline.arrRef spec2) → atRefs (U6 m) c b = atRefs (U5 m) c b := by
  intro b hb
  have hne : b ≠ main_v20 := fun e => hb (Finset.mem_image.mpr ⟨3, Finset.mem_univ _, e.symm⟩)
  unfold U6; exact Function.update_of_ne (StableHlo.devRef_ne_of_ne hne) _ _

-- a library lemma stated over the pinned configuration unifies with the printed one only when unification may unfold
-- plain definitions in a metavariable's type
set_option backward.isDefEq.respectTransparency.types false in
/-- REGION 2 over the thread state: entered from every unscoped buffer at the fold's contents before it, left at
    the contents after it. Its arrays are split out of the unscoped buffers and put back at the exit contents; the
    generator register goes into the class's invariant and comes out; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (atRefs (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (U5 m) c) (atRefs (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run
-- ==== Proof.KB.SegReg3.lean ====
/- Region 3 of the main program as a segment between two boundaries of the fold: what enters its pipeline, what
   bypasses it, and what its exit puts back.  Generic in the float interpretation. -/
import proofs.«431502_j9491877724720_3_alg».proof.Proof.KB.Fold
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At region 3's exit each of its arrays holds what the pipeline leaves: an input array is never written and the fold
    keeps it, the output array is the fold's new entry. -/
theorem hF3 (c : Dev nD) (w : Fin cfg3.W) : (pdats m 3 c).arrAt w cfg3.N = atRefs (U9 m) c (Pipeline.arrRef spec3 w) := by
  match w with
  | ⟨0, _⟩ =>
    refine (((pdats m 3 c).arrAt_in 0 rfl _).trans (A_eq3 (atRefs (U8 m)) c 0)).trans ?_
    unfold U9; exact (Function.update_of_ne (StableHlo.devRef_ne_of_ne (by decide)) _ _).symm
  | ⟨1, _⟩ =>
    refine (((pdats m 3 c).arrAt_in 1 rfl _).trans (A_eq3 (atRefs (U8 m)) c 1)).trans ?_
    unfold U9; exact (Function.update_of_ne (StableHlo.devRef_ne_of_ne (by decide)) _ _).symm
  | ⟨2, _⟩ =>
    refine (((pdats m 3 c).arrAt_in 2 rfl _).trans (A_eq3 (atRefs (U8 m)) c 2)).trans ?_
    unfold U9; exact (Function.update_of_ne (StableHlo.devRef_ne_of_ne (by decide)) _ _).symm
  | ⟨3, _⟩ =>
    refine (((pdats m 3 c).arrAt_in 3 rfl _).trans (A_eq3 (atRefs (U8 m)) c 3)).trans ?_
    unfold U9; exact (Function.update_of_ne (StableHlo.devRef_ne_of_ne (by decide)) _ _).symm
  | ⟨4, _⟩ =>
    show _ = Function.update (U8 m c) (Proc.devRef .tc main_v26) _ (Proc.devRef .tc main_v26)
    rw [Function.update_self]; rfl

/-- and every other buffer what it held at entry. -/
theorem hrest3 (c : Dev nD) : ∀ b, b ∉ Finset.univ.image (Pipeline.arrRef spec3) → atRefs (U9 m) c b = atRefs (U8 m) c b := by
  intro b hb
  have hne : b ≠ main_v26 := fun e => hb (Finset.mem_image.mpr ⟨4, Finset.mem_univ _, e.symm⟩)
  unfold U9; exact Function.update_of_ne (StableHlo.devRef_ne_of_ne hne) _ _

-- a library lemma stated over the pinned configuration unifies with the printed one only when unification may unfold
-- plain definitions in a metavariable's type
set_option backward.isDefEq.respectTransparency.types false in
/-- REGION 3 over the thread state: entered from every unscoped buffer at the fold's contents before it, left at
    the contents after it. Its arrays are split out of the unscoped buffers and put back at the exit contents; the
    generator register goes into the class's invariant and comes out; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (U8 m)) c).loose
  hwaits := Pipeline.hwaits_of_owed_zero _ _ _ _ L lv 3 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec3 c (atRefs (U8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (U8 m) c) (atRefs (U9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run
-- ==== Proof.KB.SegReg4.lean ====
/- Region 4 of the main program as a segment between two boundaries of the fold: what enters its pipeline, what
   bypasses it, and what its exit puts back.  Generic in the float interpretation. -/
import proofs.«431502_j9491877724720_3_alg».proof.Proof.KB.Fold
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an input array is never written and the fold
    keeps it, the output array is the fold's new entry. -/
theorem hF4 (c : Dev nD) (w : Fin cfg4.W) : (pdats m 4 c).arrAt w cfg4.N = atRefs (U10 m) c (Pipeline.arrRef spec4 w) := by
  match w with
  | ⟨0, _⟩ =>
    refine (((pdats m 4 c).arrAt_in 0 rfl _).trans (A_eq4 (atRefs (U9 m)) c 0)).trans ?_
    unfold U10; exact (Function.update_of_ne (StableHlo.devRef_ne_of_ne (by decide)) _ _).symm
  | ⟨1, _⟩ =>
    refine (((pdats m 4 c).arrAt_in 1 rfl _).trans (A_eq4 (atRefs (U9 m)) c 1)).trans ?_
    unfold U10; exact (Function.update_of_ne (StableHlo.devRef_ne_of_ne (by decide)) _ _).symm
  | ⟨2, _⟩ =>
    refine (((pdats m 4 c).arrAt_in 2 rfl _).trans (A_eq4 (atRefs (U9 m)) c 2)).trans ?_
    unfold U10; exact (Function.update_of_ne (StableHlo.devRef_ne_of_ne (by decide)) _ _).symm
  | ⟨3, _⟩ =>
    show _ = Function.update (U9 m c) (Proc.devRef .tc main_v27) _ (Proc.devRef .tc main_v27)
    rw [Function.update_self]; rfl

/-- and every other buffer what it held at entry. -/
theorem hrest4 (c : Dev nD) : ∀ b, b ∉ Finset.univ.image (Pipeline.arrRef spec4) → atRefs (U10 m) c b = atRefs (U9 m) c b := by
  intro b hb
  have hne : b ≠ main_v27 := fun e => hb (Finset.mem_image.mpr ⟨3, Finset.mem_univ _, e.symm⟩)
  unfold U10; exact Function.update_of_ne (StableHlo.devRef_ne_of_ne hne) _ _

-- a library lemma stated over the pinned configuration unifies with the printed one only when unification may unfold
-- plain definitions in a metavariable's type
set_option backward.isDefEq.respectTransparency.types false in
/-- REGION 4 over the thread state: entered from every unscoped buffer at the fold's contents before it, left at
    the contents after it. Its arrays are split out of the unscoped buffers and put back at the exit contents; the
    generator register goes into the class's invariant and comes out; nothing is owed; the kernel has no semaphore of
    its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (U9 m)) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (atRefs (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (U9 m) c) (atRefs (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run
-- ==== Proof.KB.SegReg5.lean ====
/- Region 5 of the main program as a segment between two boundaries of the fold: what enters its pipeline, what
   bypasses it, and what its exit puts back.  Generic in the float interpretation. -/
import proofs.«431502_j9491877724720_3_alg».proof.Proof.KB.Fold
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At region 5's exit each of its arrays holds what the pipeline leaves: an input array is never written and the fold
    keeps it, the output array is the fold's new entry. -/
theorem hF5 (c : Dev nD) (w : Fin cfg5.W) : (pdats m 5 c).arrAt w cfg5.N = atRefs (U13 m) c (Pipeline.arrRef spec5 w) := by
  match w with
  | ⟨0, _⟩ =>
    refine (((pdats m 5 c).arrAt_in 0 rfl _).trans (A_eq5 (atRefs (U12 m)) c 0)).trans ?_
    unfold U13; exact (Function.update_of_ne (StableHlo.devRef_ne_of_ne (by decide)) _ _).symm
  | ⟨1, _⟩ =>
    refine (((pdats m 5 c).arrAt_in 1 rfl _).trans (A_eq5 (atRefs (U12 m)) c 1)).trans ?_
    unfold U13; exact (Function.update_of_ne (StableHlo.devRef_ne_of_ne (by decide)) _ _).symm
  | ⟨2, _⟩ =>
    refine (((pdats m 5 c).arrAt_in 2 rfl _).trans (A_eq5 (atRefs (U12 m)) c 2)).trans ?_
    unfold U13; exact (Function.update_of_ne (StableHlo.devRef_ne_of_ne (by decide)) _ _).symm
  | ⟨3, _⟩ =>
    refine (((pdats m 5 c).arrAt_in 3 rfl _).trans (A_eq5 (atRefs (U12 m)) c 3)).trans ?_
    unfold U13; exact (Function.update_of_ne (StableHlo.devRef_ne_of_ne (by decide)) _ _).symm
  | ⟨4, _⟩ =>
    show _ = Function.update (U12 m c) (Proc.devRef .tc main_v33) _ (Proc.devRef .tc main_v33)
    rw [Function.update_self]; rfl

/-- and every other buffer what it held at entry. -/
theorem hrest5 (c : Dev nD) : ∀ b, b ∉ Finset.univ.image (Pipeline.arrRef spec5) → atRefs (U13 m) c b = atRefs (U12 m) c b := by
  intro b hb
  have hne : b ≠ main_v33 := fun e => hb (Finset.mem_image.mpr ⟨4, Finset.mem_univ _, e.symm⟩)
  unfold U13; exact Function.update_of_ne (StableHlo.devRef_ne_of_ne hne) _ _

-- a library lemma stated over the pinned configuration unifies with the printed one only when unification may unfold
-- plain definitions in a metavariable's type
set_option backward.isDefEq.respectTransparency.types false in
/-- REGION 5 over the thread state: entered from every unscoped buffer at the fold's contents before it, left at
    the contents after it. Its arrays are split out of the unscoped buffers and put back at the exit contents; the
    generator register goes into the class's invariant and comes out; nothing is owed; the kernel has no semaphore of
    its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (U12 m)) c).loose
  hwaits := Pipeline.hwaits_of_owed_zero _ _ _ _ L lv 5 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec5 c (atRefs (U12 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (U12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (U12 m) c) (atRefs (U13 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run
-- ==== Proof.KB.SegReg6.lean ====
/- Region 6 of the main program as a segment between two boundaries of the fold: what enters its pipeline, what
   bypasses it, and what its exit puts back.  Generic in the float interpretation. -/
import proofs.«431502_j9491877724720_3_alg».proof.Proof.KB.Fold
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At region 6's exit each of its arrays holds what the pipeline leaves: an input array is never written and the fold
    keeps it, the output array is the fold's new entry. -/
theorem hF6 (c : Dev nD) (w : Fin cfg6.W) : (pdats m 6 c).arrAt w cfg6.N = atRefs (U15 m) c (Pipeline.arrRef spec6 w) := by
  match w with
  | ⟨0, _⟩ =>
    refine (((pdats m 6 c).arrAt_in 0 rfl _).trans (A_eq6 (atRefs (U14 m)) c 0)).trans ?_
    unfold U15; exact (Function.update_of_ne (StableHlo.devRef_ne_of_ne (by decide)) _ _).symm
  | ⟨1, _⟩ =>
    refine (((pdats m 6 c).arrAt_in 1 rfl _).trans (A_eq6 (atRefs (U14 m)) c 1)).trans ?_
    unfold U15; exact (Function.update_of_ne (StableHlo.devRef_ne_of_ne (by decide)) _ _).symm
  | ⟨2, _⟩ =>
    refine (((pdats m 6 c).arrAt_in 2 rfl _).trans (A_eq6 (atRefs (U14 m)) c 2)).trans ?_
    unfold U15; exact (Function.update_of_ne (StableHlo.devRef_ne_of_ne (by decide)) _ _).symm
  | ⟨3, _⟩ =>
    refine (((pdats m 6 c).arrAt_in 3 rfl _).trans (A_eq6 (atRefs (U14 m)) c 3)).trans ?_
    unfold U15; exact (Function.update_of_ne (StableHlo.devRef_ne_of_ne (by decide)) _ _).symm
  | ⟨4, _⟩ =>
    show _ = Function.update (U14 m c) (Proc.devRef .tc main_v36) _ (Proc.devRef .tc main_v36)
    rw [Function.update_self]; rfl

/-- and every other buffer what it held at entry. -/
theorem hrest6 (c : Dev nD) : ∀ b, b ∉ Finset.univ.image (Pipeline.arrRef spec6) → atRefs (U15 m) c b = atRefs (U14 m) c b := by
  intro b hb
  have hne : b ≠ main_v36 := fun e => hb (Finset.mem_image.mpr ⟨4, Finset.mem_univ _, e.symm⟩)
  unfold U15; exact Function.update_of_ne (StableHlo.devRef_ne_of_ne hne) _ _

-- a library lemma stated over the pinned configuration unifies with the printed one only when unification may unfold
-- plain definitions in a metavariable's type
set_option backward.isDefEq.respectTransparency.types false in
/-- REGION 6 over the thread state: entered from every unscoped buffer at the fold's contents before it, left at
    the contents after it. Its arrays are split out of the unscoped buffers and put back at the exit contents; the
    generator register and the scoped rest go into the pool's invariant (which also keeps the two running sums) and come out; nothing is owed; the kernel has no semaphore of
    its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atRefs (U14 m)) c).loose
  hwaits := Pipeline.hwaits_of_owed_zero _ _ _ _ L lv 6 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ R c)
  X c := iprop(∃ r, prngReg c r)
  Y c := iprop(∃ r, prngReg c r)
  Z c := Pipeline.unscopedRest (Ix := Unit) (Name := ℕ) (U := UR sig nD τ) (Lvl := ℕ) spec6 c (atRefs (U14 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atRefs (U14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (atRefs (U14 m)) c).Φ 0 from rfl]
    iintro ⟨Hp, -, Hr⟩
    iapply (Phi6_in (atRefs (U14 m)) c)
    isplitl [Hp]; · iexact Hp
    iexact Hr
  hout c := by
    rw [Pipeline.ownSems0_none, show (pdats m 6 c).Φ (Fin.last _) = (dat6 (atRefs (U14 m)) c).Φ (Fin.last cfg6.N) from rfl]
    refine (Phi6_out (atRefs (U14 m)) c).trans ?_
    iintro ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atRefs (U14 m) c) (atRefs (U15 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run
-- ==== Proof.KB.FrameVal.lean ====
/- The run of the main program: the launch over its fifteen items (eight host stretches, seven kernel regions), each
   region entered from the fold's contents before it and left at the contents after it.  Every weakly fair execution
   terminates and every unscoped buffer ends at the fold's last contents: the arguments as launched, the result at
   what the last region's write-back leaves.  Generic in the float interpretation. -/
import proofs.«431502_j9491877724720_3_alg».proof.Proof.KB.SegReg0
import proofs.«431502_j9491877724720_3_alg».proof.Proof.KB.SegReg1
import proofs.«431502_j9491877724720_3_alg».proof.Proof.KB.SegReg2
import proofs.«431502_j9491877724720_3_alg».proof.Proof.KB.SegReg3
import proofs.«431502_j9491877724720_3_alg».proof.Proof.KB.SegReg4
import proofs.«431502_j9491877724720_3_alg».proof.Proof.KB.SegReg5
import proofs.«431502_j9491877724720_3_alg».proof.Proof.KB.SegReg6

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal contents, the same thread state. -/
theorem held_congr {W W' : Valuation τ sig (Elt F)} (h : W = W') (c : Dev nD) (P : sProp 𝕄) :
    iprop(StableHlo.held (c : Thread nD τ) (Pipeline.ucRefs τ sig) W ∗ P)
      ⊢ iprop(StableHlo.held (c : Thread nD τ) (Pipeline.ucRefs τ sig) W' ∗ P) := by
  subst h; exact .rfl

/-- The last region's exit state is the last thread state beside the core owing nothing. -/
theorem last_state (c : Dev nD) :
    iprop(StableHlo.held (c : Thread nD τ) (Pipeline.ucRefs τ sig) (U15 m c) ∗ R (F := F) c)
      ⊢ iprop((StableHlo.held (c : Thread nD τ) (Pipeline.ucRefs τ sig) (U15 m c) ∗ ∃ r, prngReg c r)
          ∗ ∃ W, owes (c : Thread nD τ) (0 : CellTallies nD τ sig Unit) W) := by
  iintro ⟨Hh, Hp, Ho⟩
  isplitl [Hh Hp]
  · isplitl [Hh]; · iexact Hh
    iexact Hp
  iexact Ho

/-- The same rest rides along at every boundary. -/
abbrev Erest : Fin 8 → Dev nD → sProp 𝕄 := fun _ c => R c

-- the launch theorem's implicit arguments are found by unifying its conclusion with this one, which takes unfolding
-- plain definitions in a metavariable's type
set_option backward.isDefEq.respectTransparency.types false in
/-- From any memory with zero counters every weakly fair execution of the main program terminates, nothing faulting,
    and every unscoped buffer of every core ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U15 m c b) := by
  refine Pipeline.θ_run_regions_kit_dev (pcfgs (F := F)) adm (pdats m) () cellOf_inj emb₁ defs₀ 𝒱₀ L lv m ρ main
    (segs m (outs m) 𝒱₀ L lv (Erest (F := F)) () (pdats m) (reg0 m) (reg1 m) (reg2 m) (reg3 m) (reg4 m) (reg5 m) (reg6 m))
    (fun c Q => by
      rewrite [main_chain c, Seg.run_eq_chain,
        show (segs m (outs m) 𝒱₀ L lv (Erest (F := F)) () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          StableHlo.seq hostOps3_1,
          Prog.lift (.customCall (Pipeline.entry 3) ()),
          Prog.lift (.customCall (Pipeline.entry 4) ()),
          StableHlo.seq hostOps5,
          StableHlo.seq hostOps5_1,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (U15 m c) ∗ ∃ r, prngReg c r))
    (hch := fun c => ⟨.rfl, .rfl, held_congr (V2_eq m c).symm c _, .rfl,
      held_congr (congrArg (StableHlo.after hostOps1_1) (V3_eq m c)) c _,
      .rfl, held_congr (V6_eq m c).symm c _, .rfl,
      held_congr (congrArg (StableHlo.after hostOps3_1) (V7_eq m c)) c _,
      .rfl, held_congr (V10_eq m c).symm c _, .rfl,
      held_congr (congrArg (StableHlo.after hostOps5_1) (V11_eq m c)) c _,
      held_congr (V13_eq m c).symm c _,
      held_congr (congrArg (StableHlo.after hostOps6) (V13_eq m c)) c _,
      last_state m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U15 m c b)
    (hfin := fun c s' => by
      iintro ⟨⟨Hh, -⟩, HSI⟩
      unfold StableHlo.held
      imodintro
      iapply (pointsTo_read_all (Pipeline.ucRefs τ sig) (fun b => (((c : Thread nD τ)).1, b)) (U15 m c) s')
      isplitl [Hh] <;> iassumption)
    (hQ := fun s h c => h c)

end Cert.Kernel.Run
-- ==== Proof.KB.Ends.lean ====
/- What the run leaves, read off the fold's last contents: every argument array as launched, and the result array at
   what the last region's one write-back leaves.  Generic in the float interpretation. -/
import proofs.«431502_j9491877724720_3_alg».proof.Proof.KB.FrameVal

set_option maxRecDepth 16384

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The result array at the end: the fold's new entry at the last region. -/
theorem U15_result (c : Dev nD) : U15 m c main_v36 = (dat6 (atRefs (U14 m)) c).arrAt 4 cfg6.N := by
  unfold U15; exact Function.update_self _ _ _

/-- The run with the result named and every argument as launched. -/
theorem run_val : θ_run defs (onTc (τ := τ) (main (F := F))) ⟨m, fun _ => 0, ρ⟩ (fun r => ∀ c : Dev nD,
      r.2.mem ((c.tc : Thread nD τ).loc main_v36) = (dat6 (atRefs (U14 m)) c).arrAt 4 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v36 (by decide))).trans (U15_result m c),
     (h c _ (mem_uc main_arg0 (by decide))).trans ((congrFun (V15_eq m c) _).symm.trans (V15_main_arg0 m (outs m) c)),
     (h c _ (mem_uc main_arg1 (by decide))).trans ((congrFun (V15_eq m c) _).symm.trans (V15_main_arg1 m (outs m) c)),
     (h c _ (mem_uc main_arg2 (by decide))).trans ((congrFun (V15_eq m c) _).symm.trans (V15_main_arg2 m (outs m) c)),
     (h c _ (mem_uc main_arg3 (by decide))).trans ((congrFun (V15_eq m c) _).symm.trans (V15_main_arg3 m (outs m) c)),
     (h c _ (mem_uc main_arg4 (by decide))).trans ((congrFun (V15_eq m c) _).symm.trans (V15_main_arg4 m (outs m) c)),
     (h c _ (mem_uc main_arg5 (by decide))).trans ((congrFun (V15_eq m c) _).symm.trans (V15_main_arg5 m (outs m) c)),
     (h c _ (mem_uc main_arg6 (by decide))).trans ((congrFun (V15_eq m c) _).symm.trans (V15_main_arg6 m (outs m) c)),
     (h c _ (mem_uc main_arg7 (by decide))).trans ((congrFun (V15_eq m c) _).symm.trans (V15_main_arg7 m (outs m) c)),
     (h c _ (mem_uc main_arg8 (by decide))).trans ((congrFun (V15_eq m c) _).symm.trans (V15_main_arg8 m (outs m) c)),
     (h c _ (mem_uc main_arg9 (by decide))).trans ((congrFun (V15_eq m c) _).symm.trans (V15_main_arg9 m (outs m) c)),
     (h c _ (mem_uc main_arg10 (by decide))).trans ((congrFun (V15_eq m c) _).symm.trans (V15_main_arg10 m (outs m) c))⟩)
    (run_all m ρ)

/-- The frame: the same run with the result dropped. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_val m ρ)

end Cert.Kernel.Run
-- ==== Proof.KI.Reg0.lean ====
/- Region 0 of the printed program (custom_call 0, the kernel function cc0__matmul_scale_kernel), at a PARAMETER V:
   the TensorCore's buffer contents when the region is entered. Each window's block at a grid point, what the
   body leaves in the output window's buffer (its one whole-block store of the payload), the body's triple on whole
   staging memrefs, the pipeline's proof data and the body obligation at every point. Generic in the float
   interpretation. -/
import proofs.«431502_j9491877724720_3_alg».proof.Proof.Gen.KernelIdeal.Launch
import proofs.«431502_j9491877724720_3_alg».proof.Proof.Gen.KernelIdeal.Skeleton
import proofs.«431502_j9491877724720_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is V's
    and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one fixed block): fetched at the first point only; at a later point the block
    index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2, as window 0. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0

/-! ## What the body leaves in the output window's buffer -/

/-- Window 3's staging buffer after the body, from the input windows' blocks: its one store as a piece, the
    payload taken at the three loaded blocks. -/
def out0_3 (xa : Vec F S10000x64 .f32) (xb : Vec F S64x64 .f32) (xc : Vec F S10000x64 .f32) : Vec F S10000x64 .f32 :=
  View.canon [⟨r0_0, k0_pay1 (View.ld xa r0_0) (View.ld xb r0_1) (View.ld xc r0_0)⟩]

/-- The store tiles the buffer, so it covers it. -/
theorem cover0_3 (pay : Vec F S10000x64 .f32) (y : S10000x64.Idx) :
    ∃ pc ∈ ([⟨r0_0, pay⟩] : List (View.Piece (Elt F) S10000x64 .f32)), y ∈ pc.1.set :=
  View.cover_of_tiled [⟨r0_0, pay⟩] S10000x64.size (by rfl) y

/-! ## The body's triple -/

set_option maxHeartbeats 1000000 in
/-- The kernel body on whole staging memrefs, the inputs' at read contents and the output's at anything, runs to
    the continuation holding the inputs' as they were and the output's at out0_3 of the inputs'. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole) (arg4 : Memref sig .tc .vmem S10000x64 .f32) (harg4 : arg4.IsWhole)
    (xa : Vec F S10000x64 .f32) (xb : Vec F S64x64 .f32) (xc : Vec F S10000x64 .f32) (K : PUnit → sProp 𝕄) :
    iprop(owns (c : Thread nD τ) arg1 fullShare xa ∗ owns (c : Thread nD τ) arg2 fullShare xb ∗ owns (c : Thread nD τ) arg3 fullShare xc ∗ (∃ d, owns (c : Thread nD τ) arg4 fullShare d)
        ∗ (iprop(owns (c : Thread nD τ) arg1 fullShare xa ∗ owns (c : Thread nD τ) arg2 fullShare xb ∗ owns (c : Thread nD τ) arg3 fullShare xc ∗ owns (c : Thread nD τ) arg4 fullShare (out0_3 xa xb xc)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover0_3 _)

/-! ## The pipeline's proof data -/

/-- The proof data of pipeline 0 on core c: the arrays as the region finds them; after the body at point t each
    input's buffer at its block and the output's at out0_3 of the input blocks; the class's invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed counts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%da, Ha⟩, ⟨%db, Hb⟩, ⟨%dc, Hc⟩, ⟨%dd, Hd⟩⟩
  iapply (sound_kernel0 c Set.univ _ _ _ _ _ _ _ _ _ (iblk0 V c 0 t) (iblk0 V c 1 t) (iblk0 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Run
-- ==== Proof.KI.Reg1.lean ====
/- Region 1 of the printed program (custom_call 1, the kernel function cc1__combine_kernel), at a PARAMETER V — the
   TensorCore's buffer contents when the region is entered —: each window's block at a point, what the body finds in each
   input window's staging buffer and what it leaves in the output window's, the body's triple, the pipeline's proof data
   and the body obligation. The body reads four input blocks whole (the three row blocks of 10000 rows and the one row
   of 64 entries, which every point reads), reads the output's buffer without using the value, and stores one payload over
   the whole output block. -/
import proofs.«431502_j9491877724720_3_alg».proof.Proof.Gen.KernelIdeal.Launch
import proofs.«431502_j9491877724720_3_alg».proof.Proof.Gen.KernelIdeal.Skeleton
import proofs.«431502_j9491877724720_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural recursion goes once per coordinate of the long axis
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is V's and whose body leaves the block in place: where it was not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of input window 3, the one row every point reads: it is fetched at the first point only, its block index
    never moves, and the buffer holds that one block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of 10000 rows, and the whole row. -/
abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0

/-! ## What the body leaves in the output window's buffer -/

/-- Window 4's staging buffer after the body, from the input windows' blocks (xA … xD are windows 0 … 3's): its one store, of the
    payload of the blocks read whole — the body reads window 2's first, then windows 0, 1 and 3's. -/
def out1_4 (xA : Vec F S10000x64 .f32) (xB : Vec F S10000x64 .f32) (xC : Vec F S10000x64 .f32) (xD : Vec F S1x64 .f32) : Vec F S10000x64 .f32 :=
  View.canon [⟨r1_0, k1_pay1 (View.ld xC r1_0) (View.ld xA r1_0) (View.ld xB r1_0) (View.ld xD r1_1)⟩]

/-- The one store is of the whole block, so it covers the buffer. -/
theorem cover1_4 (p : Vec F S10000x64 .f32) (y : S10000x64.Idx) :
    ∃ pc ∈ ([⟨r1_0, p⟩] : List (View.Piece (Elt F) S10000x64 .f32)), y ∈ pc.1.set :=
  View.cover_of_tiled [⟨r1_0, p⟩] S10000x64.size (by rfl) y

/-! ## The body's triple -/

set_option maxHeartbeats 1000000 in
/-- The kernel body on whole staging memrefs, the inputs' at read contents xA … xD and the output's at anything, runs to the
    continuation holding the inputs' as they were and the output's at out1_4 of the inputs': the printed function is its
    skeleton of memory operations, which are run one by one. -/
theorem sound_kernel1 (c : Dev nD) (E : Set ℕ) (i : grid1.Coords) (mA : Memref sig .tc .vmem S10000x64 .f32) (hmA : mA.IsWhole) (mB : Memref sig .tc .vmem S10000x64 .f32) (hmB : mB.IsWhole) (mC : Memref sig .tc .vmem S10000x64 .f32) (hmC : mC.IsWhole) (mD : Memref sig .tc .vmem S1x64 .f32) (hmD : mD.IsWhole) (mE : Memref sig .tc .vmem S10000x64 .f32) (hmE : mE.IsWhole)
    (xA : Vec F S10000x64 .f32) (xB : Vec F S10000x64 .f32) (xC : Vec F S10000x64 .f32) (xD : Vec F S1x64 .f32) (K : PUnit → sProp 𝕄) :
    iprop(owns (c : Thread nD τ) mA fullShare xA ∗ owns (c : Thread nD τ) mB fullShare xB ∗ owns (c : Thread nD τ) mC fullShare xC ∗ owns (c : Thread nD τ) mD fullShare xD ∗ (∃ d, owns (c : Thread nD τ) mE fullShare d)
        ∗ (iprop(owns (c : Thread nD τ) mA fullShare xA ∗ owns (c : Thread nD τ) mB fullShare xB ∗ owns (c : Thread nD τ) mC fullShare xC ∗ owns (c : Thread nD τ) mD fullShare xD ∗ owns (c : Thread nD τ) mE fullShare (out1_4 xA xB xC xD)) -∗ K ⟨⟩))
      ⊢ wp frame (wpE (defs₀ (F := F)) Variants.none c none) E (cc1__combine_kernel i mA hmA mB hmB mC hmC mD hmD mE hmE) K := by
  simp only [cc1__combine_kernel_eq_skeleton]; unfold cc1__combine_kernel_skel
  unfold owns
  iintro ⟨⟨%fA, %hfA, HA⟩, ⟨%fB, %hfB, HB⟩, ⟨%fC, %hfC, HC⟩, ⟨%fD, %hfD, HD⟩, ⟨%dE, %fE, -, HE⟩, Hk⟩
  subst hfA hfB hfC hfD
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  iexists _; isplitr
  swap; · iexact HE
  ipureintro
  exact View.read_writes_eq_canon _ _ _ (cover1_4 _)

/-! ## The pipeline's proof data -/

/-- The proof data of pipeline 1 on core c: the arrays as the region finds them (V); after the body at point t each
    input's buffer at its block and the output's at out1_4 of the input blocks; the invariant that the scoped rest and
    the generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's owed amount pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%dA, HA⟩, ⟨%dB, HB⟩, ⟨%dC, HC⟩, ⟨%dD, HD⟩, ⟨%dE, HE⟩⟩
  iapply (sound_kernel1 c Set.univ (grid1.coords t) _ _ _ _ _ _ _ _ _ _ (iblk1 V c 0 t) (iblk1 V c 1 t) (iblk1 V c 2 t) (iblk1 V c 3 t) _)
  isplitl [HA]; · iexact HA
  isplitl [HB]; · iexact HB
  isplitl [HC]; · iexact HC
  isplitl [HD]; · iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run
-- ==== Proof.KI.Reg2.lean ====
/- Region 2 of the printed program (custom_call 2, the kernel function cc2__matmul_scale_kernel), at a PARAMETER V:
   the TensorCore's buffer contents when the region is entered. Each window's block at a grid point, what the
   body leaves in the output window's buffer (its one whole-block store of the payload), the body's triple on whole
   staging memrefs, the pipeline's proof data and the body obligation at every point. Generic in the float
   interpretation. -/
import proofs.«431502_j9491877724720_3_alg».proof.Proof.Gen.KernelIdeal.Launch
import proofs.«431502_j9491877724720_3_alg».proof.Proof.Gen.KernelIdeal.Skeleton
import proofs.«431502_j9491877724720_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is V's
    and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weights, one fixed block): fetched at the first point only; at a later point the block
    index has not moved, so the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2, as window 0. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0

/-! ## What the body leaves in the output window's buffer -/

/-- Window 3's staging buffer after the body, from the input windows' blocks: its one store as a piece, the
    payload taken at the three loaded blocks. -/
def out2_3 (xa : Vec F S10000x64 .f32) (xb : Vec F S64x64 .f32) (xc : Vec F S10000x64 .f32) : Vec F S10000x64 .f32 :=
  View.canon [⟨r2_0, k2_pay1 (View.ld xa r2_0) (View.ld xb r2_1) (View.ld xc r2_0)⟩]

/-- The store tiles the buffer, so it covers it. -/
theorem cover2_3 (pay : Vec F S10000x64 .f32) (y : S10000x64.Idx) :
    ∃ pc ∈ ([⟨r2_0, pay⟩] : List (View.Piece (Elt F) S10000x64 .f32)), y ∈ pc.1.set :=
  View.cover_of_tiled [⟨r2_0, pay⟩] S10000x64.size (by rfl) y

/-! ## The body's triple -/

set_option maxHeartbeats 1000000 in
/-- The kernel body on whole staging memrefs, the inputs' at read contents and the output's at anything, runs to
    the continuation holding the inputs' as they were and the output's at out2_3 of the inputs'. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole) (arg4 : Memref sig .tc .vmem S10000x64 .f32) (harg4 : arg4.IsWhole)
    (xa : Vec F S10000x64 .f32) (xb : Vec F S64x64 .f32) (xc : Vec F S10000x64 .f32) (K : PUnit → sProp 𝕄) :
    iprop(owns (c : Thread nD τ) arg1 fullShare xa ∗ owns (c : Thread nD τ) arg2 fullShare xb ∗ owns (c : Thread nD τ) arg3 fullShare xc ∗ (∃ d, owns (c : Thread nD τ) arg4 fullShare d)
        ∗ (iprop(owns (c : Thread nD τ) arg1 fullShare xa ∗ owns (c : Thread nD τ) arg2 fullShare xb ∗ owns (c : Thread nD τ) arg3 fullShare xc ∗ owns (c : Thread nD τ) arg4 fullShare (out2_3 xa xb xc)) -∗ K ⟨⟩))
      ⊢ wp frame (wpE (defs₀ (F := F)) Variants.none c none) E (cc2__matmul_scale_kernel i arg1 harg1 arg2 harg2 arg3 harg3 arg4 harg4) K := by
  simp only [cc2__matmul_scale_kernel_eq_skeleton]; unfold cc2__matmul_scale_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover2_3 _)

/-! ## The pipeline's proof data -/

/-- The proof data of pipeline 2 on core c: the arrays as the region finds them; after the body at point t each
    input's buffer at its block and the output's at out2_3 of the input blocks; the class's invariant (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's owed counts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%da, Ha⟩, ⟨%db, Hb⟩, ⟨%dc, Hc⟩, ⟨%dd, Hd⟩⟩
  iapply (sound_kernel2 c Set.univ _ _ _ _ _ _ _ _ _ (iblk2 V c 0 t) (iblk2 V c 1 t) (iblk2 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Run
-- ==== Proof.KI.Reg3.lean ====
/- Region 3 of the printed program (custom_call 3, the kernel function cc3__combine_kernel), at a PARAMETER V — the
   TensorCore's buffer contents when the region is entered —: each window's block at a point, what the body finds in each
   input window's staging buffer and what it leaves in the output window's, the body's triple, the pipeline's proof data
   and the body obligation. The body reads four input blocks whole (the three row blocks of 10000 rows and the one row
   of 64 entries, which every point reads), reads the output's buffer without using the value, and stores one payload over
   the whole output block. -/
import proofs.«431502_j9491877724720_3_alg».proof.Proof.Gen.KernelIdeal.Launch
import proofs.«431502_j9491877724720_3_alg».proof.Proof.Gen.KernelIdeal.Skeleton
import proofs.«431502_j9491877724720_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural recursion goes once per coordinate of the long axis
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof data
    whose array is V's and whose body leaves the block in place: where it was not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same of input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The same of input window 3, the one row every point reads: it is fetched at the first point only, its block index
    never moves, and the buffer holds that one block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole block of 10000 rows, and the whole row. -/
abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0

/-! ## What the body leaves in the output window's buffer -/

/-- Window 4's staging buffer after the body, from the input windows' blocks (xA … xD are windows 0 … 3's): its one store, of the
    payload of the blocks read whole — the body reads window 2's first, then windows 0, 1 and 3's. -/
def out3_4 (xA : Vec F S10000x64 .f32) (xB : Vec F S10000x64 .f32) (xC : Vec F S10000x64 .f32) (xD : Vec F S1x64 .f32) : Vec F S10000x64 .f32 :=
  View.canon [⟨r3_0, k3_pay1 (View.ld xC r3_0) (View.ld xA r3_0) (View.ld xB r3_0) (View.ld xD r3_1)⟩]

/-- The one store is of the whole block, so it covers the buffer. -/
theorem cover3_4 (p : Vec F S10000x64 .f32) (y : S10000x64.Idx) :
    ∃ pc ∈ ([⟨r3_0, p⟩] : List (View.Piece (Elt F) S10000x64 .f32)), y ∈ pc.1.set :=
  View.cover_of_tiled [⟨r3_0, p⟩] S10000x64.size (by rfl) y

/-! ## The body's triple -/

set_option maxHeartbeats 1000000 in
/-- The kernel body on whole staging memrefs, the inputs' at read contents xA … xD and the output's at anything, runs to the
    continuation holding the inputs' as they were and the output's at out3_4 of the inputs': the printed function is its
    skeleton of memory operations, which are run one by one. -/
theorem sound_kernel3 (c : Dev nD) (E : Set ℕ) (i : grid3.Coords) (mA : Memref sig .tc .vmem S10000x64 .f32) (hmA : mA.IsWhole) (mB : Memref sig .tc .vmem S10000x64 .f32) (hmB : mB.IsWhole) (mC : Memref sig .tc .vmem S10000x64 .f32) (hmC : mC.IsWhole) (mD : Memref sig .tc .vmem S1x64 .f32) (hmD : mD.IsWhole) (mE : Memref sig .tc .vmem S10000x64 .f32) (hmE : mE.IsWhole)
    (xA : Vec F S10000x64 .f32) (xB : Vec F S10000x64 .f32) (xC : Vec F S10000x64 .f32) (xD : Vec F S1x64 .f32) (K : PUnit → sProp 𝕄) :
    iprop(owns (c : Thread nD τ) mA fullShare xA ∗ owns (c : Thread nD τ) mB fullShare xB ∗ owns (c : Thread nD τ) mC fullShare xC ∗ owns (c : Thread nD τ) mD fullShare xD ∗ (∃ d, owns (c : Thread nD τ) mE fullShare d)
        ∗ (iprop(owns (c : Thread nD τ) mA fullShare xA ∗ owns (c : Thread nD τ) mB fullShare xB ∗ owns (c : Thread nD τ) mC fullShare xC ∗ owns (c : Thread nD τ) mD fullShare xD ∗ owns (c : Thread nD τ) mE fullShare (out3_4 xA xB xC xD)) -∗ K ⟨⟩))
      ⊢ wp frame (wpE (defs₀ (F := F)) Variants.none c none) E (cc3__combine_kernel i mA hmA mB hmB mC hmC mD hmD mE hmE) K := by
  simp only [cc3__combine_kernel_eq_skeleton]; unfold cc3__combine_kernel_skel
  unfold owns
  iintro ⟨⟨%fA, %hfA, HA⟩, ⟨%fB, %hfB, HB⟩, ⟨%fC, %hfC, HC⟩, ⟨%fD, %hfD, HD⟩, ⟨%dE, %fE, -, HE⟩, Hk⟩
  subst hfA hfB hfC hfD
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  iexists _; isplitr
  swap; · iexact HE
  ipureintro
  exact View.read_writes_eq_canon _ _ _ (cover3_4 _)

/-! ## The pipeline's proof data -/

/-- The proof data of pipeline 3 on core c: the arrays as the region finds them (V); after the body at point t each
    input's buffer at its block and the output's at out3_4 of the input blocks; the invariant that the scoped rest and
    the generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's match reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point t (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's owed amount pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%dA, HA⟩, ⟨%dB, HB⟩, ⟨%dC, HC⟩, ⟨%dD, HD⟩, ⟨%dE, HE⟩⟩
  iapply (sound_kernel3 c Set.univ (grid3.coords t) _ _ _ _ _ _ _ _ _ _ (iblk3 V c 0 t) (iblk3 V c 1 t) (iblk3 V c 2 t) (iblk3 V c 3 t) _)
  isplitl [HA]; · iexact HA
  isplitl [HB]; · iexact HB
  isplitl [HC]; · iexact HC
  isplitl [HD]; · iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Run
-- ==== Proof.KI.Reg4.lean ====
/- Region 4 of the printed program (custom_call 4, the kernel function cc4__matmul_scale_kernel), at a PARAMETER V:
   the TensorCore's buffer contents when the region is entered. Each window's block at a grid point, what the
   body leaves in the output window's buffer (its one whole-block store of the payload), the body's triple on whole
   staging memrefs, the pipeline's proof data and the body obligation at every point. Generic in the float
   interpretation. -/
import proofs.«431502_j9491877724720_3_alg».proof.Proof.Gen.KernelIdeal.Launch
import proofs.«431502_j9491877724720_3_alg».proof.Proof.Gen.KernelIdeal.Skeleton
import proofs.«431502_j9491877724720_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is V's
    and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the weights, one fixed block): fetched at the first point only; at a later point the block
    index has not moved, so the buffer still holds the block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2, as window 0. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0

/-! ## What the body leaves in the output window's buffer -/

/-- Window 3's staging buffer after the body, from the input windows' blocks: its one store as a piece, the
    payload taken at the three loaded blocks. -/
def out4_3 (xa : Vec F S10000x64 .f32) (xb : Vec F S64x64 .f32) (xc : Vec F S10000x64 .f32) : Vec F S10000x64 .f32 :=
  View.canon [⟨r4_0, k4_pay1 (View.ld xa r4_0) (View.ld xb r4_1) (View.ld xc r4_0)⟩]

/-- The store tiles the buffer, so it covers it. -/
theorem cover4_3 (pay : Vec F S10000x64 .f32) (y : S10000x64.Idx) :
    ∃ pc ∈ ([⟨r4_0, pay⟩] : List (View.Piece (Elt F) S10000x64 .f32)), y ∈ pc.1.set :=
  View.cover_of_tiled [⟨r4_0, pay⟩] S10000x64.size (by rfl) y

/-! ## The body's triple -/

set_option maxHeartbeats 1000000 in
/-- The kernel body on whole staging memrefs, the inputs' at read contents and the output's at anything, runs to
    the continuation holding the inputs' as they were and the output's at out4_3 of the inputs'. -/
theorem sound_kernel4 (c : Dev nD) (E : Set ℕ) (i : grid4.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole) (arg4 : Memref sig .tc .vmem S10000x64 .f32) (harg4 : arg4.IsWhole)
    (xa : Vec F S10000x64 .f32) (xb : Vec F S64x64 .f32) (xc : Vec F S10000x64 .f32) (K : PUnit → sProp 𝕄) :
    iprop(owns (c : Thread nD τ) arg1 fullShare xa ∗ owns (c : Thread nD τ) arg2 fullShare xb ∗ owns (c : Thread nD τ) arg3 fullShare xc ∗ (∃ d, owns (c : Thread nD τ) arg4 fullShare d)
        ∗ (iprop(owns (c : Thread nD τ) arg1 fullShare xa ∗ owns (c : Thread nD τ) arg2 fullShare xb ∗ owns (c : Thread nD τ) arg3 fullShare xc ∗ owns (c : Thread nD τ) arg4 fullShare (out4_3 xa xb xc)) -∗ K ⟨⟩))
      ⊢ wp frame (wpE (defs₀ (F := F)) Variants.none c none) E (cc4__matmul_scale_kernel i arg1 harg1 arg2 harg2 arg3 harg3 arg4 harg4) K := by
  simp only [cc4__matmul_scale_kernel_eq_skeleton]; unfold cc4__matmul_scale_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover4_3 _)

/-! ## The pipeline's proof data -/

/-- The proof data of pipeline 4 on core c: the arrays as the region finds them; after the body at point t each
    input's buffer at its block and the output's at out4_3 of the input blocks; the class's invariant (the scoped
    rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's owed counts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%da, Ha⟩, ⟨%db, Hb⟩, ⟨%dc, Hc⟩, ⟨%dd, Hd⟩⟩
  iapply (sound_kernel4 c Set.univ _ _ _ _ _ _ _ _ _ (iblk4 V c 0 t) (iblk4 V c 1 t) (iblk4 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Run
-- ==== Proof.KI.Reg5.lean ====
/- Region 5 of the printed program (custom_call 5, the kernel function cc5__combine_kernel), at a PARAMETER V — the
   TensorCore's buffer contents when the region is entered —: each window's block at a point, what the body finds in each
   input window's staging buffer and what it leaves in the output window's, the body's triple, the pipeline's proof data
   and the body obligation. The body reads four input blocks whole (the three row blocks of 10000 rows and the one row
   of 64 entries, which every point reads), reads the output's buffer without using the value, and stores one payload over
   the whole output block. -/
import proofs.«431502_j9491877724720_3_alg».proof.Proof.Gen.KernelIdeal.Launch
import proofs.«431502_j9491877724720_3_alg».proof.Proof.Gen.KernelIdeal.Skeleton
import proofs.«431502_j9491877724720_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural recursion goes once per coordinate of the long axis
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof data
    whose array is V's and whose body leaves the block in place: where it was not fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The same of input window 3, the one row every point reads: it is fetched at the first point only, its block index
    never moves, and the buffer holds that one block at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole block of 10000 rows, and the whole row. -/
abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0

/-! ## What the body leaves in the output window's buffer -/

/-- Window 4's staging buffer after the body, from the input windows' blocks (xA … xD are windows 0 … 3's): its one store, of the
    payload of the blocks read whole — the body reads window 2's first, then windows 0, 1 and 3's. -/
def out5_4 (xA : Vec F S10000x64 .f32) (xB : Vec F S10000x64 .f32) (xC : Vec F S10000x64 .f32) (xD : Vec F S1x64 .f32) : Vec F S10000x64 .f32 :=
  View.canon [⟨r5_0, k5_pay1 (View.ld xC r5_0) (View.ld xA r5_0) (View.ld xB r5_0) (View.ld xD r5_1)⟩]

/-- The one store is of the whole block, so it covers the buffer. -/
theorem cover5_4 (p : Vec F S10000x64 .f32) (y : S10000x64.Idx) :
    ∃ pc ∈ ([⟨r5_0, p⟩] : List (View.Piece (Elt F) S10000x64 .f32)), y ∈ pc.1.set :=
  View.cover_of_tiled [⟨r5_0, p⟩] S10000x64.size (by rfl) y

/-! ## The body's triple -/

set_option maxHeartbeats 1000000 in
/-- The kernel body on whole staging memrefs, the inputs' at read contents xA … xD and the output's at anything, runs to the
    continuation holding the inputs' as they were and the output's at out5_4 of the inputs': the printed function is its
    skeleton of memory operations, which are run one by one. -/
theorem sound_kernel5 (c : Dev nD) (E : Set ℕ) (i : grid5.Coords) (mA : Memref sig .tc .vmem S10000x64 .f32) (hmA : mA.IsWhole) (mB : Memref sig .tc .vmem S10000x64 .f32) (hmB : mB.IsWhole) (mC : Memref sig .tc .vmem S10000x64 .f32) (hmC : mC.IsWhole) (mD : Memref sig .tc .vmem S1x64 .f32) (hmD : mD.IsWhole) (mE : Memref sig .tc .vmem S10000x64 .f32) (hmE : mE.IsWhole)
    (xA : Vec F S10000x64 .f32) (xB : Vec F S10000x64 .f32) (xC : Vec F S10000x64 .f32) (xD : Vec F S1x64 .f32) (K : PUnit → sProp 𝕄) :
    iprop(owns (c : Thread nD τ) mA fullShare xA ∗ owns (c : Thread nD τ) mB fullShare xB ∗ owns (c : Thread nD τ) mC fullShare xC ∗ owns (c : Thread nD τ) mD fullShare xD ∗ (∃ d, owns (c : Thread nD τ) mE fullShare d)
        ∗ (iprop(owns (c : Thread nD τ) mA fullShare xA ∗ owns (c : Thread nD τ) mB fullShare xB ∗ owns (c : Thread nD τ) mC fullShare xC ∗ owns (c : Thread nD τ) mD fullShare xD ∗ owns (c : Thread nD τ) mE fullShare (out5_4 xA xB xC xD)) -∗ K ⟨⟩))
      ⊢ wp frame (wpE (defs₀ (F := F)) Variants.none c none) E (cc5__combine_kernel i mA hmA mB hmB mC hmC mD hmD mE hmE) K := by
  simp only [cc5__combine_kernel_eq_skeleton]; unfold cc5__combine_kernel_skel
  unfold owns
  iintro ⟨⟨%fA, %hfA, HA⟩, ⟨%fB, %hfB, HB⟩, ⟨%fC, %hfC, HC⟩, ⟨%fD, %hfD, HD⟩, ⟨%dE, %fE, -, HE⟩, Hk⟩
  subst hfA hfB hfC hfD
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  iexists _; isplitr
  swap; · iexact HE
  ipureintro
  exact View.read_writes_eq_canon _ _ _ (cover5_4 _)

/-! ## The pipeline's proof data -/

/-- The proof data of pipeline 5 on core c: the arrays as the region finds them (V); after the body at point t each
    input's buffer at its block and the output's at out5_4 of the input blocks; the invariant that the scoped rest and
    the generator register are untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the definition's match reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point t (the body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the body's triple applies; the invariant and the
    core's owed amount pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%dA, HA⟩, ⟨%dB, HB⟩, ⟨%dC, HC⟩, ⟨%dD, HD⟩, ⟨%dE, HE⟩⟩
  iapply (sound_kernel5 c Set.univ (grid5.coords t) _ _ _ _ _ _ _ _ _ _ (iblk5 V c 0 t) (iblk5 V c 1 t) (iblk5 V c 2 t) (iblk5 V c 3 t) _)
  isplitl [HA]; · iexact HA
  isplitl [HB]; · iexact HB
  isplitl [HC]; · iexact HC
  isplitl [HD]; · iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Run
-- ==== Proof.KI.Reg6.lean ====
/-
  The pooling region (the last kernel call): a mean over the nodes of each of 64 graphs followed by a 64 x 2 linear head.

  The grid has ten points; point t sees rows 10000 t .. 10000 t + 9999 of the graph-assignment column and of the node
  table.  Two buffers of the kernel's own are carried from point to point: a 64 x 64 one, to which each point adds the
  contraction over its 10000 rows of (row's graph is g) * (row's entry j), and a 64 x 1 one, to which each point adds the
  number of its rows in graph g.  Point 0 first zeroes both; point 9, after its own addition, stores into the output's
  block the quotient of the first by the second (clamped below by one), times the head's matrix, plus the bias.  At
  points 0..8 the output's buffer is not touched and not written back.

  This module runs the body once per control case (point 0, points 1..8, point 9), names what the two carried buffers hold
  after n points by recursion over the payloads, and proves the pipeline's body obligation for proof data that hold the
  carried buffers, at those contents, in the invariant.  It is generic in the float instance.
-/
import proofs.«431502_j9491877724720_3_alg».proof.Proof.Gen.KernelIdeal.Launch
import proofs.«431502_j9491877724720_3_alg».proof.Proof.Gen.KernelIdeal.Skeleton
import proofs.«431502_j9491877724720_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test as the body computes it from the grid coordinate: it holds at point 0 only. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)
/-- The second conditional's test: it holds at point 9 only. -/
abbrev cond6_1 (i : grid6.Coords) : Prop := k6_cond2 i = 1#1
theorem hcond6_1 : ∀ t : Fin cfg6.N, cond6_1 (grid6.coords t) ↔ t.val = 9 :=
  (by decide +kernel : ∀ t : Fin grid6.N, cond6_1 (grid6.coords t) ↔ t.val = 9)

/-- The zero offsets of a whole-block access, however spelt. -/
theorem hz6 : (![0, 0] : Fin 2 → Nat) = fun _ => 0 := funext fun a => by fin_cases a <;> rfl

set_option maxHeartbeats 1000000 in
/-- THE BODY AT POINT 0 (first conditional taken, second not): both scratch buffers, found at anything, are zeroed and then
    receive the first block's contribution; the inputs and the idle output are handed back as found. -/
theorem run6_A (c : Dev nD) (i : grid6.Coords)
    (arg1 : Memref sig .tc .vmem S10000x1 .i32) (harg1 : arg1.IsWhole) (arg2 : Memref sig .tc .vmem S10000x64 .f32) (harg2 : arg2.IsWhole)
    (arg3 : Memref sig .tc .vmem S64x2 .f32) (harg3 : arg3.IsWhole) (arg4 : Memref sig .tc .vmem S1x2 .f32) (harg4 : arg4.IsWhole)
    (arg5 : Memref sig .tc .vmem S64x2 .f32) (harg5 : arg5.IsWhole) (arg6 : Memref sig .tc .vmem S64x64 .f32) (harg6 : arg6.IsWhole)
    (arg7 : Memref sig .tc .vmem S64x1 .f32) (harg7 : arg7.IsWhole) (hc0 : cond6_0 i) (hc1 : ¬cond6_1 i)
    (x0 : Vec F S10000x1 .i32) (x1 : Vec F S10000x64 .f32) (x2 : Vec F S64x2 .f32) (x3 : Vec F S1x2 .f32) (xi4 : Vec F S64x2 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
            ∗ owns (c : Thread nD τ) arg6 fullShare (k6_pay4 x0 x1 (k6_pay1 (F := F))) ∗ owns (c : Thread nD τ) arg7 fullShare (k6_pay5 x0 (k6_pay2 (F := F)))) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    (try sl_unfold_words)
    rw [View.read_writes_eq_canon _ _ _ (fun y => ⟨_, List.mem_cons_self, View.mem_set_unit_zero hz6 inb_S64x64_S64x64_0_0 y⟩), View.canon_cons_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]
  · iexists _; isplitr
    swap; · iexact HS1
    ipureintro
    (try sl_unfold_words)
    rw [View.read_writes_eq_canon _ _ _ (fun y => ⟨_, List.mem_cons_self, View.mem_set_unit_zero hz6 inb_S64x1_S64x1_0_0 y⟩), View.canon_cons_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]

set_option maxHeartbeats 1000000 in
/-- THE BODY AT POINTS 1..8 (neither conditional taken): each scratch buffer, found at what the point before left, receives
    this block's contribution; the inputs and the idle output are handed back as found. -/
theorem run6_B (c : Dev nD) (i : grid6.Coords)
    (arg1 : Memref sig .tc .vmem S10000x1 .i32) (harg1 : arg1.IsWhole) (arg2 : Memref sig .tc .vmem S10000x64 .f32) (harg2 : arg2.IsWhole)
    (arg3 : Memref sig .tc .vmem S64x2 .f32) (harg3 : arg3.IsWhole) (arg4 : Memref sig .tc .vmem S1x2 .f32) (harg4 : arg4.IsWhole)
    (arg5 : Memref sig .tc .vmem S64x2 .f32) (harg5 : arg5.IsWhole) (arg6 : Memref sig .tc .vmem S64x64 .f32) (harg6 : arg6.IsWhole)
    (arg7 : Memref sig .tc .vmem S64x1 .f32) (harg7 : arg7.IsWhole) (hc0 : ¬cond6_0 i) (hc1 : ¬cond6_1 i)
    (x0 : Vec F S10000x1 .i32) (x1 : Vec F S10000x64 .f32) (x2 : Vec F S64x2 .f32) (x3 : Vec F S1x2 .f32) (xi4 : Vec F S64x2 .f32)
    (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
            ∗ owns (c : Thread nD τ) arg6 fullShare (k6_pay4 x0 x1 xs0) ∗ owns (c : Thread nD τ) arg7 fullShare (k6_pay5 x0 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    (try sl_unfold_words)
    rw [View.read_writes_eq_canon _ _ _ (fun y => ⟨_, List.mem_cons_self, View.mem_set_unit_zero hz6 inb_S64x64_S64x64_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]
  · iexists _; isplitr
    swap; · iexact HS1
    ipureintro
    (try sl_unfold_words)
    rw [View.read_writes_eq_canon _ _ _ (fun y => ⟨_, List.mem_cons_self, View.mem_set_unit_zero hz6 inb_S64x1_S64x1_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]

set_option maxHeartbeats 1000000 in
/-- THE BODY AT POINT 9 (first conditional not taken, second taken): each scratch buffer receives the last block's
    contribution, and the output's buffer, found at anything, is stored whole with the head applied to the two scratch
    buffers as just left and to the weight and bias blocks. -/
theorem run6_C (c : Dev nD) (i : grid6.Coords)
    (arg1 : Memref sig .tc .vmem S10000x1 .i32) (harg1 : arg1.IsWhole) (arg2 : Memref sig .tc .vmem S10000x64 .f32) (harg2 : arg2.IsWhole)
    (arg3 : Memref sig .tc .vmem S64x2 .f32) (harg3 : arg3.IsWhole) (arg4 : Memref sig .tc .vmem S1x2 .f32) (harg4 : arg4.IsWhole)
    (arg5 : Memref sig .tc .vmem S64x2 .f32) (harg5 : arg5.IsWhole) (arg6 : Memref sig .tc .vmem S64x64 .f32) (harg6 : arg6.IsWhole)
    (arg7 : Memref sig .tc .vmem S64x1 .f32) (harg7 : arg7.IsWhole) (hc0 : ¬cond6_0 i) (hc1 : cond6_1 i)
    (x0 : Vec F S10000x1 .i32) (x1 : Vec F S10000x64 .f32) (x2 : Vec F S64x2 .f32) (x3 : Vec F S1x2 .f32)
    (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k6_pay6 (k6_pay4 x0 x1 xs0) (k6_pay5 x0 xs1) x2 x3)
            ∗ owns (c : Thread nD τ) arg6 fullShare (k6_pay4 x0 x1 xs0) ∗ owns (c : Thread nD τ) arg7 fullShare (k6_pay5 x0 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    (try sl_unfold_words)
    rw [View.read_writes_eq_canon _ _ _ (fun y => ⟨_, List.mem_cons_self, View.mem_set_unit_zero hz6 inb_S64x2_S64x2_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]
  isplitl [HS0]
  · iexists _; isplitr
    swap; · iexact HS0
    ipureintro
    (try sl_unfold_words)
    rw [View.read_writes_eq_canon _ _ _ (fun y => ⟨_, List.mem_cons_self, View.mem_set_unit_zero hz6 inb_S64x64_S64x64_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]
  · iexists _; isplitr
    swap; · iexact HS1
    ipureintro
    (try sl_unfold_words)
    rw [View.read_writes_eq_canon _ _ _ (fun y => ⟨_, List.mem_cons_self, View.mem_set_unit_zero hz6 inb_S64x1_S64x1_0_0 y⟩), View.canon_unit_zero hz6]
    simp only [View.readAt_eq_ld, harg1.read_unread, harg2.read_unread, harg3.read_unread, harg4.read_unread, harg6.read_unread, harg7.read_unread,
      View.ld_unit_zero (S := S10000x1) hz6, View.ld_unit_zero (S := S10000x64) hz6, View.ld_unit_zero (S := S64x64) hz6,
      View.ld_unit_zero (S := S64x1) hz6, View.ld_unit_zero (S := S64x2) hz6, View.ld_unit_zero (S := S1x2) hz6,
      View.readCov_unit_zero (S := S64x64) _ hz6, View.readCov_unit_zero (S := S64x1) _ hz6]

variable (V : (c : Dev nD) → (b : Ref sig .tc) → Buf (Elt F) ((c : Thread nD τ).loc b))

/-! ## The windows' blocks and the carried sums -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The grid point numbered `n` (numbers wrap at 10; only `n < 10` is ever consulted). -/
def pt6 (n : ℕ) : Fin cfg6.N := ⟨n % 10, lt_of_lt_of_eq (Nat.mod_lt n (by decide)) (show (10 : ℕ) = cfg6.N from N_6.symm)⟩

theorem pt6_val (t : Fin cfg6.N) : pt6 t.val = t :=
  Fin.ext (Nat.mod_eq_of_lt (lt_of_lt_of_eq t.isLt (show cfg6.N = 10 from N_6)))

/-- The 64x64 scratch buffer after `n` points: zeroed at point 0, then at every point (point 0 included) the point's
    one-hot contraction of its two blocks added to it. -/
def accS6 (c : Dev nD) : ℕ → Vec F S64x64 .f32
  | 0 => k6_pay1
  | n + 1 => k6_pay4 (iblk6 V c 0 (pt6 n)) (iblk6 V c 1 (pt6 n)) (if n = 0 then k6_pay1 else accS6 c n)

/-- The 64x1 scratch buffer (the per-graph counts) after `n` points, likewise. -/
def accC6 (c : Dev nD) : ℕ → Vec F S64x1 .f32
  | 0 => k6_pay2
  | n + 1 => k6_pay5 (iblk6 V c 0 (pt6 n)) (if n = 0 then k6_pay2 else accC6 c n)

theorem accS6_zero (c : Dev nD) : accS6 V c 0 = k6_pay1 := rfl
theorem accC6_zero (c : Dev nD) : accC6 V c 0 = k6_pay2 := rfl
theorem accS6_succ (c : Dev nD) (n : ℕ) :
    accS6 V c (n + 1) = k6_pay4 (iblk6 V c 0 (pt6 n)) (iblk6 V c 1 (pt6 n)) (if n = 0 then k6_pay1 else accS6 V c n) := rfl
theorem accC6_succ (c : Dev nD) (n : ℕ) :
    accC6 V c (n + 1) = k6_pay5 (iblk6 V c 0 (pt6 n)) (if n = 0 then k6_pay2 else accC6 V c n) := rfl
/-- After point `t`: the point's contribution over what the point before left (over zeros at point 0). -/
theorem accS6_at (c : Dev nD) (t : Fin cfg6.N) :
    accS6 V c (t.val + 1) = k6_pay4 (iblk6 V c 0 t) (iblk6 V c 1 t) (if t.val = 0 then k6_pay1 else accS6 V c t.val) := by
  rw [accS6_succ, pt6_val]
theorem accC6_at (c : Dev nD) (t : Fin cfg6.N) :
    accC6 V c (t.val + 1) = k6_pay5 (iblk6 V c 0 t) (if t.val = 0 then k6_pay2 else accC6 V c t.val) := by
  rw [accC6_succ, pt6_val]

/-! ## The region's invariant and proof data -/

/-- The two scratch operands: whole scoped buffers of the kernel's own, passed beside the windows. -/
abbrev scM6_0 : Memref sig .tc .vmem S64x64 .f32 := Memref.whole cc6_scratch0
abbrev scM6_1 : Memref sig .tc .vmem S64x1 .f32 := Memref.whole cc6_scratch1

/-- The invariant before position `n`: the two scratch buffers whole — at anything before the first point, afterwards at
    the carried sums after `n` points —, every other scoped buffer unopened, and the generator register at some state. -/
def Phi6 (c : Dev nD) : ℕ → sProp 𝕄
  | 0 => iprop(iprop((∃ d, owns (c : Thread nD τ) scM6_0 fullShare d) ∗ (∃ d, owns (c : Thread nD τ) scM6_1 fullShare d))
      ∗ Pipeline.scopedRestBut spec6 c [cc6_scratch0, cc6_scratch1] ∗ (∃ r, prngReg c r))
  | n + 1 => iprop(iprop(owns (c : Thread nD τ) scM6_0 fullShare (accS6 V c (n + 1)) ∗ owns (c : Thread nD τ) scM6_1 fullShare (accC6 V c (n + 1)))
      ∗ Pipeline.scopedRestBut spec6 c [cc6_scratch0, cc6_scratch1] ∗ (∃ r, prngReg c r))

theorem Phi6_zero (c : Dev nD) (n : ℕ) (hz : n = 0) :
    Phi6 V c n = iprop(iprop((∃ d, owns (c : Thread nD τ) scM6_0 fullShare d) ∗ (∃ d, owns (c : Thread nD τ) scM6_1 fullShare d))
      ∗ Pipeline.scopedRestBut spec6 c [cc6_scratch0, cc6_scratch1] ∗ (∃ r, prngReg c r)) := by
  subst hz; rfl

theorem Phi6_pos (c : Dev nD) (n : ℕ) (hz : n ≠ 0) :
    Phi6 V c n = iprop(iprop(owns (c : Thread nD τ) scM6_0 fullShare (accS6 V c n) ∗ owns (c : Thread nD τ) scM6_1 fullShare (accC6 V c n))
      ∗ Pipeline.scopedRestBut spec6 c [cc6_scratch0, cc6_scratch1] ∗ (∃ r, prngReg c r)) := by
  cases n with
  | zero => exact absurd rfl hz
  | succ n => rfl

/-- The proof data of the pooling region on core `c`: the arrays as the region finds them; after the body each input's
    buffer at its block, the output's at the head applied to the carried sums (consulted at the last point only); the
    invariant `Phi6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay6 (accS6 V c (t.val + 1)) (accC6 V c (t.val + 1)) (iblk6 V c 2 t) (iblk6 V c 3 t)
  Φ t := Phi6 V c t.val
  q _ := fullShare
  owed _ := 0

theorem A_eq6 (c : Dev nD) (w : Fin cfg6.W) : (dat6 V c).A w = V c (Pipeline.arrRef spec6 w) := by
  dsimp only [dat6]

theorem Phi6_castSucc (c : Dev nD) (t : Fin cfg6.N) : (dat6 V c).Φ t.castSucc = Phi6 V c t.val := by
  dsimp only [dat6]; simp only [Fin.coe_castSucc]
theorem Phi6_succ (c : Dev nD) (t : Fin cfg6.N) : (dat6 V c).Φ t.succ = Phi6 V c (t.val + 1) := by
  dsimp only [dat6]; simp only [Fin.val_succ]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = k6_pay6 (accS6 V c (t.val + 1)) (accC6 V c (t.val + 1)) (iblk6 V c 2 t) (iblk6 V c 3 t) := by dsimp only [dat6]

/-- Each input's current staging buffer holds its block at every point, fetched there or not (an input not fetched at a
    point has the block index it had at the point before, and the body leaves the block in place). -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Where the second conditional fails the output is idle: the body stores nothing into it, -/
theorem idleAt6_4 : ∀ t : Fin cfg6.N, ¬cond6_1 (grid6.coords t) → cfg6.idle 4 (grid6.coords t) = true := by decide +kernel
/-- and the pipeline does not write its block back there. -/
theorem noFlush6_4 : ∀ t : Fin cfg6.N, ¬cond6_1 (grid6.coords t) → (cfg6.win 4).flush t = false := by decide +kernel
/-- Where it holds (the last point) the output is live. -/
theorem liveAt6_4 : ∀ t : Fin cfg6.N, cond6_1 (grid6.coords t) → cfg6.idle 4 (grid6.coords t) = false := by decide +kernel

/-! ## The body obligation -/

/-- Each window's current staging memref at point `t`, spelled as the pipeline passes it, and its wholeness. -/
abbrev ms6_0 (t : Fin cfg6.N) : Memref sig .tc .vmem S10000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S10000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x2 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x2 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x2 .f32 := win6_4.stage (cfg6.slots t 4)
abbrev hs6_4 (t : Fin cfg6.N) : (ms6_4 t).IsWhole := hstage6_4 ((cfg6.slots t 4).cast nbuf6_4)

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point. The inputs' buffers hold their blocks; the point's number says which of the three control
    cases it is in; the invariant hands the body the two scratch buffers (at anything at point 0, else at the carried sums
    after the points before) and takes them back at the sums after this point; the output's buffer is handed back as found
    at points 0..8 and holds the head's result at point 9; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [Phi6_succ, Phi6_castSucc]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [Phi6_pos V c (t.val + 1) (Nat.succ_ne_zero _), accS6_at, accC6_at]
  have hN : t.val < 10 := lt_of_lt_of_eq t.isLt (show cfg6.N = 10 from N_6)
  by_cases h0 : t.val = 0
  · have h1 : ¬t.val = 9 := by omega
    have hc0 : cond6_0 (grid6.coords t) := (hcond6_0 t).mpr h0
    have hc1 : ¬cond6_1 (grid6.coords t) := fun h => h1 ((hcond6_1 t).mp h)
    rw [Dat.leavesExact_idle (dat6 V c) 4 t (idleAt6_4 t hc1) (noFlush6_4 t hc1)]
    rw [if_pos h0, if_pos h0, Phi6_zero V c _ h0]
    iintro ⟨⟨⟨HS0, HS1⟩, Hr, Hg⟩, Ho, ⟨%d0, H0⟩, ⟨%d1, H1⟩, ⟨%d2, H2⟩, ⟨%d3, H3⟩, ⟨%d4, H4⟩⟩
    iapply (run6_A c (grid6.coords t) _ _ _ _ _ _ _ _ _ _ _ _ _ _ hc0 hc1 (iblk6 V c 0 t) (iblk6 V c 1 t) (iblk6 V c 2 t) (iblk6 V c 3 t) _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 9
    · have hc0 : ¬cond6_0 (grid6.coords t) := fun h => h0 ((hcond6_0 t).mp h)
      have hc1 : cond6_1 (grid6.coords t) := (hcond6_1 t).mpr h1
      rw [show (dat6 V c).leavesExact 4 t = owns (c : Thread nD τ) (ms6_4 t) fullShare ((dat6 V c).after 4 t) from by
        unfold Dat.leavesExact; rw [liveAt6_4 t hc1], after6_4, accS6_at, accC6_at]
      rw [if_neg h0, if_neg h0, Phi6_pos V c _ h0]
      iintro ⟨⟨⟨HS0, HS1⟩, Hr, Hg⟩, Ho, ⟨%d0, H0⟩, ⟨%d1, H1⟩, ⟨%d2, H2⟩, ⟨%d3, H3⟩, ⟨%d4, H4⟩⟩
      iapply (run6_C c (grid6.coords t) _ _ _ _ _ _ _ _ _ _ _ _ _ _ hc0 hc1 (iblk6 V c 0 t) (iblk6 V c 1 t) (iblk6 V c 2 t) (iblk6 V c 3 t) (accS6 V c t.val) (accC6 V c t.val) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc0 : ¬cond6_0 (grid6.coords t) := fun h => h0 ((hcond6_0 t).mp h)
      have hc1 : ¬cond6_1 (grid6.coords t) := fun h => h1 ((hcond6_1 t).mp h)
      rw [Dat.leavesExact_idle (dat6 V c) 4 t (idleAt6_4 t hc1) (noFlush6_4 t hc1)]
      rw [if_neg h0, if_neg h0, Phi6_pos V c _ h0]
      iintro ⟨⟨⟨HS0, HS1⟩, Hr, Hg⟩, Ho, ⟨%d0, H0⟩, ⟨%d1, H1⟩, ⟨%d2, H2⟩, ⟨%d3, H3⟩, ⟨%d4, H4⟩⟩
      iapply (run6_B c (grid6.coords t) _ _ _ _ _ _ _ _ _ _ _ _ _ _ hc0 hc1 (iblk6 V c 0 t) (iblk6 V c 1 t) (iblk6 V c 2 t) (iblk6 V c 3 t) _ (accS6 V c t.val) (accC6 V c t.val) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends -/

/-- What the launch hands the region — the generator register and every scoped buffer — is the invariant before the
    first point: the scoped buffers split at the two scratch operands. -/
theorem Phi6_in (c : Dev nD) : iprop((∃ r, prngReg c r) ∗ Pipeline.scopedRest spec6 c) ⊢ ((dat6 (F := F) V c).Φ 0 : sProp 𝕄) := by
  rw [show (dat6 V c).Φ 0 = Phi6 V c 0 from rfl, Phi6_zero V c 0 rfl, scopedRest6_split]
  simp only [scM6_0, scM6_1, owns_whole]
  iintro ⟨Hg, ⟨HS0, HS1⟩, Hr⟩
  isplitl [HS0 HS1]
  · isplitl [HS0]; · iexact HS0
    iexact HS1
  isplitl [Hr]; · iexact Hr
  iexact Hg

/-- After the last point the invariant gives them back: the scratch buffers' named contents are forgotten. -/
theorem Phi6_out (c : Dev nD) : ((dat6 (F := F) V c).Φ (Fin.last cfg6.N) : sProp 𝕄) ⊢ iprop((∃ r, prngReg c r) ∗ Pipeline.scopedRest spec6 c) := by
  rw [show (dat6 V c).Φ (Fin.last cfg6.N) = Phi6 V c (Fin.last cfg6.N).val from rfl,
    Phi6_pos V c _ (by rw [Fin.val_last]; have : cfg6.N = 10 := N_6; omega), scopedRest6_split]
  simp only [scM6_0, scM6_1, owns_whole]
  iintro ⟨⟨HS0, HS1⟩, Hr, Hg⟩
  isplitl [Hg]; · iexact Hg
  isplitl [HS0 HS1]
  · isplitl [HS0]
    · iexists _; iexact HS0
    iexists _; iexact HS1
  iexact Hr

end Cert.KernelIdeal.Run

end
-- ==== Proof.KI.Fold.lean ====
/- The TensorCore's buffer contents between the items of the main program, as a fold from the launch memory: a host
   stretch applies its operations, a kernel region replaces its output array by what its write-backs leave (the
   pipeline's array after all grid points).  Every region's proof data is taken at the contents its region is
   entered with.  Generic in the float interpretation. -/
import proofs.«431502_j9491877724720_3_alg».proof.Proof.Gen.KernelIdeal.Regions
import proofs.«431502_j9491877724720_3_alg».proof.Proof.KI.Reg0
import proofs.«431502_j9491877724720_3_alg».proof.Proof.KI.Reg1
import proofs.«431502_j9491877724720_3_alg».proof.Proof.KI.Reg2
import proofs.«431502_j9491877724720_3_alg».proof.Proof.KI.Reg3
import proofs.«431502_j9491877724720_3_alg».proof.Proof.KI.Reg4
import proofs.«431502_j9491877724720_3_alg».proof.Proof.KI.Reg5
import proofs.«431502_j9491877724720_3_alg».proof.Proof.KI.Reg6

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-! ## The fold -/

/-- After the first host stretch: region 0's entry contents. -/
abbrev U1 (c : Dev nD) : Valuation τ sig (Elt F) := V1 m c
/-- Region 0 leaves its output array at what its ten write-backs make of it. -/
def U2 (c : Dev nD) : Valuation τ sig (Elt F) :=
  Function.update (U1 m c) main_v13 ((dat0 (atRefs (U1 m)) c).arrAt 3 cfg0.N)
abbrev U3 (c : Dev nD) : Valuation τ sig (Elt F) := StableHlo.after hostOps1 (U2 m c)
abbrev U4 (c : Dev nD) : Valuation τ sig (Elt F) := StableHlo.after hostOps1_1 (U3 m c)
def U5 (c : Dev nD) : Valuation τ sig (Elt F) :=
  Function.update (U4 m c) main_v19 ((dat1 (atRefs (U4 m)) c).arrAt 4 cfg1.N)
def U6 (c : Dev nD) : Valuation τ sig (Elt F) :=
  Function.update (U5 m c) main_v20 ((dat2 (atRefs (U5 m)) c).arrAt 3 cfg2.N)
abbrev U7 (c : Dev nD) : Valuation τ sig (Elt F) := StableHlo.after hostOps3 (U6 m c)
abbrev U8 (c : Dev nD) : Valuation τ sig (Elt F) := StableHlo.after hostOps3_1 (U7 m c)
def U9 (c : Dev nD) : Valuation τ sig (Elt F) :=
  Function.update (U8 m c) main_v26 ((dat3 (atRefs (U8 m)) c).arrAt 4 cfg3.N)
def U10 (c : Dev nD) : Valuation τ sig (Elt F) :=
  Function.update (U9 m c) main_v27 ((dat4 (atRefs (U9 m)) c).arrAt 3 cfg4.N)
abbrev U11 (c : Dev nD) : Valuation τ sig (Elt F) := StableHlo.after hostOps5 (U10 m c)
abbrev U12 (c : Dev nD) : Valuation τ sig (Elt F) := StableHlo.after hostOps5_1 (U11 m c)
def U13 (c : Dev nD) : Valuation τ sig (Elt F) :=
  Function.update (U12 m c) main_v33 ((dat5 (atRefs (U12 m)) c).arrAt 4 cfg5.N)
abbrev U14 (c : Dev nD) : Valuation τ sig (Elt F) := StableHlo.after hostOps6 (U13 m c)
def U15 (c : Dev nD) : Valuation τ sig (Elt F) :=
  Function.update (U14 m c) main_v36 ((dat6 (atRefs (U14 m)) c).arrAt 4 cfg6.N)

/-- What the regions leave, as the family the generated boundary valuations are written over: item J's contents read at
    the reference asked for. -/
def outs : Outs (F := F) := fun J r c =>
  match J with
  | 2 => U2 m c r
  | 5 => U5 m c r
  | 6 => U6 m c r
  | 9 => U9 m c r
  | 10 => U10 m c r
  | 13 => U13 m c r
  | 15 => U15 m c r
  | _ => V0 m c r

/-! ## The generated boundary valuations at these contents are the fold -/

theorem V2_eq (c : Dev nD) : V2 m (outs m) c = U2 m c := by
  show Function.update (V1 m c) main_v13 (U2 m c main_v13) = U2 m c
  unfold U2; rw [Function.update_self]
theorem V3_eq (c : Dev nD) : V3 m (outs m) c = U3 m c := by
  show StableHlo.after hostOps1 (V2 m (outs m) c) = _; rw [V2_eq]
theorem V4_eq (c : Dev nD) : V4 m (outs m) c = U4 m c := by
  show StableHlo.after hostOps1_1 (V3 m (outs m) c) = _; rw [V3_eq]
theorem V5_eq (c : Dev nD) : V5 m (outs m) c = U5 m c := by
  show Function.update (V4 m (outs m) c) main_v19 (U5 m c main_v19) = U5 m c
  rw [V4_eq]; unfold U5; rw [Function.update_self]
theorem V6_eq (c : Dev nD) : V6 m (outs m) c = U6 m c := by
  show Function.update (V5 m (outs m) c) main_v20 (U6 m c main_v20) = U6 m c
  rw [V5_eq]; unfold U6; rw [Function.update_self]
theorem V7_eq (c : Dev nD) : V7 m (outs m) c = U7 m c := by
  show StableHlo.after hostOps3 (V6 m (outs m) c) = _; rw [V6_eq]
theorem V8_eq (c : Dev nD) : V8 m (outs m) c = U8 m c := by
  show StableHlo.after hostOps3_1 (V7 m (outs m) c) = _; rw [V7_eq]
theorem V9_eq (c : Dev nD) : V9 m (outs m) c = U9 m c := by
  show Function.update (V8 m (outs m) c) main_v26 (U9 m c main_v26) = U9 m c
  rw [V8_eq]; unfold U9; rw [Function.update_self]
theorem V10_eq (c : Dev nD) : V10 m (outs m) c = U10 m c := by
  show Function.update (V9 m (outs m) c) main_v27 (U10 m c main_v27) = U10 m c
  rw [V9_eq]; unfold U10; rw [Function.update_self]
theorem V11_eq (c : Dev nD) : V11 m (outs m) c = U11 m c := by
  show StableHlo.after hostOps5 (V10 m (outs m) c) = _; rw [V10_eq]
theorem V12_eq (c : Dev nD) : V12 m (outs m) c = U12 m c := by
  show StableHlo.after hostOps5_1 (V11 m (outs m) c) = _; rw [V11_eq]
theorem V13_eq (c : Dev nD) : V13 m (outs m) c = U13 m c := by
  show Function.update (V12 m (outs m) c) main_v33 (U13 m c main_v33) = U13 m c
  rw [V12_eq]; unfold U13; rw [Function.update_self]
theorem V14_eq (c : Dev nD) : V14 m (outs m) c = U14 m c := by
  show StableHlo.after hostOps6 (V13 m (outs m) c) = _; rw [V13_eq]
theorem V15_eq (c : Dev nD) : V15 m (outs m) c = U15 m c := by
  show Function.update (V14 m (outs m) c) main_v36 (U15 m c main_v36) = U15 m c
  rw [V14_eq]; unfold U15; rw [Function.update_self]

/-! ## The proof data of every pipeline, each at its region's entry contents -/

/-- A literal match on the pipeline, so that the configuration at a numeral reduces to the printed one. -/
def pdats : (p : Fin 7) → (c : Dev nD) → Dat τ (Elt F) Unit ℕ (UR sig nD τ) ℕ (cfgs p) c
  | ⟨0, _⟩ => fun c => dat0 (atRefs (U1 m)) c
  | ⟨1, _⟩ => fun c => dat1 (atRefs (U4 m)) c
  | ⟨2, _⟩ => fun c => dat2 (atRefs (U5 m)) c
  | ⟨3, _⟩ => fun c => dat3 (atRefs (U8 m)) c
  | ⟨4, _⟩ => fun c => dat4 (atRefs (U9 m)) c
  | ⟨5, _⟩ => fun c => dat5 (atRefs (U12 m)) c
  | ⟨6, _⟩ => fun c => dat6 (atRefs (U14 m)) c

/-- No core owes another anything: no level is assigned, no variant is named. -/
abbrev 𝒱₀ : Variants := Variants.none
abbrev L : GSem nD τ sig → Finset Unit := fun _ => ∅
abbrev lv : GSem nD τ sig → Unit → ℕ := fun _ _ => 0

/-- What rides beside the buffers through every item: the core's generator register at some state and its owed counts,
    at nothing. -/
abbrev R (c : Dev nD) : sProp (MT nD τ sig Unit (Elt F) ℕ (UR sig nD τ) ℕ) :=
  iprop((∃ r, prngReg c r) ∗ ∃ W, owes (c : Thread nD τ) (0 : CellTallies nD τ sig Unit) W)

end Cert.KernelIdeal.Run
-- ==== Proof.KI.SegReg0.lean ====
/- Region 0 of the main program as a segment between two boundaries of the fold: what enters its pipeline, what
   bypasses it, and what its exit puts back.  Generic in the float interpretation. -/
import proofs.«431502_j9491877724720_3_alg».proof.Proof.KI.Fold
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an input array is never written and the fold
    keeps it, the output array is the fold's new entry. -/
theorem hF0 (c : Dev nD) (w : Fin cfg0.W) : (pdats m 0 c).arrAt w cfg0.N = atRefs (U2 m) c (Pipeline.arrRef spec0 w) := by
  match w with
  | ⟨0, _⟩ =>
    refine (((pdats m 0 c).arrAt_in 0 rfl _).trans (A_eq0 (atRefs (U1 m)) c 0)).trans ?_
    unfold U2; exact (Function.update_of_ne (StableHlo.devRef_ne_of_ne (by decide)) _ _).symm
  | ⟨1, _⟩ =>
    refine (((pdats m 0 c).arrAt_in 1 rfl _).trans (A_eq0 (atRefs (U1 m)) c 1)).trans ?_
    unfold U2; exact (Function.update_of_ne (StableHlo.devRef_ne_of_ne (by decide)) _ _).symm
  | ⟨2, _⟩ =>
    refine (((pdats m 0 c).arrAt_in 2 rfl _).trans (A_eq0 (atRefs (U1 m)) c 2)).trans ?_
    unfold U2; exact (Function.update_of_ne (StableHlo.devRef_ne_of_ne (by decide)) _ _).symm
  | ⟨3, _⟩ =>
    show _ = Function.update (U1 m c) (Proc.devRef .tc main_v13) _ (Proc.devRef .tc main_v13)
    rw [Function.update_self]; rfl

/-- and every other buffer what it held at entry. -/
theorem hrest0 (c : Dev nD) : ∀ b, b ∉ Finset.univ.image (Pipeline.arrRef spec0) → atRefs (U2 m) c b = atRefs (U1 m) c b := by
  intro b hb
  have hne : b ≠ main_v13 := fun e => hb (Finset.mem_image.mpr ⟨3, Finset.mem_univ _, e.symm⟩)
  unfold U2; exact Function.update_of_ne (StableHlo.devRef_ne_of_ne hne) _ _

-- a library lemma stated over the pinned configuration unifies with the printed one only when unification may unfold
-- plain definitions in a metavariable's type
set_option backward.isDefEq.respectTransparency.types false in
/-- REGION 0 over the thread state: entered from every unscoped buffer at the fold's contents before it, left at
    the contents after it. Its arrays are split out of the unscoped buffers and put back at the exit contents; the
    generator register goes into the class's invariant and comes out; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atRefs (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (U1 m) c) (atRefs (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run
-- ==== Proof.KI.SegReg1.lean ====
/- Region 1 of the main program as a segment between two boundaries of the fold: what enters its pipeline, what
   bypasses it, and what its exit puts back.  Generic in the float interpretation. -/
import proofs.«431502_j9491877724720_3_alg».proof.Proof.KI.Fold
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At region 1's exit each of its arrays holds what the pipeline leaves: an input array is never written and the fold
    keeps it, the output array is the fold's new entry. -/
theorem hF1 (c : Dev nD) (w : Fin cfg1.W) : (pdats m 1 c).arrAt w cfg1.N = atRefs (U5 m) c (Pipeline.arrRef spec1 w) := by
  match w with
  | ⟨0, _⟩ =>
    refine (((pdats m 1 c).arrAt_in 0 rfl _).trans (A_eq1 (atRefs (U4 m)) c 0)).trans ?_
    unfold U5; exact (Function.update_of_ne (StableHlo.devRef_ne_of_ne (by decide)) _ _).symm
  | ⟨1, _⟩ =>
    refine (((pdats m 1 c).arrAt_in 1 rfl _).trans (A_eq1 (atRefs (U4 m)) c 1)).trans ?_
    unfold U5; exact (Function.update_of_ne (StableHlo.devRef_ne_of_ne (by decide)) _ _).symm
  | ⟨2, _⟩ =>
    refine (((pdats m 1 c).arrAt_in 2 rfl _).trans (A_eq1 (atRefs (U4 m)) c 2)).trans ?_
    unfold U5; exact (Function.update_of_ne (StableHlo.devRef_ne_of_ne (by decide)) _ _).symm
  | ⟨3, _⟩ =>
    refine (((pdats m 1 c).arrAt_in 3 rfl _).trans (A_eq1 (atRefs (U4 m)) c 3)).trans ?_
    unfold U5; exact (Function.update_of_ne (StableHlo.devRef_ne_of_ne (by decide)) _ _).symm
  | ⟨4, _⟩ =>
    show _ = Function.update (U4 m c) (Proc.devRef .tc main_v19) _ (Proc.devRef .tc main_v19)
    rw [Function.update_self]; rfl

/-- and every other buffer what it held at entry. -/
theorem hrest1 (c : Dev nD) : ∀ b, b ∉ Finset.univ.image (Pipeline.arrRef spec1) → atRefs (U5 m) c b = atRefs (U4 m) c b := by
  intro b hb
  have hne : b ≠ main_v19 := fun e => hb (Finset.mem_image.mpr ⟨4, Finset.mem_univ _, e.symm⟩)
  unfold U5; exact Function.update_of_ne (StableHlo.devRef_ne_of_ne hne) _ _

-- a library lemma stated over the pinned configuration unifies with the printed one only when unification may unfold
-- plain definitions in a metavariable's type
set_option backward.isDefEq.respectTransparency.types false in
/-- REGION 1 over the thread state: entered from every unscoped buffer at the fold's contents before it, left at
    the contents after it. Its arrays are split out of the unscoped buffers and put back at the exit contents; the
    generator register goes into the class's invariant and comes out; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (U4 m)) c).loose
  hwaits := Pipeline.hwaits_of_owed_zero _ _ _ _ L lv 1 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec1 c (atRefs (U4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (U4 m) c) (atRefs (U5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run
-- ==== Proof.KI.SegReg2.lean ====
/- Region 2 of the main program as a segment between two boundaries of the fold: what enters its pipeline, what
   bypasses it, and what its exit puts back.  Generic in the float interpretation. -/
import proofs.«431502_j9491877724720_3_alg».proof.Proof.KI.Fold
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an input array is never written and the fold
    keeps it, the output array is the fold's new entry. -/
theorem hF2 (c : Dev nD) (w : Fin cfg2.W) : (pdats m 2 c).arrAt w cfg2.N = atRefs (U6 m) c (Pipeline.arrRef spec2 w) := by
  match w with
  | ⟨0, _⟩ =>
    refine (((pdats m 2 c).arrAt_in 0 rfl _).trans (A_eq2 (atRefs (U5 m)) c 0)).trans ?_
    unfold U6; exact (Function.update_of_ne (StableHlo.devRef_ne_of_ne (by decide)) _ _).symm
  | ⟨1, _⟩ =>
    refine (((pdats m 2 c).arrAt_in 1 rfl _).trans (A_eq2 (atRefs (U5 m)) c 1)).trans ?_
    unfold U6; exact (Function.update_of_ne (StableHlo.devRef_ne_of_ne (by decide)) _ _).symm
  | ⟨2, _⟩ =>
    refine (((pdats m 2 c).arrAt_in 2 rfl _).trans (A_eq2 (atRefs (U5 m)) c 2)).trans ?_
    unfold U6; exact (Function.update_of_ne (StableHlo.devRef_ne_of_ne (by decide)) _ _).symm
  | ⟨3, _⟩ =>
    show _ = Function.update (U5 m c) (Proc.devRef .tc main_v20) _ (Proc.devRef .tc main_v20)
    rw [Function.update_self]; rfl

/-- and every other buffer what it held at entry. -/
theorem hrest2 (c : Dev nD) : ∀ b, b ∉ Finset.univ.image (Pipeline.arrRef spec2) → atRefs (U6 m) c b = atRefs (U5 m) c b := by
  intro b hb
  have hne : b ≠ main_v20 := fun e => hb (Finset.mem_image.mpr ⟨3, Finset.mem_univ _, e.symm⟩)
  unfold U6; exact Function.update_of_ne (StableHlo.devRef_ne_of_ne hne) _ _

-- a library lemma stated over the pinned configuration unifies with the printed one only when unification may unfold
-- plain definitions in a metavariable's type
set_option backward.isDefEq.respectTransparency.types false in
/-- REGION 2 over the thread state: entered from every unscoped buffer at the fold's contents before it, left at
    the contents after it. Its arrays are split out of the unscoped buffers and put back at the exit contents; the
    generator register goes into the class's invariant and comes out; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (atRefs (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (U5 m) c) (atRefs (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run
-- ==== Proof.KI.SegReg3.lean ====
/- Region 3 of the main program as a segment between two boundaries of the fold: what enters its pipeline, what
   bypasses it, and what its exit puts back.  Generic in the float interpretation. -/
import proofs.«431502_j9491877724720_3_alg».proof.Proof.KI.Fold
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At region 3's exit each of its arrays holds what the pipeline leaves: an input array is never written and the fold
    keeps it, the output array is the fold's new entry. -/
theorem hF3 (c : Dev nD) (w : Fin cfg3.W) : (pdats m 3 c).arrAt w cfg3.N = atRefs (U9 m) c (Pipeline.arrRef spec3 w) := by
  match w with
  | ⟨0, _⟩ =>
    refine (((pdats m 3 c).arrAt_in 0 rfl _).trans (A_eq3 (atRefs (U8 m)) c 0)).trans ?_
    unfold U9; exact (Function.update_of_ne (StableHlo.devRef_ne_of_ne (by decide)) _ _).symm
  | ⟨1, _⟩ =>
    refine (((pdats m 3 c).arrAt_in 1 rfl _).trans (A_eq3 (atRefs (U8 m)) c 1)).trans ?_
    unfold U9; exact (Function.update_of_ne (StableHlo.devRef_ne_of_ne (by decide)) _ _).symm
  | ⟨2, _⟩ =>
    refine (((pdats m 3 c).arrAt_in 2 rfl _).trans (A_eq3 (atRefs (U8 m)) c 2)).trans ?_
    unfold U9; exact (Function.update_of_ne (StableHlo.devRef_ne_of_ne (by decide)) _ _).symm
  | ⟨3, _⟩ =>
    refine (((pdats m 3 c).arrAt_in 3 rfl _).trans (A_eq3 (atRefs (U8 m)) c 3)).trans ?_
    unfold U9; exact (Function.update_of_ne (StableHlo.devRef_ne_of_ne (by decide)) _ _).symm
  | ⟨4, _⟩ =>
    show _ = Function.update (U8 m c) (Proc.devRef .tc main_v26) _ (Proc.devRef .tc main_v26)
    rw [Function.update_self]; rfl

/-- and every other buffer what it held at entry. -/
theorem hrest3 (c : Dev nD) : ∀ b, b ∉ Finset.univ.image (Pipeline.arrRef spec3) → atRefs (U9 m) c b = atRefs (U8 m) c b := by
  intro b hb
  have hne : b ≠ main_v26 := fun e => hb (Finset.mem_image.mpr ⟨4, Finset.mem_univ _, e.symm⟩)
  unfold U9; exact Function.update_of_ne (StableHlo.devRef_ne_of_ne hne) _ _

-- a library lemma stated over the pinned configuration unifies with the printed one only when unification may unfold
-- plain definitions in a metavariable's type
set_option backward.isDefEq.respectTransparency.types false in
/-- REGION 3 over the thread state: entered from every unscoped buffer at the fold's contents before it, left at
    the contents after it. Its arrays are split out of the unscoped buffers and put back at the exit contents; the
    generator register goes into the class's invariant and comes out; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (U8 m)) c).loose
  hwaits := Pipeline.hwaits_of_owed_zero _ _ _ _ L lv 3 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec3 c (atRefs (U8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (U8 m) c) (atRefs (U9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run
-- ==== Proof.KI.SegReg4.lean ====
/- Region 4 of the main program as a segment between two boundaries of the fold: what enters its pipeline, what
   bypasses it, and what its exit puts back.  Generic in the float interpretation. -/
import proofs.«431502_j9491877724720_3_alg».proof.Proof.KI.Fold
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an input array is never written and the fold
    keeps it, the output array is the fold's new entry. -/
theorem hF4 (c : Dev nD) (w : Fin cfg4.W) : (pdats m 4 c).arrAt w cfg4.N = atRefs (U10 m) c (Pipeline.arrRef spec4 w) := by
  match w with
  | ⟨0, _⟩ =>
    refine (((pdats m 4 c).arrAt_in 0 rfl _).trans (A_eq4 (atRefs (U9 m)) c 0)).trans ?_
    unfold U10; exact (Function.update_of_ne (StableHlo.devRef_ne_of_ne (by decide)) _ _).symm
  | ⟨1, _⟩ =>
    refine (((pdats m 4 c).arrAt_in 1 rfl _).trans (A_eq4 (atRefs (U9 m)) c 1)).trans ?_
    unfold U10; exact (Function.update_of_ne (StableHlo.devRef_ne_of_ne (by decide)) _ _).symm
  | ⟨2, _⟩ =>
    refine (((pdats m 4 c).arrAt_in 2 rfl _).trans (A_eq4 (atRefs (U9 m)) c 2)).trans ?_
    unfold U10; exact (Function.update_of_ne (StableHlo.devRef_ne_of_ne (by decide)) _ _).symm
  | ⟨3, _⟩ =>
    show _ = Function.update (U9 m c) (Proc.devRef .tc main_v27) _ (Proc.devRef .tc main_v27)
    rw [Function.update_self]; rfl

/-- and every other buffer what it held at entry. -/
theorem hrest4 (c : Dev nD) : ∀ b, b ∉ Finset.univ.image (Pipeline.arrRef spec4) → atRefs (U10 m) c b = atRefs (U9 m) c b := by
  intro b hb
  have hne : b ≠ main_v27 := fun e => hb (Finset.mem_image.mpr ⟨3, Finset.mem_univ _, e.symm⟩)
  unfold U10; exact Function.update_of_ne (StableHlo.devRef_ne_of_ne hne) _ _

-- a library lemma stated over the pinned configuration unifies with the printed one only when unification may unfold
-- plain definitions in a metavariable's type
set_option backward.isDefEq.respectTransparency.types false in
/-- REGION 4 over the thread state: entered from every unscoped buffer at the fold's contents before it, left at
    the contents after it. Its arrays are split out of the unscoped buffers and put back at the exit contents; the
    generator register goes into the class's invariant and comes out; nothing is owed; the kernel has no semaphore of
    its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (U9 m)) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (atRefs (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (U9 m) c) (atRefs (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run
-- ==== Proof.KI.SegReg5.lean ====
/- Region 5 of the main program as a segment between two boundaries of the fold: what enters its pipeline, what
   bypasses it, and what its exit puts back.  Generic in the float interpretation. -/
import proofs.«431502_j9491877724720_3_alg».proof.Proof.KI.Fold
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At region 5's exit each of its arrays holds what the pipeline leaves: an input array is never written and the fold
    keeps it, the output array is the fold's new entry. -/
theorem hF5 (c : Dev nD) (w : Fin cfg5.W) : (pdats m 5 c).arrAt w cfg5.N = atRefs (U13 m) c (Pipeline.arrRef spec5 w) := by
  match w with
  | ⟨0, _⟩ =>
    refine (((pdats m 5 c).arrAt_in 0 rfl _).trans (A_eq5 (atRefs (U12 m)) c 0)).trans ?_
    unfold U13; exact (Function.update_of_ne (StableHlo.devRef_ne_of_ne (by decide)) _ _).symm
  | ⟨1, _⟩ =>
    refine (((pdats m 5 c).arrAt_in 1 rfl _).trans (A_eq5 (atRefs (U12 m)) c 1)).trans ?_
    unfold U13; exact (Function.update_of_ne (StableHlo.devRef_ne_of_ne (by decide)) _ _).symm
  | ⟨2, _⟩ =>
    refine (((pdats m 5 c).arrAt_in 2 rfl _).trans (A_eq5 (atRefs (U12 m)) c 2)).trans ?_
    unfold U13; exact (Function.update_of_ne (StableHlo.devRef_ne_of_ne (by decide)) _ _).symm
  | ⟨3, _⟩ =>
    refine (((pdats m 5 c).arrAt_in 3 rfl _).trans (A_eq5 (atRefs (U12 m)) c 3)).trans ?_
    unfold U13; exact (Function.update_of_ne (StableHlo.devRef_ne_of_ne (by decide)) _ _).symm
  | ⟨4, _⟩ =>
    show _ = Function.update (U12 m c) (Proc.devRef .tc main_v33) _ (Proc.devRef .tc main_v33)
    rw [Function.update_self]; rfl

/-- and every other buffer what it held at entry. -/
theorem hrest5 (c : Dev nD) : ∀ b, b ∉ Finset.univ.image (Pipeline.arrRef spec5) → atRefs (U13 m) c b = atRefs (U12 m) c b := by
  intro b hb
  have hne : b ≠ main_v33 := fun e => hb (Finset.mem_image.mpr ⟨4, Finset.mem_univ _, e.symm⟩)
  unfold U13; exact Function.update_of_ne (StableHlo.devRef_ne_of_ne hne) _ _

-- a library lemma stated over the pinned configuration unifies with the printed one only when unification may unfold
-- plain definitions in a metavariable's type
set_option backward.isDefEq.respectTransparency.types false in
/-- REGION 5 over the thread state: entered from every unscoped buffer at the fold's contents before it, left at
    the contents after it. Its arrays are split out of the unscoped buffers and put back at the exit contents; the
    generator register goes into the class's invariant and comes out; nothing is owed; the kernel has no semaphore of
    its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (U12 m)) c).loose
  hwaits := Pipeline.hwaits_of_owed_zero _ _ _ _ L lv 5 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec5 c (atRefs (U12 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (U12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (U12 m) c) (atRefs (U13 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run
-- ==== Proof.KI.SegReg6.lean ====
/- Region 6 of the main program as a segment between two boundaries of the fold: what enters its pipeline, what
   bypasses it, and what its exit puts back.  Generic in the float interpretation. -/
import proofs.«431502_j9491877724720_3_alg».proof.Proof.KI.Fold
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At region 6's exit each of its arrays holds what the pipeline leaves: an input array is never written and the fold
    keeps it, the output array is the fold's new entry. -/
theorem hF6 (c : Dev nD) (w : Fin cfg6.W) : (pdats m 6 c).arrAt w cfg6.N = atRefs (U15 m) c (Pipeline.arrRef spec6 w) := by
  match w with
  | ⟨0, _⟩ =>
    refine (((pdats m 6 c).arrAt_in 0 rfl _).trans (A_eq6 (atRefs (U14 m)) c 0)).trans ?_
    unfold U15; exact (Function.update_of_ne (StableHlo.devRef_ne_of_ne (by decide)) _ _).symm
  | ⟨1, _⟩ =>
    refine (((pdats m 6 c).arrAt_in 1 rfl _).trans (A_eq6 (atRefs (U14 m)) c 1)).trans ?_
    unfold U15; exact (Function.update_of_ne (StableHlo.devRef_ne_of_ne (by decide)) _ _).symm
  | ⟨2, _⟩ =>
    refine (((pdats m 6 c).arrAt_in 2 rfl _).trans (A_eq6 (atRefs (U14 m)) c 2)).trans ?_
    unfold U15; exact (Function.update_of_ne (StableHlo.devRef_ne_of_ne (by decide)) _ _).symm
  | ⟨3, _⟩ =>
    refine (((pdats m 6 c).arrAt_in 3 rfl _).trans (A_eq6 (atRefs (U14 m)) c 3)).trans ?_
    unfold U15; exact (Function.update_of_ne (StableHlo.devRef_ne_of_ne (by decide)) _ _).symm
  | ⟨4, _⟩ =>
    show _ = Function.update (U14 m c) (Proc.devRef .tc main_v36) _ (Proc.devRef .tc main_v36)
    rw [Function.update_self]; rfl

/-- and every other buffer what it held at entry. -/
theorem hrest6 (c : Dev nD) : ∀ b, b ∉ Finset.univ.image (Pipeline.arrRef spec6) → atRefs (U15 m) c b = atRefs (U14 m) c b := by
  intro b hb
  have hne : b ≠ main_v36 := fun e => hb (Finset.mem_image.mpr ⟨4, Finset.mem_univ _, e.symm⟩)
  unfold U15; exact Function.update_of_ne (StableHlo.devRef_ne_of_ne hne) _ _

-- a library lemma stated over the pinned configuration unifies with the printed one only when unification may unfold
-- plain definitions in a metavariable's type
set_option backward.isDefEq.respectTransparency.types false in
/-- REGION 6 over the thread state: entered from every unscoped buffer at the fold's contents before it, left at
    the contents after it. Its arrays are split out of the unscoped buffers and put back at the exit contents; the
    generator register and the scoped rest go into the pool's invariant (which also keeps the two running sums) and come out; nothing is owed; the kernel has no semaphore of
    its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atRefs (U14 m)) c).loose
  hwaits := Pipeline.hwaits_of_owed_zero _ _ _ _ L lv 6 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ R c)
  X c := iprop(∃ r, prngReg c r)
  Y c := iprop(∃ r, prngReg c r)
  Z c := Pipeline.unscopedRest (Ix := Unit) (Name := ℕ) (U := UR sig nD τ) (Lvl := ℕ) spec6 c (atRefs (U14 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atRefs (U14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (atRefs (U14 m)) c).Φ 0 from rfl]
    iintro ⟨Hp, -, Hr⟩
    iapply (Phi6_in (atRefs (U14 m)) c)
    isplitl [Hp]; · iexact Hp
    iexact Hr
  hout c := by
    rw [Pipeline.ownSems0_none, show (pdats m 6 c).Φ (Fin.last _) = (dat6 (atRefs (U14 m)) c).Φ (Fin.last cfg6.N) from rfl]
    refine (Phi6_out (atRefs (U14 m)) c).trans ?_
    iintro ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atRefs (U14 m) c) (atRefs (U15 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run
-- ==== Proof.KI.FrameVal.lean ====
/- The run of the main program: the launch over its fifteen items (eight host stretches, seven kernel regions), each
   region entered from the fold's contents before it and left at the contents after it.  Every weakly fair execution
   terminates and every unscoped buffer ends at the fold's last contents: the arguments as launched, the result at
   what the last region's write-back leaves.  Generic in the float interpretation. -/
import proofs.«431502_j9491877724720_3_alg».proof.Proof.KI.SegReg0
import proofs.«431502_j9491877724720_3_alg».proof.Proof.KI.SegReg1
import proofs.«431502_j9491877724720_3_alg».proof.Proof.KI.SegReg2
import proofs.«431502_j9491877724720_3_alg».proof.Proof.KI.SegReg3
import proofs.«431502_j9491877724720_3_alg».proof.Proof.KI.SegReg4
import proofs.«431502_j9491877724720_3_alg».proof.Proof.KI.SegReg5
import proofs.«431502_j9491877724720_3_alg».proof.Proof.KI.SegReg6

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal contents, the same thread state. -/
theorem held_congr {W W' : Valuation τ sig (Elt F)} (h : W = W') (c : Dev nD) (P : sProp 𝕄) :
    iprop(StableHlo.held (c : Thread nD τ) (Pipeline.ucRefs τ sig) W ∗ P)
      ⊢ iprop(StableHlo.held (c : Thread nD τ) (Pipeline.ucRefs τ sig) W' ∗ P) := by
  subst h; exact .rfl

/-- The last region's exit state is the last thread state beside the core owing nothing. -/
theorem last_state (c : Dev nD) :
    iprop(StableHlo.held (c : Thread nD τ) (Pipeline.ucRefs τ sig) (U15 m c) ∗ R (F := F) c)
      ⊢ iprop((StableHlo.held (c : Thread nD τ) (Pipeline.ucRefs τ sig) (U15 m c) ∗ ∃ r, prngReg c r)
          ∗ ∃ W, owes (c : Thread nD τ) (0 : CellTallies nD τ sig Unit) W) := by
  iintro ⟨Hh, Hp, Ho⟩
  isplitl [Hh Hp]
  · isplitl [Hh]; · iexact Hh
    iexact Hp
  iexact Ho

/-- The same rest rides along at every boundary. -/
abbrev Erest : Fin 8 → Dev nD → sProp 𝕄 := fun _ c => R c

-- the launch theorem's implicit arguments are found by unifying its conclusion with this one, which takes unfolding
-- plain definitions in a metavariable's type
set_option backward.isDefEq.respectTransparency.types false in
/-- From any memory with zero counters every weakly fair execution of the main program terminates, nothing faulting,
    and every unscoped buffer of every core ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U15 m c b) := by
  refine Pipeline.θ_run_regions_kit_dev (pcfgs (F := F)) adm (pdats m) () cellOf_inj emb₁ defs₀ 𝒱₀ L lv m ρ main
    (segs m (outs m) 𝒱₀ L lv (Erest (F := F)) () (pdats m) (reg0 m) (reg1 m) (reg2 m) (reg3 m) (reg4 m) (reg5 m) (reg6 m))
    (fun c Q => by
      rewrite [main_chain c, Seg.run_eq_chain,
        show (segs m (outs m) 𝒱₀ L lv (Erest (F := F)) () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          StableHlo.seq hostOps3_1,
          Prog.lift (.customCall (Pipeline.entry 3) ()),
          Prog.lift (.customCall (Pipeline.entry 4) ()),
          StableHlo.seq hostOps5,
          StableHlo.seq hostOps5_1,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (U15 m c) ∗ ∃ r, prngReg c r))
    (hch := fun c => ⟨.rfl, .rfl, held_congr (V2_eq m c).symm c _, .rfl,
      held_congr (congrArg (StableHlo.after hostOps1_1) (V3_eq m c)) c _,
      .rfl, held_congr (V6_eq m c).symm c _, .rfl,
      held_congr (congrArg (StableHlo.after hostOps3_1) (V7_eq m c)) c _,
      .rfl, held_congr (V10_eq m c).symm c _, .rfl,
      held_congr (congrArg (StableHlo.after hostOps5_1) (V11_eq m c)) c _,
      held_congr (V13_eq m c).symm c _,
      held_congr (congrArg (StableHlo.after hostOps6) (V13_eq m c)) c _,
      last_state m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U15 m c b)
    (hfin := fun c s' => by
      iintro ⟨⟨Hh, -⟩, HSI⟩
      unfold StableHlo.held
      imodintro
      iapply (pointsTo_read_all (Pipeline.ucRefs τ sig) (fun b => (((c : Thread nD τ)).1, b)) (U15 m c) s')
      isplitl [Hh] <;> iassumption)
    (hQ := fun s h c => h c)

end Cert.KernelIdeal.Run
-- ==== Proof.KI.Ends.lean ====
/- What the run leaves, read off the fold's last contents: every argument array as launched, and the result array at
   what the last region's one write-back leaves.  Generic in the float interpretation. -/
import proofs.«431502_j9491877724720_3_alg».proof.Proof.KI.FrameVal

set_option maxRecDepth 16384

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The result array at the end: the fold's new entry at the last region. -/
theorem U15_result (c : Dev nD) : U15 m c main_v36 = (dat6 (atRefs (U14 m)) c).arrAt 4 cfg6.N := by
  unfold U15; exact Function.update_self _ _ _

/-- The run with the result named and every argument as launched. -/
theorem run_val : θ_run defs (onTc (τ := τ) (main (F := F))) ⟨m, fun _ => 0, ρ⟩ (fun r => ∀ c : Dev nD,
      r.2.mem ((c.tc : Thread nD τ).loc main_v36) = (dat6 (atRefs (U14 m)) c).arrAt 4 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v36 (by decide))).trans (U15_result m c),
     (h c _ (mem_uc main_arg0 (by decide))).trans ((congrFun (V15_eq m c) _).symm.trans (V15_main_arg0 m (outs m) c)),
     (h c _ (mem_uc main_arg1 (by decide))).trans ((congrFun (V15_eq m c) _).symm.trans (V15_main_arg1 m (outs m) c)),
     (h c _ (mem_uc main_arg2 (by decide))).trans ((congrFun (V15_eq m c) _).symm.trans (V15_main_arg2 m (outs m) c)),
     (h c _ (mem_uc main_arg3 (by decide))).trans ((congrFun (V15_eq m c) _).symm.trans (V15_main_arg3 m (outs m) c)),
     (h c _ (mem_uc main_arg4 (by decide))).trans ((congrFun (V15_eq m c) _).symm.trans (V15_main_arg4 m (outs m) c)),
     (h c _ (mem_uc main_arg5 (by decide))).trans ((congrFun (V15_eq m c) _).symm.trans (V15_main_arg5 m (outs m) c)),
     (h c _ (mem_uc main_arg6 (by decide))).trans ((congrFun (V15_eq m c) _).symm.trans (V15_main_arg6 m (outs m) c)),
     (h c _ (mem_uc main_arg7 (by decide))).trans ((congrFun (V15_eq m c) _).symm.trans (V15_main_arg7 m (outs m) c)),
     (h c _ (mem_uc main_arg8 (by decide))).trans ((congrFun (V15_eq m c) _).symm.trans (V15_main_arg8 m (outs m) c)),
     (h c _ (mem_uc main_arg9 (by decide))).trans ((congrFun (V15_eq m c) _).symm.trans (V15_main_arg9 m (outs m) c)),
     (h c _ (mem_uc main_arg10 (by decide))).trans ((congrFun (V15_eq m c) _).symm.trans (V15_main_arg10 m (outs m) c))⟩)
    (run_all m ρ)

/-- The frame: the same run with the result dropped. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_val m ρ)

end Cert.KernelIdeal.Run
-- ==== Proof.KI.Val0.lean ====
/- Region 0 of the printed program at the ideal values: the region's output array after the region, element by
   element. The payload at an index of the block (a narrowing format change is the identity on the extended reals; the
   block product into a zero accumulator is the sum over the one contracted axis, re-indexed by its coordinate); each
   input block read through its window (block row y of point t is array row t * 10000 + y; the weights are one fixed
   block); what every point writes back is its block of ONE function of the three arrays; every row r is covered by
   the point r / 10000; so the array ends holding that function. -/
import proofs.«431502_j9491877724720_3_alg».proof.Proof.KI.Reg0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat)

/-! ## The matmul of the payload, read at an index -/

theorem lhs0_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs0_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs0_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs0_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at row y and column q: the sum over the contracted axis. -/
theorem mmval0 (A : FVec Ideal S10000x64 .bf16) (B : FVec Ideal S64x64 .bf16) (y : Fin 10000) (q : Fin 64) :
    (matmul dot_S10000x64_S64x64_S10000x64_1_0_0_1_n_n none A B (constant (F := Ideal) S10000x64 .f32 0x00000000#32) : FVec Ideal S10000x64 .f32) (ix2 y q)
      = ∑ k : Fin 64, (A (ix2 y k) : EReal) * (B (ix2 k q) : EReal) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 y q) ((contrEquiv1 dot_S10000x64_S64x64_S10000x64_1_0_0_1_n_n 64 rfl rfl).symm k) = ix2 y k := funext fun a => Fin.ext (by
    match a with
    | ⟨0, _⟩ => exact lhs0_0 _ _
    | ⟨1, _⟩ => exact (lhs0_1 _ _).trans hk)
  have er : dot_S10000x64_S64x64_S10000x64_1_0_0_1_n_n.rhsIdx (ix2 y q) ((contrEquiv1 dot_S10000x64_S64x64_S10000x64_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-- The payload at row y and column q of the block: the scale's element times the row of the first block against
    the column of the weights (a narrowing format change is the identity on the extended reals). -/
theorem payval0 (xa : Vec Ideal S10000x64 .f32) (xb : Vec Ideal S64x64 .f32) (xc : Vec Ideal S10000x64 .f32) (y : Fin 10000) (q : Fin 64) :
    (k0_pay1 (F := Ideal) xa xb xc : S10000x64.Idx → EReal) (ix2 y q)
      = (xc (ix2 y q) : EReal) * ∑ k : Fin 64, (xa (ix2 y k) : EReal) * (xb (ix2 k q) : EReal) := by
  unfold k0_pay1
  simp only [shapeCast_self]
  rw [mulf_apply, mmval0]
  rfl

/-! ## From blocks to the array -/

section Blocks
variable (V : (c : Dev nD) → (b : Ref sig .tc) → Buf (Elt Ideal) ((c : Thread nD τ).loc b))

theorem hz0 : (![0, 0] : Fin 2 → Nat) = fun _ => 0 := funext fun a => by fin_cases a <;> rfl

/-- The three input arrays of the region as the region finds them, as functions on their literal shapes. -/
abbrev arr0_0 (c : Dev nD) : S100000x64.Idx → EReal := V c (Pipeline.arrRef spec0 0)
abbrev arr0_1 (c : Dev nD) : S64x64.Idx → EReal := V c (Pipeline.arrRef spec0 1)
abbrev arr0_2 (c : Dev nD) : S100000x64.Idx → EReal := V c (Pipeline.arrRef spec0 2)

/-- What the output array ends holding: the scale array's element times the row of the first array against the
    column of the weights. -/
def G0 (xh : S100000x64.Idx → EReal) (xw : S64x64.Idx → EReal) (xd : S100000x64.Idx → EReal) : S100000x64.Idx → EReal :=
  fun i => xd i * ∑ k : Fin 64, xh (ix2 (i 0) k : S100000x64.Idx) * xw (ix2 k (i 1) : S64x64.Idx)

theorem Gval0 (xh : S100000x64.Idx → EReal) (xw : S64x64.Idx → EReal) (xd : S100000x64.Idx → EReal) (p : Fin 100000) (q : Fin 64) :
    G0 xh xw xd (ix2 p q) = xd (ix2 p q) * ∑ k : Fin 64, xh (ix2 p k) * xw (ix2 k q) := rfl

/-- The printed index maps, decided over the grid: the row-blocked windows are on row block t, the weights on their
    one block. -/
theorem idxfacts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row y, column k of window 0's block at point t is row t * 10000 + y, column k of its array. -/
theorem iblkval0_0 (c : Dev nD) (t : Fin cfg0.N) (y : Fin 10000) (k : Fin 64) (p : Fin 100000) (hp : p.val = t.val * 10000 + y.val) :
    (iblk0 V c 0 t : S10000x64.Idx → EReal) (ix2 y k) = (V c (Pipeline.arrRef spec0 0) : S100000x64.Idx → EReal) (ix2 p k) := by
  obtain ⟨ea, eb, -⟩ := idxfacts0 t
  unfold iblk0
  rw [View.read_apply]
  show (V c (Pipeline.arrRef spec0 0) : S100000x64.Idx → EReal) _ = _
  congr 1
  funext a
  apply Fin.ext
  match a with
  | ⟨0, _⟩ => show win0_0.index t (0 : Fin 2) * 10000 + 1 * y.val = p.val; omega
  | ⟨1, _⟩ => show win0_0.index t (1 : Fin 2) * 64 + 1 * k.val = k.val; omega

/-- Row k, column q of window 1's block (the weights' one block) is that element of its array, at every point. -/
theorem iblkval0_1 (c : Dev nD) (t : Fin cfg0.N) (k : Fin 64) (q : Fin 64) :
    (iblk0 V c 1 t : S64x64.Idx → EReal) (ix2 k q) = (V c (Pipeline.arrRef spec0 1) : S64x64.Idx → EReal) (ix2 k q) := by
  obtain ⟨-, -, ea, eb, -⟩ := idxfacts0 t
  unfold iblk0
  rw [View.read_apply]
  show (V c (Pipeline.arrRef spec0 1) : S64x64.Idx → EReal) _ = _
  congr 1
  funext a
  apply Fin.ext
  match a with
  | ⟨0, _⟩ => show win0_1.index t (0 : Fin 2) * 64 + 1 * k.val = k.val; omega
  | ⟨1, _⟩ => show win0_1.index t (1 : Fin 2) * 64 + 1 * q.val = q.val; omega

/-- Row y, column q of window 2's block at point t is row t * 10000 + y, column q of its array. -/
theorem iblkval0_2 (c : Dev nD) (t : Fin cfg0.N) (y : Fin 10000) (q : Fin 64) (p : Fin 100000) (hp : p.val = t.val * 10000 + y.val) :
    (iblk0 V c 2 t : S10000x64.Idx → EReal) (ix2 y q) = (V c (Pipeline.arrRef spec0 2) : S100000x64.Idx → EReal) (ix2 p q) := by
  obtain ⟨-, -, -, -, ea, eb, -⟩ := idxfacts0 t
  unfold iblk0
  rw [View.read_apply]
  show (V c (Pipeline.arrRef spec0 2) : S100000x64.Idx → EReal) _ = _
  congr 1
  funext a
  apply Fin.ext
  match a with
  | ⟨0, _⟩ => show win0_2.index t (0 : Fin 2) * 10000 + 1 * y.val = p.val; omega
  | ⟨1, _⟩ => show win0_2.index t (1 : Fin 2) * 64 + 1 * q.val = q.val; omega

/-- What the body leaves in the output window's buffer at point t, at row y and column q of the block: G0 of the
    three arrays at row t * 10000 + y, column q. -/
theorem outval0_3 (c : Dev nD) (t : Fin cfg0.N) (y : Fin 10000) (q : Fin 64) (p : Fin 100000) (hp : p.val = t.val * 10000 + y.val) :
    (out0_3 (iblk0 V c 0 t) (iblk0 V c 1 t) (iblk0 V c 2 t) : S10000x64.Idx → EReal) (ix2 y q)
      = G0 (V c (Pipeline.arrRef spec0 0)) (V c (Pipeline.arrRef spec0 1)) (V c (Pipeline.arrRef spec0 2)) (ix2 p q) := by
  unfold out0_3
  rw [View.canon_unit_zero hz0]
  simp only [View.ld_unit_zero (S := S10000x64) hz0, View.ld_unit_zero (S := S64x64) hz0]
  rw [payval0, Gval0, iblkval0_2 V c t y q p hp]
  congr 1
  refine Finset.sum_congr rfl fun k _ => ?_
  rw [iblkval0_0 V c t y k p hp, iblkval0_1 V c t k q]

/-- What point t writes back is block t of G0 of the arrays as the region finds them. -/
theorem flushedeq0_3 (c : Dev nD) (t : Fin cfg0.N) :
    (dat0 (F := Ideal) V c).flushed 3 t
      = ((cfg0.win 3).blk t).view.read (Elt Ideal) (G0 (V c (Pipeline.arrRef spec0 0)) (V c (Pipeline.arrRef spec0 1)) (V c (Pipeline.arrRef spec0 2))) := by
  show (cfg0.win 3).cut (grid0.coords t) ((dat0 V c).after 3 t) = _
  rw [after0_3]
  obtain ⟨-, -, -, -, -, -, ea, eb⟩ := idxfacts0 t
  have ht : t.val < 10 := t.isLt.trans_eq N_0
  funext j
  obtain ⟨y, q, rfl⟩ : ∃ (y : Fin 10000) (q : Fin 64), j = ix2 y q := ⟨j 0, j 1, eq_ix2 j⟩
  rw [View.read_apply]
  show (out0_3 (iblk0 V c 0 t) (iblk0 V c 1 t) (iblk0 V c 2 t) : S10000x64.Idx → EReal) (ix2 y q) = G0 _ _ _ (((cfg0.win 3).blk t).view.emb (ix2 y q))
  rw [outval0_3 V c t y q ⟨t.val * 10000 + y.val, by omega⟩ rfl]
  congr 1
  funext a
  apply Fin.ext
  match a with
  | ⟨0, _⟩ => show t.val * 10000 + y.val = win0_3.index t (0 : Fin 2) * 10000 + 1 * y.val; omega
  | ⟨1, _⟩ => show q.val = win0_3.index t (1 : Fin 2) * 64 + 1 * q.val; omega

/-- An index of the output array is in point t's block iff each coordinate is in the block's range on its axis. -/
theorem memblk0_3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole (Pipeline.arrRef spec0 3)).slice (win0_3.rect t)).set ↔ _
  rw [View.set_slice_whole, Rect.mem_set_unit]
  exact Iff.rfl

/-- Every index of the output array is in some point's block: row r is in the block of point r / 10000. -/
theorem covered0_3 (i : S100000x64.Idx) :
    ∃ t : Fin cfg0.N, (cfg0.win 3).flush t = true ∧ i ∈ ((cfg0.win 3).blk t).view.set := by
  have hia : (i 0).val < 100000 := (i 0).isLt
  have hib : (i 1).val < 64 := (i 1).isLt
  have hN : cfg0.N = 10 := N_0
  let t : Fin cfg0.N := ⟨(i 0).val / 10000, by rw [hN]; omega⟩
  have htv : t.val = (i 0).val / 10000 := rfl
  obtain ⟨-, -, -, -, -, -, ea, eb⟩ := idxfacts0 t
  refine ⟨t, flush0_3 t, ?_⟩
  rw [memblk0_3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the region, element by element. -/
theorem final0 (c : Dev nD) (p : Fin 100000) (q : Fin 64) :
    ((dat0 (F := Ideal) V c).arrAt 3 cfg0.N : S100000x64.Idx → EReal) (ix2 p q)
      = arr0_2 V c (ix2 p q) * ∑ k : Fin 64, arr0_0 V c (ix2 p k) * arr0_1 V c (ix2 k q) := by
  rw [(dat0 (F := Ideal) V c).arrAt_eq_of_cover 3 (G0 (V c (Pipeline.arrRef spec0 0)) (V c (Pipeline.arrRef spec0 1)) (V c (Pipeline.arrRef spec0 2)))
    (fun t _ => flushedeq0_3 V c t) covered0_3]
  rfl

end Blocks

end Cert.KernelIdeal.Run
-- ==== Proof.Spec.lean ====
/-
  The graph network both programs compute, element by element, over the extended reals.

  A node array is read as a function of a row and a column, an edge list as two words per edge (source, destination),
  a graph assignment as one word per node.  A layer is a linear map of the rows, a degree-normalised sum over the
  incoming edges with a self term, a bias and (for the first two layers) a rectifier; the head is a mean over the
  nodes of each graph followed by a linear map.  Two arrangements of a layer are stated: the one that scales a row
  before it is gathered and once more after the sum (netK), and the one that scales each edge's message by both ends'
  factors (netR).  They agree wherever every source word names a row (Gcn.SrcOk): Proof/Algebra.lean.
-/
import Idealize.ShloMosaic.PureOps.Ideal
import Idealize.ShloMosaic.Lib.ValueIdx

noncomputable section

open scoped BigOperators

namespace Gcn

open Idealize.ShloMosaic Idealize.ShloMosaic.ValueIdx

/-- The f32 words of zero and one, as the programs spell them. -/
abbrev lit0 : EReal := Ideal.ofBits .f32 0x00000000#32
abbrev lit1 : EReal := Ideal.ofBits .f32 0x3F800000#32

/-- An edge list: row 0 the source words, row 1 the destination words. -/
abbrev EdgeWords := Fin 2 → Fin 1600000 → BitVec 32
abbrev Feat := Fin 100000 → Fin 64 → EReal

def srcW (ei : EdgeWords) (e : Fin 1600000) : BitVec 32 := ei 0 e
def dstW (ei : EdgeWords) (e : Fin 1600000) : BitVec 32 := ei 1 e

/-- Every source word, read signed, names a row of the node table. -/
def SrcOk (ei : EdgeWords) : Prop := ∀ e, 0 ≤ (srcW ei e).toInt ∧ (srcW ei e).toInt < 100000

/-- The row a gather reads for an index word: read signed, clamped into the table. -/
def rowOf (w : BitVec 32) : Fin 100000 := ⟨min w.toInt.toNat 99999, by omega⟩

/-- jnp's index normalisation: a negative word wraps once around the table. -/
def wrapW (w : BitVec 32) : BitVec 32 := if w.slt 0#32 then w + 100000#32 else w

/-- A sum over the edges whose destination word, read signed and not clamped, is row `p`, from a zero base. -/
def segsum (ei : EdgeWords) (f : Fin 1600000 → EReal) (p : Fin 100000) : EReal :=
  lit0 + ∑ e : Fin 1600000, if (dstW ei e).toInt = (p.val : ℤ) then f e else 0

/-- In-degree plus one, and its inverse square root. -/
def deg (ei : EdgeWords) (p : Fin 100000) : EReal := segsum ei (fun _ => lit1) p + lit1
def dinv (ei : EdgeWords) (p : Fin 100000) : EReal := Ideal.rsqrt (deg ei p)

/-- A row times a 64 × 64 matrix. -/
def lin (h : Feat) (W : Fin 64 → Fin 64 → EReal) (p : Fin 100000) (q : Fin 64) : EReal := ∑ k : Fin 64, h p k * W k q

def act (relu : Bool) (x : EReal) : EReal := if relu then max x lit0 else x

/-- The layer as the kernel arranges it: rows scaled before the gather, the sum and the self term scaled after. -/
def hsK (ei : EdgeWords) (h : Feat) (W : Fin 64 → Fin 64 → EReal) : Feat := fun p q => dinv ei p * lin h W p q
def aggK (ei : EdgeWords) (hs : Feat) : Feat := fun p q => segsum ei (fun e => hs (rowOf (srcW ei e)) q) p
def convK (relu : Bool) (ei : EdgeWords) (h : Feat) (W : Fin 64 → Fin 64 → EReal) (b : Fin 64 → EReal) : Feat := fun p q =>
  act relu (dinv ei p * (aggK ei (hsK ei h W) p q + hsK ei h W p q) + b q)

/-- The layer as the reference arranges it: each message scaled by both ends' factors, the self term by the square. -/
def convR (relu : Bool) (ei : EdgeWords) (h : Feat) (W : Fin 64 → Fin 64 → EReal) (b : Fin 64 → EReal) : Feat := fun p q =>
  act relu ((segsum ei (fun e => (dinv ei (rowOf (wrapW (srcW ei e))) * dinv ei (rowOf (wrapW (dstW ei e))))
      * lin h W (rowOf (wrapW (srcW ei e))) q) p
    + (dinv ei p * dinv ei p) * lin h W p q) + b q)

/-- The sum of a column over the nodes of graph `g`, from a zero base, and the number of its nodes. -/
def gsum (batch : Fin 100000 → BitVec 32) (f : Fin 100000 → EReal) (g : Fin 64) : EReal :=
  lit0 + ∑ n : Fin 100000, if (batch n).toInt = (g.val : ℤ) then f n else 0
def gcnt (batch : Fin 100000 → BitVec 32) (g : Fin 64) : EReal := gsum batch (fun _ => lit1) g

/-- The head: the graph's mean row (the count clamped below by one) times a 64 × 2 matrix, plus a bias. -/
def head (batch : Fin 100000 → BitVec 32) (h : Feat) (Wl : Fin 64 → Fin 2 → EReal) (bl : Fin 2 → EReal)
    (g : Fin 64) (k : Fin 2) : EReal :=
  (∑ j : Fin 64, Ideal.div (gsum batch (fun n => h n j) g) (max (gcnt batch g) lit1) * Wl j k) + bl k

def netK (ei : EdgeWords) (x : Feat) (W1 : Fin 64 → Fin 64 → EReal) (b1 : Fin 64 → EReal) (W2 : Fin 64 → Fin 64 → EReal)
    (b2 : Fin 64 → EReal) (W3 : Fin 64 → Fin 64 → EReal) (b3 : Fin 64 → EReal) (batch : Fin 100000 → BitVec 32)
    (Wl : Fin 64 → Fin 2 → EReal) (bl : Fin 2 → EReal) : Fin 64 → Fin 2 → EReal :=
  head batch (convK false ei (convK true ei (convK true ei x W1 b1) W2 b2) W3 b3) Wl bl

def netR (ei : EdgeWords) (x : Feat) (W1 : Fin 64 → Fin 64 → EReal) (b1 : Fin 64 → EReal) (W2 : Fin 64 → Fin 64 → EReal)
    (b2 : Fin 64 → EReal) (W3 : Fin 64 → Fin 64 → EReal) (b3 : Fin 64 → EReal) (batch : Fin 100000 → BitVec 32)
    (Wl : Fin 64 → Fin 2 → EReal) (bl : Fin 2 → EReal) : Fin 64 → Fin 2 → EReal :=
  head batch (convR false ei (convR true ei (convR true ei x W1 b1) W2 b2) W3 b3) Wl bl

/-- The same two networks over the eleven argument arrays as the programs hold them (index functions of the literal
    shapes): x, the edge list, the graph assignment, three weight / bias pairs, the head's weight and bias. -/
def netKA (a0 : (⟨2, ![100000, 64]⟩ : Shape).Idx → EReal) (a1 : (⟨2, ![2, 1600000]⟩ : Shape).Idx → BitVec 32)
    (a2 : (⟨1, ![100000]⟩ : Shape).Idx → BitVec 32) (a3 : (⟨2, ![64, 64]⟩ : Shape).Idx → EReal) (a4 : (⟨1, ![64]⟩ : Shape).Idx → EReal)
    (a5 : (⟨2, ![64, 64]⟩ : Shape).Idx → EReal) (a6 : (⟨1, ![64]⟩ : Shape).Idx → EReal) (a7 : (⟨2, ![64, 64]⟩ : Shape).Idx → EReal)
    (a8 : (⟨1, ![64]⟩ : Shape).Idx → EReal) (a9 : (⟨2, ![64, 2]⟩ : Shape).Idx → EReal) (a10 : (⟨1, ![2]⟩ : Shape).Idx → EReal) :
    Fin 64 → Fin 2 → EReal :=
  netK (fun r e => a1 (ix2 r e)) (fun p q => a0 (ix2 p q)) (fun k q => a3 (ix2 k q)) (fun q => a4 (ix1 q))
    (fun k q => a5 (ix2 k q)) (fun q => a6 (ix1 q)) (fun k q => a7 (ix2 k q)) (fun q => a8 (ix1 q))
    (fun n => a2 (ix1 n)) (fun j k => a9 (ix2 j k)) (fun k => a10 (ix1 k))

def netRA (a0 : (⟨2, ![100000, 64]⟩ : Shape).Idx → EReal) (a1 : (⟨2, ![2, 1600000]⟩ : Shape).Idx → BitVec 32)
    (a2 : (⟨1, ![100000]⟩ : Shape).Idx → BitVec 32) (a3 : (⟨2, ![64, 64]⟩ : Shape).Idx → EReal) (a4 : (⟨1, ![64]⟩ : Shape).Idx → EReal)
    (a5 : (⟨2, ![64, 64]⟩ : Shape).Idx → EReal) (a6 : (⟨1, ![64]⟩ : Shape).Idx → EReal) (a7 : (⟨2, ![64, 64]⟩ : Shape).Idx → EReal)
    (a8 : (⟨1, ![64]⟩ : Shape).Idx → EReal) (a9 : (⟨2, ![64, 2]⟩ : Shape).Idx → EReal) (a10 : (⟨1, ![2]⟩ : Shape).Idx → EReal) :
    Fin 64 → Fin 2 → EReal :=
  netR (fun r e => a1 (ix2 r e)) (fun p q => a0 (ix2 p q)) (fun k q => a3 (ix2 k q)) (fun q => a4 (ix1 q))
    (fun k q => a5 (ix2 k q)) (fun q => a6 (ix1 q)) (fun k q => a7 (ix2 k q)) (fun q => a8 (ix1 q))
    (fun n => a2 (ix1 n)) (fun j k => a9 (ix2 j k)) (fun k => a10 (ix1 k))

/-- Every source word of the edge list as the programs hold it names a row. -/
def SrcOkA (a1 : (⟨2, ![2, 1600000]⟩ : Shape).Idx → BitVec 32) : Prop := SrcOk (fun r e => a1 (ix2 r e))

end Gcn

end
-- ==== Proof.KI.Val1.lean ====
/- The value of region 1's output array after the region, element by element, over the extended reals, at a
   PARAMETER V (the buffer contents when the region is entered): row p, column q of the output is
   max (d p q * (a p q + h p q) + b 0 q) 0, where a, h, d are the three arrays of 100000 rows read in row blocks of
   10000 and b is the one row of 64 entries. The payload is read at an index; block row y of point t is array row
   t * 10000 + y; the ten blocks written back cover the array. -/
import proofs.«431502_j9491877724720_3_alg».proof.Proof.KI.Reg1
import proofs.«431502_j9491877724720_3_alg».proof.Proof.Spec
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)

/-! ## The payload at an index -/

/-- The offsets of a whole-block access are all zero. -/
theorem zero_off1 : (![0, 0] : Fin 2 → Nat) = fun _ => 0 := funext fun a => by
  match a with
  | ⟨0, _⟩ => rfl
  | ⟨1, _⟩ => rfl

/-- The payload read at row p, column q of the block: the row of 64 entries is read at column q whatever the row, the
    splat of the zero word is that word everywhere, the other operations are pointwise. -/
theorem pay1_apply (xC xA xB : Vec Ideal S10000x64 .f32) (xD : Vec Ideal S1x64 .f32) (p : Fin 10000) (q : Fin 64) :
    (k1_pay1 xC xA xB xD : S10000x64.Idx → EReal) (ix2 p q)
      = max ((xC : S10000x64.Idx → EReal) (ix2 p q) * ((xA : S10000x64.Idx → EReal) (ix2 p q) + (xB : S10000x64.Idx → EReal) (ix2 p q))
          + (xD : S1x64.Idx → EReal) (ix2 (0 : Fin 1) q)) Gcn.lit0 := by
  unfold k1_pay1
  simp only [shapeCast_self]
  rw [maximumf_apply, addf_apply, mulf_apply, addf_apply, broadcast_apply,
    broadcastTo_apply xD broadcasts_S1x64_S10000x64 (ix2 p q) (ix2 (0 : Fin 1) q) (fun a => by
      match a with
      | ⟨0, _⟩ => rfl
      | ⟨1, _⟩ => rfl)]
  rfl

/-! ## From blocks to the array -/

variable (V : (c : Dev nD) → (b : Ref sig .tc) → Buf (Elt Ideal) ((c : Thread nD τ).loc b))

/-- The four arrays the region reads, as it finds them, as functions of an index into the extended reals. -/
abbrev arr1_0 (c : Dev nD) : S100000x64.Idx → EReal := V c (Pipeline.arrRef spec1 0)
abbrev arr1_1 (c : Dev nD) : S100000x64.Idx → EReal := V c (Pipeline.arrRef spec1 1)
abbrev arr1_2 (c : Dev nD) : S100000x64.Idx → EReal := V c (Pipeline.arrRef spec1 2)
abbrev arr1_3 (c : Dev nD) : S1x64.Idx → EReal := V c (Pipeline.arrRef spec1 3)

/-- What the output array ends holding: at each index the operations above of the four arrays. -/
abbrev G1 (aA aB aC : S100000x64.Idx → EReal) (aD : S1x64.Idx → EReal) : S100000x64.Idx → EReal := fun i =>
  max (aC i * (aA i + aB i) + aD (ix2 (0 : Fin 1) (⟨(i 1).val, (i 1).isLt⟩ : Fin 64))) Gcn.lit0

/-- The printed index maps, decided over the ten grid points: the three row-block inputs and the output are at block
    (t, 0) at point t, the one row at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block, column q, as an index of the array of 100000 rows. -/
abbrev row1 (t : Fin cfg1.N) (p : Fin 10000) (q : Fin 64) : S100000x64.Idx :=
  ix2 (⟨t.val * 10000 + p.val, by have := t.isLt; have := p.isLt; have hN : cfg1.N = 10 := N_1; omega⟩ : Fin 100000) q

/-- Each window's block at point t, read at row p and column q of the block, is its array at row t * 10000 + p. -/
theorem emb1_0 (t : Fin cfg1.N) (p : Fin 10000) (q : Fin 64) : ((cfg1.win 0).blk t).view.emb (ix2 p q) = row1 t p q := by
  obtain ⟨eR, eC, -⟩ := idx_facts1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * q.val = q.val; omega
theorem emb1_1 (t : Fin cfg1.N) (p : Fin 10000) (q : Fin 64) : ((cfg1.win 1).blk t).view.emb (ix2 p q) = row1 t p q := by
  obtain ⟨-, -, eR, eC, -⟩ := idx_facts1 t
  funext a; apply Fin.ext
  match a with
  | ⟨0, _⟩ => show win1_1.index t (0 : Fin 2) * 10000 + 1 * p.val = t.val * 10000 + p.val; omega
  | ⟨1, _⟩ => show win1_1.index t (1 : Fin 2) * 64 + 1 * q.val = q.val; omega
theorem emb1_2 (t : Fin cfg1.N) (p : Fin 10000) (q : Fin 64) : ((cfg1.win 2).blk t).view.emb (ix2 p q) = row1 t p q := by
  obtain ⟨-, -, -, -, eR, eC, -⟩ := idx_facts1 t
  funext a; apply Fin.ext
  match a with
  | ⟨0, _⟩ => show win1_2.index t (0 : Fin 2) * 10000 + 1 * p.val = t.val * 10000 + p.val; omega
  | ⟨1, _⟩ => show win1_2.index t (1 : Fin 2) * 64 + 1 * q.val = q.val; omega
/-- The one row's block is the whole row at every point. -/
theorem emb1_3 (t : Fin cfg1.N) (q : Fin 64) : ((cfg1.win 3).blk t).view.emb (ix2 (0 : Fin 1) q) = ix2 (0 : Fin 1) q := by
  obtain ⟨-, -, -, -, -, -, eR, eC, -⟩ := idx_facts1 t
  funext a; apply Fin.ext
  match a with
  | ⟨0, _⟩ => show win1_3.index t (0 : Fin 2) * 1 + 1 * 0 = 0; omega
  | ⟨1, _⟩ => show win1_3.index t (1 : Fin 2) * 64 + 1 * q.val = q.val; omega
theorem emb1_4 (t : Fin cfg1.N) (p : Fin 10000) (q : Fin 64) : ((cfg1.win 4).blk t).view.emb (ix2 p q) = row1 t p q := by
  obtain ⟨-, -, -, -, -, -, -, -, eR, eC⟩ := idx_facts1 t
  funext a; apply Fin.ext
  match a with
  | ⟨0, _⟩ => show win1_4.index t (0 : Fin 2) * 10000 + 1 * p.val = t.val * 10000 + p.val; omega
  | ⟨1, _⟩ => show win1_4.index t (1 : Fin 2) * 64 + 1 * q.val = q.val; omega

/-- Each input block read at row p, column q is its array at row t * 10000 + p (the one row: at its column q). -/
theorem iblk1_0_apply (c : Dev nD) (t : Fin cfg1.N) (p : Fin 10000) (q : Fin 64) :
    (iblk1 V c 0 t : Vec Ideal S10000x64 .f32) (ix2 p q) = arr1_0 V c (row1 t p q) := by
  show arr1_0 V c (((cfg1.win 0).blk t).view.emb (ix2 p q)) = _
  rw [emb1_0]
theorem iblk1_1_apply (c : Dev nD) (t : Fin cfg1.N) (p : Fin 10000) (q : Fin 64) :
    (iblk1 V c 1 t : Vec Ideal S10000x64 .f32) (ix2 p q) = arr1_1 V c (row1 t p q) := by
  show arr1_1 V c (((cfg1.win 1).blk t).view.emb (ix2 p q)) = _
  rw [emb1_1]
theorem iblk1_2_apply (c : Dev nD) (t : Fin cfg1.N) (p : Fin 10000) (q : Fin 64) :
    (iblk1 V c 2 t : Vec Ideal S10000x64 .f32) (ix2 p q) = arr1_2 V c (row1 t p q) := by
  show arr1_2 V c (((cfg1.win 2).blk t).view.emb (ix2 p q)) = _
  rw [emb1_2]
theorem iblk1_3_apply (c : Dev nD) (t : Fin cfg1.N) (q : Fin 64) :
    (iblk1 V c 3 t : Vec Ideal S1x64 .f32) (ix2 (0 : Fin 1) q) = arr1_3 V c (ix2 (0 : Fin 1) q) := by
  show arr1_3 V c (((cfg1.win 3).blk t).view.emb (ix2 (0 : Fin 1) q)) = _
  rw [emb1_3]
/-- A whole-array function read through the output's block at point t. -/
theorem read1_4_apply (G : S100000x64.Idx → EReal) (t : Fin cfg1.N) (p : Fin 10000) (q : Fin 64) :
    (((cfg1.win 4).blk t).view.read (Elt Ideal) G : S10000x64.Idx → EReal) (ix2 p q) = G (row1 t p q) := by
  show G (((cfg1.win 4).blk t).view.emb (ix2 p q)) = _
  rw [emb1_4]

/-- WHAT POINT t WRITES BACK is block t of G1 of the arrays as the region finds them. -/
theorem flushed1_eq (c : Dev nD) (t : Fin cfg1.N) :
    (dat1 (F := Ideal) V c).flushed 4 t = ((cfg1.win 4).blk t).view.read (Elt Ideal)
      (G1 (arr1_0 V c) (arr1_1 V c) (arr1_2 V c) (arr1_3 V c)) := by
  show (cfg1.win 4).cut (grid1.coords t) ((dat1 V c).after 4 t) = _
  rw [after1_4]
  unfold out1_4
  rw [View.canon_unit_zero zero_off1]
  simp only [View.ld_unit_zero (S := S10000x64) zero_off1, View.ld_unit_zero (S := S1x64) zero_off1]
  funext j
  obtain ⟨p, q, rfl⟩ : ∃ (p : Fin 10000) (q : Fin 64), j = ix2 p q := ⟨j 0, j 1, eq_ix2 j⟩
  refine (pay1_apply (iblk1 V c 2 t) (iblk1 V c 0 t) (iblk1 V c 1 t) (iblk1 V c 3 t) p q).trans ?_
  refine Eq.trans ?_ (read1_4_apply _ t p q).symm
  rw [iblk1_0_apply, iblk1_1_apply, iblk1_2_apply, iblk1_3_apply]

/-- An index of the array is in point t's block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole (Pipeline.arrRef spec1 4)).slice (win1_4.rect t)).set ↔ _
  rw [View.set_slice_whole, Rect.mem_set_unit]
  exact Iff.rfl

/-- Every index of the array is in the block of the point its row falls in: row r is in block r / 10000. -/
theorem cover1 (i : S100000x64.Idx) : ∃ t : Fin cfg1.N, (cfg1.win 4).flush t = true ∧ i ∈ ((cfg1.win 4).blk t).view.set := by
  have hR : (i 0).val < 100000 := (i 0).isLt
  have hC : (i 1).val < 64 := (i 1).isLt
  have hN : cfg1.N = 10 := N_1
  refine ⟨⟨(i 0).val / 10000, by omega⟩, flush1_4 _, ?_⟩
  rw [mem_blk1]
  obtain ⟨-, -, -, -, -, -, -, -, eR, eC⟩ := idx_facts1 ⟨(i 0).val / 10000, by omega⟩
  intro a
  match a with
  | ⟨0, _⟩ =>
    show win1_4.index ⟨(i 0).val / 10000, _⟩ (0 : Fin 2) * 10000 ≤ (i 0).val ∧ (i 0).val < win1_4.index ⟨(i 0).val / 10000, _⟩ (0 : Fin 2) * 10000 + 10000
    rw [eR]; show (i 0).val / 10000 * 10000 ≤ (i 0).val ∧ (i 0).val < (i 0).val / 10000 * 10000 + 10000; omega
  | ⟨1, _⟩ =>
    show win1_4.index ⟨(i 0).val / 10000, _⟩ (1 : Fin 2) * 64 ≤ (i 1).val ∧ (i 1).val < win1_4.index ⟨(i 0).val / 10000, _⟩ (1 : Fin 2) * 64 + 64
    rw [eC]; omega

/-- THE ARRAY after the region, element by element. -/
theorem final1 (c : Dev nD) (p : Fin 100000) (q : Fin 64) :
    ((dat1 (F := Ideal) V c).arrAt 4 cfg1.N : S100000x64.Idx → EReal) (ix2 p q)
      = max (arr1_2 V c (ix2 p q) * (arr1_0 V c (ix2 p q) + arr1_1 V c (ix2 p q)) + arr1_3 V c (ix2 (0 : Fin 1) q)) Gcn.lit0 := by
  rw [(dat1 (F := Ideal) V c).arrAt_eq_of_cover 4 (G1 (arr1_0 V c) (arr1_1 V c) (arr1_2 V c) (arr1_3 V c))
    (fun t _ => flushed1_eq V c t) cover1]

end Cert.KernelIdeal.Run
-- ==== Proof.KI.Val2.lean ====
/- Region 2 of the printed program at the ideal values: the region's output array after the region, element by
   element. The payload at an index of the block (a narrowing format change is the identity on the extended reals; the
   block product into a zero accumulator is the sum over the one contracted axis, re-indexed by its coordinate); each
   input block read through its window (block row y of point t is array row t * 10000 + y; the weights are one fixed
   block); what every point writes back is its block of ONE function of the three arrays; every row r is covered by
   the point r / 10000; so the array ends holding that function. -/
import proofs.«431502_j9491877724720_3_alg».proof.Proof.KI.Reg2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat)

/-! ## The matmul of the payload, read at an index -/

theorem lhs2_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs2_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs2_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs2_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at row y and column q: the sum over the contracted axis. -/
theorem mmval2 (A : FVec Ideal S10000x64 .bf16) (B : FVec Ideal S64x64 .bf16) (y : Fin 10000) (q : Fin 64) :
    (matmul dot_S10000x64_S64x64_S10000x64_1_0_0_1_n_n none A B (constant (F := Ideal) S10000x64 .f32 0x00000000#32) : FVec Ideal S10000x64 .f32) (ix2 y q)
      = ∑ k : Fin 64, (A (ix2 y k) : EReal) * (B (ix2 k q) : EReal) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 y q) ((contrEquiv1 dot_S10000x64_S64x64_S10000x64_1_0_0_1_n_n 64 rfl rfl).symm k) = ix2 y k := funext fun a => Fin.ext (by
    match a with
    | ⟨0, _⟩ => exact lhs2_0 _ _
    | ⟨1, _⟩ => exact (lhs2_1 _ _).trans hk)
  have er : dot_S10000x64_S64x64_S10000x64_1_0_0_1_n_n.rhsIdx (ix2 y q) ((contrEquiv1 dot_S10000x64_S64x64_S10000x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- The payload at row y and column q of the block: the scale's element times the row of the first block against
    the column of the weights (a narrowing format change is the identity on the extended reals). -/
theorem payval2 (xa : Vec Ideal S10000x64 .f32) (xb : Vec Ideal S64x64 .f32) (xc : Vec Ideal S10000x64 .f32) (y : Fin 10000) (q : Fin 64) :
    (k2_pay1 (F := Ideal) xa xb xc : S10000x64.Idx → EReal) (ix2 y q)
      = (xc (ix2 y q) : EReal) * ∑ k : Fin 64, (xa (ix2 y k) : EReal) * (xb (ix2 k q) : EReal) := by
  unfold k2_pay1
  simp only [shapeCast_self]
  rw [mulf_apply, mmval2]
  rfl

/-! ## From blocks to the array -/

section Blocks
variable (V : (c : Dev nD) → (b : Ref sig .tc) → Buf (Elt Ideal) ((c : Thread nD τ).loc b))

theorem hz2 : (![0, 0] : Fin 2 → Nat) = fun _ => 0 := funext fun a => by fin_cases a <;> rfl

/-- The three input arrays of the region as the region finds them, as functions on their literal shapes. -/
abbrev arr2_0 (c : Dev nD) : S100000x64.Idx → EReal := V c (Pipeline.arrRef spec2 0)
abbrev arr2_1 (c : Dev nD) : S64x64.Idx → EReal := V c (Pipeline.arrRef spec2 1)
abbrev arr2_2 (c : Dev nD) : S100000x64.Idx → EReal := V c (Pipeline.arrRef spec2 2)

/-- What the output array ends holding: the scale array's element times the row of the first array against the
    column of the weights. -/
def G2 (xh : S100000x64.Idx → EReal) (xw : S64x64.Idx → EReal) (xd : S100000x64.Idx → EReal) : S100000x64.Idx → EReal :=
  fun i => xd i * ∑ k : Fin 64, xh (ix2 (i 0) k : S100000x64.Idx) * xw (ix2 k (i 1) : S64x64.Idx)

theorem Gval2 (xh : S100000x64.Idx → EReal) (xw : S64x64.Idx → EReal) (xd : S100000x64.Idx → EReal) (p : Fin 100000) (q : Fin 64) :
    G2 xh xw xd (ix2 p q) = xd (ix2 p q) * ∑ k : Fin 64, xh (ix2 p k) * xw (ix2 k q) := rfl

/-- The printed index maps, decided over the grid: the row-blocked windows are on row block t, the weights on their
    one block. -/
theorem idxfacts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row y, column k of window 0's block at point t is row t * 10000 + y, column k of its array. -/
theorem iblkval2_0 (c : Dev nD) (t : Fin cfg2.N) (y : Fin 10000) (k : Fin 64) (p : Fin 100000) (hp : p.val = t.val * 10000 + y.val) :
    (iblk2 V c 0 t : S10000x64.Idx → EReal) (ix2 y k) = (V c (Pipeline.arrRef spec2 0) : S100000x64.Idx → EReal) (ix2 p k) := by
  obtain ⟨ea, eb, -⟩ := idxfacts2 t
  unfold iblk2
  rw [View.read_apply]
  show (V c (Pipeline.arrRef spec2 0) : S100000x64.Idx → EReal) _ = _
  congr 1
  funext a
  apply Fin.ext
  match a with
  | ⟨0, _⟩ => show win2_0.index t (0 : Fin 2) * 10000 + 1 * y.val = p.val; omega
  | ⟨1, _⟩ => show win2_0.index t (1 : Fin 2) * 64 + 1 * k.val = k.val; omega

/-- Row k, column q of window 1's block (the weights' one block) is that element of its array, at every point. -/
theorem iblkval2_1 (c : Dev nD) (t : Fin cfg2.N) (k : Fin 64) (q : Fin 64) :
    (iblk2 V c 1 t : S64x64.Idx → EReal) (ix2 k q) = (V c (Pipeline.arrRef spec2 1) : S64x64.Idx → EReal) (ix2 k q) := by
  obtain ⟨-, -, ea, eb, -⟩ := idxfacts2 t
  unfold iblk2
  rw [View.read_apply]
  show (V c (Pipeline.arrRef spec2 1) : S64x64.Idx → EReal) _ = _
  congr 1
  funext a
  apply Fin.ext
  match a with
  | ⟨0, _⟩ => show win2_1.index t (0 : Fin 2) * 64 + 1 * k.val = k.val; omega
  | ⟨1, _⟩ => show win2_1.index t (1 : Fin 2) * 64 + 1 * q.val = q.val; omega

/-- Row y, column q of window 2's block at point t is row t * 10000 + y, column q of its array. -/
theorem iblkval2_2 (c : Dev nD) (t : Fin cfg2.N) (y : Fin 10000) (q : Fin 64) (p : Fin 100000) (hp : p.val = t.val * 10000 + y.val) :
    (iblk2 V c 2 t : S10000x64.Idx → EReal) (ix2 y q) = (V c (Pipeline.arrRef spec2 2) : S100000x64.Idx → EReal) (ix2 p q) := by
  obtain ⟨-, -, -, -, ea, eb, -⟩ := idxfacts2 t
  unfold iblk2
  rw [View.read_apply]
  show (V c (Pipeline.arrRef spec2 2) : S100000x64.Idx → EReal) _ = _
  congr 1
  funext a
  apply Fin.ext
  match a with
  | ⟨0, _⟩ => show win2_2.index t (0 : Fin 2) * 10000 + 1 * y.val = p.val; omega
  | ⟨1, _⟩ => show win2_2.index t (1 : Fin 2) * 64 + 1 * q.val = q.val; omega

/-- What the body leaves in the output window's buffer at point t, at row y and column q of the block: G2 of the
    three arrays at row t * 10000 + y, column q. -/
theorem outval2_3 (c : Dev nD) (t : Fin cfg2.N) (y : Fin 10000) (q : Fin 64) (p : Fin 100000) (hp : p.val = t.val * 10000 + y.val) :
    (out2_3 (iblk2 V c 0 t) (iblk2 V c 1 t) (iblk2 V c 2 t) : S10000x64.Idx → EReal) (ix2 y q)
      = G2 (V c (Pipeline.arrRef spec2 0)) (V c (Pipeline.arrRef spec2 1)) (V c (Pipeline.arrRef spec2 2)) (ix2 p q) := by
  unfold out2_3
  rw [View.canon_unit_zero hz2]
  simp only [View.ld_unit_zero (S := S10000x64) hz2, View.ld_unit_zero (S := S64x64) hz2]
  rw [payval2, Gval2, iblkval2_2 V c t y q p hp]
  congr 1
  refine Finset.sum_congr rfl fun k _ => ?_
  rw [iblkval2_0 V c t y k p hp, iblkval2_1 V c t k q]

/-- What point t writes back is block t of G2 of the arrays as the region finds them. -/
theorem flushedeq2_3 (c : Dev nD) (t : Fin cfg2.N) :
    (dat2 (F := Ideal) V c).flushed 3 t
      = ((cfg2.win 3).blk t).view.read (Elt Ideal) (G2 (V c (Pipeline.arrRef spec2 0)) (V c (Pipeline.arrRef spec2 1)) (V c (Pipeline.arrRef spec2 2))) := by
  show (cfg2.win 3).cut (grid2.coords t) ((dat2 V c).after 3 t) = _
  rw [after2_3]
  obtain ⟨-, -, -, -, -, -, ea, eb⟩ := idxfacts2 t
  have ht : t.val < 10 := t.isLt.trans_eq N_2
  funext j
  obtain ⟨y, q, rfl⟩ : ∃ (y : Fin 10000) (q : Fin 64), j = ix2 y q := ⟨j 0, j 1, eq_ix2 j⟩
  rw [View.read_apply]
  show (out2_3 (iblk2 V c 0 t) (iblk2 V c 1 t) (iblk2 V c 2 t) : S10000x64.Idx → EReal) (ix2 y q) = G2 _ _ _ (((cfg2.win 3).blk t).view.emb (ix2 y q))
  rw [outval2_3 V c t y q ⟨t.val * 10000 + y.val, by omega⟩ rfl]
  congr 1
  funext a
  apply Fin.ext
  match a with
  | ⟨0, _⟩ => show t.val * 10000 + y.val = win2_3.index t (0 : Fin 2) * 10000 + 1 * y.val; omega
  | ⟨1, _⟩ => show q.val = win2_3.index t (1 : Fin 2) * 64 + 1 * q.val; omega

/-- An index of the output array is in point t's block iff each coordinate is in the block's range on its axis. -/
theorem memblk2_3 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole (Pipeline.arrRef spec2 3)).slice (win2_3.rect t)).set ↔ _
  rw [View.set_slice_whole, Rect.mem_set_unit]
  exact Iff.rfl

/-- Every index of the output array is in some point's block: row r is in the block of point r / 10000. -/
theorem covered2_3 (i : S100000x64.Idx) :
    ∃ t : Fin cfg2.N, (cfg2.win 3).flush t = true ∧ i ∈ ((cfg2.win 3).blk t).view.set := by
  have hia : (i 0).val < 100000 := (i 0).isLt
  have hib : (i 1).val < 64 := (i 1).isLt
  have hN : cfg2.N = 10 := N_2
  let t : Fin cfg2.N := ⟨(i 0).val / 10000, by rw [hN]; omega⟩
  have htv : t.val = (i 0).val / 10000 := rfl
  obtain ⟨-, -, -, -, -, -, ea, eb⟩ := idxfacts2 t
  refine ⟨t, flush2_3 t, ?_⟩
  rw [memblk2_3]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after the region, element by element. -/
theorem final2 (c : Dev nD) (p : Fin 100000) (q : Fin 64) :
    ((dat2 (F := Ideal) V c).arrAt 3 cfg2.N : S100000x64.Idx → EReal) (ix2 p q)
      = arr2_2 V c (ix2 p q) * ∑ k : Fin 64, arr2_0 V c (ix2 p k) * arr2_1 V c (ix2 k q) := by
  rw [(dat2 (F := Ideal) V c).arrAt_eq_of_cover 3 (G2 (V c (Pipeline.arrRef spec2 0)) (V c (Pipeline.arrRef spec2 1)) (V c (Pipeline.arrRef spec2 2)))
    (fun t _ => flushedeq2_3 V c t) covered2_3]
  rfl

end Blocks

end Cert.KernelIdeal.Run
-- ==== Proof.KI.Val3.lean ====
/- The value of region 3's output array after the region, element by element, over the extended reals, at a
   PARAMETER V (the buffer contents when the region is entered): row p, column q of the output is
   max (d p q * (a p q + h p q) + b 0 q) 0, where a, h, d are the three arrays of 100000 rows read in row blocks of
   10000 and b is the one row of 64 entries. The payload is read at an index; block row y of point t is array row
   t * 10000 + y; the ten blocks written back cover the array. -/
import proofs.«431502_j9491877724720_3_alg».proof.Proof.KI.Reg3
import proofs.«431502_j9491877724720_3_alg».proof.Proof.Spec
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)

/-! ## The payload at an index -/

/-- The offsets of a whole-block access are all zero. -/
theorem zero_off3 : (![0, 0] : Fin 2 → Nat) = fun _ => 0 := funext fun a => by
  match a with
  | ⟨0, _⟩ => rfl
  | ⟨1, _⟩ => rfl

/-- The payload read at row p, column q of the block: the row of 64 entries is read at column q whatever the row, the
    splat of the zero word is that word everywhere, the other operations are pointwise. -/
theorem pay3_apply (xC xA xB : Vec Ideal S10000x64 .f32) (xD : Vec Ideal S1x64 .f32) (p : Fin 10000) (q : Fin 64) :
    (k3_pay1 xC xA xB xD : S10000x64.Idx → EReal) (ix2 p q)
      = max ((xC : S10000x64.Idx → EReal) (ix2 p q) * ((xA : S10000x64.Idx → EReal) (ix2 p q) + (xB : S10000x64.Idx → EReal) (ix2 p q))
          + (xD : S1x64.Idx → EReal) (ix2 (0 : Fin 1) q)) Gcn.lit0 := by
  unfold k3_pay1
  simp only [shapeCast_self]
  rw [maximumf_apply, addf_apply, mulf_apply, addf_apply, broadcast_apply,
    broadcastTo_apply xD broadcasts_S1x64_S10000x64 (ix2 p q) (ix2 (0 : Fin 1) q) (fun a => by
      match a with
      | ⟨0, _⟩ => rfl
      | ⟨1, _⟩ => rfl)]
  rfl

/-! ## From blocks to the array -/

variable (V : (c : Dev nD) → (b : Ref sig .tc) → Buf (Elt Ideal) ((c : Thread nD τ).loc b))

/-- The four arrays the region reads, as it finds them, as functions of an index into the extended reals. -/
abbrev arr3_0 (c : Dev nD) : S100000x64.Idx → EReal := V c (Pipeline.arrRef spec3 0)
abbrev arr3_1 (c : Dev nD) : S100000x64.Idx → EReal := V c (Pipeline.arrRef spec3 1)
abbrev arr3_2 (c : Dev nD) : S100000x64.Idx → EReal := V c (Pipeline.arrRef spec3 2)
abbrev arr3_3 (c : Dev nD) : S1x64.Idx → EReal := V c (Pipeline.arrRef spec3 3)

/-- What the output array ends holding: at each index the operations above of the four arrays. -/
abbrev G3 (aA aB aC : S100000x64.Idx → EReal) (aD : S1x64.Idx → EReal) : S100000x64.Idx → EReal := fun i =>
  max (aC i * (aA i + aB i) + aD (ix2 (0 : Fin 1) (⟨(i 1).val, (i 1).isLt⟩ : Fin 64))) Gcn.lit0

/-- The printed index maps, decided over the ten grid points: the three row-block inputs and the output are at block
    (t, 0) at point t, the one row at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of point t's block, column q, as an index of the array of 100000 rows. -/
abbrev row3 (t : Fin cfg3.N) (p : Fin 10000) (q : Fin 64) : S100000x64.Idx :=
  ix2 (⟨t.val * 10000 + p.val, by have := t.isLt; have := p.isLt; have hN : cfg3.N = 10 := N_3; omega⟩ : Fin 100000) q

/-- Each window's block at point t, read at row p and column q of the block, is its array at row t * 10000 + p. -/
theorem emb3_0 (t : Fin cfg3.N) (p : Fin 10000) (q : Fin 64) : ((cfg3.win 0).blk t).view.emb (ix2 p q) = row3 t p q := by
  obtain ⟨eR, eC, -⟩ := idx_facts3 t
  funext a; apply Fin.ext
  match a with
  | ⟨0, _⟩ => show win3_0.index t (0 : Fin 2) * 10000 + 1 * p.val = t.val * 10000 + p.val; omega
  | ⟨1, _⟩ => show win3_0.index t (1 : Fin 2) * 64 + 1 * q.val = q.val; omega
theorem emb3_1 (t : Fin cfg3.N) (p : Fin 10000) (q : Fin 64) : ((cfg3.win 1).blk t).view.emb (ix2 p q) = row3 t p q := by
  obtain ⟨-, -, eR, eC, -⟩ := idx_facts3 t
  funext a; apply Fin.ext
  match a with
  | ⟨0, _⟩ => show win3_1.index t (0 : Fin 2) * 10000 + 1 * p.val = t.val * 10000 + p.val; omega
  | ⟨1, _⟩ => show win3_1.index t (1 : Fin 2) * 64 + 1 * q.val = q.val; omega
theorem emb3_2 (t : Fin cfg3.N) (p : Fin 10000) (q : Fin 64) : ((cfg3.win 2).blk t).view.emb (ix2 p q) = row3 t p q := by
  obtain ⟨-, -, -, -, eR, eC, -⟩ := idx_facts3 t
  funext a; apply Fin.ext
  match a with
  | ⟨0, _⟩ => show win3_2.index t (0 : Fin 2) * 10000 + 1 * p.val = t.val * 10000 + p.val; omega
  | ⟨1, _⟩ => show win3_2.index t (1 : Fin 2) * 64 + 1 * q.val = q.val; omega
/-- The one row's block is the whole row at every point. -/
theorem emb3_3 (t : Fin cfg3.N) (q : Fin 64) : ((cfg3.win 3).blk t).view.emb (ix2 (0 : Fin 1) q) = ix2 (0 : Fin 1) q := by
  obtain ⟨-, -, -, -, -, -, eR, eC, -⟩ := idx_facts3 t
  funext a; apply Fin.ext
  match a with
  | ⟨0, _⟩ => show win3_3.index t (0 : Fin 2) * 1 + 1 * 0 = 0; omega
  | ⟨1, _⟩ => show win3_3.index t (1 : Fin 2) * 64 + 1 * q.val = q.val; omega
theorem emb3_4 (t : Fin cfg3.N) (p : Fin 10000) (q : Fin 64) : ((cfg3.win 4).blk t).view.emb (ix2 p q) = row3 t p q := by
  obtain ⟨-, -, -, -, -, -, -, -, eR, eC⟩ := idx_facts3 t
  funext a; apply Fin.ext
  match a with
  | ⟨0, _⟩ => show win3_4.index t (0 : Fin 2) * 10000 + 1 * p.val = t.val * 10000 + p.val; omega
  | ⟨1, _⟩ => show win3_4.index t (1 : Fin 2) * 64 + 1 * q.val = q.val; omega

/-- Each input block read at row p, column q is its array at row t * 10000 + p (the one row: at its column q). -/
theorem iblk3_0_apply (c : Dev nD) (t : Fin cfg3.N) (p : Fin 10000) (q : Fin 64) :
    (iblk3 V c 0 t : Vec Ideal S10000x64 .f32) (ix2 p q) = arr3_0 V c (row3 t p q) := by
  show arr3_0 V c (((cfg3.win 0).blk t).view.emb (ix2 p q)) = _
  rw [emb3_0]
theorem iblk3_1_apply (c : Dev nD) (t : Fin cfg3.N) (p : Fin 10000) (q : Fin 64) :
    (iblk3 V c 1 t : Vec Ideal S10000x64 .f32) (ix2 p q) = arr3_1 V c (row3 t p q) := by
  show arr3_1 V c (((cfg3.win 1).blk t).view.emb (ix2 p q)) = _
  rw [emb3_1]
theorem iblk3_2_apply (c : Dev nD) (t : Fin cfg3.N) (p : Fin 10000) (q : Fin 64) :
    (iblk3 V c 2 t : Vec Ideal S10000x64 .f32) (ix2 p q) = arr3_2 V c (row3 t p q) := by
  show arr3_2 V c (((cfg3.win 2).blk t).view.emb (ix2 p q)) = _
  rw [emb3_2]
theorem iblk3_3_apply (c : Dev nD) (t : Fin cfg3.N) (q : Fin 64) :
    (iblk3 V c 3 t : Vec Ideal S1x64 .f32) (ix2 (0 : Fin 1) q) = arr3_3 V c (ix2 (0 : Fin 1) q) := by
  show arr3_3 V c (((cfg3.win 3).blk t).view.emb (ix2 (0 : Fin 1) q)) = _
  rw [emb3_3]
/-- A whole-array function read through the output's block at point t. -/
theorem read3_4_apply (G : S100000x64.Idx → EReal) (t : Fin cfg3.N) (p : Fin 10000) (q : Fin 64) :
    (((cfg3.win 4).blk t).view.read (Elt Ideal) G : S10000x64.Idx → EReal) (ix2 p q) = G (row3 t p q) := by
  show G (((cfg3.win 4).blk t).view.emb (ix2 p q)) = _
  rw [emb3_4]

/-- WHAT POINT t WRITES BACK is block t of G3 of the arrays as the region finds them. -/
theorem flushed3_eq (c : Dev nD) (t : Fin cfg3.N) :
    (dat3 (F := Ideal) V c).flushed 4 t = ((cfg3.win 4).blk t).view.read (Elt Ideal)
      (G3 (arr3_0 V c) (arr3_1 V c) (arr3_2 V c) (arr3_3 V c)) := by
  show (cfg3.win 4).cut (grid3.coords t) ((dat3 V c).after 4 t) = _
  rw [after3_4]
  unfold out3_4
  rw [View.canon_unit_zero zero_off3]
  simp only [View.ld_unit_zero (S := S10000x64) zero_off3, View.ld_unit_zero (S := S1x64) zero_off3]
  funext j
  obtain ⟨p, q, rfl⟩ : ∃ (p : Fin 10000) (q : Fin 64), j = ix2 p q := ⟨j 0, j 1, eq_ix2 j⟩
  refine (pay3_apply (iblk3 V c 2 t) (iblk3 V c 0 t) (iblk3 V c 1 t) (iblk3 V c 3 t) p q).trans ?_
  refine Eq.trans ?_ (read3_4_apply _ t p q).symm
  rw [iblk3_0_apply, iblk3_1_apply, iblk3_2_apply, iblk3_3_apply]

/-- An index of the array is in point t's block iff each coordinate is in the block's range on its axis. -/
theorem mem_blk3 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole (Pipeline.arrRef spec3 4)).slice (win3_4.rect t)).set ↔ _
  rw [View.set_slice_whole, Rect.mem_set_unit]
  exact Iff.rfl

/-- Every index of the array is in the block of the point its row falls in: row r is in block r / 10000. -/
theorem cover3 (i : S100000x64.Idx) : ∃ t : Fin cfg3.N, (cfg3.win 4).flush t = true ∧ i ∈ ((cfg3.win 4).blk t).view.set := by
  have hR : (i 0).val < 100000 := (i 0).isLt
  have hC : (i 1).val < 64 := (i 1).isLt
  have hN : cfg3.N = 10 := N_3
  refine ⟨⟨(i 0).val / 10000, by omega⟩, flush3_4 _, ?_⟩
  rw [mem_blk3]
  obtain ⟨-, -, -, -, -, -, -, -, eR, eC⟩ := idx_facts3 ⟨(i 0).val / 10000, by omega⟩
  intro a
  match a with
  | ⟨0, _⟩ =>
    show win3_4.index ⟨(i 0).val / 10000, _⟩ (0 : Fin 2) * 10000 ≤ (i 0).val ∧ (i 0).val < win3_4.index ⟨(i 0).val / 10000, _⟩ (0 : Fin 2) * 10000 + 10000
    rw [eR]; show (i 0).val / 10000 * 10000 ≤ (i 0).val ∧ (i 0).val < (i 0).val / 10000 * 10000 + 10000; omega
  | ⟨1, _⟩ =>
    show win3_4.index ⟨(i 0).val / 10000, _⟩ (1 : Fin 2) * 64 ≤ (i 1).val ∧ (i 1).val < win3_4.index ⟨(i 0).val / 10000, _⟩ (1 : Fin 2) * 64 + 64
    rw [eC]; omega

/-- THE ARRAY after the region, element by element. -/
theorem final3 (c : Dev nD) (p : Fin 100000) (q : Fin 64) :
    ((dat3 (F := Ideal) V c).arrAt 4 cfg3.N : S100000x64.Idx → EReal) (ix2 p q)
      = max (arr3_2 V c (ix2 p q) * (arr3_0 V c (ix2 p q) + arr3_1 V c (ix2 p q)) + arr3_3 V c (ix2 (0 : Fin 1) q)) Gcn.lit0 := by
  rw [(dat3 (F := Ideal) V c).arrAt_eq_of_cover 4 (G3 (arr3_0 V c) (arr3_1 V c) (arr3_2 V c) (arr3_3 V c))
    (fun t _ => flushed3_eq V c t) cover3]

end Cert.KernelIdeal.Run
-- ==== Proof.KI.Val4.lean ====
/- Region 4 of the printed program at the ideal values: the region's output array after the region, element by
   element. The payload at an index of the block (a narrowing format change is the identity on the extended reals; the
   block product into a zero accumulator is the sum over the one contracted axis, re-indexed by its coordinate); each
   input block read through its window (block row y of point t is array row t * 10000 + y; the weights are one fixed
   block); what every point writes back is its block of ONE function of the three arrays; every row r is covered by
   the point r / 10000; so the array ends holding that function. -/
import proofs.«431502_j9491877724720_3_alg».proof.Proof.KI.Reg4
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat)

/-! ## The matmul of the payload, read at an index -/

theorem lhs4_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs4_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs4_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs4_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at row y and column q: the sum over the contracted axis. -/
theorem mmval4 (A : FVec Ideal S10000x64 .bf16) (B : FVec Ideal S64x64 .bf16) (y : Fin 10000) (q : Fin 64) :
    (matmul dot_S10000x64_S64x64_S10000x64_1_0_0_1_n_n none A B (constant (F := Ideal) S10000x64 .f32 0x00000000#32) : FVec Ideal S10000x64 .f32) (ix2 y q)
      = ∑ k : Fin 64, (A (ix2 y k) : EReal) * (B (ix2 k q) : EReal) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 y q) ((contrEquiv1 dot_S10000x64_S64x64_S10000x64_1_0_0_1_n_n 64 rfl rfl).symm k) = ix2 y k := funext fun a => Fin.ext (by
    match a with
    | ⟨0, _⟩ => exact lhs4_0 _ _
    | ⟨1, _⟩ => exact (lhs4_1 _ _).trans hk)
  have er : dot_S10000x64_S64x64_S10000x64_1_0_0_1_n_n.rhsIdx (ix2 y q) ((contrEquiv1 dot_S10000x64_S64x64_S10000x64_1_0_0_1_n_n 64 rfl rfl).symm k) = ix2 k q := funext fun a => Fin.ext (by
    match a with
    | ⟨0, _⟩ => exact (rhs4_0 _ _).trans hk
    | ⟨1, _⟩ => exact rhs4_1 _ _)
  rw [el, er]

/-- The payload at row y and column q of the block: the scale's element times the row of the first block against
    the column of the weights (a narrowing format change is the identity on the extended reals). -/
theorem payval4 (xa : Vec Ideal S10000x64 .f32) (xb : Vec Ideal S64x64 .f32) (xc : Vec Ideal S10000x64 .f32) (y : Fin 10000) (q : Fin 64) :
    (k4_pay1 (F := Ideal) xa xb xc : S10000x64.Idx → EReal) (ix2 y q)
      = (xc (ix2 y q) : EReal) * ∑ k : Fin 64, (xa (ix2 y k) : EReal) * (xb (ix2 k q) : EReal) := by
  unfold k4_pay1
  simp only [shapeCast_self]
  rw [mulf_apply, mmval4]
  rfl

/-! ## From blocks to the array -/

section Blocks
variable (V : (c : Dev nD) → (b : Ref sig .tc) → Buf (Elt Ideal) ((c : Thread nD τ).loc b))

theorem hz4 : (![0, 0] : Fin 2 → Nat) = fun _ => 0 := funext fun a => by fin_cases a <;> rfl

/-- The three input arrays of the region as the region finds them, as functions on their literal shapes. -/
abbrev arr4_0 (c : Dev nD) : S100000x64.Idx → EReal := V c (Pipeline.arrRef spec4 0)
abbrev arr4_1 (c : Dev nD) : S64x64.Idx → EReal := V c (Pipeline.arrRef spec4 1)
abbrev arr4_2 (c : Dev nD) : S100000x64.Idx → EReal := V c (Pipeline.arrRef spec4 2)

/-- What the output array ends holding: the scale array's element times the row of the first array against the
    column of the weights. -/
def G4 (xh : S100000x64.Idx → EReal) (xw : S64x64.Idx → EReal) (xd : S100000x64.Idx → EReal) : S100000x64.Idx → EReal :=
  fun i => xd i * ∑ k : Fin 64, xh (ix2 (i 0) k : S100000x64.Idx) * xw (ix2 k (i 1) : S64x64.Idx)

theorem Gval4 (xh : S100000x64.Idx → EReal) (xw : S64x64.Idx → EReal) (xd : S100000x64.Idx → EReal) (p : Fin 100000) (q : Fin 64) :
    G4 xh xw xd (ix2 p q) = xd (ix2 p q) * ∑ k : Fin 64, xh (ix2 p k) * xw (ix2 k q) := rfl

/-- The printed index maps, decided over the grid: the row-blocked windows are on row block t, the weights on their
    one block. -/
theorem idxfacts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row y, column k of window 0's block at point t is row t * 10000 + y, column k of its array. -/
theorem iblkval4_0 (c : Dev nD) (t : Fin cfg4.N) (y : Fin 10000) (k : Fin 64) (p : Fin 100000) (hp : p.val = t.val * 10000 + y.val) :
    (iblk4 V c 0 t : S10000x64.Idx → EReal) (ix2 y k) = (V c (Pipeline.arrRef spec4 0) : S100000x64.Idx → EReal) (ix2 p k) := by
  obtain ⟨ea, eb, -⟩ := idxfacts4 t
  unfold iblk4
  rw [View.read_apply]
  show (V c (Pipeline.arrRef spec4 0) : S100000x64.Idx → EReal) _ = _
  congr 1
  funext a
  apply Fin.ext
  match a with
  | ⟨0, _⟩ => show win4_0.index t (0 : Fin 2) * 10000 + 1 * y.val = p.val; omega
  | ⟨1, _⟩ => show win4_0.index t (1 : Fin 2) * 64 + 1 * k.val = k.val; omega

/-- Row k, column q of window 1's block (the weights' one block) is that element of its array, at every point. -/
theorem iblkval4_1 (c : Dev nD) (t : Fin cfg4.N) (k : Fin 64) (q : Fin 64) :
    (iblk4 V c 1 t : S64x64.Idx → EReal) (ix2 k q) = (V c (Pipeline.arrRef spec4 1) : S64x64.Idx → EReal) (ix2 k q) := by
  obtain ⟨-, -, ea, eb, -⟩ := idxfacts4 t
  unfold iblk4
  rw [View.read_apply]
  show (V c (Pipeline.arrRef spec4 1) : S64x64.Idx → EReal) _ = _
  congr 1
  funext a
  apply Fin.ext
  match a with
  | ⟨0, _⟩ => show win4_1.index t (0 : Fin 2) * 64 + 1 * k.val = k.val; omega
  | ⟨1, _⟩ => show win4_1.index t (1 : Fin 2) * 64 + 1 * q.val = q.val; omega

/-- Row y, column q of window 2's block at point t is row t * 10000 + y, column q of its array. -/
theorem iblkval4_2 (c : Dev nD) (t : Fin cfg4.N) (y : Fin 10000) (q : Fin 64) (p : Fin 100000) (hp : p.val = t.val * 10000 + y.val) :
    (iblk4 V c 2 t : S10000x64.Idx → EReal) (ix2 y q) = (V c (Pipeline.arrRef spec4 2) : S100000x64.Idx → EReal) (ix2 p q) := by
  obtain ⟨-, -, -, -, ea, eb, -⟩ := idxfacts4 t
  unfold iblk4
  rw [View.read_apply]
  show (V c (Pipeline.arrRef spec4 2) : S100000x64.Idx → EReal) _ = _
  congr 1
  funext a
  apply Fin.ext
  match a with
  | ⟨0, _⟩ => show win4_2.index t (0 : Fin 2) * 10000 + 1 * y.val = p.val; omega
  | ⟨1, _⟩ => show win4_2.index t (1 : Fin 2) * 64 + 1 * q.val = q.val; omega

/-- What the body leaves in the output window's buffer at point t, at row y and column q of the block: G4 of the
    three arrays at row t * 10000 + y, column q. -/
theorem outval4_3 (c : Dev nD) (t : Fin cfg4.N) (y : Fin 10000) (q : Fin 64) (p : Fin 100000) (hp : p.val = t.val * 10000 + y.val) :
    (out4_3 (iblk4 V c 0 t) (iblk4 V c 1 t) (iblk4 V c 2 t) : S10000x64.Idx → EReal) (ix2 y q)
      = G4 (V c (Pipeline.arrRef spec4 0)) (V c (Pipeline.arrRef spec4 1)) (V c (Pipeline.arrRef spec4 2)) (ix2 p q) := by
  unfold out4_3
  rw [View.canon_unit_zero hz4]
  simp only [View.ld_unit_zero (S := S10000x64) hz4, View.ld_unit_zero (S := S64x64) hz4]
  rw [payval4, Gval4, iblkval4_2 V c t y q p hp]
  congr 1
  refine Finset.sum_congr rfl fun k _ => ?_
  rw [iblkval4_0 V c t y k p hp, iblkval4_1 V c t k q]

/-- What point t writes back is block t of G4 of the arrays as the region finds them. -/
theorem flushedeq4_3 (c : Dev nD) (t : Fin cfg4.N) :
    (dat4 (F := Ideal) V c).flushed 3 t
      = ((cfg4.win 3).blk t).view.read (Elt Ideal) (G4 (V c (Pipeline.arrRef spec4 0)) (V c (Pipeline.arrRef spec4 1)) (V c (Pipeline.arrRef spec4 2))) := by
  show (cfg4.win 3).cut (grid4.coords t) ((dat4 V c).after 3 t) = _
  rw [after4_3]
  obtain ⟨-, -, -, -, -, -, ea, eb⟩ := idxfacts4 t
  have ht : t.val < 10 := t.isLt.trans_eq N_4
  funext j
  obtain ⟨y, q, rfl⟩ : ∃ (y : Fin 10000) (q : Fin 64), j = ix2 y q := ⟨j 0, j 1, eq_ix2 j⟩
  rw [View.read_apply]
  show (out4_3 (iblk4 V c 0 t) (iblk4 V c 1 t) (iblk4 V c 2 t) : S10000x64.Idx → EReal) (ix2 y q) = G4 _ _ _ (((cfg4.win 3).blk t).view.emb (ix2 y q))
  rw [outval4_3 V c t y q ⟨t.val * 10000 + y.val, by omega⟩ rfl]
  congr 1
  funext a
  apply Fin.ext
  match a with
  | ⟨0, _⟩ => show t.val * 10000 + y.val = win4_3.index t (0 : Fin 2) * 10000 + 1 * y.val; omega
  | ⟨1, _⟩ => show q.val = win4_3.index t (1 : Fin 2) * 64 + 1 * q.val; omega

/-- An index of the output array is in point t's block iff each coordinate is in the block's range on its axis. -/
theorem memblk4_3 (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole (Pipeline.arrRef spec4 3)).slice (win4_3.rect t)).set ↔ _
  rw [View.set_slice_whole, Rect.mem_set_unit]
  exact Iff.rfl

/-- Every index of the output array is in some point's block: row r is in the block of point r / 10000. -/
theorem covered4_3 (i : S100000x64.Idx) :
    ∃ t : Fin cfg4.N, (cfg4.win 3).flush t = true ∧ i ∈ ((cfg4.win 3).blk t).view.set := by
  have hia : (i 0).val < 100000 := (i 0).isLt
  have hib : (i 1).val < 64 := (i 1).isLt
  have hN : cfg4.N = 10 := N_4
  let t : Fin cfg4.N := ⟨(i 0).val / 10000, by rw [hN]; omega⟩
  have htv : t.val = (i 0).val / 10000 := rfl
  obtain ⟨-, -, -, -, -, -, ea, eb⟩ := idxfacts4 t
  refine ⟨t, flush4_3 t, ?_⟩
  rw [memblk4_3]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- The output array after the region, element by element. -/
theorem final4 (c : Dev nD) (p : Fin 100000) (q : Fin 64) :
    ((dat4 (F := Ideal) V c).arrAt 3 cfg4.N : S100000x64.Idx → EReal) (ix2 p q)
      = arr4_2 V c (ix2 p q) * ∑ k : Fin 64, arr4_0 V c (ix2 p k) * arr4_1 V c (ix2 k q) := by
  rw [(dat4 (F := Ideal) V c).arrAt_eq_of_cover 3 (G4 (V c (Pipeline.arrRef spec4 0)) (V c (Pipeline.arrRef spec4 1)) (V c (Pipeline.arrRef spec4 2)))
    (fun t _ => flushedeq4_3 V c t) covered4_3]
  rfl

end Blocks

end Cert.KernelIdeal.Run
-- ==== Proof.KI.Val5.lean ====
/- The value of region 5's output array after the region, element by element, over the extended reals, at a
   PARAMETER V (the buffer contents when the region is entered): row p, column q of the output is
   d p q * (a p q + h p q) + b 0 q, where a, h, d are the three arrays of 100000 rows read in row blocks of 10000 and
   b is the one row of 64 entries. The payload is read at an index; block row y of point t is array row
   t * 10000 + y; the ten blocks written back cover the array. -/
import proofs.«431502_j9491877724720_3_alg».proof.Proof.KI.Reg5
import proofs.«431502_j9491877724720_3_alg».proof.Proof.Spec
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)

/-! ## The payload at an index -/

/-- The offsets of a whole-block access are all zero. -/
theorem zero_off5 : (![0, 0] : Fin 2 → Nat) = fun _ => 0 := funext fun a => by
  match a with
  | ⟨0, _⟩ => rfl
  | ⟨1, _⟩ => rfl

/-- The payload read at row p, column q of the block: the row of 64 entries is read at column q whatever the row, the other operations are pointwise. -/
theorem pay5_apply (xC xA xB : Vec Ideal S10000x64 .f32) (xD : Vec Ideal S1x64 .f32) (p : Fin 10000) (q : Fin 64) :
    (k5_pay1 xC xA xB xD : S10000x64.Idx → EReal) (ix2 p q)
      = (xC : S10000x64.Idx → EReal) (ix2 p q) * ((xA : S10000x64.Idx → EReal) (ix2 p q) + (xB : S10000x64.Idx → EReal) (ix2 p q))
          + (xD : S1x64.Idx → EReal) (ix2 (0 : Fin 1) q) := by
  unfold k5_pay1
  simp only [shapeCast_self]
  rw [addf_apply, mulf_apply, addf_apply,
    broadcastTo_apply xD broadcasts_S1x64_S10000x64 (ix2 p q) (ix2 (0 : Fin 1) q) (fun a => by
      match a with
      | ⟨0, _⟩ => rfl
      | ⟨1, _⟩ => rfl)]

/-! ## From blocks to the array -/

variable (V : (c : Dev nD) → (b : Ref sig .tc) → Buf (Elt Ideal) ((c : Thread nD τ).loc b))

/-- The four arrays the region reads, as it finds them, as functions of an index into the extended reals. -/
abbrev arr5_0 (c : Dev nD) : S100000x64.Idx → EReal := V c (Pipeline.arrRef spec5 0)
abbrev arr5_1 (c : Dev nD) : S100000x64.Idx → EReal := V c (Pipeline.arrRef spec5 1)
abbrev arr5_2 (c : Dev nD) : S100000x64.Idx → EReal := V c (Pipeline.arrRef spec5 2)
abbrev arr5_3 (c : Dev nD) : S1x64.Idx → EReal := V c (Pipeline.arrRef spec5 3)

/-- What the output array ends holding: at each index the operations above of the four arrays. -/
abbrev G5 (aA aB aC : S100000x64.Idx → EReal) (aD : S1x64.Idx → EReal) : S100000x64.Idx → EReal := fun i =>
  aC i * (aA i + aB i) + aD (ix2 (0 : Fin 1) (⟨(i 1).val, (i 1).isLt⟩ : Fin 64))

/-- The printed index maps, decided over the ten grid points: the three row-block inputs and the output are at block
    (t, 0) at point t, the one row at block (0, 0). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of point t's block, column q, as an index of the array of 100000 rows. -/
abbrev row5 (t : Fin cfg5.N) (p : Fin 10000) (q : Fin 64) : S100000x64.Idx :=
  ix2 (⟨t.val * 10000 + p.val, by have := t.isLt; have := p.isLt; have hN : cfg5.N = 10 := N_5; omega⟩ : Fin 100000) q

/-- Each window's block at point t, read at row p and column q of the block, is its array at row t * 10000 + p. -/
theorem emb5_0 (t : Fin cfg5.N) (p : Fin 10000) (q : Fin 64) : ((cfg5.win 0).blk t).view.emb (ix2 p q) = row5 t p q := by
  obtain ⟨eR, eC, -⟩ := idx_facts5 t
  funext a; apply Fin.ext
  match a with
  | ⟨0, _⟩ => show win5_0.index t (0 : Fin 2) * 10000 + 1 * p.val = t.val * 10000 + p.val; omega
  | ⟨1, _⟩ => show win5_0.index t (1 : Fin 2) * 64 + 1 * q.val = q.val; omega
theorem emb5_1 (t : Fin cfg5.N) (p : Fin 10000) (q : Fin 64) : ((cfg5.win 1).blk t).view.emb (ix2 p q) = row5 t p q := by
  obtain ⟨-, -, eR, eC, -⟩ := idx_facts5 t
  funext a; apply Fin.ext
  match a with
  | ⟨0, _⟩ => show win5_1.index t (0 : Fin 2) * 10000 + 1 * p.val = t.val * 10000 + p.val; omega
  | ⟨1, _⟩ => show win5_1.index t (1 : Fin 2) * 64 + 1 * q.val = q.val; omega
theorem emb5_2 (t : Fin cfg5.N) (p : Fin 10000) (q : Fin 64) : ((cfg5.win 2).blk t).view.emb (ix2 p q) = row5 t p q := by
  obtain ⟨-, -, -, -, eR, eC, -⟩ := idx_facts5 t
  funext a; apply Fin.ext
  match a with
  | ⟨0, _⟩ => show win5_2.index t (0 : Fin 2) * 10000 + 1 * p.val = t.val * 10000 + p.val; omega
  | ⟨1, _⟩ => show win5_2.index t (1 : Fin 2) * 64 + 1 * q.val = q.val; omega
/-- The one row's block is the whole row at every point. -/
theorem emb5_3 (t : Fin cfg5.N) (q : Fin 64) : ((cfg5.win 3).blk t).view.emb (ix2 (0 : Fin 1) q) = ix2 (0 : Fin 1) q := by
  obtain ⟨-, -, -, -, -, -, eR, eC, -⟩ := idx_facts5 t
  funext a; apply Fin.ext
  match a with
  | ⟨0, _⟩ => show win5_3.index t (0 : Fin 2) * 1 + 1 * 0 = 0; omega
  | ⟨1, _⟩ => show win5_3.index t (1 : Fin 2) * 64 + 1 * q.val = q.val; omega
theorem emb5_4 (t : Fin cfg5.N) (p : Fin 10000) (q : Fin 64) : ((cfg5.win 4).blk t).view.emb (ix2 p q) = row5 t p q := by
  obtain ⟨-, -, -, -, -, -, -, -, eR, eC⟩ := idx_facts5 t
  funext a; apply Fin.ext
  match a with
  | ⟨0, _⟩ => show win5_4.index t (0 : Fin 2) * 10000 + 1 * p.val = t.val * 10000 + p.val; omega
  | ⟨1, _⟩ => show win5_4.index t (1 : Fin 2) * 64 + 1 * q.val = q.val; omega

/-- Each input block read at row p, column q is its array at row t * 10000 + p (the one row: at its column q). -/
theorem iblk5_0_apply (c : Dev nD) (t : Fin cfg5.N) (p : Fin 10000) (q : Fin 64) :
    (iblk5 V c 0 t : Vec Ideal S10000x64 .f32) (ix2 p q) = arr5_0 V c (row5 t p q) := by
  show arr5_0 V c (((cfg5.win 0).blk t).view.emb (ix2 p q)) = _
  rw [emb5_0]
theorem iblk5_1_apply (c : Dev nD) (t : Fin cfg5.N) (p : Fin 10000) (q : Fin 64) :
    (iblk5 V c 1 t : Vec Ideal S10000x64 .f32) (ix2 p q) = arr5_1 V c (row5 t p q) := by
  show arr5_1 V c (((cfg5.win 1).blk t).view.emb (ix2 p q)) = _
  rw [emb5_1]
theorem iblk5_2_apply (c : Dev nD) (t : Fin cfg5.N) (p : Fin 10000) (q : Fin 64) :
    (iblk5 V c 2 t : Vec Ideal S10000x64 .f32) (ix2 p q) = arr5_2 V c (row5 t p q) := by
  show arr5_2 V c (((cfg5.win 2).blk t).view.emb (ix2 p q)) = _
  rw [emb5_2]
theorem iblk5_3_apply (c : Dev nD) (t : Fin cfg5.N) (q : Fin 64) :
    (iblk5 V c 3 t : Vec Ideal S1x64 .f32) (ix2 (0 : Fin 1) q) = arr5_3 V c (ix2 (0 : Fin 1) q) := by
  show arr5_3 V c (((cfg5.win 3).blk t).view.emb (ix2 (0 : Fin 1) q)) = _
  rw [emb5_3]
/-- A whole-array function read through the output's block at point t. -/
theorem read5_4_apply (G : S100000x64.Idx → EReal) (t : Fin cfg5.N) (p : Fin 10000) (q : Fin 64) :
    (((cfg5.win 4).blk t).view.read (Elt Ideal) G : S10000x64.Idx → EReal) (ix2 p q) = G (row5 t p q) := by
  show G (((cfg5.win 4).blk t).view.emb (ix2 p q)) = _
  rw [emb5_4]

/-- WHAT POINT t WRITES BACK is block t of G5 of the arrays as the region finds them. -/
theorem flushed5_eq (c : Dev nD) (t : Fin cfg5.N) :
    (dat5 (F := Ideal) V c).flushed 4 t = ((cfg5.win 4).blk t).view.read (Elt Ideal)
      (G5 (arr5_0 V c) (arr5_1 V c) (arr5_2 V c) (arr5_3 V c)) := by
  show (cfg5.win 4).cut (grid5.coords t) ((dat5 V c).after 4 t) = _
  rw [after5_4]
  unfold out5_4
  rw [View.canon_unit_zero zero_off5]
  simp only [View.ld_unit_zero (S := S10000x64) zero_off5, View.ld_unit_zero (S := S1x64) zero_off5]
  funext j
  obtain ⟨p, q, rfl⟩ : ∃ (p : Fin 10000) (q : Fin 64), j = ix2 p q := ⟨j 0, j 1, eq_ix2 j⟩
  refine (pay5_apply (iblk5 V c 2 t) (iblk5 V c 0 t) (iblk5 V c 1 t) (iblk5 V c 3 t) p q).trans ?_
  refine Eq.trans ?_ (read5_4_apply _ t p q).symm
  rw [iblk5_0_apply, iblk5_1_apply, iblk5_2_apply, iblk5_3_apply]

/-- An index of the array is in point t's block iff each coordinate is in the block's range on its axis. -/
theorem mem_blk5 (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole (Pipeline.arrRef spec5 4)).slice (win5_4.rect t)).set ↔ _
  rw [View.set_slice_whole, Rect.mem_set_unit]
  exact Iff.rfl

/-- Every index of the array is in the block of the point its row falls in: row r is in block r / 10000. -/
theorem cover5 (i : S100000x64.Idx) : ∃ t : Fin cfg5.N, (cfg5.win 4).flush t = true ∧ i ∈ ((cfg5.win 4).blk t).view.set := by
  have hR : (i 0).val < 100000 := (i 0).isLt
  have hC : (i 1).val < 64 := (i 1).isLt
  have hN : cfg5.N = 10 := N_5
  refine ⟨⟨(i 0).val / 10000, by omega⟩, flush5_4 _, ?_⟩
  rw [mem_blk5]
  obtain ⟨-, -, -, -, -, -, -, -, eR, eC⟩ := idx_facts5 ⟨(i 0).val / 10000, by omega⟩
  intro a
  match a with
  | ⟨0, _⟩ =>
    show win5_4.index ⟨(i 0).val / 10000, _⟩ (0 : Fin 2) * 10000 ≤ (i 0).val ∧ (i 0).val < win5_4.index ⟨(i 0).val / 10000, _⟩ (0 : Fin 2) * 10000 + 10000
    rw [eR]; show (i 0).val / 10000 * 10000 ≤ (i 0).val ∧ (i 0).val < (i 0).val / 10000 * 10000 + 10000; omega
  | ⟨1, _⟩ =>
    show win5_4.index ⟨(i 0).val / 10000, _⟩ (1 : Fin 2) * 64 ≤ (i 1).val ∧ (i 1).val < win5_4.index ⟨(i 0).val / 10000, _⟩ (1 : Fin 2) * 64 + 64
    rw [eC]; omega

/-- THE ARRAY after the region, element by element. -/
theorem final5 (c : Dev nD) (p : Fin 100000) (q : Fin 64) :
    ((dat5 (F := Ideal) V c).arrAt 4 cfg5.N : S100000x64.Idx → EReal) (ix2 p q)
      = arr5_2 V c (ix2 p q) * (arr5_0 V c (ix2 p q) + arr5_1 V c (ix2 p q)) + arr5_3 V c (ix2 (0 : Fin 1) q) := by
  rw [(dat5 (F := Ideal) V c).arrAt_eq_of_cover 4 (G5 (arr5_0 V c) (arr5_1 V c) (arr5_2 V c) (arr5_3 V c))
    (fun t _ => flushed5_eq V c t) cover5]

end Cert.KernelIdeal.Run
-- ==== Proof.KI.Val6.lean ====
/-
  The pooling region's result, element by element, over the extended reals.

  The one write-back of the region is the last point's, and its block is the whole 64 x 2 output: the output ends holding
  the head applied to what the two carried buffers hold after ten points.  After n points the 64 x 64 one holds, at
  (g, j), zero plus — block after block — the sum over the block's 10000 rows whose graph word, read signed, is g of the
  row's entry j: the contraction of the one-hot matrix of the block's words against the block of the node table, a
  comparison bit converted to a float being one or zero.  Row y of block t is row 10000 t + y of the table, so the ten
  block sums regroup into the sum over all 100000 rows; addition on the extended reals is commutative and associative
  and adding zero changes nothing, which is all the regrouping uses.  The 64 x 1 buffer holds the counts likewise.
-/
import proofs.«431502_j9491877724720_3_alg».proof.Proof.KI.Reg6
import proofs.«431502_j9491877724720_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Run.Pool

open Cert.KernelIdeal Cert.KernelIdeal.Gen
open Idealize.ShloMosaic Idealize.ShloMosaic.TcCoe Idealize.ShloMosaic.ValueIdx Idealize.SL.Sem
open Idealize.ShloMosaic.Pipeline (Dat)

/-! ## Words: the one-hot entry -/

/-- A 32-bit word equals the word of a graph number (below 64) exactly when its signed reading is that number. -/
theorem word_eq_iff (a : BitVec 32) (g : Fin 64) : a = BitVec.ofNat 32 g.val ↔ a.toInt = (g.val : ℤ) := by
  have hg : (BitVec.ofNat 32 g.val).toInt = (g.val : ℤ) := by
    have hlt := g.isLt
    rw [BitVec.toInt_eq_toNat_cond, BitVec.toNat_ofNat]
    have h2 : g.val % 2 ^ 32 = g.val := Nat.mod_eq_of_lt (by omega)
    rw [h2]
    split
    · rfl
    · rename_i hh; exfalso; omega
  constructor
  · rintro rfl; exact hg
  · intro h; exact BitVec.eq_of_toInt_eq (h.trans hg.symm)

/-- The comparison bit, widened and converted: one where the words agree, zero elsewhere. -/
theorem onehot_word (a b : BitVec 32) :
    (FloatOps.sitofp (F := Ideal) .f32 (BitVec.setWidth 32 (IntOp.cmpi .eq a b)) : EReal) = if a = b then 1 else 0 := by
  by_cases h : a = b
  · rw [if_pos h]; subst h
    have e : IntOp.cmpi .eq a a = 1#1 := by
      show BitVec.ofBool (a == a) = 1#1
      rw [beq_self_eq_true]; rfl
    rw [e]
    show (((BitVec.setWidth 32 (1#1)).toInt : ℝ) : EReal) = 1
    have e2 : (BitVec.setWidth 32 (1#1)).toInt = 1 := by decide
    rw [e2]; norm_num
  · rw [if_neg h]
    have e : IntOp.cmpi .eq a b = 0#1 := by
      show BitVec.ofBool (a == b) = 0#1
      rw [show (a == b) = false from beq_eq_false_iff_ne.mpr h]; rfl
    rw [e]
    show (((BitVec.setWidth 32 (0#1)).toInt : ℝ) : EReal) = 0
    have e2 : (BitVec.setWidth 32 (0#1)).toInt = 0 := by decide
    rw [e2]; norm_num

/-- The one-hot matrix of a block of graph words, at (row, graph): one where the row's word, read signed, is the graph. -/
theorem pay3_apply (v4 : Vec Ideal S10000x1 .i32) (y : Fin 10000) (g : Fin 64) :
    (k6_pay3 (F := Ideal) v4 : S10000x64.Idx → EReal) (ix2 y g) = if (v4 (ix2 y (0 : Fin 1))).toInt = (g.val : ℤ) then 1 else 0 := by
  have e1 : (broadcastTo S10000x64 (shapeCast S10000x1 v4 shapeCasts_S10000x1_S10000x1) broadcasts_S10000x1_S10000x64 : IVec S10000x64 32) (ix2 y g) = v4 (ix2 y (0 : Fin 1)) := by
    rw [shapeCast_self]
    exact broadcastTo_apply v4 broadcasts_S10000x1_S10000x64 (ix2 y g) (ix2 y (0 : Fin 1)) (fun a => by match a with | ⟨0, _⟩ => rfl | ⟨1, _⟩ => rfl)
  have e2 : (iota .tc S10000x64 32 [1] iota_S10000x64_d1_w32 : IVec S10000x64 32) (ix2 y g) = BitVec.ofNat 32 g.val :=
    iota_single_apply .tc S10000x64 32 1 iota_S10000x64_d1_w32 (ix2 y g)
  unfold k6_pay3
  simp only [truncf_apply, sitofp_apply, extui_apply]
  show FloatOps.sitofp FTy.f32 (BitVec.setWidth 32 (IntOp.cmpi .eq
      ((broadcastTo S10000x64 (shapeCast S10000x1 v4 shapeCasts_S10000x1_S10000x1) broadcasts_S10000x1_S10000x64 : IVec S10000x64 32) (ix2 y g))
      ((iota .tc S10000x64 32 [1] iota_S10000x64_d1_w32 : IVec S10000x64 32) (ix2 y g)))) = _
  rw [e1, e2, onehot_word]
  by_cases h : (v4 (ix2 y (0 : Fin 1))).toInt = (g.val : ℤ)
  · rw [if_pos h, if_pos ((word_eq_iff _ g).mpr h)]
  · rw [if_neg h, if_neg (fun h' => h ((word_eq_iff _ g).mp h'))]

/-! ## The three contractions, read at an index

Each contracts ONE axis of each operand.  The operand indices at an output index and a contraction position, axis by
axis; then the contraction's sum re-indexed through its one coordinate. -/

theorem lhs4_0 (i : S64x64.Idx) (q : dot_S10000x64_S10000x64_S64x64_0_0_1_1_n_n.contr.Idx) :
    (dot_S10000x64_S10000x64_S64x64_0_0_1_1_n_n.lhsIdx i q 0).val = (q ⟨0, by decide⟩).val :=
  dot_S10000x64_S10000x64_S64x64_0_0_1_1_n_n.lhsIdx_val_of_single rfl i q
theorem lhs4_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem rhs4_0 (i : S64x64.Idx) (q : dot_S10000x64_S10000x64_S64x64_0_0_1_1_n_n.contr.Idx) :
    (dot_S10000x64_S10000x64_S64x64_0_0_1_1_n_n.rhsIdx i q 0).val = (q ⟨0, by decide⟩).val :=
  dot_S10000x64_S10000x64_S64x64_0_0_1_1_n_n.rhsIdx_val_of_single rfl i q
theorem rhs4_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

/-- The one-hot contraction of a block: entry (g, j) sums, over the block's rows, the left operand at (row, g) times the
    right operand at (row, j). -/
theorem mm4_apply (A : FVec Ideal S10000x64 .bf16) (B : FVec Ideal S10000x64 .bf16) (g j : Fin 64) :
    FloatOps.matmul dot_S10000x64_S10000x64_S64x64_0_0_1_1_n_n none A B (constant (F := Ideal) S64x64 .f32 0x00000000#32) (ix2 g j)
      = ∑ y : Fin 10000, A (ix2 y g) * B (ix2 y j) := by
  rw [Ideal.matmul_constant_zero_apply, ← Equiv.sum_comp (ValueIdx.contrEquiv1 dot_S10000x64_S10000x64_S64x64_0_0_1_1_n_n 10000 rfl rfl).symm]
  refine Finset.sum_congr rfl fun k _ => ?_
  have hk := ValueIdx.contrEquiv1_symm_val dot_S10000x64_S10000x64_S64x64_0_0_1_1_n_n 10000 rfl rfl k
  have el : dot_S10000x64_S10000x64_S64x64_0_0_1_1_n_n.lhsIdx (ix2 g j) ((ValueIdx.contrEquiv1 dot_S10000x64_S10000x64_S64x64_0_0_1_1_n_n 10000 rfl rfl).symm k) = ix2 k g := funext fun a => Fin.ext (by
    match a with
    | ⟨0, _⟩ => exact (lhs4_0 _ _).trans hk
    | ⟨1, _⟩ => exact lhs4_1 _ _)
  have er : dot_S10000x64_S10000x64_S64x64_0_0_1_1_n_n.rhsIdx (ix2 g j) ((ValueIdx.contrEquiv1 dot_S10000x64_S10000x64_S64x64_0_0_1_1_n_n 10000 rfl rfl).symm k) = ix2 k j := funext fun a => Fin.ext (by
    match a with
    | ⟨0, _⟩ => exact (rhs4_0 _ _).trans hk
    | ⟨1, _⟩ => exact rhs4_1 _ _)
  rw [el, er]

theorem lhs5_0 (i : S64x1.Idx) (q : dot_S10000x64_S10000x1_S64x1_0_0_1_1_n_n.contr.Idx) :
    (dot_S10000x64_S10000x1_S64x1_0_0_1_1_n_n.lhsIdx i q 0).val = (q ⟨0, by decide⟩).val :=
  dot_S10000x64_S10000x1_S64x1_0_0_1_1_n_n.lhsIdx_val_of_single rfl i q
theorem lhs5_1 (i : S64x1.Idx) (q : dot_S10000x64_S10000x1_S64x1_0_0_1_1_n_n.contr.Idx) :
    (dot_S10000x64_S10000x1_S64x1_0_0_1_1_n_n.lhsIdx i q 1).val = (i 0).val := by
  unfold DotDims.lhsIdx
  rw [dif_neg (show ¬(1 : Fin S10000x64.rank) ∈ dot_S10000x64_S10000x1_S64x1_0_0_1_1_n_n.lhsBatch by decide), dif_pos (show (1 : Fin S10000x64.rank) ∈ dot_S10000x64_S10000x1_S64x1_0_0_1_1_n_n.lhsNonContracting by decide)]
  rfl
theorem rhs5_0 (i : S64x1.Idx) (q : dot_S10000x64_S10000x1_S64x1_0_0_1_1_n_n.contr.Idx) :
    (dot_S10000x64_S10000x1_S64x1_0_0_1_1_n_n.rhsIdx i q 0).val = (q ⟨0, by decide⟩).val :=
  dot_S10000x64_S10000x1_S64x1_0_0_1_1_n_n.rhsIdx_val_of_single rfl i q
theorem rhs5_1 (i : S64x1.Idx) (q : dot_S10000x64_S10000x1_S64x1_0_0_1_1_n_n.contr.Idx) :
    (dot_S10000x64_S10000x1_S64x1_0_0_1_1_n_n.rhsIdx i q 1).val = (i 1).val := by
  unfold DotDims.rhsIdx
  rw [dif_neg (show ¬(1 : Fin S10000x1.rank) ∈ dot_S10000x64_S10000x1_S64x1_0_0_1_1_n_n.rhsBatch by decide), dif_pos (show (1 : Fin S10000x1.rank) ∈ dot_S10000x64_S10000x1_S64x1_0_0_1_1_n_n.rhsNonContracting by decide)]
  rfl

/-- The count contraction of a block: entry (g, 0) sums, over the block's rows, the left operand at (row, g) times the
    right column at the row. -/
theorem mm5_apply (A : FVec Ideal S10000x64 .bf16) (B : FVec Ideal S10000x1 .bf16) (g : Fin 64) :
    FloatOps.matmul dot_S10000x64_S10000x1_S64x1_0_0_1_1_n_n none A B (constant (F := Ideal) S64x1 .f32 0x00000000#32) (ix2 g (0 : Fin 1))
      = ∑ y : Fin 10000, A (ix2 y g) * B (ix2 y (0 : Fin 1)) := by
  rw [Ideal.matmul_constant_zero_apply, ← Equiv.sum_comp (ValueIdx.contrEquiv1 dot_S10000x64_S10000x1_S64x1_0_0_1_1_n_n 10000 rfl rfl).symm]
  refine Finset.sum_congr rfl fun k _ => ?_
  have hk := ValueIdx.contrEquiv1_symm_val dot_S10000x64_S10000x1_S64x1_0_0_1_1_n_n 10000 rfl rfl k
  have el : dot_S10000x64_S10000x1_S64x1_0_0_1_1_n_n.lhsIdx (ix2 g (0 : Fin 1)) ((ValueIdx.contrEquiv1 dot_S10000x64_S10000x1_S64x1_0_0_1_1_n_n 10000 rfl rfl).symm k) = ix2 k g := funext fun a => Fin.ext (by
    match a with
    | ⟨0, _⟩ => exact (lhs5_0 _ _).trans hk
    | ⟨1, _⟩ => exact lhs5_1 _ _)
  have er : dot_S10000x64_S10000x1_S64x1_0_0_1_1_n_n.rhsIdx (ix2 g (0 : Fin 1)) ((ValueIdx.contrEquiv1 dot_S10000x64_S10000x1_S64x1_0_0_1_1_n_n 10000 rfl rfl).symm k) = ix2 k (0 : Fin 1) := funext fun a => Fin.ext (by
    match a with
    | ⟨0, _⟩ => exact (rhs5_0 _ _).trans hk
    | ⟨1, _⟩ => exact rhs5_1 _ _)
  rw [el, er]

theorem lhs6_0 (i : S64x2.Idx) (q : dot_S64x64_S64x2_S64x2_1_0_0_1_n_n.contr.Idx) :
    (dot_S64x64_S64x2_S64x2_1_0_0_1_n_n.lhsIdx i q 0).val = (i 0).val := by
  unfold DotDims.lhsIdx
  rw [dif_neg (show ¬(0 : Fin S64x64.rank) ∈ dot_S64x64_S64x2_S64x2_1_0_0_1_n_n.lhsBatch by decide), dif_pos (show (0 : Fin S64x64.rank) ∈ dot_S64x64_S64x2_S64x2_1_0_0_1_n_n.lhsNonContracting by decide)]
  rfl
theorem lhs6_1 (i : S64x2.Idx) (q : dot_S64x64_S64x2_S64x2_1_0_0_1_n_n.contr.Idx) :
    (dot_S64x64_S64x2_S64x2_1_0_0_1_n_n.lhsIdx i q 1).val = (q ⟨0, by decide⟩).val :=
  dot_S64x64_S64x2_S64x2_1_0_0_1_n_n.lhsIdx_val_of_single rfl i q
theorem rhs6_0 (i : S64x2.Idx) (q : dot_S64x64_S64x2_S64x2_1_0_0_1_n_n.contr.Idx) :
    (dot_S64x64_S64x2_S64x2_1_0_0_1_n_n.rhsIdx i q 0).val = (q ⟨0, by decide⟩).val :=
  dot_S64x64_S64x2_S64x2_1_0_0_1_n_n.rhsIdx_val_of_single rfl i q
theorem rhs6_1 (i : S64x2.Idx) (q : dot_S64x64_S64x2_S64x2_1_0_0_1_n_n.contr.Idx) :
    (dot_S64x64_S64x2_S64x2_1_0_0_1_n_n.rhsIdx i q 1).val = (i 1).val := by
  unfold DotDims.rhsIdx
  rw [dif_neg (show ¬(1 : Fin S64x2.rank) ∈ dot_S64x64_S64x2_S64x2_1_0_0_1_n_n.rhsBatch by decide), dif_pos (show (1 : Fin S64x2.rank) ∈ dot_S64x64_S64x2_S64x2_1_0_0_1_n_n.rhsNonContracting by decide)]
  rfl

/-- The head's product: entry (g, k) sums, over the 64 features, the left operand at (g, feature) times the right at
    (feature, k). -/
theorem mm6_apply (A : FVec Ideal S64x64 .bf16) (B : FVec Ideal S64x2 .bf16) (g : Fin 64) (k : Fin 2) :
    FloatOps.matmul dot_S64x64_S64x2_S64x2_1_0_0_1_n_n none A B (constant (F := Ideal) S64x2 .f32 0x00000000#32) (ix2 g k)
      = ∑ j : Fin 64, A (ix2 g j) * B (ix2 j k) := by
  rw [Ideal.matmul_constant_zero_apply, ← Equiv.sum_comp (ValueIdx.contrEquiv1 dot_S64x64_S64x2_S64x2_1_0_0_1_n_n 64 rfl rfl).symm]
  refine Finset.sum_congr rfl fun j _ => ?_
  have hk := ValueIdx.contrEquiv1_symm_val dot_S64x64_S64x2_S64x2_1_0_0_1_n_n 64 rfl rfl j
  have el : dot_S64x64_S64x2_S64x2_1_0_0_1_n_n.lhsIdx (ix2 g k) ((ValueIdx.contrEquiv1 dot_S64x64_S64x2_S64x2_1_0_0_1_n_n 64 rfl rfl).symm j) = ix2 g j := funext fun a => Fin.ext (by
    match a with
    | ⟨0, _⟩ => exact lhs6_0 _ _
    | ⟨1, _⟩ => exact (lhs6_1 _ _).trans hk)
  have er : dot_S64x64_S64x2_S64x2_1_0_0_1_n_n.rhsIdx (ix2 g k) ((ValueIdx.contrEquiv1 dot_S64x64_S64x2_S64x2_1_0_0_1_n_n 64 rfl rfl).symm j) = ix2 j k := funext fun a => Fin.ext (by
    match a with
    | ⟨0, _⟩ => exact (rhs6_0 _ _).trans hk
    | ⟨1, _⟩ => exact rhs6_1 _ _)
  rw [el, er]

/-! ## The payloads, read at an index -/

/-- The zero block the first point stores into the 64 x 64 scratch buffer. -/
theorem pay1_apply (g j : Fin 64) : (k6_pay1 (F := Ideal) : S64x64.Idx → EReal) (ix2 g j) = Gcn.lit0 := by
  unfold k6_pay1
  simp only [shapeCast_self]
  rfl
/-- The zero block the first point stores into the 64 x 1 scratch buffer. -/
theorem pay2_apply (g : Fin 64) : (k6_pay2 (F := Ideal) : S64x1.Idx → EReal) (ix2 g (0 : Fin 1)) = Gcn.lit0 := by
  unfold k6_pay2
  simp only [shapeCast_self]
  rfl

/-- The 64 x 64 scratch buffer after a point: what it held plus, at (g, j), the sum over the block's rows whose word
    names graph g of the row's entry j (one times x is x, zero times x is zero, on the extended reals too). -/
theorem pay4_apply (v4 : Vec Ideal S10000x1 .i32) (v11 : Vec Ideal S10000x64 .f32) (v17 : Vec Ideal S64x64 .f32) (g j : Fin 64) :
    (k6_pay4 (F := Ideal) v4 v11 v17 : S64x64.Idx → EReal) (ix2 g j)
      = (v17 (ix2 g j) : EReal) + ∑ y : Fin 10000, if (v4 (ix2 y (0 : Fin 1))).toInt = (g.val : ℤ) then (v11 (ix2 y j) : EReal) else 0 := by
  unfold k6_pay4
  simp only [shapeCast_self]
  refine congrArg (fun z : EReal => (v17 (ix2 g j) : EReal) + z) ((mm4_apply _ _ g j).trans ?_)
  refine Finset.sum_congr rfl fun y _ => ?_
  rw [pay3_apply]
  show (if (v4 (ix2 y (0 : Fin 1))).toInt = (g.val : ℤ) then (1 : EReal) else 0) * (v11 (ix2 y j) : EReal) = _
  split
  · exact one_mul _
  · exact zero_mul _

/-- The 64 x 1 scratch buffer after a point: what it held plus, at g, the number of the block's rows whose word names g. -/
theorem pay5_apply (v4 : Vec Ideal S10000x1 .i32) (v22 : Vec Ideal S64x1 .f32) (g : Fin 64) :
    (k6_pay5 (F := Ideal) v4 v22 : S64x1.Idx → EReal) (ix2 g (0 : Fin 1))
      = (v22 (ix2 g (0 : Fin 1)) : EReal) + ∑ y : Fin 10000, if (v4 (ix2 y (0 : Fin 1))).toInt = (g.val : ℤ) then Gcn.lit1 else 0 := by
  unfold k6_pay5
  simp only [shapeCast_self]
  refine congrArg (fun z : EReal => (v22 (ix2 g (0 : Fin 1)) : EReal) + z) ((mm5_apply _ _ g).trans ?_)
  refine Finset.sum_congr rfl fun y _ => ?_
  rw [pay3_apply]
  show (if (v4 (ix2 y (0 : Fin 1))).toInt = (g.val : ℤ) then (1 : EReal) else 0) * Ideal.ofBits .bf16 0x3F80#16 = _
  rw [Ideal.ofBits_one_bf16, show Gcn.lit1 = (1 : EReal) from Ideal.ofBits_one_f32]
  split
  · exact one_mul _
  · exact zero_mul _

/-- The head: at (g, k), the sum over the features of (feature sum / count clamped below by one) times the weight, plus
    the bias. -/
theorem pay6_apply (v30 : Vec Ideal S64x64 .f32) (v31 : Vec Ideal S64x1 .f32) (v37 : Vec Ideal S64x2 .f32) (v40 : Vec Ideal S1x2 .f32)
    (g : Fin 64) (k : Fin 2) :
    (k6_pay6 (F := Ideal) v30 v31 v37 v40 : S64x2.Idx → EReal) (ix2 g k)
      = (∑ j : Fin 64, Ideal.div (v30 (ix2 g j)) (max (v31 (ix2 g (0 : Fin 1))) Gcn.lit1) * (v37 (ix2 j k) : EReal))
        + (v40 (ix2 (0 : Fin 1) k) : EReal) := by
  unfold k6_pay6
  simp only [shapeCast_self]
  have eb : ∀ (x : Vec Ideal S1x2 .f32), (broadcastTo S64x2 x broadcasts_S1x2_S64x2 : S64x2.Idx → EReal) (ix2 g k) = x (ix2 (0 : Fin 1) k) := fun x =>
    broadcastTo_apply x broadcasts_S1x2_S64x2 (ix2 g k) (ix2 (0 : Fin 1) k) (fun a => by match a with | ⟨0, _⟩ => rfl | ⟨1, _⟩ => rfl)
  have ec : ∀ (x : Vec Ideal S64x1 .f32) (j : Fin 64), (broadcastTo S64x64 x broadcasts_S64x1_S64x64 : S64x64.Idx → EReal) (ix2 g j) = x (ix2 g (0 : Fin 1)) := fun x j =>
    broadcastTo_apply x broadcasts_S64x1_S64x64 (ix2 g j) (ix2 g (0 : Fin 1)) (fun a => by match a with | ⟨0, _⟩ => rfl | ⟨1, _⟩ => rfl)
  refine congrArg₂ (fun a b : EReal => a + b) ((mm6_apply _ _ g k).trans ?_) (eb v40)
  refine Finset.sum_congr rfl fun j _ => ?_
  refine congrArg (fun z : EReal => z * (v37 (ix2 j k) : EReal)) ?_
  show Ideal.div (v30 (ix2 g j)) ((broadcastTo S64x64 _ broadcasts_S64x1_S64x64 : S64x64.Idx → EReal) (ix2 g j)) = _
  rw [ec]
  rfl

/-! ## Ten block sums are one sum -/

/-- Row `y` of block `t` is row `10000 t + y` of the table. -/
def row6 (t : Fin 10) (y : Fin 10000) : Fin 100000 := ⟨10000 * t.val + y.val, by have := t.isLt; have := y.isLt; omega⟩

/-- The sum over all 100000 rows is the sum over the ten blocks of the sums over each block's 10000 rows. -/
theorem sum_rows (f : Fin 100000 → EReal) : ∑ n : Fin 100000, f n = ∑ t : Fin 10, ∑ y : Fin 10000, f (row6 t y) := by
  rw [← Equiv.sum_comp (finProdFinEquiv : Fin 10 × Fin 10000 ≃ Fin 100000) f, Fintype.sum_prod_type]
  refine Finset.sum_congr rfl fun t _ => Finset.sum_congr rfl fun y _ => congrArg f (Fin.ext ?_)
  show y.val + 10000 * t.val = 10000 * t.val + y.val
  omega

/-! ## The region's arrays and blocks at their literal types -/

variable (V : (c : Dev nD) → (b : Ref sig .tc) → Buf (Elt Ideal) ((c : Thread nD τ).loc b))

/-- The four input arrays as the region finds them: the graph words (a column), the node table, the head's weight and bias. -/
abbrev arr6_0 (c : Dev nD) : S100000x1.Idx → BitVec 32 := V c (Pipeline.arrRef spec6 0)
abbrev arr6_1 (c : Dev nD) : S100000x64.Idx → EReal := V c (Pipeline.arrRef spec6 1)
abbrev arr6_2 (c : Dev nD) : S64x2.Idx → EReal := V c (Pipeline.arrRef spec6 2)
abbrev arr6_3 (c : Dev nD) : S1x2.Idx → EReal := V c (Pipeline.arrRef spec6 3)

/-- Their blocks at a point. -/
abbrev bblk6 (c : Dev nD) (t : Fin cfg6.N) : Vec Ideal S10000x1 .i32 := iblk6 V c 0 t
abbrev hblk6 (c : Dev nD) (t : Fin cfg6.N) : Vec Ideal S10000x64 .f32 := iblk6 V c 1 t
abbrev wblk6 (c : Dev nD) (t : Fin cfg6.N) : Vec Ideal S64x2 .f32 := iblk6 V c 2 t
abbrev cblk6 (c : Dev nD) (t : Fin cfg6.N) : Vec Ideal S1x2 .f32 := iblk6 V c 3 t

/-- The windows' block indices, decided over the grid: the two row-blocked windows are at row block `t`, the others fixed. -/
theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
theorem idx6_1 : ∀ t : Fin cfg6.N, win6_1.index t (0 : Fin 2) = t.val ∧ win6_1.index t (1 : Fin 2) = 0 :=
  (by decide +kernel : ∀ t : Fin grid6.N, win6_1.index t (0 : Fin 2) = t.val ∧ win6_1.index t (1 : Fin 2) = 0)
theorem idx6_2 : ∀ t : Fin cfg6.N, win6_2.index t (0 : Fin 2) = 0 ∧ win6_2.index t (1 : Fin 2) = 0 :=
  (by decide +kernel : ∀ t : Fin grid6.N, win6_2.index t (0 : Fin 2) = 0 ∧ win6_2.index t (1 : Fin 2) = 0)
theorem idx6_3 : ∀ t : Fin cfg6.N, win6_3.index t (0 : Fin 2) = 0 ∧ win6_3.index t (1 : Fin 2) = 0 :=
  (by decide +kernel : ∀ t : Fin grid6.N, win6_3.index t (0 : Fin 2) = 0 ∧ win6_3.index t (1 : Fin 2) = 0)

/-- A point of the grid as a block number below ten. -/
def blkNo (t : Fin cfg6.N) : Fin 10 := t.cast N_6

/-- Row `y` of the words' block at point `t` is row `10000 t + y` of the column. -/
theorem bblk6_apply (c : Dev nD) (t : Fin cfg6.N) (y : Fin 10000) :
    bblk6 V c t (ix2 y (0 : Fin 1)) = arr6_0 V c (ix2 (row6 (blkNo t) y) (0 : Fin 1)) := by
  unfold bblk6 iblk6
  rw [View.read_apply]
  show V c (Pipeline.arrRef spec6 0) _ = V c (Pipeline.arrRef spec6 0) _
  congr 1
  funext a
  apply Fin.ext
  match a with
  | ⟨0, _⟩ => show win6_0.index t 0 * 10000 + 1 * y.val = 10000 * t.val + y.val; rw [(idx6_0 t).1]; omega
  | ⟨1, _⟩ => show win6_0.index t 1 * 1 + 1 * 0 = 0; rw [(idx6_0 t).2]

/-- Entry (y, j) of the table's block at point `t` is entry (10000 t + y, j) of the table. -/
theorem hblk6_apply (c : Dev nD) (t : Fin cfg6.N) (y : Fin 10000) (j : Fin 64) :
    (hblk6 V c t (ix2 y j) : EReal) = arr6_1 V c (ix2 (row6 (blkNo t) y) j) := by
  unfold hblk6 iblk6
  rw [View.read_apply]
  show V c (Pipeline.arrRef spec6 1) _ = V c (Pipeline.arrRef spec6 1) _
  congr 1
  funext a
  apply Fin.ext
  match a with
  | ⟨0, _⟩ => show win6_1.index t 0 * 10000 + 1 * y.val = 10000 * t.val + y.val; rw [(idx6_1 t).1]; omega
  | ⟨1, _⟩ => show win6_1.index t 1 * 64 + 1 * j.val = j.val; rw [(idx6_1 t).2]; omega

/-- The weight's one block is the weight. -/
theorem wblk6_apply (c : Dev nD) (t : Fin cfg6.N) (j : Fin 64) (k : Fin 2) :
    (wblk6 V c t (ix2 j k) : EReal) = arr6_2 V c (ix2 j k) := by
  unfold wblk6 iblk6
  rw [View.read_apply]
  show V c (Pipeline.arrRef spec6 2) _ = V c (Pipeline.arrRef spec6 2) _
  congr 1
  funext a
  apply Fin.ext
  match a with
  | ⟨0, _⟩ => show win6_2.index t 0 * 64 + 1 * j.val = j.val; rw [(idx6_2 t).1]; omega
  | ⟨1, _⟩ => show win6_2.index t 1 * 2 + 1 * k.val = k.val; rw [(idx6_2 t).2]; omega

/-- The bias's one block is the bias. -/
theorem cblk6_apply (c : Dev nD) (t : Fin cfg6.N) (k : Fin 2) :
    (cblk6 V c t (ix2 (0 : Fin 1) k) : EReal) = arr6_3 V c (ix2 (0 : Fin 1) k) := by
  unfold cblk6 iblk6
  rw [View.read_apply]
  show V c (Pipeline.arrRef spec6 3) _ = V c (Pipeline.arrRef spec6 3) _
  congr 1
  funext a
  apply Fin.ext
  match a with
  | ⟨0, _⟩ => show win6_3.index t 0 * 1 + 1 * 0 = 0; rw [(idx6_3 t).1]
  | ⟨1, _⟩ => show win6_3.index t 1 * 2 + 1 * k.val = k.val; rw [(idx6_3 t).2]; omega

/-! ## The carried sums after n points -/

/-- Block `n`'s contribution to the feature sum at (g, j): its rows whose word names g, entry j. -/
def bsum6 (c : Dev nD) (g j : Fin 64) (n : ℕ) : EReal :=
  ∑ y : Fin 10000, if (arr6_0 V c (ix2 (row6 (blkNo (pt6 n)) y) (0 : Fin 1))).toInt = (g.val : ℤ)
    then arr6_1 V c (ix2 (row6 (blkNo (pt6 n)) y) j) else 0
/-- Block `n`'s contribution to the count at g. -/
def bcnt6 (c : Dev nD) (g : Fin 64) (n : ℕ) : EReal :=
  ∑ y : Fin 10000, if (arr6_0 V c (ix2 (row6 (blkNo (pt6 n)) y) (0 : Fin 1))).toInt = (g.val : ℤ) then Gcn.lit1 else 0

/-- One more block: a running sum from a base `z` plus the next term is the running sum one longer. -/
theorem fold_step (z : EReal) (f : ℕ → EReal) (n : ℕ) (p b : EReal) (hp : p = z + ∑ t ∈ Finset.range n, f t) (hb : b = f n) :
    p + b = z + ∑ t ∈ Finset.range (n + 1), f t := by
  rw [hp, hb, Finset.sum_range_succ, add_assoc]

/-- A guarded term with both the guard's word and the guarded value rewritten. -/
theorem guard_congr (a a' : BitVec 32) (b b' : EReal) (g : ℤ) (ha : a = a') (hb : b = b') :
    (if a.toInt = g then b else 0) = (if a'.toInt = g then b' else 0) := by subst ha hb; rfl

/-- What a point adds to is what the point before left: at point 0 the zero block, which is also the sum after no points. -/
theorem accS6_prev (c : Dev nD) (n : ℕ) : (if n = 0 then (k6_pay1 (F := Ideal)) else accS6 V c n) = accS6 V c n := by
  cases n with
  | zero => exact if_pos rfl
  | succ m => exact if_neg (Nat.succ_ne_zero m)
theorem accC6_prev (c : Dev nD) (n : ℕ) : (if n = 0 then (k6_pay2 (F := Ideal)) else accC6 V c n) = accC6 V c n := by
  cases n with
  | zero => exact if_pos rfl
  | succ m => exact if_neg (Nat.succ_ne_zero m)

/-- After `n` points the 64 x 64 buffer holds zero plus the first `n` blocks' contributions, by induction on `n`. -/
theorem accS6_eq (c : Dev nD) (g j : Fin 64) :
    ∀ n : ℕ, (accS6 V c n (ix2 g j) : EReal) = Gcn.lit0 + ∑ t ∈ Finset.range n, bsum6 V c g j t
  | 0 => (pay1_apply g j).trans (by rw [Finset.sum_range_zero, add_zero])
  | n + 1 => by
    have hprev : ((if n = 0 then (k6_pay1 (F := Ideal)) else accS6 V c n) (ix2 g j) : EReal)
        = Gcn.lit0 + ∑ t ∈ Finset.range n, bsum6 V c g j t :=
      (congrFun (accS6_prev V c n) (ix2 g j)).trans (accS6_eq c g j n)
    have hblk : (∑ y : Fin 10000, if (bblk6 V c (pt6 n) (ix2 y (0 : Fin 1))).toInt = (g.val : ℤ) then (hblk6 V c (pt6 n) (ix2 y j) : EReal) else 0)
        = bsum6 V c g j n :=
      Finset.sum_congr rfl fun y _ => guard_congr _ _ _ _ _ (bblk6_apply V c (pt6 n) y) (hblk6_apply V c (pt6 n) y j)
    have hstep := pay4_apply (bblk6 V c (pt6 n)) (hblk6 V c (pt6 n)) (if n = 0 then (k6_pay1 (F := Ideal)) else accS6 V c n) g j
    exact hstep.trans (fold_step Gcn.lit0 (bsum6 V c g j) n _ _ hprev hblk)

/-- After `n` points the 64 x 1 buffer holds zero plus the first `n` blocks' counts. -/
theorem accC6_eq (c : Dev nD) (g : Fin 64) :
    ∀ n : ℕ, (accC6 V c n (ix2 g (0 : Fin 1)) : EReal) = Gcn.lit0 + ∑ t ∈ Finset.range n, bcnt6 V c g t
  | 0 => (pay2_apply g).trans (by rw [Finset.sum_range_zero, add_zero])
  | n + 1 => by
    have hprev : ((if n = 0 then (k6_pay2 (F := Ideal)) else accC6 V c n) (ix2 g (0 : Fin 1)) : EReal)
        = Gcn.lit0 + ∑ t ∈ Finset.range n, bcnt6 V c g t :=
      (congrFun (accC6_prev V c n) (ix2 g (0 : Fin 1))).trans (accC6_eq c g n)
    have hblk : (∑ y : Fin 10000, if (bblk6 V c (pt6 n) (ix2 y (0 : Fin 1))).toInt = (g.val : ℤ) then Gcn.lit1 else 0)
        = bcnt6 V c g n :=
      Finset.sum_congr rfl fun y _ => guard_congr _ _ _ _ _ (bblk6_apply V c (pt6 n) y) rfl
    have hstep := pay5_apply (bblk6 V c (pt6 n)) (if n = 0 then (k6_pay2 (F := Ideal)) else accC6 V c n) g
    exact hstep.trans (fold_step Gcn.lit0 (bcnt6 V c g) n _ _ hprev hblk)

theorem blkNo_pt6 (t : Fin 10) : blkNo (pt6 t.val) = t := Fin.ext (Nat.mod_eq_of_lt t.isLt)

/-- After all ten points: the sum over ALL rows of graph g of entry j, from a zero base. -/
theorem accS6_ten (c : Dev nD) (g j : Fin 64) :
    (accS6 V c 10 (ix2 g j) : EReal)
      = Gcn.gsum (fun n => arr6_0 V c (ix2 n (0 : Fin 1))) (fun n => arr6_1 V c (ix2 n j)) g :=
  (accS6_eq V c g j 10).trans (by
    unfold Gcn.gsum
    rw [sum_rows, Finset.sum_range]
    refine congrArg (fun z : EReal => Gcn.lit0 + z) (Finset.sum_congr rfl fun t _ => ?_)
    unfold bsum6
    rw [blkNo_pt6])

/-- After all ten points: the number of rows of graph g, from a zero base. -/
theorem accC6_ten (c : Dev nD) (g : Fin 64) :
    (accC6 V c 10 (ix2 g (0 : Fin 1)) : EReal) = Gcn.gcnt (fun n => arr6_0 V c (ix2 n (0 : Fin 1))) g :=
  (accC6_eq V c g 10).trans (by
    unfold Gcn.gcnt Gcn.gsum
    rw [sum_rows, Finset.sum_range]
    refine congrArg (fun z : EReal => Gcn.lit0 + z) (Finset.sum_congr rfl fun t _ => ?_)
    unfold bcnt6
    rw [blkNo_pt6])

/-! ## The output array -/

/-- The head applied to the carried sums after all ten points and to the weight's and the bias's blocks. -/
def res6 (c : Dev nD) : Buf (Elt Ideal) ((c : Thread nD τ).loc main_v36) :=
  k6_pay6 (accS6 V c (t6_9.val + 1)) (accC6 V c (t6_9.val + 1)) (wblk6 V c t6_9) (cblk6 V c t6_9)

/-- A block of the output read through zero offsets is the array, whatever the array holds. -/
theorem read_blk9 (c : Dev nD) (R : Buf (Elt Ideal) ((c : Thread nD τ).loc main_v36)) :
    (cfg6.win 4).cut (grid6.coords t6_9) R = ((cfg6.win 4).blk t6_9).view.read (Elt Ideal) R := by
  have hz' : (fun a => win6_4.index t6_9 a * main_v36.ty.shape.size a) = fun _ => 0 := funext fun a => by fin_cases a <;> decide
  exact (Memref.read_access_unit_zero (Elt Ideal) main_v36 hz' (fun a => by rw [congrFun hz' a]; simp) R).symm

/-- The one write-back, at point 9, writes it. -/
theorem flushed6_eq (c : Dev nD) (t : Fin cfg6.N) (hf : (cfg6.win 4).flush t = true) :
    (dat6 V c).flushed 4 t = ((cfg6.win 4).blk t).view.read (Elt Ideal) (res6 V c) := by
  have hN : t.val < 10 := lt_of_lt_of_eq t.isLt (show cfg6.N = 10 from N_6)
  have h9 : t.val = 9 := by have := (flush6_4 t).mp hf; omega
  obtain rfl : t = t6_9 := Fin.ext h9
  have hafter : (dat6 V c).after 4 t6_9 = res6 V c := after6_4 V c t6_9
  show (cfg6.win 4).cut (grid6.coords t6_9) ((dat6 V c).after 4 t6_9) = _
  rw [hafter]
  exact read_blk9 c (res6 V c)

/-- So the output array ends holding it: point 9's block covers the array. -/
theorem final_arr6 (c : Dev nD) : (dat6 V c).arrAt 4 cfg6.N = res6 V c :=
  (dat6 V c).arrAt_eq_of_cover 4 (res6 V c) (flushed6_eq V c) fun i =>
    ⟨t6_9, (flush6_4 t6_9).mpr rfl, by
      show i ∈ ((View.whole main_v36).slice (win6_4.rect t6_9)).set
      rw [View.set_slice_whole, Rect.mem_set_unit]
      intro a
      have h0 : (i 0 : Nat) < 64 := (i 0).isLt
      have h1 : (i 1 : Nat) < 2 := (i 1).isLt
      match a with
      | ⟨0, _⟩ => show win6_4.index t6_9 0 * win6_4.size 0 ≤ (i 0 : Nat) ∧ (i 0 : Nat) < win6_4.index t6_9 0 * win6_4.size 0 + win6_4.xsize (grid6.coords t6_9) 0
                  rw [show win6_4.index t6_9 0 * win6_4.size 0 = 0 from by decide +kernel, show win6_4.xsize (grid6.coords t6_9) 0 = 64 from by decide +kernel]; omega
      | ⟨1, _⟩ => show win6_4.index t6_9 1 * win6_4.size 1 ≤ (i 1 : Nat) ∧ (i 1 : Nat) < win6_4.index t6_9 1 * win6_4.size 1 + win6_4.xsize (grid6.coords t6_9) 1
                  rw [show win6_4.index t6_9 1 * win6_4.size 1 = 0 from by decide +kernel, show win6_4.xsize (grid6.coords t6_9) 1 = 2 from by decide +kernel]; omega⟩

/-- The result array at an entry, over the payload. -/
theorem res6_apply (c : Dev nD) (g : Fin 64) (k : Fin 2) :
    (res6 V c : S64x2.Idx → EReal) (ix2 g k)
      = (∑ j : Fin 64, Ideal.div (accS6 V c 10 (ix2 g j)) (max (accC6 V c 10 (ix2 g (0 : Fin 1))) Gcn.lit1) * (wblk6 V c t6_9 (ix2 j k) : EReal))
        + (cblk6 V c t6_9 (ix2 (0 : Fin 1) k) : EReal) :=
  pay6_apply (accS6 V c 10) (accC6 V c 10) (wblk6 V c t6_9) (cblk6 V c t6_9) g k

/-- THE REGION'S RESULT: the output array ends holding, at (g, k), the head of the specification — the mean row of
    graph g (the count clamped below by one) times the weight, plus the bias — of the four arrays the region found. -/
theorem final6 (c : Dev nD) (g : Fin 64) (k : Fin 2) :
    ((dat6 (F := Ideal) V c).arrAt 4 cfg6.N : S64x2.Idx → EReal) (ix2 g k)
      = Gcn.head (fun n => arr6_0 V c (ix2 n (0 : Fin 1))) (fun n j => arr6_1 V c (ix2 n j))
          (fun j k => arr6_2 V c (ix2 j k)) (fun k => arr6_3 V c (ix2 (0 : Fin 1) k)) g k := by
  refine (congrFun (final_arr6 V c) (ix2 g k)).trans ((res6_apply V c g k).trans ?_)
  unfold Gcn.head
  refine congrArg₂ (fun a b : EReal => a + b) (Finset.sum_congr rfl fun j _ => ?_) (cblk6_apply V c t6_9 k)
  exact congrArg₂ (fun a b : EReal => a * b)
    (congrArg₂ (fun a b : EReal => Ideal.div a b) (accS6_ten V c g j) (congrArg (fun z : EReal => max z Gcn.lit1) (accC6_ten V c g)))
    (wblk6_apply V c t6_9 j k)

end Cert.KernelIdeal.Run.Pool

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.KI.HostEnds.lean ====
/-
  The host operations of the printed program's first and last stretches, read at an index.

  The first stretch computes the degree scale from the edge list: row 0 and row 1 of the edge list as vectors (the source and
  the destination words), an accumulating scatter of ones from a zero base along the destination words (the in-degree),
  plus one, the inverse square root, and that vector broadcast along 64 columns.  At (p, q) the result is Gcn.dinv of the edge
  list at p.  The last stretch reshapes the graph assignment to a column and the head's bias to a row.
-/
import proofs.«431502_j9491877724720_3_alg».proof.Proof.Gen.KernelIdeal.Regions
import proofs.«431502_j9491877724720_3_alg».proof.Proof.Spec
import proofs.«431502_j9491877724720_3_alg».proof.Proof.LibRows
import Idealize.ShloMosaic.Lib.StableHlo.Run
import Idealize.ShloMosaic.Lib.Pipeline.Value
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.ShloMosaic.ValueIdx

/-! ## The layout operations at an index, over a variable array -/

/-- Row r of a [2, E] array, sliced out and reshaped to a vector, reads at e the array at (r, e). -/
theorem row_read (a : S2x1600000.Idx → BitVec 32) (r : Fin 2) (off : Fin 2 → ℕ) (h0 : off 0 = r.val) (h1 : off 1 = 0)
    (hs : S2x1600000.Slices off S1x1600000) (hc : S1x1600000.ShapeCasts S1600000) (e : Fin 1600000) :
    shapeCast S1600000 (extractStridedSlice S1x1600000 off a hs) hc (ix1 e) = a (ix2 r e) := by
  refine (shapeCast_apply _ hc (ix1 e) (ix2 (0 : Fin 1) e) ?_).trans ?_
  · rw [Shape.rowMajor_val_two, Shape.rowMajor_val_one]
    show (0 : ℕ) * 1600000 + e.val = e.val
    omega
  · refine extractStridedSlice_apply off a hs (ix2 (0 : Fin 1) e) (ix2 r e) fun b => ?_
    match b with
    | ⟨0, _⟩ => show r.val = off 0 + 0; omega
    | ⟨1, _⟩ => show e.val = off 1 + e.val; omega

/-- A scalar broadcast to a vector reads the scalar everywhere. -/
theorem scalar_read {α : Type} {n : ℕ} (h : S_.BroadcastsInDim (⟨1, ![n]⟩ : Shape) ![]) (v : S_.Idx → α) (j : (⟨1, ![n]⟩ : Shape).Idx) :
    broadcastInDim (⟨1, ![n]⟩ : Shape) ![] h v j = v ix0 :=
  broadcastInDim_apply ![] h v j ix0 fun b => b.elim0

/-- A vector kept as an [n, 1] column reads at (p, 0) the vector at p. -/
theorem col_read {α : Type} {n : ℕ} (hn : n ≠ 1) (h : (⟨1, ![n]⟩ : Shape).BroadcastsInDim (⟨2, ![n, 1]⟩ : Shape) ![0])
    (v : (⟨1, ![n]⟩ : Shape).Idx → α) (p : Fin n) :
    broadcastInDim (⟨2, ![n, 1]⟩ : Shape) ![0] h v (ix2 p (0 : Fin 1)) = v (ix1 p) := by
  refine broadcastInDim_apply ![0] h v (ix2 p (0 : Fin 1)) (ix1 p) fun b => ?_
  match b with
  | ⟨0, _⟩ =>
    show p.val = if n = 1 then 0 else p.val
    rw [if_neg hn]

/-- An [n, 1] column broadcast along m columns reads at (p, q) the column at (p, 0). -/
theorem cols_read {α : Type} {n m : ℕ} (hn : n ≠ 1) (h : (⟨2, ![n, 1]⟩ : Shape).BroadcastsInDim (⟨2, ![n, m]⟩ : Shape) ![0, 1])
    (v : (⟨2, ![n, 1]⟩ : Shape).Idx → α) (p : Fin n) (q : Fin m) :
    broadcastInDim (⟨2, ![n, m]⟩ : Shape) ![0, 1] h v (ix2 p q) = v (ix2 p (0 : Fin 1)) := by
  refine broadcastInDim_apply ![0, 1] h v (ix2 p q) (ix2 p (0 : Fin 1)) fun b => ?_
  match b with
  | ⟨0, _⟩ =>
    show p.val = if n = 1 then 0 else p.val
    rw [if_neg hn]
  | ⟨1, _⟩ =>
    show (0 : ℕ) = if (1 : ℕ) = 1 then 0 else q.val
    rw [if_pos rfl]

/-- The host's inverse square root and accumulating scatter at the ideal instance. -/
theorem rsqrt_read {s : Shape} (v : FVec Ideal s .f32) (i : s.Idx) : Host.rsqrt (F := Ideal) v i = Ideal.rsqrt (v i) := rfl
theorem scatterAdd_eq {s si su : Shape} {w : ℕ} (d : ScatterDims s si su) (x : FVec Ideal s .f32) (idx : IVec si w)
    (upd : FVec Ideal su .f32) : Host.scatterAdd (F := Ideal) d x idx upd = Ideal.hostScatterAdd d x idx upd := rfl

/-- The degree scale over a variable edge list: the first stretch's last array at (p, q). -/
theorem scale_read (a : S2x1600000.Idx → BitVec 32) (p : Fin 100000) (q : Fin 64) :
    (broadcastInDim S100000x64 ![0, 1] bcast_S100000x1_S100000x64_0_1
      (broadcastInDim S100000x1 ![0] bcast_S100000_S100000x1_0
        (Host.rsqrt (F := Ideal)
          (addf (F := Ideal)
            (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0
                (shapeCast S1600000 (extractStridedSlice S1x1600000 ![1, 0] a slices_S2x1600000_S1x1600000_1_0)
                  shapeCasts_S1x1600000_S1600000))
              (broadcastInDim S1600000 ![] bcast_S_S1600000 (constant (F := Ideal) S_ .f32 0x3F800000#32)))
            (broadcastInDim S100000 ![] bcast_S_S100000 (constant (F := Ideal) S_ .f32 0x3F800000#32))))) :
        S100000x64.Idx → EReal) (ix2 p q)
      = Gcn.dinv (fun r e => a (ix2 r e)) p := by
  rw [cols_read (by decide), col_read (by decide), rsqrt_read, addf_apply, scatterAdd_eq,
    Gcn.Rows.scatterAdd_vec _ rfl rfl rfl rfl, scalar_read, scalar_read]
  unfold Gcn.dinv Gcn.deg Gcn.segsum Gcn.dstW
  rw [constant_apply, constant_apply]
  refine congrArg Ideal.rsqrt (congrArg (· + Gcn.lit1) (congrArg (Gcn.lit0 + ·) (Finset.sum_congr rfl fun e _ => ?_)))
  rw [col_read (by decide), row_read a 1 ![1, 0] rfl rfl, scalar_read, constant_apply]

variable (m : (ℓ : Loc nD τ sig) → Buf (Elt Ideal) ℓ) (c : Dev nD) (outs : Outs (F := Ideal))

/-! ## The first stretch -/

/-- The source words: row 0 of the edge list. -/
theorem V1_src (e : Fin 1600000) :
    (V1 m c main_v1 : S1600000.Idx → BitVec 32) (ix1 e)
      = (m ((c : Thread nD τ).loc main_arg1) : S2x1600000.Idx → BitVec 32) (ix2 (0 : Fin 2) e) := by
  have h : (V1 m c main_v1 : S1600000.Idx → BitVec 32)
      = shapeCast S1600000 (extractStridedSlice S1x1600000 ![0, 0]
          (m ((c : Thread nD τ).loc main_arg1) : S2x1600000.Idx → BitVec 32) slices_S2x1600000_S1x1600000_0_0)
          shapeCasts_S1x1600000_S1600000 := by
    dsimp only [V1, hostOps0]
    after_results
    rfl
  exact (congrFun h (ix1 e)).trans (row_read _ 0 ![0, 0] rfl rfl _ _ e)

/-- The destination words: row 1 of the edge list. -/
theorem V1_dst (e : Fin 1600000) :
    (V1 m c main_v3 : S1600000.Idx → BitVec 32) (ix1 e)
      = (m ((c : Thread nD τ).loc main_arg1) : S2x1600000.Idx → BitVec 32) (ix2 (1 : Fin 2) e) := by
  have h : (V1 m c main_v3 : S1600000.Idx → BitVec 32)
      = shapeCast S1600000 (extractStridedSlice S1x1600000 ![1, 0]
          (m ((c : Thread nD τ).loc main_arg1) : S2x1600000.Idx → BitVec 32) slices_S2x1600000_S1x1600000_1_0)
          shapeCasts_S1x1600000_S1600000 := by
    dsimp only [V1, hostOps0]
    after_results
    rfl
  exact (congrFun h (ix1 e)).trans (row_read _ 1 ![1, 0] rfl rfl _ _ e)

/-- The degree scale, broadcast along the columns. -/
theorem V1_scale (p : Fin 100000) (q : Fin 64) :
    (V1 m c main_v12 : S100000x64.Idx → EReal) (ix2 p q)
      = Gcn.dinv (fun r e => (m ((c : Thread nD τ).loc main_arg1) : S2x1600000.Idx → BitVec 32) (ix2 r e)) p := by
  have h : (V1 m c main_v12 : S100000x64.Idx → EReal)
      = broadcastInDim S100000x64 ![0, 1] bcast_S100000x1_S100000x64_0_1
      (broadcastInDim S100000x1 ![0] bcast_S100000_S100000x1_0
        (Host.rsqrt (F := Ideal)
          (addf (F := Ideal)
            (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0
                (shapeCast S1600000 (extractStridedSlice S1x1600000 ![1, 0]
                  (m ((c : Thread nD τ).loc main_arg1) : S2x1600000.Idx → BitVec 32) slices_S2x1600000_S1x1600000_1_0)
                  shapeCasts_S1x1600000_S1600000))
              (broadcastInDim S1600000 ![] bcast_S_S1600000 (constant (F := Ideal) S_ .f32 0x3F800000#32)))
            (broadcastInDim S100000 ![] bcast_S_S100000 (constant (F := Ideal) S_ .f32 0x3F800000#32))))) := by
    dsimp only [V1, hostOps0]
    after_results
    rfl
  exact (congrFun h (ix2 p q)).trans (scale_read _ p q)

/-! ## The last stretch -/

/-- No item before the last stretch writes the graph assignment. -/
theorem V13_arg2 : V13 m outs c main_arg2 = m ((c : Thread nD τ).loc main_arg2) :=
  ((V15_of m outs c main_arg2 (by decide)).trans (V14_of m outs c main_arg2 (by decide))).symm.trans (V15_main_arg2 m outs c)

/-- No item before the last stretch writes the head's bias. -/
theorem V13_arg10 : V13 m outs c main_arg10 = m ((c : Thread nD τ).loc main_arg10) :=
  ((V15_of m outs c main_arg10 (by decide)).trans (V14_of m outs c main_arg10 (by decide))).symm.trans (V15_main_arg10 m outs c)

/-- The graph assignment as a column. -/
theorem V14_batch (n : Fin 100000) :
    (V14 m outs c main_v34 : S100000x1.Idx → BitVec 32) (ix2 n (0 : Fin 1))
      = (m ((c : Thread nD τ).loc main_arg2) : S100000.Idx → BitVec 32) (ix1 n) := by
  have h : (V14 m outs c main_v34 : S100000x1.Idx → BitVec 32)
      = shapeCast S100000x1 (V13 m outs c main_arg2 : S100000.Idx → BitVec 32) shapeCasts_S100000_S100000x1 := by
    show StableHlo.after hostOps6 _ (Proc.devRef .tc main_v34) = _
    after_results
    rfl
  rw [h, V13_arg2]
  refine shapeCast_apply _ _ (ix2 n (0 : Fin 1)) (ix1 n) ?_
  rw [Shape.rowMajor_val_two, Shape.rowMajor_val_one]
  show n.val = n.val * 1 + 0
  omega

/-- The head's bias as a row. -/
theorem V14_headBias (k : Fin 2) :
    (V14 m outs c main_v35 : S1x2.Idx → EReal) (ix2 (0 : Fin 1) k)
      = (m ((c : Thread nD τ).loc main_arg10) : S2.Idx → EReal) (ix1 k) := by
  have h : (V14 m outs c main_v35 : S1x2.Idx → EReal)
      = shapeCast S1x2 (V13 m outs c main_arg10 : S2.Idx → EReal) shapeCasts_S2_S1x2 := by
    show StableHlo.after hostOps6 _ (Proc.devRef .tc main_v35) = _
    after_results
    rfl
  rw [h, V13_arg10]
  refine shapeCast_apply _ _ (ix2 (0 : Fin 1) k) (ix1 k) ?_
  rw [Shape.rowMajor_val_two, Shape.rowMajor_val_one]
  show k.val = 0 * 2 + k.val
  omega

end Cert.KernelIdeal.HostVal

end
-- ==== Proof.KI.HostL1.lean ====
/- The host side of the printed program at the ideal instance, between a layer's two kernel regions: the gather of the
   scaled rows at the source words (jnp.take: a negative word wrapped once, an in-bounds mask, a row gather, a fill where
   the mask is clear) and the accumulating scatter of the gathered rows at the destination words, from a zero table.
   Where every source word names a row of the table the wrap is the identity and the mask is set everywhere, so the
   result at (p, q) is the sum, over the edges whose destination word is p, of entry q of the source row: Gcn.segsum.
   The bias is reshaped to a row; the scaled rows and the degree scale are not written. -/
import proofs.«431502_j9491877724720_3_alg».proof.Proof.Gen.KernelIdeal.Regions
import proofs.«431502_j9491877724720_3_alg».proof.Proof.Spec
import proofs.«431502_j9491877724720_3_alg».proof.Proof.LibRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Reduce

set_option maxRecDepth 16384

noncomputable section

namespace Cert.KernelIdeal.HostVal

open Cert.KernelIdeal Cert.KernelIdeal.Gen
open Idealize.ShloMosaic Idealize.ShloMosaic.TcCoe Idealize.ShloMosaic.ValueIdx
open Idealize.ShloMosaic.StableHlo
open scoped BigOperators

/-! ## The operations as functions of the table and the two word vectors -/

/-- The source words with a negative word wrapped once around the table. -/
private def wrapV (src : S1600000.Idx → BitVec 32) : S1600000.Idx → BitVec 32 :=
  select (cmpi .slt src (broadcastInDim S1600000 ![] bcast_S_S1600000 (constantI S_ 32 0#32)))
    (addi src (broadcastInDim S1600000 ![] bcast_S_S1600000 (constantI S_ 32 100000#32))) src

/-- The wrapped words as a column. -/
private def colV (src : S1600000.Idx → BitVec 32) : S1600000x1.Idx → BitVec 32 :=
  broadcastInDim S1600000x1 ![0] bcast_S1600000_S1600000x1_0 (wrapV src)

/-- The in-bounds mask of the wrapped words. -/
private def maskV (src : S1600000.Idx → BitVec 32) : S1600000.Idx → BitVec 1 :=
  Host.reduce IntOp.andi
    (andi (cmpi .sge (colV src) (broadcastInDim S1600000x1 ![] bcast_S_S1600000x1 (constantI S_ 32 0#32)))
      (cmpi .sle (colV src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows the wrapped words name, a fill where the mask is clear. -/
private def takeV (hs : S100000x64.Idx → EReal) (src : S1600000.Idx → BitVec 32) : S1600000x64.Idx → EReal :=
  select (broadcastInDim S1600000x64 ![0] bcast_S1600000_S1600000x64_0 (maskV src))
    (Host.gather gather_S100000x64_S1600000x1_S1600000x64_1_0_n_n_0_1_164 hs (colV src))
    (broadcastInDim S1600000x64 ![] bcast_S_S1600000x64 (constant (F := Ideal) S_ .f32 0x7FC00000#32))

/-- The taken rows added into a zero table at the destination words. -/
private def aggV (hs : S100000x64.Idx → EReal) (src dst : S1600000.Idx → BitVec 32) : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (takeV hs src)

/-! ## Layer-independent facts, over variables -/

/-- A vector laid as a column reads, at (e, 0), the vector at e. -/
private theorem bc_col {α : Type} {n : ℕ} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply _ h v _ (ix1 e) (fun a => ?_)
  match a with
  | ⟨0, _⟩ =>
    have he := e.isLt
    split
    · next h1 => change n = 1 at h1; show e.val = 0; omega
    · rfl

/-- A vector laid along the rows of a rectangle reads, at (e, q), the vector at e. -/
private theorem bc_rows {α : Type} {n k : ℕ} (h : (⟨1, ![n]⟩ : Shape).BroadcastsInDim ⟨2, ![n, k]⟩ ![0])
    (v : (⟨1, ![n]⟩ : Shape).Idx → α) (e : Fin n) (q : Fin k) :
    broadcastInDim ⟨2, ![n, k]⟩ ![0] h v (ix2 e q) = v (ix1 e) := by
  refine broadcastInDim_apply _ h v _ (ix1 e) (fun a => ?_)
  match a with
  | ⟨0, _⟩ =>
    have he := e.isLt
    split
    · next h1 => change n = 1 at h1; show e.val = 0; omega
    · rfl

/-- Every index of a column is (e, 0). -/
private theorem col_idx {n : ℕ} (i : (⟨2, ![n, 1]⟩ : Shape).Idx) : ∃ e : Fin n, i = ix2 e (0 : Fin 1) :=
  ⟨i 0, by
    funext a
    match a with
    | ⟨0, _⟩ => rfl
    | ⟨1, _⟩ => exact Subsingleton.elim (α := Fin 1) _ _⟩

/-- A non-negative word is not below zero. -/
private theorem slt_zero (w : BitVec 32) (h : 0 ≤ w.toInt) : IntOp.cmpi .slt w 0#32 = 0#1 := by
  unfold IntOp.cmpi
  have : w.slt 0#32 = false := by
    rw [BitVec.slt_eq_decide]
    simpa using h
  simp only [this]
  rfl

/-- A non-negative word is at least zero. -/
private theorem sge_zero (w : BitVec 32) (h : 0 ≤ w.toInt) : IntOp.cmpi .sge w 0#32 = 1#1 := by
  unfold IntOp.cmpi
  have : (0#32).sle w = true := by
    rw [BitVec.sle_eq_decide]
    simpa using h
  simp only [this]
  rfl

/-- A word below 100000 is at most 99999. -/
private theorem sle_top (w : BitVec 32) (h : w.toInt < 100000) : IntOp.cmpi .sle w 99999#32 = 1#1 := by
  unfold IntOp.cmpi
  have h9 : (99999#32 : BitVec 32).toInt = 99999 := by decide
  have : w.sle 99999#32 = true := by
    rw [BitVec.sle_eq_decide, h9]
    simp only [decide_eq_true_eq]
    omega
  simp only [this]
  rfl

/-- A fold of the one-bit and over ones, from one, is one. -/
private theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_ones f hf l

/-- The and-reduction of an array of ones, from one, is one everywhere. -/
private theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x hx _

/-- The host's accumulating scatter at the ideal instance is the exact sum. -/
private theorem scatterAdd_ideal {s si su : Shape} {w : ℕ} (d : ScatterDims s si su) (x : FVec Ideal s .f32) (idx : IVec si w)
    (upd : FVec Ideal su .f32) : Host.scatterAdd (F := Ideal) d x idx upd = Ideal.hostScatterAdd d x idx upd := rfl

/-- The zero table reads the zero word everywhere. -/
private theorem zero_table (p : Fin 100000) (q : Fin 64) :
    broadcastInDim S100000x64 ![] bcast_S_S100000x64 (constant (F := Ideal) S_ .f32 0x00000000#32) (ix2 p q) = Gcn.lit0 := rfl

section Words

variable (src : S1600000.Idx → BitVec 32)
variable (hok : ∀ e : Fin 1600000, 0 ≤ (src (ix1 e)).toInt ∧ (src (ix1 e)).toInt < 100000)

include hok

/-- Where every word names a row the wrap leaves it. -/
private theorem wrapV_apply (e : Fin 1600000) : wrapV src (ix1 e) = src (ix1 e) := by
  show Scalar.select (IntOp.cmpi .slt (src (ix1 e)) 0#32) (IntOp.addi (src (ix1 e)) 100000#32) (src (ix1 e)) = _
  rw [slt_zero _ (hok e).1, select_zero]

private theorem colV_apply (e : Fin 1600000) : colV src (ix2 e (0 : Fin 1)) = src (ix1 e) := by
  unfold colV
  rw [bc_col, wrapV_apply src hok]

/-- Where every word names a row the mask is set. -/
private theorem maskV_apply (e : Fin 1600000) : maskV src (ix1 e) = 1#1 := by
  unfold maskV
  refine reduce_andi_ones _ _ _ _ rfl (fun i => ?_) _
  obtain ⟨e', rfl⟩ := col_idx i
  show IntOp.andi (IntOp.cmpi .sge (colV src (ix2 e' (0 : Fin 1))) 0#32) (IntOp.cmpi .sle (colV src (ix2 e' (0 : Fin 1))) 99999#32) = 1#1
  rw [colV_apply src hok, sge_zero _ (hok e').1, sle_top _ (hok e').2]
  rfl

/-- Where every word names a row the take reads that row. -/
private theorem takeV_apply (hs : S100000x64.Idx → EReal) (e : Fin 1600000) (q : Fin 64) :
    takeV hs src (ix2 e q) = hs (ix2 (Gcn.rowOf (src (ix1 e))) q) := by
  unfold takeV
  rw [select_apply, bc_rows, maskV_apply src hok, select_one,
    Gcn.Rows.gather_rows gather_S100000x64_S1600000x1_S1600000x64_1_0_n_n_0_1_164 rfl rfl rfl rfl rfl rfl hs (colV src) e q (by decide)]
  refine congrArg hs (congrArg (fun r : Fin 100000 => ix2 r q) (Fin.ext ?_))
  show min (colV src (ix2 e (0 : Fin 1))).toInt.toNat (100000 - 1) = min (src (ix1 e)).toInt.toNat 99999
  rw [colV_apply src hok]

/-- The accumulating scatter of the taken rows, from a zero table, at (p, q): the sum over the edges whose destination
    word is p of the source row's entry. -/
private theorem aggV_apply (hs : S100000x64.Idx → EReal) (dst : S1600000.Idx → BitVec 32) (p : Fin 100000) (q : Fin 64) :
    aggV hs src dst (ix2 p q)
      = Gcn.lit0 + ∑ e : Fin 1600000, if (dst (ix1 e)).toInt = (p.val : ℤ) then hs (ix2 (Gcn.rowOf (src (ix1 e))) q) else 0 := by
  unfold aggV
  rw [scatterAdd_ideal, Gcn.Rows.scatterAdd_rows scatter_S100000x64_S1600000x1_S1600000x64_1_0_0_1 rfl rfl rfl rfl]
  refine congrArg₂ (· + ·) (zero_table p q) (Finset.sum_congr rfl fun e _ => ?_)
  rw [bc_col, takeV_apply src hok]

end Words

/-! ## Reading a row of the edge list, and the bias as a row -/

/-- Row 0 of a two-row array, cut out and flattened, reads at e the array at (0, e). -/
private theorem row0_read (x : S2x1600000.Idx → BitVec 32) (e : Fin 1600000) :
    shapeCast S1600000 (extractStridedSlice S1x1600000 ![0, 0] x slices_S2x1600000_S1x1600000_0_0)
        shapeCasts_S1x1600000_S1600000 (ix1 e) = x (ix2 (0 : Fin 2) e) := by
  refine (shapeCast_apply _ _ (ix1 e) (ix2 (0 : Fin 1) e) ?_).trans ?_
  · rw [Shape.rowMajor_val_two, Shape.rowMajor_val_one]
    show (0 : ℕ) * 1600000 + e.val = e.val
    omega
  · refine extractStridedSlice_apply _ _ _ _ (ix2 (0 : Fin 2) e) (fun a => ?_)
    match a with
    | ⟨0, _⟩ => rfl
    | ⟨1, _⟩ => exact (Nat.zero_add _).symm

/-- Row 1 likewise reads the array at (1, e). -/
private theorem row1_read (x : S2x1600000.Idx → BitVec 32) (e : Fin 1600000) :
    shapeCast S1600000 (extractStridedSlice S1x1600000 ![1, 0] x slices_S2x1600000_S1x1600000_1_0)
        shapeCasts_S1x1600000_S1600000 (ix1 e) = x (ix2 (1 : Fin 2) e) := by
  refine (shapeCast_apply _ _ (ix1 e) (ix2 (0 : Fin 1) e) ?_).trans ?_
  · rw [Shape.rowMajor_val_two, Shape.rowMajor_val_one]
    show (0 : ℕ) * 1600000 + e.val = e.val
    omega
  · refine extractStridedSlice_apply _ _ _ _ (ix2 (1 : Fin 2) e) (fun a => ?_)
    match a with
    | ⟨0, _⟩ => rfl
    | ⟨1, _⟩ => exact (Nat.zero_add _).symm

/-- A vector reshaped to one row reads at (0, q) the vector at q. -/
private theorem row_of_vec (x : S64.Idx → EReal) (q : Fin 64) :
    shapeCast S1x64 x shapeCasts_S64_S1x64 (ix2 (0 : Fin 1) q) = x (ix1 q) := by
  refine shapeCast_apply _ _ (ix2 (0 : Fin 1) q) (ix1 q) ?_
  rw [Shape.rowMajor_val_two, Shape.rowMajor_val_one]
  show q.val = (0 : ℕ) * 64 + q.val
  omega

/-! ## The stretches over any entry contents -/

section Stretches

variable (W : Valuation τ sig (Elt Ideal))

/-- The launch stretch leaves the source words in one vector: row 0 of the edge list. -/
private theorem src_eq :
    (StableHlo.after hostOps0 W (Proc.devRef .tc main_v1) : S1600000.Idx → BitVec 32)
      = shapeCast S1600000 (extractStridedSlice S1x1600000 ![0, 0] (W main_arg1 : S2x1600000.Idx → BitVec 32)
          slices_S2x1600000_S1x1600000_0_0) shapeCasts_S1x1600000_S1600000 := by
  dsimp only [hostOps0]
  after_results
  rfl

/-- And the destination words in another: row 1. -/
private theorem dst_eq :
    (StableHlo.after hostOps0 W (Proc.devRef .tc main_v3) : S1600000.Idx → BitVec 32)
      = shapeCast S1600000 (extractStridedSlice S1x1600000 ![1, 0] (W main_arg1 : S2x1600000.Idx → BitVec 32)
          slices_S2x1600000_S1x1600000_1_0) shapeCasts_S1x1600000_S1600000 := by
  dsimp only [hostOps0]
  after_results
  rfl

set_option maxHeartbeats 1000000 in
/-- The layer's first stretch leaves in its result the take of the table's rows at the source words. -/
private theorem take_eq :
    (StableHlo.after hostOps1 W (Proc.devRef .tc main_v14) : S1600000x64.Idx → EReal)
      = takeV (W main_v13 : S100000x64.Idx → EReal) (W main_v1 : S1600000.Idx → BitVec 32) := by
  dsimp only [hostOps1, main_call0_call0, TRef.nullary, TRef.unary, TRef.binary, TRef.ternary, TRef.toBuf, TRef.ofBuf,
    TRef.of, cast_eq]
  after_results_simp
  rfl

/-- The second stretch leaves in its result the accumulating scatter of that array at the destination words. -/
private theorem agg_eq :
    (StableHlo.after hostOps1_1 W (Proc.devRef .tc main_v17) : S100000x64.Idx → EReal)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (W main_v3 : S1600000.Idx → BitVec 32))
          (W main_v14 : S1600000x64.Idx → EReal) := by
  dsimp only [hostOps1_1]
  after_results

/-- The second stretch over entry contents whose words and taken rows are named. -/
private theorem agg_of (hs : S100000x64.Idx → EReal) (src dst : S1600000.Idx → BitVec 32)
    (h3 : (W main_v3 : S1600000.Idx → BitVec 32) = dst) (h14 : (W main_v14 : S1600000x64.Idx → EReal) = takeV hs src) :
    (StableHlo.after hostOps1_1 W (Proc.devRef .tc main_v17) : S100000x64.Idx → EReal) = aggV hs src dst := by
  rw [agg_eq, h3, h14]
  rfl

/-- And the bias as one row. -/
private theorem bias_eq :
    (StableHlo.after hostOps1_1 W (Proc.devRef .tc main_v18) : S1x64.Idx → EReal)
      = shapeCast S1x64 (W main_arg4 : S64.Idx → EReal) shapeCasts_S64_S1x64 := by
  dsimp only [hostOps1_1]
  after_results
  rfl

end Stretches

/-! ## The layer's host side -/

variable (m : (ℓ : Loc nD τ sig) → Buf (Elt Ideal) ℓ) (outs : Outs (F := Ideal)) (c : Dev nD)

/-- The launch stretch's results the layer reads, and the bias, are not written by any item between the launch stretch
    and the layer's first stretch. -/
private theorem since_launch (r : Ref sig .tc) (h : r ∈ ([main_v1, main_v3, main_v12, main_arg4] : List (Ref sig .tc))) :
    V2 m outs c r = V1 m c r := by
  simp only [List.mem_cons, List.not_mem_nil, or_false] at h
  rcases h with rfl | rfl | rfl | rfl <;>
    exact V2_of m outs c _ (by decide)

private theorem in_src : V2 m outs c main_v1 = V1 m c main_v1 := since_launch m outs c main_v1 (by decide)
private theorem in_dst : V2 m outs c main_v3 = V1 m c main_v3 := since_launch m outs c main_v3 (by decide)
private theorem in_scale : V2 m outs c main_v12 = V1 m c main_v12 := since_launch m outs c main_v12 (by decide)
private theorem in_bias : V2 m outs c main_arg4 = m ((c : Thread nD τ).loc main_arg4) :=
  (since_launch m outs c main_arg4 (by decide)).trans ((V1_of m c main_arg4 (by decide)).trans rfl)

/-- The source words as the layer finds them: row 0 of the edge list. -/
private theorem V2_src (e : Fin 1600000) :
    (V2 m outs c main_v1 : S1600000.Idx → BitVec 32) (ix1 e)
      = (m ((c : Thread nD τ).loc main_arg1) : S2x1600000.Idx → BitVec 32) (ix2 (0 : Fin 2) e) := by
  rw [in_src]
  exact (congrFun (src_eq (V0 m c)) (ix1 e)).trans (row0_read _ e)

/-- The destination words: row 1. -/
private theorem V2_dst (e : Fin 1600000) :
    (V2 m outs c main_v3 : S1600000.Idx → BitVec 32) (ix1 e)
      = (m ((c : Thread nD τ).loc main_arg1) : S2x1600000.Idx → BitVec 32) (ix2 (1 : Fin 2) e) := by
  rw [in_dst]
  exact (congrFun (dst_eq (V0 m c)) (ix1 e)).trans (row1_read _ e)

/-- After the two stretches the aggregate holds the take and scatter of the table the first stretch found. -/
private theorem V4_v17_eq :
    (V4 m outs c main_v17 : S100000x64.Idx → EReal)
      = aggV (V2 m outs c main_v13 : S100000x64.Idx → EReal) (V2 m outs c main_v1 : S1600000.Idx → BitVec 32)
          (V2 m outs c main_v3 : S1600000.Idx → BitVec 32) :=
  agg_of (V3 m outs c) _ _ _ (V3_of m outs c main_v3 (by decide)) (take_eq (V2 m outs c))

/-- The aggregate at (p, q): the sum, over the edges whose destination word is p, of entry q of the source row of the
    table the layer's first region left. -/
theorem V4_agg (hok : Gcn.SrcOkA (m ((c : Thread nD τ).loc main_arg1) : S2x1600000.Idx → BitVec 32)) (p : Fin 100000) (q : Fin 64) :
    (V4 m outs c main_v17 : S100000x64.Idx → EReal) (ix2 p q)
      = Gcn.segsum (fun r e => (m ((c : Thread nD τ).loc main_arg1) : S2x1600000.Idx → BitVec 32) (ix2 r e))
          (fun e => (V2 m outs c main_v13 : S100000x64.Idx → EReal)
            (ix2 (Gcn.rowOf (Gcn.srcW (fun r e => (m ((c : Thread nD τ).loc main_arg1) : S2x1600000.Idx → BitVec 32) (ix2 r e)) e)) q)) p := by
  have hsrc : ∀ e : Fin 1600000, 0 ≤ ((V2 m outs c main_v1 : S1600000.Idx → BitVec 32) (ix1 e)).toInt
      ∧ ((V2 m outs c main_v1 : S1600000.Idx → BitVec 32) (ix1 e)).toInt < 100000 := fun e => by
    rw [V2_src]; exact hok e
  refine (congrFun (V4_v17_eq m outs c) (ix2 p q)).trans ?_
  rw [aggV_apply _ hsrc]
  unfold Gcn.segsum
  refine congrArg (Gcn.lit0 + ·) (Finset.sum_congr rfl fun e _ => ?_)
  rw [V2_src, V2_dst]
  rfl

/-- The bias as one row. -/
theorem V4_bias (q : Fin 64) :
    (V4 m outs c main_v18 : S1x64.Idx → EReal) (ix2 (0 : Fin 1) q)
      = (m ((c : Thread nD τ).loc main_arg4) : S64.Idx → EReal) (ix1 q) := by
  refine (congrFun (bias_eq (V3 m outs c)) (ix2 (0 : Fin 1) q)).trans ?_
  rw [row_of_vec, V3_of m outs c main_arg4 (by decide), in_bias]

/-- Neither stretch writes the table the layer's first region left. -/
theorem V4_hs : V4 m outs c main_v13 = V2 m outs c main_v13 :=
  (V4_of m outs c main_v13 (by decide)).trans (V3_of m outs c main_v13 (by decide))

/-- Nor the degree scale. -/
theorem V4_scale : V4 m outs c main_v12 = V1 m c main_v12 :=
  (V4_of m outs c main_v12 (by decide)).trans ((V3_of m outs c main_v12 (by decide)).trans (in_scale m outs c))

end Cert.KernelIdeal.HostVal

end
-- ==== Proof.KI.HostL2.lean ====
/- The host side of the printed program at the ideal instance, between a layer's two kernel regions: the gather of the
   scaled rows at the source words (jnp.take: a negative word wrapped once, an in-bounds mask, a row gather, a fill where
   the mask is clear) and the accumulating scatter of the gathered rows at the destination words, from a zero table.
   Where every source word names a row of the table the wrap is the identity and the mask is set everywhere, so the
   result at (p, q) is the sum, over the edges whose destination word is p, of entry q of the source row: Gcn.segsum.
   The bias is reshaped to a row; the scaled rows and the degree scale are not written. -/
import proofs.«431502_j9491877724720_3_alg».proof.Proof.Gen.KernelIdeal.Regions
import proofs.«431502_j9491877724720_3_alg».proof.Proof.Spec
import proofs.«431502_j9491877724720_3_alg».proof.Proof.LibRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Reduce

set_option maxRecDepth 16384

noncomputable section

namespace Cert.KernelIdeal.HostVal

open Cert.KernelIdeal Cert.KernelIdeal.Gen
open Idealize.ShloMosaic Idealize.ShloMosaic.TcCoe Idealize.ShloMosaic.ValueIdx
open Idealize.ShloMosaic.StableHlo
open scoped BigOperators

/-! ## The operations as functions of the table and the two word vectors -/

/-- The source words with a negative word wrapped once around the table. -/
private def wrapV (src : S1600000.Idx → BitVec 32) : S1600000.Idx → BitVec 32 :=
  select (cmpi .slt src (broadcastInDim S1600000 ![] bcast_S_S1600000 (constantI S_ 32 0#32)))
    (addi src (broadcastInDim S1600000 ![] bcast_S_S1600000 (constantI S_ 32 100000#32))) src

/-- The wrapped words as a column. -/
private def colV (src : S1600000.Idx → BitVec 32) : S1600000x1.Idx → BitVec 32 :=
  broadcastInDim S1600000x1 ![0] bcast_S1600000_S1600000x1_0 (wrapV src)

/-- The in-bounds mask of the wrapped words. -/
private def maskV (src : S1600000.Idx → BitVec 32) : S1600000.Idx → BitVec 1 :=
  Host.reduce IntOp.andi
    (andi (cmpi .sge (colV src) (broadcastInDim S1600000x1 ![] bcast_S_S1600000x1 (constantI S_ 32 0#32)))
      (cmpi .sle (colV src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows the wrapped words name, a fill where the mask is clear. -/
private def takeV (hs : S100000x64.Idx → EReal) (src : S1600000.Idx → BitVec 32) : S1600000x64.Idx → EReal :=
  select (broadcastInDim S1600000x64 ![0] bcast_S1600000_S1600000x64_0 (maskV src))
    (Host.gather gather_S100000x64_S1600000x1_S1600000x64_1_0_n_n_0_1_164 hs (colV src))
    (broadcastInDim S1600000x64 ![] bcast_S_S1600000x64 (constant (F := Ideal) S_ .f32 0x7FC00000#32))

/-- The taken rows added into a zero table at the destination words. -/
private def aggV (hs : S100000x64.Idx → EReal) (src dst : S1600000.Idx → BitVec 32) : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (takeV hs src)

/-! ## Layer-independent facts, over variables -/

/-- A vector laid as a column reads, at (e, 0), the vector at e. -/
private theorem bc_col {α : Type} {n : ℕ} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply _ h v _ (ix1 e) (fun a => ?_)
  match a with
  | ⟨0, _⟩ =>
    have he := e.isLt
    split
    · next h1 => change n = 1 at h1; show e.val = 0; omega
    · rfl

/-- A vector laid along the rows of a rectangle reads, at (e, q), the vector at e. -/
private theorem bc_rows {α : Type} {n k : ℕ} (h : (⟨1, ![n]⟩ : Shape).BroadcastsInDim ⟨2, ![n, k]⟩ ![0])
    (v : (⟨1, ![n]⟩ : Shape).Idx → α) (e : Fin n) (q : Fin k) :
    broadcastInDim ⟨2, ![n, k]⟩ ![0] h v (ix2 e q) = v (ix1 e) := by
  refine broadcastInDim_apply _ h v _ (ix1 e) (fun a => ?_)
  match a with
  | ⟨0, _⟩ =>
    have he := e.isLt
    split
    · next h1 => change n = 1 at h1; show e.val = 0; omega
    · rfl

/-- Every index of a column is (e, 0). -/
private theorem col_idx {n : ℕ} (i : (⟨2, ![n, 1]⟩ : Shape).Idx) : ∃ e : Fin n, i = ix2 e (0 : Fin 1) :=
  ⟨i 0, by
    funext a
    match a with
    | ⟨0, _⟩ => rfl
    | ⟨1, _⟩ => exact Subsingleton.elim (α := Fin 1) _ _⟩

/-- A non-negative word is not below zero. -/
private theorem slt_zero (w : BitVec 32) (h : 0 ≤ w.toInt) : IntOp.cmpi .slt w 0#32 = 0#1 := by
  unfold IntOp.cmpi
  have : w.slt 0#32 = false := by
    rw [BitVec.slt_eq_decide]
    simpa using h
  simp only [this]
  rfl

/-- A non-negative word is at least zero. -/
private theorem sge_zero (w : BitVec 32) (h : 0 ≤ w.toInt) : IntOp.cmpi .sge w 0#32 = 1#1 := by
  unfold IntOp.cmpi
  have : (0#32).sle w = true := by
    rw [BitVec.sle_eq_decide]
    simpa using h
  simp only [this]
  rfl

/-- A word below 100000 is at most 99999. -/
private theorem sle_top (w : BitVec 32) (h : w.toInt < 100000) : IntOp.cmpi .sle w 99999#32 = 1#1 := by
  unfold IntOp.cmpi
  have h9 : (99999#32 : BitVec 32).toInt = 99999 := by decide
  have : w.sle 99999#32 = true := by
    rw [BitVec.sle_eq_decide, h9]
    simp only [decide_eq_true_eq]
    omega
  simp only [this]
  rfl

/-- A fold of the one-bit and over ones, from one, is one. -/
private theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_ones f hf l

/-- The and-reduction of an array of ones, from one, is one everywhere. -/
private theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x hx _

/-- The host's accumulating scatter at the ideal instance is the exact sum. -/
private theorem scatterAdd_ideal {s si su : Shape} {w : ℕ} (d : ScatterDims s si su) (x : FVec Ideal s .f32) (idx : IVec si w)
    (upd : FVec Ideal su .f32) : Host.scatterAdd (F := Ideal) d x idx upd = Ideal.hostScatterAdd d x idx upd := rfl

/-- The zero table reads the zero word everywhere. -/
private theorem zero_table (p : Fin 100000) (q : Fin 64) :
    broadcastInDim S100000x64 ![] bcast_S_S100000x64 (constant (F := Ideal) S_ .f32 0x00000000#32) (ix2 p q) = Gcn.lit0 := rfl

section Words

variable (src : S1600000.Idx → BitVec 32)
variable (hok : ∀ e : Fin 1600000, 0 ≤ (src (ix1 e)).toInt ∧ (src (ix1 e)).toInt < 100000)

include hok

/-- Where every word names a row the wrap leaves it. -/
private theorem wrapV_apply (e : Fin 1600000) : wrapV src (ix1 e) = src (ix1 e) := by
  show Scalar.select (IntOp.cmpi .slt (src (ix1 e)) 0#32) (IntOp.addi (src (ix1 e)) 100000#32) (src (ix1 e)) = _
  rw [slt_zero _ (hok e).1, select_zero]

private theorem colV_apply (e : Fin 1600000) : colV src (ix2 e (0 : Fin 1)) = src (ix1 e) := by
  unfold colV
  rw [bc_col, wrapV_apply src hok]

/-- Where every word names a row the mask is set. -/
private theorem maskV_apply (e : Fin 1600000) : maskV src (ix1 e) = 1#1 := by
  unfold maskV
  refine reduce_andi_ones _ _ _ _ rfl (fun i => ?_) _
  obtain ⟨e', rfl⟩ := col_idx i
  show IntOp.andi (IntOp.cmpi .sge (colV src (ix2 e' (0 : Fin 1))) 0#32) (IntOp.cmpi .sle (colV src (ix2 e' (0 : Fin 1))) 99999#32) = 1#1
  rw [colV_apply src hok, sge_zero _ (hok e').1, sle_top _ (hok e').2]
  rfl

/-- Where every word names a row the take reads that row. -/
private theorem takeV_apply (hs : S100000x64.Idx → EReal) (e : Fin 1600000) (q : Fin 64) :
    takeV hs src (ix2 e q) = hs (ix2 (Gcn.rowOf (src (ix1 e))) q) := by
  unfold takeV
  rw [select_apply, bc_rows, maskV_apply src hok, select_one,
    Gcn.Rows.gather_rows gather_S100000x64_S1600000x1_S1600000x64_1_0_n_n_0_1_164 rfl rfl rfl rfl rfl rfl hs (colV src) e q (by decide)]
  refine congrArg hs (congrArg (fun r : Fin 100000 => ix2 r q) (Fin.ext ?_))
  show min (colV src (ix2 e (0 : Fin 1))).toInt.toNat (100000 - 1) = min (src (ix1 e)).toInt.toNat 99999
  rw [colV_apply src hok]

/-- The accumulating scatter of the taken rows, from a zero table, at (p, q): the sum over the edges whose destination
    word is p of the source row's entry. -/
private theorem aggV_apply (hs : S100000x64.Idx → EReal) (dst : S1600000.Idx → BitVec 32) (p : Fin 100000) (q : Fin 64) :
    aggV hs src dst (ix2 p q)
      = Gcn.lit0 + ∑ e : Fin 1600000, if (dst (ix1 e)).toInt = (p.val : ℤ) then hs (ix2 (Gcn.rowOf (src (ix1 e))) q) else 0 := by
  unfold aggV
  rw [scatterAdd_ideal, Gcn.Rows.scatterAdd_rows scatter_S100000x64_S1600000x1_S1600000x64_1_0_0_1 rfl rfl rfl rfl]
  refine congrArg₂ (· + ·) (zero_table p q) (Finset.sum_congr rfl fun e _ => ?_)
  rw [bc_col, takeV_apply src hok]

end Words

/-! ## Reading a row of the edge list, and the bias as a row -/

/-- Row 0 of a two-row array, cut out and flattened, reads at e the array at (0, e). -/
private theorem row0_read (x : S2x1600000.Idx → BitVec 32) (e : Fin 1600000) :
    shapeCast S1600000 (extractStridedSlice S1x1600000 ![0, 0] x slices_S2x1600000_S1x1600000_0_0)
        shapeCasts_S1x1600000_S1600000 (ix1 e) = x (ix2 (0 : Fin 2) e) := by
  refine (shapeCast_apply _ _ (ix1 e) (ix2 (0 : Fin 1) e) ?_).trans ?_
  · rw [Shape.rowMajor_val_two, Shape.rowMajor_val_one]
    show (0 : ℕ) * 1600000 + e.val = e.val
    omega
  · refine extractStridedSlice_apply _ _ _ _ (ix2 (0 : Fin 2) e) (fun a => ?_)
    match a with
    | ⟨0, _⟩ => rfl
    | ⟨1, _⟩ => exact (Nat.zero_add _).symm

/-- Row 1 likewise reads the array at (1, e). -/
private theorem row1_read (x : S2x1600000.Idx → BitVec 32) (e : Fin 1600000) :
    shapeCast S1600000 (extractStridedSlice S1x1600000 ![1, 0] x slices_S2x1600000_S1x1600000_1_0)
        shapeCasts_S1x1600000_S1600000 (ix1 e) = x (ix2 (1 : Fin 2) e) := by
  refine (shapeCast_apply _ _ (ix1 e) (ix2 (0 : Fin 1) e) ?_).trans ?_
  · rw [Shape.rowMajor_val_two, Shape.rowMajor_val_one]
    show (0 : ℕ) * 1600000 + e.val = e.val
    omega
  · refine extractStridedSlice_apply _ _ _ _ (ix2 (1 : Fin 2) e) (fun a => ?_)
    match a with
    | ⟨0, _⟩ => rfl
    | ⟨1, _⟩ => exact (Nat.zero_add _).symm

/-- A vector reshaped to one row reads at (0, q) the vector at q. -/
private theorem row_of_vec (x : S64.Idx → EReal) (q : Fin 64) :
    shapeCast S1x64 x shapeCasts_S64_S1x64 (ix2 (0 : Fin 1) q) = x (ix1 q) := by
  refine shapeCast_apply _ _ (ix2 (0 : Fin 1) q) (ix1 q) ?_
  rw [Shape.rowMajor_val_two, Shape.rowMajor_val_one]
  show q.val = (0 : ℕ) * 64 + q.val
  omega

/-! ## The stretches over any entry contents -/

section Stretches

variable (W : Valuation τ sig (Elt Ideal))

/-- The launch stretch leaves the source words in one vector: row 0 of the edge list. -/
private theorem src_eq :
    (StableHlo.after hostOps0 W (Proc.devRef .tc main_v1) : S1600000.Idx → BitVec 32)
      = shapeCast S1600000 (extractStridedSlice S1x1600000 ![0, 0] (W main_arg1 : S2x1600000.Idx → BitVec 32)
          slices_S2x1600000_S1x1600000_0_0) shapeCasts_S1x1600000_S1600000 := by
  dsimp only [hostOps0]
  after_results
  rfl

/-- And the destination words in another: row 1. -/
private theorem dst_eq :
    (StableHlo.after hostOps0 W (Proc.devRef .tc main_v3) : S1600000.Idx → BitVec 32)
      = shapeCast S1600000 (extractStridedSlice S1x1600000 ![1, 0] (W main_arg1 : S2x1600000.Idx → BitVec 32)
          slices_S2x1600000_S1x1600000_1_0) shapeCasts_S1x1600000_S1600000 := by
  dsimp only [hostOps0]
  after_results
  rfl

set_option maxHeartbeats 1000000 in
/-- The layer's first stretch leaves in its result the take of the table's rows at the source words. -/
private theorem take_eq :
    (StableHlo.after hostOps3 W (Proc.devRef .tc main_v21) : S1600000x64.Idx → EReal)
      = takeV (W main_v20 : S100000x64.Idx → EReal) (W main_v1 : S1600000.Idx → BitVec 32) := by
  dsimp only [hostOps3, main_call1_call0, TRef.nullary, TRef.unary, TRef.binary, TRef.ternary, TRef.toBuf, TRef.ofBuf,
    TRef.of, cast_eq]
  after_results_simp
  rfl

/-- The second stretch leaves in its result the accumulating scatter of that array at the destination words. -/
private theorem agg_eq :
    (StableHlo.after hostOps3_1 W (Proc.devRef .tc main_v24) : S100000x64.Idx → EReal)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (W main_v3 : S1600000.Idx → BitVec 32))
          (W main_v21 : S1600000x64.Idx → EReal) := by
  dsimp only [hostOps3_1]
  after_results

/-- The second stretch over entry contents whose words and taken rows are named. -/
private theorem agg_of (hs : S100000x64.Idx → EReal) (src dst : S1600000.Idx → BitVec 32)
    (h3 : (W main_v3 : S1600000.Idx → BitVec 32) = dst) (h14 : (W main_v21 : S1600000x64.Idx → EReal) = takeV hs src) :
    (StableHlo.after hostOps3_1 W (Proc.devRef .tc main_v24) : S100000x64.Idx → EReal) = aggV hs src dst := by
  rw [agg_eq, h3, h14]
  rfl

/-- And the bias as one row. -/
private theorem bias_eq :
    (StableHlo.after hostOps3_1 W (Proc.devRef .tc main_v25) : S1x64.Idx → EReal)
      = shapeCast S1x64 (W main_arg6 : S64.Idx → EReal) shapeCasts_S64_S1x64 := by
  dsimp only [hostOps3_1]
  after_results
  rfl

end Stretches

/-! ## The layer's host side -/

variable (m : (ℓ : Loc nD τ sig) → Buf (Elt Ideal) ℓ) (outs : Outs (F := Ideal)) (c : Dev nD)

/-- The launch stretch's results the layer reads, and the bias, are not written by any item between the launch stretch
    and the layer's first stretch. -/
private theorem since_launch (r : Ref sig .tc) (h : r ∈ ([main_v1, main_v3, main_v12, main_arg6] : List (Ref sig .tc))) :
    V6 m outs c r = V1 m c r := by
  simp only [List.mem_cons, List.not_mem_nil, or_false] at h
  rcases h with rfl | rfl | rfl | rfl <;>
    exact (V6_of m outs c _ (by decide)).trans ((V5_of m outs c _ (by decide)).trans ((V4_of m outs c _ (by decide)).trans ((V3_of m outs c _ (by decide)).trans (V2_of m outs c _ (by decide)))))

private theorem in_src : V6 m outs c main_v1 = V1 m c main_v1 := since_launch m outs c main_v1 (by decide)
private theorem in_dst : V6 m outs c main_v3 = V1 m c main_v3 := since_launch m outs c main_v3 (by decide)
private theorem in_scale : V6 m outs c main_v12 = V1 m c main_v12 := since_launch m outs c main_v12 (by decide)
private theorem in_bias : V6 m outs c main_arg6 = m ((c : Thread nD τ).loc main_arg6) :=
  (since_launch m outs c main_arg6 (by decide)).trans ((V1_of m c main_arg6 (by decide)).trans rfl)

/-- The source words as the layer finds them: row 0 of the edge list. -/
private theorem V6_src (e : Fin 1600000) :
    (V6 m outs c main_v1 : S1600000.Idx → BitVec 32) (ix1 e)
      = (m ((c : Thread nD τ).loc main_arg1) : S2x1600000.Idx → BitVec 32) (ix2 (0 : Fin 2) e) := by
  rw [in_src]
  exact (congrFun (src_eq (V0 m c)) (ix1 e)).trans (row0_read _ e)

/-- The destination words: row 1. -/
private theorem V6_dst (e : Fin 1600000) :
    (V6 m outs c main_v3 : S1600000.Idx → BitVec 32) (ix1 e)
      = (m ((c : Thread nD τ).loc main_arg1) : S2x1600000.Idx → BitVec 32) (ix2 (1 : Fin 2) e) := by
  rw [in_dst]
  exact (congrFun (dst_eq (V0 m c)) (ix1 e)).trans (row1_read _ e)

/-- After the two stretches the aggregate holds the take and scatter of the table the first stretch found. -/
private theorem V8_v17_eq :
    (V8 m outs c main_v24 : S100000x64.Idx → EReal)
      = aggV (V6 m outs c main_v20 : S100000x64.Idx → EReal) (V6 m outs c main_v1 : S1600000.Idx → BitVec 32)
          (V6 m outs c main_v3 : S1600000.Idx → BitVec 32) :=
  agg_of (V7 m outs c) _ _ _ (V7_of m outs c main_v3 (by decide)) (take_eq (V6 m outs c))

/-- The aggregate at (p, q): the sum, over the edges whose destination word is p, of entry q of the source row of the
    table the layer's first region left. -/
theorem V8_agg (hok : Gcn.SrcOkA (m ((c : Thread nD τ).loc main_arg1) : S2x1600000.Idx → BitVec 32)) (p : Fin 100000) (q : Fin 64) :
    (V8 m outs c main_v24 : S100000x64.Idx → EReal) (ix2 p q)
      = Gcn.segsum (fun r e => (m ((c : Thread nD τ).loc main_arg1) : S2x1600000.Idx → BitVec 32) (ix2 r e))
          (fun e => (V6 m outs c main_v20 : S100000x64.Idx → EReal)
            (ix2 (Gcn.rowOf (Gcn.srcW (fun r e => (m ((c : Thread nD τ).loc main_arg1) : S2x1600000.Idx → BitVec 32) (ix2 r e)) e)) q)) p := by
  have hsrc : ∀ e : Fin 1600000, 0 ≤ ((V6 m outs c main_v1 : S1600000.Idx → BitVec 32) (ix1 e)).toInt
      ∧ ((V6 m outs c main_v1 : S1600000.Idx → BitVec 32) (ix1 e)).toInt < 100000 := fun e => by
    rw [V6_src]; exact hok e
  refine (congrFun (V8_v17_eq m outs c) (ix2 p q)).trans ?_
  rw [aggV_apply _ hsrc]
  unfold Gcn.segsum
  refine congrArg (Gcn.lit0 + ·) (Finset.sum_congr rfl fun e _ => ?_)
  rw [V6_src, V6_dst]
  rfl

/-- The bias as one row. -/
theorem V8_bias (q : Fin 64) :
    (V8 m outs c main_v25 : S1x64.Idx → EReal) (ix2 (0 : Fin 1) q)
      = (m ((c : Thread nD τ).loc main_arg6) : S64.Idx → EReal) (ix1 q) := by
  refine (congrFun (bias_eq (V7 m outs c)) (ix2 (0 : Fin 1) q)).trans ?_
  rw [row_of_vec, V7_of m outs c main_arg6 (by decide), in_bias]

/-- Neither stretch writes the table the layer's first region left. -/
theorem V8_hs : V8 m outs c main_v20 = V6 m outs c main_v20 :=
  (V8_of m outs c main_v20 (by decide)).trans (V7_of m outs c main_v20 (by decide))

/-- Nor the degree scale. -/
theorem V8_scale : V8 m outs c main_v12 = V1 m c main_v12 :=
  (V8_of m outs c main_v12 (by decide)).trans ((V7_of m outs c main_v12 (by decide)).trans (in_scale m outs c))

end Cert.KernelIdeal.HostVal

end
-- ==== Proof.KI.HostL3.lean ====
/- The host side of the printed program at the ideal instance, between a layer's two kernel regions: the gather of the
   scaled rows at the source words (jnp.take: a negative word wrapped once, an in-bounds mask, a row gather, a fill where
   the mask is clear) and the accumulating scatter of the gathered rows at the destination words, from a zero table.
   Where every source word names a row of the table the wrap is the identity and the mask is set everywhere, so the
   result at (p, q) is the sum, over the edges whose destination word is p, of entry q of the source row: Gcn.segsum.
   The bias is reshaped to a row; the scaled rows and the degree scale are not written. -/
import proofs.«431502_j9491877724720_3_alg».proof.Proof.Gen.KernelIdeal.Regions
import proofs.«431502_j9491877724720_3_alg».proof.Proof.Spec
import proofs.«431502_j9491877724720_3_alg».proof.Proof.LibRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Reduce

set_option maxRecDepth 16384

noncomputable section

namespace Cert.KernelIdeal.HostVal

open Cert.KernelIdeal Cert.KernelIdeal.Gen
open Idealize.ShloMosaic Idealize.ShloMosaic.TcCoe Idealize.ShloMosaic.ValueIdx
open Idealize.ShloMosaic.StableHlo
open scoped BigOperators

/-! ## The operations as functions of the table and the two word vectors -/

/-- The source words with a negative word wrapped once around the table. -/
private def wrapV (src : S1600000.Idx → BitVec 32) : S1600000.Idx → BitVec 32 :=
  select (cmpi .slt src (broadcastInDim S1600000 ![] bcast_S_S1600000 (constantI S_ 32 0#32)))
    (addi src (broadcastInDim S1600000 ![] bcast_S_S1600000 (constantI S_ 32 100000#32))) src

/-- The wrapped words as a column. -/
private def colV (src : S1600000.Idx → BitVec 32) : S1600000x1.Idx → BitVec 32 :=
  broadcastInDim S1600000x1 ![0] bcast_S1600000_S1600000x1_0 (wrapV src)

/-- The in-bounds mask of the wrapped words. -/
private def maskV (src : S1600000.Idx → BitVec 32) : S1600000.Idx → BitVec 1 :=
  Host.reduce IntOp.andi
    (andi (cmpi .sge (colV src) (broadcastInDim S1600000x1 ![] bcast_S_S1600000x1 (constantI S_ 32 0#32)))
      (cmpi .sle (colV src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows the wrapped words name, a fill where the mask is clear. -/
private def takeV (hs : S100000x64.Idx → EReal) (src : S1600000.Idx → BitVec 32) : S1600000x64.Idx → EReal :=
  select (broadcastInDim S1600000x64 ![0] bcast_S1600000_S1600000x64_0 (maskV src))
    (Host.gather gather_S100000x64_S1600000x1_S1600000x64_1_0_n_n_0_1_164 hs (colV src))
    (broadcastInDim S1600000x64 ![] bcast_S_S1600000x64 (constant (F := Ideal) S_ .f32 0x7FC00000#32))

/-- The taken rows added into a zero table at the destination words. -/
private def aggV (hs : S100000x64.Idx → EReal) (src dst : S1600000.Idx → BitVec 32) : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (takeV hs src)

/-! ## Layer-independent facts, over variables -/

/-- A vector laid as a column reads, at (e, 0), the vector at e. -/
private theorem bc_col {α : Type} {n : ℕ} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply _ h v _ (ix1 e) (fun a => ?_)
  match a with
  | ⟨0, _⟩ =>
    have he := e.isLt
    split
    · next h1 => change n = 1 at h1; show e.val = 0; omega
    · rfl

/-- A vector laid along the rows of a rectangle reads, at (e, q), the vector at e. -/
private theorem bc_rows {α : Type} {n k : ℕ} (h : (⟨1, ![n]⟩ : Shape).BroadcastsInDim ⟨2, ![n, k]⟩ ![0])
    (v : (⟨1, ![n]⟩ : Shape).Idx → α) (e : Fin n) (q : Fin k) :
    broadcastInDim ⟨2, ![n, k]⟩ ![0] h v (ix2 e q) = v (ix1 e) := by
  refine broadcastInDim_apply _ h v _ (ix1 e) (fun a => ?_)
  match a with
  | ⟨0, _⟩ =>
    have he := e.isLt
    split
    · next h1 => change n = 1 at h1; show e.val = 0; omega
    · rfl

/-- Every index of a column is (e, 0). -/
private theorem col_idx {n : ℕ} (i : (⟨2, ![n, 1]⟩ : Shape).Idx) : ∃ e : Fin n, i = ix2 e (0 : Fin 1) :=
  ⟨i 0, by
    funext a
    match a with
    | ⟨0, _⟩ => rfl
    | ⟨1, _⟩ => exact Subsingleton.elim (α := Fin 1) _ _⟩

/-- A non-negative word is not below zero. -/
private theorem slt_zero (w : BitVec 32) (h : 0 ≤ w.toInt) : IntOp.cmpi .slt w 0#32 = 0#1 := by
  unfold IntOp.cmpi
  have : w.slt 0#32 = false := by
    rw [BitVec.slt_eq_decide]
    simpa using h
  simp only [this]
  rfl

/-- A non-negative word is at least zero. -/
private theorem sge_zero (w : BitVec 32) (h : 0 ≤ w.toInt) : IntOp.cmpi .sge w 0#32 = 1#1 := by
  unfold IntOp.cmpi
  have : (0#32).sle w = true := by
    rw [BitVec.sle_eq_decide]
    simpa using h
  simp only [this]
  rfl

/-- A word below 100000 is at most 99999. -/
private theorem sle_top (w : BitVec 32) (h : w.toInt < 100000) : IntOp.cmpi .sle w 99999#32 = 1#1 := by
  unfold IntOp.cmpi
  have h9 : (99999#32 : BitVec 32).toInt = 99999 := by decide
  have : w.sle 99999#32 = true := by
    rw [BitVec.sle_eq_decide, h9]
    simp only [decide_eq_true_eq]
    omega
  simp only [this]
  rfl

/-- A fold of the one-bit and over ones, from one, is one. -/
private theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_ones f hf l

/-- The and-reduction of an array of ones, from one, is one everywhere. -/
private theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x hx _

/-- The host's accumulating scatter at the ideal instance is the exact sum. -/
private theorem scatterAdd_ideal {s si su : Shape} {w : ℕ} (d : ScatterDims s si su) (x : FVec Ideal s .f32) (idx : IVec si w)
    (upd : FVec Ideal su .f32) : Host.scatterAdd (F := Ideal) d x idx upd = Ideal.hostScatterAdd d x idx upd := rfl

/-- The zero table reads the zero word everywhere. -/
private theorem zero_table (p : Fin 100000) (q : Fin 64) :
    broadcastInDim S100000x64 ![] bcast_S_S100000x64 (constant (F := Ideal) S_ .f32 0x00000000#32) (ix2 p q) = Gcn.lit0 := rfl

section Words

variable (src : S1600000.Idx → BitVec 32)
variable (hok : ∀ e : Fin 1600000, 0 ≤ (src (ix1 e)).toInt ∧ (src (ix1 e)).toInt < 100000)

include hok

/-- Where every word names a row the wrap leaves it. -/
private theorem wrapV_apply (e : Fin 1600000) : wrapV src (ix1 e) = src (ix1 e) := by
  show Scalar.select (IntOp.cmpi .slt (src (ix1 e)) 0#32) (IntOp.addi (src (ix1 e)) 100000#32) (src (ix1 e)) = _
  rw [slt_zero _ (hok e).1, select_zero]

private theorem colV_apply (e : Fin 1600000) : colV src (ix2 e (0 : Fin 1)) = src (ix1 e) := by
  unfold colV
  rw [bc_col, wrapV_apply src hok]

/-- Where every word names a row the mask is set. -/
private theorem maskV_apply (e : Fin 1600000) : maskV src (ix1 e) = 1#1 := by
  unfold maskV
  refine reduce_andi_ones _ _ _ _ rfl (fun i => ?_) _
  obtain ⟨e', rfl⟩ := col_idx i
  show IntOp.andi (IntOp.cmpi .sge (colV src (ix2 e' (0 : Fin 1))) 0#32) (IntOp.cmpi .sle (colV src (ix2 e' (0 : Fin 1))) 99999#32) = 1#1
  rw [colV_apply src hok, sge_zero _ (hok e').1, sle_top _ (hok e').2]
  rfl

/-- Where every word names a row the take reads that row. -/
private theorem takeV_apply (hs : S100000x64.Idx → EReal) (e : Fin 1600000) (q : Fin 64) :
    takeV hs src (ix2 e q) = hs (ix2 (Gcn.rowOf (src (ix1 e))) q) := by
  unfold takeV
  rw [select_apply, bc_rows, maskV_apply src hok, select_one,
    Gcn.Rows.gather_rows gather_S100000x64_S1600000x1_S1600000x64_1_0_n_n_0_1_164 rfl rfl rfl rfl rfl rfl hs (colV src) e q (by decide)]
  refine congrArg hs (congrArg (fun r : Fin 100000 => ix2 r q) (Fin.ext ?_))
  show min (colV src (ix2 e (0 : Fin 1))).toInt.toNat (100000 - 1) = min (src (ix1 e)).toInt.toNat 99999
  rw [colV_apply src hok]

/-- The accumulating scatter of the taken rows, from a zero table, at (p, q): the sum over the edges whose destination
    word is p of the source row's entry. -/
private theorem aggV_apply (hs : S100000x64.Idx → EReal) (dst : S1600000.Idx → BitVec 32) (p : Fin 100000) (q : Fin 64) :
    aggV hs src dst (ix2 p q)
      = Gcn.lit0 + ∑ e : Fin 1600000, if (dst (ix1 e)).toInt = (p.val : ℤ) then hs (ix2 (Gcn.rowOf (src (ix1 e))) q) else 0 := by
  unfold aggV
  rw [scatterAdd_ideal, Gcn.Rows.scatterAdd_rows scatter_S100000x64_S1600000x1_S1600000x64_1_0_0_1 rfl rfl rfl rfl]
  refine congrArg₂ (· + ·) (zero_table p q) (Finset.sum_congr rfl fun e _ => ?_)
  rw [bc_col, takeV_apply src hok]

end Words

/-! ## Reading a row of the edge list, and the bias as a row -/

/-- Row 0 of a two-row array, cut out and flattened, reads at e the array at (0, e). -/
private theorem row0_read (x : S2x1600000.Idx → BitVec 32) (e : Fin 1600000) :
    shapeCast S1600000 (extractStridedSlice S1x1600000 ![0, 0] x slices_S2x1600000_S1x1600000_0_0)
        shapeCasts_S1x1600000_S1600000 (ix1 e) = x (ix2 (0 : Fin 2) e) := by
  refine (shapeCast_apply _ _ (ix1 e) (ix2 (0 : Fin 1) e) ?_).trans ?_
  · rw [Shape.rowMajor_val_two, Shape.rowMajor_val_one]
    show (0 : ℕ) * 1600000 + e.val = e.val
    omega
  · refine extractStridedSlice_apply _ _ _ _ (ix2 (0 : Fin 2) e) (fun a => ?_)
    match a with
    | ⟨0, _⟩ => rfl
    | ⟨1, _⟩ => exact (Nat.zero_add _).symm

/-- Row 1 likewise reads the array at (1, e). -/
private theorem row1_read (x : S2x1600000.Idx → BitVec 32) (e : Fin 1600000) :
    shapeCast S1600000 (extractStridedSlice S1x1600000 ![1, 0] x slices_S2x1600000_S1x1600000_1_0)
        shapeCasts_S1x1600000_S1600000 (ix1 e) = x (ix2 (1 : Fin 2) e) := by
  refine (shapeCast_apply _ _ (ix1 e) (ix2 (0 : Fin 1) e) ?_).trans ?_
  · rw [Shape.rowMajor_val_two, Shape.rowMajor_val_one]
    show (0 : ℕ) * 1600000 + e.val = e.val
    omega
  · refine extractStridedSlice_apply _ _ _ _ (ix2 (1 : Fin 2) e) (fun a => ?_)
    match a with
    | ⟨0, _⟩ => rfl
    | ⟨1, _⟩ => exact (Nat.zero_add _).symm

/-- A vector reshaped to one row reads at (0, q) the vector at q. -/
private theorem row_of_vec (x : S64.Idx → EReal) (q : Fin 64) :
    shapeCast S1x64 x shapeCasts_S64_S1x64 (ix2 (0 : Fin 1) q) = x (ix1 q) := by
  refine shapeCast_apply _ _ (ix2 (0 : Fin 1) q) (ix1 q) ?_
  rw [Shape.rowMajor_val_two, Shape.rowMajor_val_one]
  show q.val = (0 : ℕ) * 64 + q.val
  omega

/-! ## The stretches over any entry contents -/

section Stretches

variable (W : Valuation τ sig (Elt Ideal))

/-- The launch stretch leaves the source words in one vector: row 0 of the edge list. -/
private theorem src_eq :
    (StableHlo.after hostOps0 W (Proc.devRef .tc main_v1) : S1600000.Idx → BitVec 32)
      = shapeCast S1600000 (extractStridedSlice S1x1600000 ![0, 0] (W main_arg1 : S2x1600000.Idx → BitVec 32)
          slices_S2x1600000_S1x1600000_0_0) shapeCasts_S1x1600000_S1600000 := by
  dsimp only [hostOps0]
  after_results
  rfl

/-- And the destination words in another: row 1. -/
private theorem dst_eq :
    (StableHlo.after hostOps0 W (Proc.devRef .tc main_v3) : S1600000.Idx → BitVec 32)
      = shapeCast S1600000 (extractStridedSlice S1x1600000 ![1, 0] (W main_arg1 : S2x1600000.Idx → BitVec 32)
          slices_S2x1600000_S1x1600000_1_0) shapeCasts_S1x1600000_S1600000 := by
  dsimp only [hostOps0]
  after_results
  rfl

set_option maxHeartbeats 1000000 in
/-- The layer's first stretch leaves in its result the take of the table's rows at the source words. -/
private theorem take_eq :
    (StableHlo.after hostOps5 W (Proc.devRef .tc main_v28) : S1600000x64.Idx → EReal)
      = takeV (W main_v27 : S100000x64.Idx → EReal) (W main_v1 : S1600000.Idx → BitVec 32) := by
  dsimp only [hostOps5, main_call2_call0, TRef.nullary, TRef.unary, TRef.binary, TRef.ternary, TRef.toBuf, TRef.ofBuf,
    TRef.of, cast_eq]
  after_results_simp
  rfl

/-- The second stretch leaves in its result the accumulating scatter of that array at the destination words. -/
private theorem agg_eq :
    (StableHlo.after hostOps5_1 W (Proc.devRef .tc main_v31) : S100000x64.Idx → EReal)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (W main_v3 : S1600000.Idx → BitVec 32))
          (W main_v28 : S1600000x64.Idx → EReal) := by
  dsimp only [hostOps5_1]
  after_results

/-- The second stretch over entry contents whose words and taken rows are named. -/
private theorem agg_of (hs : S100000x64.Idx → EReal) (src dst : S1600000.Idx → BitVec 32)
    (h3 : (W main_v3 : S1600000.Idx → BitVec 32) = dst) (h14 : (W main_v28 : S1600000x64.Idx → EReal) = takeV hs src) :
    (StableHlo.after hostOps5_1 W (Proc.devRef .tc main_v31) : S100000x64.Idx → EReal) = aggV hs src dst := by
  rw [agg_eq, h3, h14]
  rfl

/-- And the bias as one row. -/
private theorem bias_eq :
    (StableHlo.after hostOps5_1 W (Proc.devRef .tc main_v32) : S1x64.Idx → EReal)
      = shapeCast S1x64 (W main_arg8 : S64.Idx → EReal) shapeCasts_S64_S1x64 := by
  dsimp only [hostOps5_1]
  after_results
  rfl

end Stretches

/-! ## The layer's host side -/

variable (m : (ℓ : Loc nD τ sig) → Buf (Elt Ideal) ℓ) (outs : Outs (F := Ideal)) (c : Dev nD)

/-- The launch stretch's results the layer reads, and the bias, are not written by any item between the launch stretch
    and the layer's first stretch. -/
private theorem since_launch (r : Ref sig .tc) (h : r ∈ ([main_v1, main_v3, main_v12, main_arg8] : List (Ref sig .tc))) :
    V10 m outs c r = V1 m c r := by
  simp only [List.mem_cons, List.not_mem_nil, or_false] at h
  rcases h with rfl | rfl | rfl | rfl <;>
    exact (V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans (V2_of m outs c _ (by decide)))))))))

private theorem in_src : V10 m outs c main_v1 = V1 m c main_v1 := since_launch m outs c main_v1 (by decide)
private theorem in_dst : V10 m outs c main_v3 = V1 m c main_v3 := since_launch m outs c main_v3 (by decide)
private theorem in_scale : V10 m outs c main_v12 = V1 m c main_v12 := since_launch m outs c main_v12 (by decide)
private theorem in_bias : V10 m outs c main_arg8 = m ((c : Thread nD τ).loc main_arg8) :=
  (since_launch m outs c main_arg8 (by decide)).trans ((V1_of m c main_arg8 (by decide)).trans rfl)

/-- The source words as the layer finds them: row 0 of the edge list. -/
private theorem V10_src (e : Fin 1600000) :
    (V10 m outs c main_v1 : S1600000.Idx → BitVec 32) (ix1 e)
      = (m ((c : Thread nD τ).loc main_arg1) : S2x1600000.Idx → BitVec 32) (ix2 (0 : Fin 2) e) := by
  rw [in_src]
  exact (congrFun (src_eq (V0 m c)) (ix1 e)).trans (row0_read _ e)

/-- The destination words: row 1. -/
private theorem V10_dst (e : Fin 1600000) :
    (V10 m outs c main_v3 : S1600000.Idx → BitVec 32) (ix1 e)
      = (m ((c : Thread nD τ).loc main_arg1) : S2x1600000.Idx → BitVec 32) (ix2 (1 : Fin 2) e) := by
  rw [in_dst]
  exact (congrFun (dst_eq (V0 m c)) (ix1 e)).trans (row1_read _ e)

/-- After the two stretches the aggregate holds the take and scatter of the table the first stretch found. -/
private theorem V12_v17_eq :
    (V12 m outs c main_v31 : S100000x64.Idx → EReal)
      = aggV (V10 m outs c main_v27 : S100000x64.Idx → EReal) (V10 m outs c main_v1 : S1600000.Idx → BitVec 32)
          (V10 m outs c main_v3 : S1600000.Idx → BitVec 32) :=
  agg_of (V11 m outs c) _ _ _ (V11_of m outs c main_v3 (by decide)) (take_eq (V10 m outs c))

/-- The aggregate at (p, q): the sum, over the edges whose destination word is p, of entry q of the source row of the
    table the layer's first region left. -/
theorem V12_agg (hok : Gcn.SrcOkA (m ((c : Thread nD τ).loc main_arg1) : S2x1600000.Idx → BitVec 32)) (p : Fin 100000) (q : Fin 64) :
    (V12 m outs c main_v31 : S100000x64.Idx → EReal) (ix2 p q)
      = Gcn.segsum (fun r e => (m ((c : Thread nD τ).loc main_arg1) : S2x1600000.Idx → BitVec 32) (ix2 r e))
          (fun e => (V10 m outs c main_v27 : S100000x64.Idx → EReal)
            (ix2 (Gcn.rowOf (Gcn.srcW (fun r e => (m ((c : Thread nD τ).loc main_arg1) : S2x1600000.Idx → BitVec 32) (ix2 r e)) e)) q)) p := by
  have hsrc : ∀ e : Fin 1600000, 0 ≤ ((V10 m outs c main_v1 : S1600000.Idx → BitVec 32) (ix1 e)).toInt
      ∧ ((V10 m outs c main_v1 : S1600000.Idx → BitVec 32) (ix1 e)).toInt < 100000 := fun e => by
    rw [V10_src]; exact hok e
  refine (congrFun (V12_v17_eq m outs c) (ix2 p q)).trans ?_
  rw [aggV_apply _ hsrc]
  unfold Gcn.segsum
  refine congrArg (Gcn.lit0 + ·) (Finset.sum_congr rfl fun e _ => ?_)
  rw [V10_src, V10_dst]
  rfl

/-- The bias as one row. -/
theorem V12_bias (q : Fin 64) :
    (V12 m outs c main_v32 : S1x64.Idx → EReal) (ix2 (0 : Fin 1) q)
      = (m ((c : Thread nD τ).loc main_arg8) : S64.Idx → EReal) (ix1 q) := by
  refine (congrFun (bias_eq (V11 m outs c)) (ix2 (0 : Fin 1) q)).trans ?_
  rw [row_of_vec, V11_of m outs c main_arg8 (by decide), in_bias]

/-- Neither stretch writes the table the layer's first region left. -/
theorem V12_hs : V12 m outs c main_v27 = V10 m outs c main_v27 :=
  (V12_of m outs c main_v27 (by decide)).trans (V11_of m outs c main_v27 (by decide))

/-- Nor the degree scale. -/
theorem V12_scale : V12 m outs c main_v12 = V1 m c main_v12 :=
  (V12_of m outs c main_v12 (by decide)).trans ((V11_of m outs c main_v12 (by decide)).trans (in_scale m outs c))

end Cert.KernelIdeal.HostVal

end
-- ==== Proof.KI.Result.lean ====
/- The result of the idealized kernel program, element by element: region by region and stretch by stretch the fold's
   contents are the layers of the network as the kernel arranges them (Gcn.netKA), under the one hypothesis that every
   source word of the edge list names a row. -/
import proofs.«431502_j9491877724720_3_alg».proof.Proof.KI.Ends
import proofs.«431502_j9491877724720_3_alg».proof.Proof.KI.Val0
import proofs.«431502_j9491877724720_3_alg».proof.Proof.KI.Val1
import proofs.«431502_j9491877724720_3_alg».proof.Proof.KI.Val2
import proofs.«431502_j9491877724720_3_alg».proof.Proof.KI.Val3
import proofs.«431502_j9491877724720_3_alg».proof.Proof.KI.Val4
import proofs.«431502_j9491877724720_3_alg».proof.Proof.KI.Val5
import proofs.«431502_j9491877724720_3_alg».proof.Proof.KI.Val6
import proofs.«431502_j9491877724720_3_alg».proof.Proof.KI.HostEnds
import proofs.«431502_j9491877724720_3_alg».proof.Proof.KI.HostL1
import proofs.«431502_j9491877724720_3_alg».proof.Proof.KI.HostL2
import proofs.«431502_j9491877724720_3_alg».proof.Proof.KI.HostL3
import proofs.«431502_j9491877724720_3_alg».proof.Proof.Spec

set_option maxRecDepth 16384

noncomputable section

open scoped BigOperators

namespace Cert.KernelIdeal.Result

open Cert.KernelIdeal Cert.KernelIdeal.Gen Cert.KernelIdeal.Run Cert.KernelIdeal.Run.Pool Cert.KernelIdeal.HostVal
open Idealize.ShloMosaic Idealize.ShloMosaic.TcCoe Idealize.ShloMosaic.ValueIdx

variable (m : (ℓ : Loc nD τ sig) → Buf (Elt Ideal) ℓ) (c : Dev nD)

/-- The edge list's words, by row and edge. -/
abbrev ei : Gcn.EdgeWords := fun r e => (m ((c : Thread nD τ).loc main_arg1) : S2x1600000.Idx → BitVec 32) (ix2 r e)

/-! ## Buffers no item has written yet keep their contents through the fold -/

theorem keep5 (r : Ref sig .tc) (h2 : r ∉ ([main_v13] : List (Ref sig .tc))) (h3 : r ∉ hostOps1_W) (h4 : r ∉ hostOps1_1_W)
    (h5 : r ∉ ([main_v19] : List (Ref sig .tc))) : U5 m c r = V1 m c r := by
  rw [← V5_eq m c]
  exact (V5_of m (outs m) c r h5).trans ((V4_of m (outs m) c r h4).trans ((V3_of m (outs m) c r h3).trans (V2_of m (outs m) c r h2)))

theorem keep9 (r : Ref sig .tc) (h2 : r ∉ ([main_v13] : List (Ref sig .tc))) (h3 : r ∉ hostOps1_W) (h4 : r ∉ hostOps1_1_W)
    (h5 : r ∉ ([main_v19] : List (Ref sig .tc))) (h6 : r ∉ ([main_v20] : List (Ref sig .tc))) (h7 : r ∉ hostOps3_W) (h8 : r ∉ hostOps3_1_W)
    (h9 : r ∉ ([main_v26] : List (Ref sig .tc))) : U9 m c r = V1 m c r := by
  rw [← V9_eq m c]
  exact (V9_of m (outs m) c r h9).trans ((V8_of m (outs m) c r h8).trans ((V7_of m (outs m) c r h7).trans ((V6_of m (outs m) c r h6).trans
    ((V5_of m (outs m) c r h5).trans ((V4_of m (outs m) c r h4).trans ((V3_of m (outs m) c r h3).trans (V2_of m (outs m) c r h2)))))))

/-! ## Layer 1: regions 0 and 1 around the gather and the segment sum -/

/-- What region 0 leaves: the layer's input rows through its weight matrix, each scaled by its degree factor. -/
theorem hs1 (xin : Gcn.Feat) (hx : ∀ p k, (U1 m c main_arg0 : S100000x64.Idx → EReal) (ix2 p k) = xin p k) (p : Fin 100000) (q : Fin 64) :
    (U2 m c main_v13 : S100000x64.Idx → EReal) (ix2 p q)
      = Gcn.hsK (ei m c) xin (fun k q => (m ((c : Thread nD τ).loc main_arg3) : S64x64.Idx → EReal) (ix2 k q)) p q := by
  have e : (U2 m c main_v13 : S100000x64.Idx → EReal) = ((dat0 (F := Ideal) (atRefs (U1 m)) c).arrAt 3 cfg0.N : S100000x64.Idx → EReal) := by
    unfold U2; exact Function.update_self _ _ _
  rw [e, final0]
  have a2 : arr0_2 (atRefs (U1 m)) c (ix2 p q) = Gcn.dinv (ei m c) p := by
    show (U1 m c main_v12 : S100000x64.Idx → EReal) (ix2 p q) = _
    rw [show U1 m c main_v12 = V1 m c main_v12 from rfl]; exact V1_scale m c p q
  have a0 : ∀ k, arr0_0 (atRefs (U1 m)) c (ix2 p k) = xin p k := fun k => hx p k
  have a1 : ∀ k, arr0_1 (atRefs (U1 m)) c (ix2 k q) = (m ((c : Thread nD τ).loc main_arg3) : S64x64.Idx → EReal) (ix2 k q) := fun k => by
    show (U1 m c main_arg3 : S64x64.Idx → EReal) (ix2 k q) = _
    rw [show U1 m c main_arg3 = m ((c : Thread nD τ).loc main_arg3) from V1_of m c main_arg3 (by decide)]
  rw [a2]; simp only [a0, a1]; rfl

/-- What region 1 leaves: layer 1 of the network in the kernel's arrangement. -/
theorem layer1 (hok : Gcn.SrcOkA (m ((c : Thread nD τ).loc main_arg1) : S2x1600000.Idx → BitVec 32)) (xin : Gcn.Feat)
    (hx : ∀ p k, (U1 m c main_arg0 : S100000x64.Idx → EReal) (ix2 p k) = xin p k) (p : Fin 100000) (q : Fin 64) :
    (U5 m c main_v19 : S100000x64.Idx → EReal) (ix2 p q)
      = Gcn.convK true (ei m c) xin (fun k q => (m ((c : Thread nD τ).loc main_arg3) : S64x64.Idx → EReal) (ix2 k q))
          (fun q => (m ((c : Thread nD τ).loc main_arg4) : S64.Idx → EReal) (ix1 q)) p q := by
  have e : (U5 m c main_v19 : S100000x64.Idx → EReal) = ((dat1 (F := Ideal) (atRefs (U4 m)) c).arrAt 4 cfg1.N : S100000x64.Idx → EReal) := by
    unfold U5; exact Function.update_self _ _ _
  rw [e, final1]
  have b2 : arr1_2 (atRefs (U4 m)) c (ix2 p q) = Gcn.dinv (ei m c) p := by
    show (U4 m c main_v12 : S100000x64.Idx → EReal) (ix2 p q) = _
    rw [← V4_eq m c, V4_scale m (outs m) c]; exact V1_scale m c p q
  have b1 : arr1_1 (atRefs (U4 m)) c (ix2 p q) = Gcn.hsK (ei m c) xin (fun k q => (m ((c : Thread nD τ).loc main_arg3) : S64x64.Idx → EReal) (ix2 k q)) p q := by
    show (U4 m c main_v13 : S100000x64.Idx → EReal) (ix2 p q) = _
    rw [← V4_eq m c, V4_hs m (outs m) c, V2_eq m c]; exact hs1 m c xin hx p q
  have b0 : arr1_0 (atRefs (U4 m)) c (ix2 p q) = Gcn.aggK (ei m c) (Gcn.hsK (ei m c) xin (fun k q => (m ((c : Thread nD τ).loc main_arg3) : S64x64.Idx → EReal) (ix2 k q))) p q := by
    show (U4 m c main_v17 : S100000x64.Idx → EReal) (ix2 p q) = _
    rw [← V4_eq m c, V4_agg m (outs m) c hok p q, V2_eq m c]
    simp only [hs1 m c xin hx]
    unfold Gcn.aggK
    with_reducible rfl
  have b3 : arr1_3 (atRefs (U4 m)) c (ix2 (0 : Fin 1) q) = (m ((c : Thread nD τ).loc main_arg4) : S64.Idx → EReal) (ix1 q) := by
    show (U4 m c main_v18 : S1x64.Idx → EReal) (ix2 (0 : Fin 1) q) = _
    rw [← V4_eq m c]; exact V4_bias m (outs m) c q
  rw [b2, b0, b1, b3]
  simp only [Gcn.convK, Gcn.act, if_true, Bool.false_eq_true, if_false, ↓reduceIte]

/-! ## Layer 2: regions 2 and 3 around the gather and the segment sum -/

/-- What region 2 leaves: the layer's input rows through its weight matrix, each scaled by its degree factor. -/
theorem hs2 (xin : Gcn.Feat) (hx : ∀ p k, (U5 m c main_v19 : S100000x64.Idx → EReal) (ix2 p k) = xin p k) (p : Fin 100000) (q : Fin 64) :
    (U6 m c main_v20 : S100000x64.Idx → EReal) (ix2 p q)
      = Gcn.hsK (ei m c) xin (fun k q => (m ((c : Thread nD τ).loc main_arg5) : S64x64.Idx → EReal) (ix2 k q)) p q := by
  have e : (U6 m c main_v20 : S100000x64.Idx → EReal) = ((dat2 (F := Ideal) (atRefs (U5 m)) c).arrAt 3 cfg2.N : S100000x64.Idx → EReal) := by
    unfold U6; exact Function.update_self _ _ _
  rw [e, final2]
  have a2 : arr2_2 (atRefs (U5 m)) c (ix2 p q) = Gcn.dinv (ei m c) p := by
    show (U5 m c main_v12 : S100000x64.Idx → EReal) (ix2 p q) = _
    rw [show U5 m c main_v12 = V1 m c main_v12 from keep5 m c main_v12 (by decide) (by decide) (by decide) (by decide)]; exact V1_scale m c p q
  have a0 : ∀ k, arr2_0 (atRefs (U5 m)) c (ix2 p k) = xin p k := fun k => hx p k
  have a1 : ∀ k, arr2_1 (atRefs (U5 m)) c (ix2 k q) = (m ((c : Thread nD τ).loc main_arg5) : S64x64.Idx → EReal) (ix2 k q) := fun k => by
    show (U5 m c main_arg5 : S64x64.Idx → EReal) (ix2 k q) = _
    rw [show U5 m c main_arg5 = m ((c : Thread nD τ).loc main_arg5) from (keep5 m c main_arg5 (by decide) (by decide) (by decide) (by decide)).trans (V1_of m c main_arg5 (by decide))]
  rw [a2]; simp only [a0, a1]; rfl

/-- What region 3 leaves: layer 2 of the network in the kernel's arrangement. -/
theorem layer2 (hok : Gcn.SrcOkA (m ((c : Thread nD τ).loc main_arg1) : S2x1600000.Idx → BitVec 32)) (xin : Gcn.Feat)
    (hx : ∀ p k, (U5 m c main_v19 : S100000x64.Idx → EReal) (ix2 p k) = xin p k) (p : Fin 100000) (q : Fin 64) :
    (U9 m c main_v26 : S100000x64.Idx → EReal) (ix2 p q)
      = Gcn.convK true (ei m c) xin (fun k q => (m ((c : Thread nD τ).loc main_arg5) : S64x64.Idx → EReal) (ix2 k q))
          (fun q => (m ((c : Thread nD τ).loc main_arg6) : S64.Idx → EReal) (ix1 q)) p q := by
  have e : (U9 m c main_v26 : S100000x64.Idx → EReal) = ((dat3 (F := Ideal) (atRefs (U8 m)) c).arrAt 4 cfg3.N : S100000x64.Idx → EReal) := by
    unfold U9; exact Function.update_self _ _ _
  rw [e, final3]
  have b2 : arr3_2 (atRefs (U8 m)) c (ix2 p q) = Gcn.dinv (ei m c) p := by
    show (U8 m c main_v12 : S100000x64.Idx → EReal) (ix2 p q) = _
    rw [← V8_eq m c, V8_scale m (outs m) c]; exact V1_scale m c p q
  have b1 : arr3_1 (atRefs (U8 m)) c (ix2 p q) = Gcn.hsK (ei m c) xin (fun k q => (m ((c : Thread nD τ).loc main_arg5) : S64x64.Idx → EReal) (ix2 k q)) p q := by
    show (U8 m c main_v20 : S100000x64.Idx → EReal) (ix2 p q) = _
    rw [← V8_eq m c, V8_hs m (outs m) c, V6_eq m c]; exact hs2 m c xin hx p q
  have b0 : arr3_0 (atRefs (U8 m)) c (ix2 p q) = Gcn.aggK (ei m c) (Gcn.hsK (ei m c) xin (fun k q => (m ((c : Thread nD τ).loc main_arg5) : S64x64.Idx → EReal) (ix2 k q))) p q := by
    show (U8 m c main_v24 : S100000x64.Idx → EReal) (ix2 p q) = _
    rw [← V8_eq m c, V8_agg m (outs m) c hok p q, V6_eq m c]
    simp only [hs2 m c xin hx]
    unfold Gcn.aggK
    with_reducible rfl
  have b3 : arr3_3 (atRefs (U8 m)) c (ix2 (0 : Fin 1) q) = (m ((c : Thread nD τ).loc main_arg6) : S64.Idx → EReal) (ix1 q) := by
    show (U8 m c main_v25 : S1x64.Idx → EReal) (ix2 (0 : Fin 1) q) = _
    rw [← V8_eq m c]; exact V8_bias m (outs m) c q
  rw [b2, b0, b1, b3]
  simp only [Gcn.convK, Gcn.act, if_true, Bool.false_eq_true, if_false, ↓reduceIte]

/-! ## Layer 3: regions 4 and 5 around the gather and the segment sum -/

/-- What region 4 leaves: the layer's input rows through its weight matrix, each scaled by its degree factor. -/
theorem hs3 (xin : Gcn.Feat) (hx : ∀ p k, (U9 m c main_v26 : S100000x64.Idx → EReal) (ix2 p k) = xin p k) (p : Fin 100000) (q : Fin 64) :
    (U10 m c main_v27 : S100000x64.Idx → EReal) (ix2 p q)
      = Gcn.hsK (ei m c) xin (fun k q => (m ((c : Thread nD τ).loc main_arg7) : S64x64.Idx → EReal) (ix2 k q)) p q := by
  have e : (U10 m c main_v27 : S100000x64.Idx → EReal) = ((dat4 (F := Ideal) (atRefs (U9 m)) c).arrAt 3 cfg4.N : S100000x64.Idx → EReal) := by
    unfold U10; exact Function.update_self _ _ _
  rw [e, final4]
  have a2 : arr4_2 (atRefs (U9 m)) c (ix2 p q) = Gcn.dinv (ei m c) p := by
    show (U9 m c main_v12 : S100000x64.Idx → EReal) (ix2 p q) = _
    rw [show U9 m c main_v12 = V1 m c main_v12 from keep9 m c main_v12 (by decide) (by decide) (by decide) (by decide) (by decide) (by decide) (by decide) (by decide)]; exact V1_scale m c p q
  have a0 : ∀ k, arr4_0 (atRefs (U9 m)) c (ix2 p k) = xin p k := fun k => hx p k
  have a1 : ∀ k, arr4_1 (atRefs (U9 m)) c (ix2 k q) = (m ((c : Thread nD τ).loc main_arg7) : S64x64.Idx → EReal) (ix2 k q) := fun k => by
    show (U9 m c main_arg7 : S64x64.Idx → EReal) (ix2 k q) = _
    rw [show U9 m c main_arg7 = m ((c : Thread nD τ).loc main_arg7) from (keep9 m c main_arg7 (by decide) (by decide) (by decide) (by decide) (by decide) (by decide) (by decide) (by decide)).trans (V1_of m c main_arg7 (by decide))]
  rw [a2]; simp only [a0, a1]; rfl

/-- What region 5 leaves: layer 3 of the network in the kernel's arrangement. -/
theorem layer3 (hok : Gcn.SrcOkA (m ((c : Thread nD τ).loc main_arg1) : S2x1600000.Idx → BitVec 32)) (xin : Gcn.Feat)
    (hx : ∀ p k, (U9 m c main_v26 : S100000x64.Idx → EReal) (ix2 p k) = xin p k) (p : Fin 100000) (q : Fin 64) :
    (U13 m c main_v33 : S100000x64.Idx → EReal) (ix2 p q)
      = Gcn.convK false (ei m c) xin (fun k q => (m ((c : Thread nD τ).loc main_arg7) : S64x64.Idx → EReal) (ix2 k q))
          (fun q => (m ((c : Thread nD τ).loc main_arg8) : S64.Idx → EReal) (ix1 q)) p q := by
  have e : (U13 m c main_v33 : S100000x64.Idx → EReal) = ((dat5 (F := Ideal) (atRefs (U12 m)) c).arrAt 4 cfg5.N : S100000x64.Idx → EReal) := by
    unfold U13; exact Function.update_self _ _ _
  rw [e, final5]
  have b2 : arr5_2 (atRefs (U12 m)) c (ix2 p q) = Gcn.dinv (ei m c) p := by
    show (U12 m c main_v12 : S100000x64.Idx → EReal) (ix2 p q) = _
    rw [← V12_eq m c, V12_scale m (outs m) c]; exact V1_scale m c p q
  have b1 : arr5_1 (atRefs (U12 m)) c (ix2 p q) = Gcn.hsK (ei m c) xin (fun k q => (m ((c : Thread nD τ).loc main_arg7) : S64x64.Idx → EReal) (ix2 k q)) p q := by
    show (U12 m c main_v27 : S100000x64.Idx → EReal) (ix2 p q) = _
    rw [← V12_eq m c, V12_hs m (outs m) c, V10_eq m c]; exact hs3 m c xin hx p q
  have b0 : arr5_0 (atRefs (U12 m)) c (ix2 p q) = Gcn.aggK (ei m c) (Gcn.hsK (ei m c) xin (fun k q => (m ((c : Thread nD τ).loc main_arg7) : S64x64.Idx → EReal) (ix2 k q))) p q := by
    show (U12 m c main_v31 : S100000x64.Idx → EReal) (ix2 p q) = _
    rw [← V12_eq m c, V12_agg m (outs m) c hok p q, V10_eq m c]
    simp only [hs3 m c xin hx]
    unfold Gcn.aggK
    with_reducible rfl
  have b3 : arr5_3 (atRefs (U12 m)) c (ix2 (0 : Fin 1) q) = (m ((c : Thread nD τ).loc main_arg8) : S64.Idx → EReal) (ix1 q) := by
    show (U12 m c main_v32 : S1x64.Idx → EReal) (ix2 (0 : Fin 1) q) = _
    rw [← V12_eq m c]; exact V12_bias m (outs m) c q
  rw [b2, b0, b1, b3]
  simp only [Gcn.convK, Gcn.act, if_true, Bool.false_eq_true, if_false, ↓reduceIte]

/-! ## The head: region 6 over the third layer -/

/-- The result of the idealized kernel program is the network in the kernel's arrangement. -/
theorem result_eq (hok : Gcn.SrcOkA (m ((c : Thread nD τ).loc main_arg1) : S2x1600000.Idx → BitVec 32)) (g : Fin 64) (k : Fin 2) :
    ((dat6 (F := Ideal) (atRefs (U14 m)) c).arrAt 4 cfg6.N : S64x2.Idx → EReal) (ix2 g k)
      = Gcn.netKA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) g k := by
  rw [final6]
  show Gcn.head (fun n => (U14 m c main_v34 : S100000x1.Idx → BitVec 32) (ix2 n (0 : Fin 1)))
      (fun n j => (U14 m c main_v33 : S100000x64.Idx → EReal) (ix2 n j))
      (fun j k => (U14 m c main_arg9 : S64x2.Idx → EReal) (ix2 j k))
      (fun k => (U14 m c main_v35 : S1x2.Idx → EReal) (ix2 (0 : Fin 1) k)) g k = _
  have hb : (fun n => (U14 m c main_v34 : S100000x1.Idx → BitVec 32) (ix2 n (0 : Fin 1)))
      = fun n => (m ((c : Thread nD τ).loc main_arg2) : S100000.Idx → BitVec 32) (ix1 n) :=
    funext fun n => by rw [← V14_eq m c]; exact V14_batch m c (outs m) n
  have hl : (fun k => (U14 m c main_v35 : S1x2.Idx → EReal) (ix2 (0 : Fin 1) k))
      = fun k => (m ((c : Thread nD τ).loc main_arg10) : S2.Idx → EReal) (ix1 k) :=
    funext fun k => by rw [← V14_eq m c]; exact V14_headBias m c (outs m) k
  have hw : (U14 m c main_arg9 : S64x2.Idx → EReal) = m ((c : Thread nD τ).loc main_arg9) := by
    rw [← V14_eq m c]
    exact ((V15_of m (outs m) c main_arg9 (by decide)).symm.trans (V15_main_arg9 m (outs m) c))
  have h33 : (U14 m c main_v33 : S100000x64.Idx → EReal) = U13 m c main_v33 := by
    rw [← V14_eq m c, ← V13_eq m c]; exact V14_of m (outs m) c main_v33 (by decide)
  have hh : (fun n j => (U14 m c main_v33 : S100000x64.Idx → EReal) (ix2 n j))
      = Gcn.convK false (ei m c)
          (Gcn.convK true (ei m c)
            (Gcn.convK true (ei m c) (fun p q => (m ((c : Thread nD τ).loc main_arg0) : S100000x64.Idx → EReal) (ix2 p q))
              (fun k q => (m ((c : Thread nD τ).loc main_arg3) : S64x64.Idx → EReal) (ix2 k q))
              (fun q => (m ((c : Thread nD τ).loc main_arg4) : S64.Idx → EReal) (ix1 q)))
            (fun k q => (m ((c : Thread nD τ).loc main_arg5) : S64x64.Idx → EReal) (ix2 k q))
            (fun q => (m ((c : Thread nD τ).loc main_arg6) : S64.Idx → EReal) (ix1 q)))
          (fun k q => (m ((c : Thread nD τ).loc main_arg7) : S64x64.Idx → EReal) (ix2 k q))
          (fun q => (m ((c : Thread nD τ).loc main_arg8) : S64.Idx → EReal) (ix1 q)) := by
    funext n j
    rw [h33]
    refine layer3 m c hok _ (fun p k => ?_) n j
    refine layer2 m c hok _ (fun p k => ?_) p k
    refine layer1 m c hok _ (fun p k => ?_) p k
    rw [show U1 m c main_arg0 = m ((c : Thread nD τ).loc main_arg0) from V1_of m c main_arg0 (by decide)]
  rw [hb, hl, hw, hh]
  unfold Gcn.netKA Gcn.netK
  with_reducible rfl

end Cert.KernelIdeal.Result
-- ==== Proof.KI.PreDecode.lean ====
/-
  The precondition, decoded.  Its last two conjuncts say that every word of row 0 of the edge list, read signed, is at
  least 0 and below 100000: each is an all-reduction by "and" of a signed compare of the source words against a constant,
  and the whole precondition is the "and" of its conjuncts.  A conjunction that is 1 has both sides 1, an all-reduction that
  is 1 has a 1 at every index, and a signed compare that is 1 orders its operands' signed values: every source word names a
  row of the node table.  The finiteness conjuncts are not used.
-/
import proofs.«431502_j9491877724720_3_alg».proof.Defs
import proofs.«431502_j9491877724720_3_alg».proof.Proof.Spec
import proofs.«431502_j9491877724720_3_alg».proof.Proof.KI.HostEnds
import Idealize.ShloMosaic.Lib.ReduceAll
import Idealize.ShloMosaic.Lib.Pipeline.Value
import Idealize.ShloMosaic.Lib.ValueIdx

set_option maxRecDepth 16384

noncomputable section

namespace Cert.KernelIdeal.HostVal

open Cert.KernelIdeal
open Idealize.ShloMosaic Idealize.ShloMosaic.TcCoe Idealize.ShloMosaic.ValueIdx

/-- The rank-0 shape has one index. -/
instance : Subsingleton S_.Idx := ⟨fun a b => funext fun d => d.elim0⟩

/-- A source word the two compares of the precondition accept names a row. -/
theorem word_ok (a : S2x1600000.Idx → BitVec 32)
    (hs : S2x1600000.Slices ![0, 0] S1x1600000) (hc : S1x1600000.ShapeCasts S1600000) (hb : S_.BroadcastsInDim S1600000 ![])
    (e : Fin 1600000)
    (hge : cmpi .sge (shapeCast S1600000 (extractStridedSlice S1x1600000 ![0, 0] a hs) hc)
      (broadcastInDim S1600000 ![] hb (constantI S_ 32 0#32)) (ix1 e) = 1#1)
    (hlt : cmpi .slt (shapeCast S1600000 (extractStridedSlice S1x1600000 ![0, 0] a hs) hc)
      (broadcastInDim S1600000 ![] hb (constantI S_ 32 100000#32)) (ix1 e) = 1#1) :
    0 ≤ (a (ix2 (0 : Fin 2) e)).toInt ∧ (a (ix2 (0 : Fin 2) e)).toInt < 100000 := by
  have h1 := IntOp.cmpi_sge.1 hge
  have h2 := IntOp.cmpi_slt.1 hlt
  rw [row_read a 0 ![0, 0] rfl rfl, scalar_read] at h1 h2
  exact ⟨h1, h2⟩

/-- Under the precondition every source word of the edge list names a row of the node table. -/
theorem srcOk_of_pre [hPre : Cert.Pre_finite_inputs.Facts] (m : (ℓ : Loc nD τ sig) → Buf (Elt Ideal) ℓ)
    (h : Cert.Pre_KernelIdeal m) (c : Dev nD) : Gcn.SrcOkA (m ((c : Thread nD τ).loc main_arg1)) := by
  intro e
  -- the precondition's one word, as the chain of its operations
  have e0 := congrFun (h c) ix0
  dsimp only [Cert.Pre_finite_inputs.fn, Cert.Pre_finite_inputs.fn_part1, Cert.Pre_finite_inputs.fn_part2,
    Cert.Pre_finite_inputs.fn_part3] at e0
  -- the last conjunct (below 100000), then the one before it (at least 0)
  obtain ⟨e1, h54⟩ := IntOp.andi_eq_one.1 e0
  obtain ⟨-, h48⟩ := IntOp.andi_eq_one.1 e1
  have hlt := Host.reduce_andi_all _ _ _ _ ix0 h54 (ix1 e)
  have hge := Host.reduce_andi_all _ _ _ _ ix0 h48 (ix1 e)
  exact word_ok _ _ _ _ e hge hlt

end Cert.KernelIdeal.HostVal

end
-- ==== Proof.RefVal.lean ====
import proofs.«431502_j9491877724720_3_alg».proof.Proof.Gen.ReferenceIdeal.Read
import proofs.«431502_j9491877724720_3_alg».proof.Proof.Spec
import proofs.«431502_j9491877724720_3_alg».proof.Proof.LibRows
import Idealize.ShloMosaic.Lib.StableHlo.Predicate
import Idealize.ShloMosaic.Lib.Pipeline.Value
import Idealize.ShloMosaic.Lib.ValueIdx
import Idealize.ShloMosaic.PureOps.Ideal

noncomputable section

open scoped BigOperators

namespace Cert.ReferenceIdeal.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Indices and words -/

/-- Two rank-1 indices with the same coordinate are equal. -/
theorem idx1_ext {n : Nat} (i j : (⟨1, ![n]⟩ : Shape).Idx) (h : (i 0).val = (j 0).val) : i = j := by
  funext a; match a with | ⟨0, _⟩ => exact Fin.ext h

/-- Two rank-2 indices with the same coordinates are equal. -/
theorem idx2_ext {n0 n1 : Nat} (i j : (⟨2, ![n0, n1]⟩ : Shape).Idx) (h0 : (i 0).val = (j 0).val)
    (h1 : (i 1).val = (j 1).val) : i = j := by
  funext a; match a with | ⟨0, _⟩ => exact Fin.ext h0 | ⟨1, _⟩ => exact Fin.ext h1

/-- The source words: row 0 of the edge list. -/
theorem src_word (x1 : (⟨S2x1600000, .i32⟩ : BufTy).Contents (Elt Ideal)) (e : Fin 1600000) :
    val_main_v1 (F := Ideal) x1 (ix1 e) = x1 (ix2 (0 : Fin 2) e) := by
  rw [val_main_v1_apply, val_main_v0_apply]
  exact congrArg x1 (idx2_ext _ _ rfl (Nat.mod_eq_of_lt e.isLt))

/-- The destination words: row 1 of the edge list. -/
theorem dst_word (x1 : (⟨S2x1600000, .i32⟩ : BufTy).Contents (Elt Ideal)) (e : Fin 1600000) :
    val_main_v3 (F := Ideal) x1 (ix1 e) = x1 (ix2 (1 : Fin 2) e) := by
  rw [val_main_v3_apply, val_main_v2_apply]
  exact congrArg x1 (idx2_ext _ _ rfl (Nat.mod_eq_of_lt e.isLt))

/-- The index normalisation on one word: a negative word wraps once around the table. -/
theorem wrap_word (w : BitVec 32) :
    Scalar.select (IntOp.cmpi .slt w 0#32) (IntOp.addi w 100000#32) w = Gcn.wrapW w := by
  unfold Scalar.select IntOp.cmpi IntOp.addi Gcn.wrapW
  cases h : w.slt 0#32 <;> simp [h]

/-- A vector kept as a column reads, at (e, 0), the vector at e. -/
theorem col_at {α : Type} (y : S1600000.Idx → α) (e : Fin 1600000) :
    broadcastInDim S1600000x1 ![0] bcast_S1600000_S1600000x1_0 y (ix2 e (0 : Fin 1)) = y (ix1 e) :=
  broadcastInDim_apply _ bcast_S1600000_S1600000x1_0 y (ix2 e (0 : Fin 1)) (ix1 e) (fun a => match a with
    | ⟨0, _⟩ => by show e.val = if (1600000 : Nat) = 1 then 0 else e.val; rw [if_neg (by decide)])

/-- The column of normalised words: at (e, 0) the wrapped word. -/
theorem wrapcol_at (w : (⟨S1600000, .i32⟩ : BufTy).Contents (Elt Ideal)) (e : Fin 1600000) :
    broadcastInDim S1600000x1 ![0] bcast_S1600000_S1600000x1_0
      (select (cmpi .slt w (broadcastInDim S1600000 ![] bcast_S_S1600000 (constantI S_ 32 0#32)))
        (addi w (broadcastInDim S1600000 ![] bcast_S_S1600000 (constantI S_ 32 100000#32))) w) (ix2 e (0 : Fin 1))
      = Gcn.wrapW (w (ix1 e)) := by
  rw [col_at]
  exact wrap_word (w (ix1 e))

/-! ## The gathers and the segment sums, read at an index -/

/-- The gather of a vector by a column of words: entry e is the vector at the row the word names. -/
theorem gatherVec_at (dv : FVec Ideal S100000 .f32)
    (c : IVec S1600000x1 32) (e : Fin 1600000) :
    Host.gather gather_S100000_S1600000x1_S1600000_n_0_n_n_0_1_1 dv c (ix1 e)
      = dv (ix1 (Gcn.rowOf (c (ix2 e (0 : Fin 1))))) := by
  have h := StableHlo.Predicate.gather_take gather_S100000_S1600000x1_S1600000_n_0_n_n_0_1_1 rfl rfl rfl rfl dv c e
    (by decide)
  have e1 : (Shape.Idx.ofFin e : (⟨1, ![1600000]⟩ : Shape).Idx) = ix1 e := idx1_ext _ _ rfl
  rw [e1] at h
  refine h.trans (congrArg dv (idx1_ext _ _ ?_))
  show min (c (StableHlo.Predicate.ixP e)).toInt.toNat (100000 - 1) = min (c (ix2 e (0 : Fin 1))).toInt.toNat 99999
  have e2 : (StableHlo.Predicate.ixP e : (⟨2, ![1600000, 1]⟩ : Shape).Idx) = ix2 e (0 : Fin 1) := idx2_ext _ _ rfl rfl
  rw [e2]

/-- The gather of rows by a column of words: entry (e, q) is the matrix at the named row and column q. -/
theorem gatherRows_at (hl : FVec Ideal S100000x64 .f32)
    (c : IVec S1600000x1 32) (e : Fin 1600000) (q : Fin 64) :
    Host.gather gather_S100000x64_S1600000x1_S1600000x64_1_0_n_n_0_1_164 hl c (ix2 e q)
      = hl (ix2 (Gcn.rowOf (c (ix2 e (0 : Fin 1)))) q) :=
  Gcn.Rows.gather_rows gather_S100000x64_S1600000x1_S1600000x64_1_0_n_n_0_1_164 rfl rfl rfl rfl rfl rfl hl c e q
    (by decide)

/-- The segment sum of rows over the edges. -/
theorem scatterRows_at (z : FVec Ideal S100000x64 .f32)
    (c : IVec S1600000x1 32) (u : FVec Ideal S1600000x64 .f32)
    (p : Fin 100000) (q : Fin 64) :
    Host.scatterAdd (F := Ideal) scatter_S100000x64_S1600000x1_S1600000x64_1_0_0_1 z c u (ix2 p q)
      = z (ix2 p q) + ∑ e : Fin 1600000, if (c (ix2 e (0 : Fin 1))).toInt = (p.val : ℤ) then u (ix2 e q) else 0 :=
  Gcn.Rows.scatterAdd_rows scatter_S100000x64_S1600000x1_S1600000x64_1_0_0_1 rfl rfl rfl rfl z c u p q

/-! ## The broadcasts of a layer, read at an index -/

/-- A column spread over 64 columns reads, at (e, q), the column at (e, 0). -/
theorem spreadE_at {α : Type} (y : S1600000x1.Idx → α) (e : Fin 1600000) (q : Fin 64) :
    broadcastInDim S1600000x64 ![0, 1] bcast_S1600000x1_S1600000x64_0_1 y (ix2 e q) = y (ix2 e (0 : Fin 1)) :=
  broadcastInDim_apply _ bcast_S1600000x1_S1600000x64_0_1 y (ix2 e q) (ix2 e (0 : Fin 1)) (fun a => match a with
    | ⟨0, _⟩ => by show e.val = if (1600000 : Nat) = 1 then 0 else e.val; rw [if_neg (by decide)]
    | ⟨1, _⟩ => by show 0 = if (1 : Nat) = 1 then 0 else q.val; rw [if_pos rfl])

/-- A node vector kept as a column reads, at (p, 0), the vector at p. -/
theorem colN_at {α : Type} (y : S100000.Idx → α) (p : Fin 100000) :
    broadcastInDim S100000x1 ![0] bcast_S100000_S100000x1_0 y (ix2 p (0 : Fin 1)) = y (ix1 p) :=
  broadcastInDim_apply _ bcast_S100000_S100000x1_0 y (ix2 p (0 : Fin 1)) (ix1 p) (fun a => match a with
    | ⟨0, _⟩ => by show p.val = if (100000 : Nat) = 1 then 0 else p.val; rw [if_neg (by decide)])

/-- A node column spread over 64 columns reads, at (p, q), the column at (p, 0). -/
theorem spreadN_at {α : Type} (y : S100000x1.Idx → α) (p : Fin 100000) (q : Fin 64) :
    broadcastInDim S100000x64 ![0, 1] bcast_S100000x1_S100000x64_0_1 y (ix2 p q) = y (ix2 p (0 : Fin 1)) :=
  broadcastInDim_apply _ bcast_S100000x1_S100000x64_0_1 y (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A bias vector kept as a row reads, at (0, q), the vector at q. -/
theorem rowB_at {α : Type} (y : S64.Idx → α) (q : Fin 64) :
    broadcastInDim S1x64 ![1] bcast_S64_S1x64_1 y (ix2 (0 : Fin 1) q) = y (ix1 q) :=
  broadcastInDim_apply _ bcast_S64_S1x64_1 y (ix2 (0 : Fin 1) q) (ix1 q) (fun a => match a with
    | ⟨0, _⟩ => by show q.val = if (64 : Nat) = 1 then 0 else q.val; rw [if_neg (by decide)])

/-- A bias row spread over the nodes reads, at (p, q), the row at (0, q). -/
theorem spreadB_at {α : Type} (y : S1x64.Idx → α) (p : Fin 100000) (q : Fin 64) :
    broadcastInDim S100000x64 ![0, 1] bcast_S1x64_S100000x64_0_1 y (ix2 p q) = y (ix2 (0 : Fin 1) q) :=
  broadcastInDim_apply _ bcast_S1x64_S100000x64_0_1 y (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## One layer -/

/-- A layer before its rectifier: the degree-scaled sum over the incoming edges, the self term and the bias. -/
def preR (ei : Gcn.EdgeWords) (h : Gcn.Feat) (W : Fin 64 → Fin 64 → EReal) (b : Fin 64 → EReal) : Gcn.Feat := fun p q =>
  (Gcn.segsum ei (fun e => (Gcn.dinv ei (Gcn.rowOf (Gcn.wrapW (Gcn.srcW ei e))) * Gcn.dinv ei (Gcn.rowOf (Gcn.wrapW (Gcn.dstW ei e))))
      * Gcn.lin h W (Gcn.rowOf (Gcn.wrapW (Gcn.srcW ei e))) q) p
    + (Gcn.dinv ei p * Gcn.dinv ei p) * Gcn.lin h W p q) + b q

theorem convR_eq (relu : Bool) (ei : Gcn.EdgeWords) (h : Gcn.Feat) (W : Fin 64 → Fin 64 → EReal) (b : Fin 64 → EReal)
    (p : Fin 100000) (q : Fin 64) : Gcn.convR relu ei h W b p q = Gcn.act relu (preR ei h W b p q) := rfl

/-- The operations of one layer after its linear map, over any operands that read as the specification's parts:
    the scale vector as dinv, the linear map's result as lin, the three gather columns as the wrapped source,
    destination and source words, the segment column as the raw destination words, the base as zero. -/
theorem layer_at (ei : Gcn.EdgeWords) (h : Gcn.Feat) (W : Fin 64 → Fin 64 → EReal) (b : Fin 64 → EReal)
    (dv : FVec Ideal S100000 .f32) (hl z : FVec Ideal S100000x64 .f32)
    (cs cd cg cr : IVec S1600000x1 32) (bb : FVec Ideal S64 .f32)
    (hdv : ∀ r, dv (ix1 r) = Gcn.dinv ei r) (hhl : ∀ r q, hl (ix2 r q) = Gcn.lin h W r q)
    (hz : ∀ r q, z (ix2 r q) = Gcn.lit0)
    (hcs : ∀ e, cs (ix2 e (0 : Fin 1)) = Gcn.wrapW (Gcn.srcW ei e))
    (hcd : ∀ e, cd (ix2 e (0 : Fin 1)) = Gcn.wrapW (Gcn.dstW ei e))
    (hcg : ∀ e, cg (ix2 e (0 : Fin 1)) = Gcn.wrapW (Gcn.srcW ei e))
    (hcr : ∀ e, cr (ix2 e (0 : Fin 1)) = Gcn.dstW ei e)
    (hbb : ∀ q, bb (ix1 q) = b q) (p : Fin 100000) (q : Fin 64) :
    (addf (F := Ideal) (addf (F := Ideal)
        (Host.scatterAdd (F := Ideal) scatter_S100000x64_S1600000x1_S1600000x64_1_0_0_1 z cr
          (mulf (F := Ideal) (broadcastInDim S1600000x64 ![0, 1] bcast_S1600000x1_S1600000x64_0_1
                  (broadcastInDim S1600000x1 ![0] bcast_S1600000_S1600000x1_0
                    (mulf (F := Ideal) (Host.gather gather_S100000_S1600000x1_S1600000_n_0_n_n_0_1_1 dv cs)
                      (Host.gather gather_S100000_S1600000x1_S1600000_n_0_n_n_0_1_1 dv cd))))
            (Host.gather gather_S100000x64_S1600000x1_S1600000x64_1_0_n_n_0_1_164 hl cg)))
        (mulf (F := Ideal) (broadcastInDim S100000x64 ![0, 1] bcast_S100000x1_S100000x64_0_1
                (broadcastInDim S100000x1 ![0] bcast_S100000_S100000x1_0 (mulf (F := Ideal) dv dv))) hl))
      (broadcastInDim S100000x64 ![0, 1] bcast_S1x64_S100000x64_0_1 (broadcastInDim S1x64 ![1] bcast_S64_S1x64_1 bb))
      ) (ix2 p q)
      = preR ei h W b p q := by
  rw [addf_apply, addf_apply, mulf_apply, scatterRows_at, spreadN_at, colN_at, mulf_apply, spreadB_at, rowB_at, hz, hhl,
    hbb, hdv]
  unfold preR Gcn.segsum
  refine congrArg (fun t => Gcn.lit0 + t + Gcn.dinv ei p * Gcn.dinv ei p * Gcn.lin h W p q + b q)
    (Finset.sum_congr rfl fun e _ => ?_)
  rw [hcr, mulf_apply, spreadE_at, col_at, mulf_apply, gatherRows_at, gatherVec_at, gatherVec_at, hcg, hhl, hcs, hcd,
    hdv, hdv]

/-! ## The degree scale -/

/-- The segment sum of a vector over the edges. -/
theorem scatterVecE_at (z : FVec Ideal S100000 .f32) (c : IVec S1600000x1 32) (u : FVec Ideal S1600000 .f32)
    (p : Fin 100000) :
    Host.scatterAdd (F := Ideal) scatter_S100000_S1600000x1_S1600000_n_0_0_1 z c u (ix1 p)
      = z (ix1 p) + ∑ e : Fin 1600000, if (c (ix2 e (0 : Fin 1))).toInt = (p.val : ℤ) then u (ix1 e) else 0 :=
  Gcn.Rows.scatterAdd_vec scatter_S100000_S1600000x1_S1600000_n_0_0_1 rfl rfl rfl rfl z c u p

/-- The column of raw destination words of the degree count. -/
theorem raw6 (x1 : (⟨S2x1600000, .i32⟩ : BufTy).Contents (Elt Ideal)) (e : Fin 1600000) :
    val_main_v6 (F := Ideal) x1 (ix2 e (0 : Fin 1)) = Gcn.dstW (fun r e => x1 (ix2 r e)) e := by
  unfold val_main_v6
  exact (col_at _ e).trans (dst_word x1 e)

/-- The degree scale at a row: the inverse square root of the in-degree plus one. -/
theorem dinv_at (x1 : (⟨S2x1600000, .i32⟩ : BufTy).Contents (Elt Ideal)) (p : Fin 100000) :
    val_main_v10 (F := Ideal) x1 (ix1 p) = Gcn.dinv (fun r e => x1 (ix2 r e)) p := by
  have h5 : val_main_v5 (F := Ideal) (ix1 p) = Gcn.lit0 := rfl
  have h8 : val_main_v8 (F := Ideal) (ix1 p) = Gcn.lit1 := rfl
  have h4 : ∀ e : Fin 1600000, val_main_v4 (F := Ideal) (ix1 e) = Gcn.lit1 := fun _ => rfl
  rw [val_main_v10_apply, val_main_v9_apply, Ideal.hostUnary_rsqrt_def, Ideal.addf_def, h8]
  unfold val_main_v7
  rw [scatterVecE_at, h5]
  simp only [raw6, h4]
  unfold Gcn.dinv Gcn.deg Gcn.segsum
  rfl

/-! ## The linear map -/

/-- A node matrix times a 64 × 64 matrix, at (p, q). -/
theorem dot_at (hh : FVec Ideal S100000x64 .f32) (W : FVec Ideal S64x64 .f32) (p : Fin 100000) (q : Fin 64) :
    Host.dotGeneral (F := Ideal) dot_S100000x64_S64x64_S100000x64_1_0_0_1_n_n none hh W (ix2 p q)
      = ∑ k : Fin 64, hh (ix2 p k) * W (ix2 k q) := by
  have h := val_main_v11_apply hh W (ix2 p q)
  unfold val_main_v11 at h
  refine h.trans (Finset.sum_congr rfl fun k _ => ?_)
  rw [show lidx_main_v11 (ix2 p q) k = ix2 p k from idx2_ext _ _ rfl rfl,
    show ridx_main_v11 (ix2 p q) k = ix2 k q from idx2_ext _ _ rfl rfl]

/-- The same, over a left operand that reads as the features H. -/
theorem lin_at (H : Gcn.Feat) (hh : FVec Ideal S100000x64 .f32) (W : FVec Ideal S64x64 .f32)
    (hH : ∀ r k, hh (ix2 r k) = H r k) (r : Fin 100000) (q : Fin 64) :
    Host.dotGeneral (F := Ideal) dot_S100000x64_S64x64_S100000x64_1_0_0_1_n_n none hh W (ix2 r q)
      = Gcn.lin H (fun k q => W (ix2 k q)) r q := by
  rw [dot_at]
  unfold Gcn.lin
  exact Finset.sum_congr rfl fun k _ => by rw [hH]

/-! ## The index columns of the three layers -/

/-- Layer 1: the wrapped source words that gather the scale. -/
theorem w17 (x1 : (⟨S2x1600000, .i32⟩ : BufTy).Contents (Elt Ideal)) (e : Fin 1600000) :
    val_main_v17 (F := Ideal) x1 (ix2 e (0 : Fin 1)) = Gcn.wrapW (Gcn.srcW (fun r e => x1 (ix2 r e)) e) := by
  unfold val_main_v17 val_main_v16 val_main_v13 val_main_v15 val_main_v12 val_main_v14 val_main_c val_main_c_2
  exact (wrapcol_at _ e).trans (congrArg Gcn.wrapW (src_word x1 e))

/-- Layer 1: the wrapped destination words that gather the scale. -/
theorem w24 (x1 : (⟨S2x1600000, .i32⟩ : BufTy).Contents (Elt Ideal)) (e : Fin 1600000) :
    val_main_v24 (F := Ideal) x1 (ix2 e (0 : Fin 1)) = Gcn.wrapW (Gcn.dstW (fun r e => x1 (ix2 r e)) e) := by
  unfold val_main_v24 val_main_v23 val_main_v20 val_main_v22 val_main_v19 val_main_v21 val_main_c_3 val_main_c_4
  exact (wrapcol_at _ e).trans (congrArg Gcn.wrapW (dst_word x1 e))

/-- Layer 1: the wrapped source words that gather the rows. -/
theorem w33 (x1 : (⟨S2x1600000, .i32⟩ : BufTy).Contents (Elt Ideal)) (e : Fin 1600000) :
    val_main_v33 (F := Ideal) x1 (ix2 e (0 : Fin 1)) = Gcn.wrapW (Gcn.srcW (fun r e => x1 (ix2 r e)) e) := by
  unfold val_main_v33 val_main_v32 val_main_v29 val_main_v31 val_main_v28 val_main_v30 val_main_c_5 val_main_c_6
  exact (wrapcol_at _ e).trans (congrArg Gcn.wrapW (src_word x1 e))

/-- Layer 1: the raw destination words of the segment sum. -/
theorem r38 (x1 : (⟨S2x1600000, .i32⟩ : BufTy).Contents (Elt Ideal)) (e : Fin 1600000) :
    val_main_v38 (F := Ideal) x1 (ix2 e (0 : Fin 1)) = Gcn.dstW (fun r e => x1 (ix2 r e)) e := by
  unfold val_main_v38
  exact (col_at _ e).trans (dst_word x1 e)

/-- Layer 2: the wrapped source words that gather the scale. -/
theorem w55 (x1 : (⟨S2x1600000, .i32⟩ : BufTy).Contents (Elt Ideal)) (e : Fin 1600000) :
    val_main_v55 (F := Ideal) x1 (ix2 e (0 : Fin 1)) = Gcn.wrapW (Gcn.srcW (fun r e => x1 (ix2 r e)) e) := by
  unfold val_main_v55 val_main_v54 val_main_v51 val_main_v53 val_main_v50 val_main_v52 val_main_c_8 val_main_c_9
  exact (wrapcol_at _ e).trans (congrArg Gcn.wrapW (src_word x1 e))

/-- Layer 2: the wrapped destination words that gather the scale. -/
theorem w62 (x1 : (⟨S2x1600000, .i32⟩ : BufTy).Contents (Elt Ideal)) (e : Fin 1600000) :
    val_main_v62 (F := Ideal) x1 (ix2 e (0 : Fin 1)) = Gcn.wrapW (Gcn.dstW (fun r e => x1 (ix2 r e)) e) := by
  unfold val_main_v62 val_main_v61 val_main_v58 val_main_v60 val_main_v57 val_main_v59 val_main_c_10 val_main_c_11
  exact (wrapcol_at _ e).trans (congrArg Gcn.wrapW (dst_word x1 e))

/-- Layer 2: the wrapped source words that gather the rows. -/
theorem w71 (x1 : (⟨S2x1600000, .i32⟩ : BufTy).Contents (Elt Ideal)) (e : Fin 1600000) :
    val_main_v71 (F := Ideal) x1 (ix2 e (0 : Fin 1)) = Gcn.wrapW (Gcn.srcW (fun r e => x1 (ix2 r e)) e) := by
  unfold val_main_v71 val_main_v70 val_main_v67 val_main_v69 val_main_v66 val_main_v68 val_main_c_12 val_main_c_13
  exact (wrapcol_at _ e).trans (congrArg Gcn.wrapW (src_word x1 e))

/-- Layer 2: the raw destination words of the segment sum. -/
theorem r76 (x1 : (⟨S2x1600000, .i32⟩ : BufTy).Contents (Elt Ideal)) (e : Fin 1600000) :
    val_main_v76 (F := Ideal) x1 (ix2 e (0 : Fin 1)) = Gcn.dstW (fun r e => x1 (ix2 r e)) e := by
  unfold val_main_v76
  exact (col_at _ e).trans (dst_word x1 e)

/-- Layer 3: the wrapped source words that gather the scale. -/
theorem w93 (x1 : (⟨S2x1600000, .i32⟩ : BufTy).Contents (Elt Ideal)) (e : Fin 1600000) :
    val_main_v93 (F := Ideal) x1 (ix2 e (0 : Fin 1)) = Gcn.wrapW (Gcn.srcW (fun r e => x1 (ix2 r e)) e) := by
  unfold val_main_v93 val_main_v92 val_main_v89 val_main_v91 val_main_v88 val_main_v90 val_main_c_15 val_main_c_16
  exact (wrapcol_at _ e).trans (congrArg Gcn.wrapW (src_word x1 e))

/-- Layer 3: the wrapped destination words that gather the scale. -/
theorem w100 (x1 : (⟨S2x1600000, .i32⟩ : BufTy).Contents (Elt Ideal)) (e : Fin 1600000) :
    val_main_v100 (F := Ideal) x1 (ix2 e (0 : Fin 1)) = Gcn.wrapW (Gcn.dstW (fun r e => x1 (ix2 r e)) e) := by
  unfold val_main_v100 val_main_v99 val_main_v96 val_main_v98 val_main_v95 val_main_v97 val_main_c_17 val_main_c_18
  exact (wrapcol_at _ e).trans (congrArg Gcn.wrapW (dst_word x1 e))

/-- Layer 3: the wrapped source words that gather the rows. -/
theorem w109 (x1 : (⟨S2x1600000, .i32⟩ : BufTy).Contents (Elt Ideal)) (e : Fin 1600000) :
    val_main_v109 (F := Ideal) x1 (ix2 e (0 : Fin 1)) = Gcn.wrapW (Gcn.srcW (fun r e => x1 (ix2 r e)) e) := by
  unfold val_main_v109 val_main_v108 val_main_v105 val_main_v107 val_main_v104 val_main_v106 val_main_c_19 val_main_c_20
  exact (wrapcol_at _ e).trans (congrArg Gcn.wrapW (src_word x1 e))

/-- Layer 3: the raw destination words of the segment sum. -/
theorem r114 (x1 : (⟨S2x1600000, .i32⟩ : BufTy).Contents (Elt Ideal)) (e : Fin 1600000) :
    val_main_v114 (F := Ideal) x1 (ix2 e (0 : Fin 1)) = Gcn.dstW (fun r e => x1 (ix2 r e)) e := by
  unfold val_main_v114
  exact (col_at _ e).trans (dst_word x1 e)

/-! ## The three layers -/

theorem act_false (x : EReal) : Gcn.act false x = x := rfl

/-- The rectifier against the zero word. -/
theorem act_true (x : EReal) : max x Gcn.lit0 = Gcn.act true x := rfl

/-- The first layer, from the node features. -/
theorem layer1 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (p : Fin 100000) (q : Fin 64) :
    val_main_v48 (F := Ideal) x0 x1 x3 x4 (ix2 p q) = Gcn.convR true (fun r e => x1 (ix2 r e)) (fun p q => x0 (ix2 p q)) (fun k q => x3 (ix2 k q)) (fun q => x4 (ix1 q)) p q := by
  have hpre : val_main_v47 (F := Ideal) x0 x1 x3 x4 (ix2 p q) = preR (fun r e => x1 (ix2 r e)) (fun p q => x0 (ix2 p q)) (fun k q => x3 (ix2 k q)) (fun q => x4 (ix1 q)) p q := by
    unfold val_main_v47 val_main_v44 val_main_v46 val_main_v45 val_main_v43 val_main_v42 val_main_v41 val_main_v40
      val_main_v39 val_main_v36 val_main_v35 val_main_v27 val_main_v26 val_main_v18 val_main_v25 val_main_v34 val_main_v11
    exact layer_at (fun r e => x1 (ix2 r e)) (fun p q => x0 (ix2 p q)) (fun k q => x3 (ix2 k q)) (fun q => x4 (ix1 q)) _ _ _ _ _ _ _ _ (dinv_at x1)
      (fun r q => lin_at _ _ _ (fun _ _ => rfl) r q) (fun _ _ => rfl) (w17 x1) (w24 x1) (w33 x1) (r38 x1)
      (fun _ => rfl) p q
  have hz0 : val_main_call0_v0 (F := Ideal) (ix2 p q) = Gcn.lit0 := rfl
  rw [convR_eq, val_main_v48_apply, hpre, hz0, Ideal.maximumf_def, act_true]

/-- The second layer, from the first layer's result. -/
theorem layer2 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (p : Fin 100000) (q : Fin 64) :
    val_main_v86 (F := Ideal) x0 x1 x3 x4 x5 x6 (ix2 p q) = Gcn.convR true (fun r e => x1 (ix2 r e)) (Gcn.convR true (fun r e => x1 (ix2 r e)) (fun p q => x0 (ix2 p q)) (fun k q => x3 (ix2 k q)) (fun q => x4 (ix1 q))) (fun k q => x5 (ix2 k q)) (fun q => x6 (ix1 q)) p q := by
  have hpre : val_main_v85 (F := Ideal) x0 x1 x3 x4 x5 x6 (ix2 p q) = preR (fun r e => x1 (ix2 r e)) (Gcn.convR true (fun r e => x1 (ix2 r e)) (fun p q => x0 (ix2 p q)) (fun k q => x3 (ix2 k q)) (fun q => x4 (ix1 q))) (fun k q => x5 (ix2 k q)) (fun q => x6 (ix1 q)) p q := by
    unfold val_main_v85 val_main_v82 val_main_v84 val_main_v83 val_main_v81 val_main_v80 val_main_v79 val_main_v78
      val_main_v77 val_main_v74 val_main_v73 val_main_v65 val_main_v64 val_main_v56 val_main_v63 val_main_v72 val_main_v49
    exact layer_at (fun r e => x1 (ix2 r e)) (Gcn.convR true (fun r e => x1 (ix2 r e)) (fun p q => x0 (ix2 p q)) (fun k q => x3 (ix2 k q)) (fun q => x4 (ix1 q))) (fun k q => x5 (ix2 k q)) (fun q => x6 (ix1 q)) _ _ _ _ _ _ _ _ (dinv_at x1)
      (fun r q => lin_at _ _ _ (fun r k => layer1 x0 x1 x3 x4 r k) r q) (fun _ _ => rfl) (w55 x1) (w62 x1) (w71 x1) (r76 x1)
      (fun _ => rfl) p q
  have hz0 : val_main_call1_v0 (F := Ideal) (ix2 p q) = Gcn.lit0 := rfl
  rw [convR_eq, val_main_v86_apply, hpre, hz0, Ideal.maximumf_def, act_true]

/-- The third layer, from the second layer's result, with no rectifier. -/
theorem layer3 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (p : Fin 100000) (q : Fin 64) :
    val_main_v123 (F := Ideal) x0 x1 x3 x4 x5 x6 x7 x8 (ix2 p q) = Gcn.convR false (fun r e => x1 (ix2 r e)) (Gcn.convR true (fun r e => x1 (ix2 r e)) (Gcn.convR true (fun r e => x1 (ix2 r e)) (fun p q => x0 (ix2 p q)) (fun k q => x3 (ix2 k q)) (fun q => x4 (ix1 q))) (fun k q => x5 (ix2 k q)) (fun q => x6 (ix1 q))) (fun k q => x7 (ix2 k q)) (fun q => x8 (ix1 q)) p q := by
  rw [convR_eq, act_false]
  unfold val_main_v123 val_main_v120 val_main_v122 val_main_v121 val_main_v119 val_main_v118 val_main_v117 val_main_v116
    val_main_v115 val_main_v112 val_main_v111 val_main_v103 val_main_v102 val_main_v94 val_main_v101 val_main_v110 val_main_v87
  exact layer_at (fun r e => x1 (ix2 r e)) (Gcn.convR true (fun r e => x1 (ix2 r e)) (Gcn.convR true (fun r e => x1 (ix2 r e)) (fun p q => x0 (ix2 p q)) (fun k q => x3 (ix2 k q)) (fun q => x4 (ix1 q))) (fun k q => x5 (ix2 k q)) (fun q => x6 (ix1 q))) (fun k q => x7 (ix2 k q)) (fun q => x8 (ix1 q)) _ _ _ _ _ _ _ _ (dinv_at x1)
    (fun r q => lin_at _ _ _ (fun r k => layer2 x0 x1 x3 x4 x5 x6 r k) r q) (fun _ _ => rfl) (w93 x1) (w100 x1) (w109 x1) (r114 x1)
    (fun _ => rfl) p q

/-! ## The head -/

/-- The segment sum of rows over the nodes of a graph. -/
theorem scatterRowsG_at (z : FVec Ideal S64x64 .f32) (c : IVec S100000x1 32) (u : FVec Ideal S100000x64 .f32)
    (g j : Fin 64) :
    Host.scatterAdd (F := Ideal) scatter_S64x64_S100000x1_S100000x64_1_0_0_1 z c u (ix2 g j)
      = z (ix2 g j) + ∑ n : Fin 100000, if (c (ix2 n (0 : Fin 1))).toInt = (g.val : ℤ) then u (ix2 n j) else 0 :=
  Gcn.Rows.scatterAdd_rows scatter_S64x64_S100000x1_S100000x64_1_0_0_1 rfl rfl rfl rfl z c u g j

/-- The segment sum of a vector over the nodes of a graph. -/
theorem scatterVecG_at (z : FVec Ideal S64 .f32) (c : IVec S100000x1 32) (u : FVec Ideal S100000 .f32) (g : Fin 64) :
    Host.scatterAdd (F := Ideal) scatter_S64_S100000x1_S100000_n_0_0_1 z c u (ix1 g)
      = z (ix1 g) + ∑ n : Fin 100000, if (c (ix2 n (0 : Fin 1))).toInt = (g.val : ℤ) then u (ix1 n) else 0 :=
  Gcn.Rows.scatterAdd_vec scatter_S64_S100000x1_S100000_n_0_0_1 rfl rfl rfl rfl z c u g

/-- The graph assignment kept as a column reads, at (n, 0), the word of node n (the column of the row sums). -/
theorem b125 (x2 : (⟨S100000, .i32⟩ : BufTy).Contents (Elt Ideal)) (n : Fin 100000) :
    val_main_v125 (F := Ideal) x2 (ix2 n (0 : Fin 1)) = x2 (ix1 n) := by
  rw [val_main_v125_apply]
  exact congrArg x2 (idx1_ext _ _ rfl)

/-- The same column, as the count reads it. -/
theorem b129 (x2 : (⟨S100000, .i32⟩ : BufTy).Contents (Elt Ideal)) (n : Fin 100000) :
    val_main_v129 (F := Ideal) x2 (ix2 n (0 : Fin 1)) = x2 (ix1 n) := by
  rw [val_main_v129_apply]
  exact congrArg x2 (idx1_ext _ _ rfl)

/-- The number of nodes of a graph. -/
theorem gcnt_at (x2 : (⟨S100000, .i32⟩ : BufTy).Contents (Elt Ideal)) (g : Fin 64) :
    val_main_v130 (F := Ideal) x2 (ix1 g) = Gcn.gcnt (fun n => x2 (ix1 n)) g := by
  have h128 : val_main_v128 (F := Ideal) (ix1 g) = Gcn.lit0 := rfl
  have h127 : ∀ n : Fin 100000, val_main_v127 (F := Ideal) (ix1 n) = Gcn.lit1 := fun _ => rfl
  unfold val_main_v130
  rw [scatterVecG_at, h128]
  simp only [b129, h127]
  unfold Gcn.gcnt Gcn.gsum
  rfl

/-- The divisor at (g, j): the graph's count clamped below by one. -/
theorem den_at (x2 : (⟨S100000, .i32⟩ : BufTy).Contents (Elt Ideal)) (g j : Fin 64) :
    val_main_v134 (F := Ideal) x2 (ix2 g j) = max (Gcn.gcnt (fun n => x2 (ix1 n)) g) Gcn.lit1 := by
  rw [val_main_v134_apply, val_main_v133_apply, val_main_v132_apply,
    show idx_main_v133 (idx_main_v134 (ix2 g j)) = ix1 g from idx1_ext _ _ rfl, gcnt_at]
  rfl

/-- The sum of column j of the last layer over the nodes of graph g. -/
theorem gsum_at (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (g j : Fin 64) :
    val_main_v126 (F := Ideal) x0 x1 x2 x3 x4 x5 x6 x7 x8 (ix2 g j)
      = Gcn.gsum (fun n => x2 (ix1 n)) (fun n => (Gcn.convR false (fun r e => x1 (ix2 r e)) (Gcn.convR true (fun r e => x1 (ix2 r e)) (Gcn.convR true (fun r e => x1 (ix2 r e)) (fun p q => x0 (ix2 p q)) (fun k q => x3 (ix2 k q)) (fun q => x4 (ix1 q))) (fun k q => x5 (ix2 k q)) (fun q => x6 (ix1 q))) (fun k q => x7 (ix2 k q)) (fun q => x8 (ix1 q))) n j) g := by
  have h124 : val_main_v124 (F := Ideal) (ix2 g j) = Gcn.lit0 := rfl
  unfold val_main_v126
  rw [scatterRowsG_at, h124]
  simp only [b125, layer3]
  unfold Gcn.gsum
  rfl

/-- The head: the mean row of each graph times the last matrix, plus the last bias. -/
theorem head_at (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (g : Fin 64) (k : Fin 2) :
    val_main_v139 (F := Ideal) x0 x1 x2 x3 x4 x5 x6 x7 x8 x9 x10 (ix2 g k)
      = Gcn.head (fun n => x2 (ix1 n)) (Gcn.convR false (fun r e => x1 (ix2 r e)) (Gcn.convR true (fun r e => x1 (ix2 r e)) (Gcn.convR true (fun r e => x1 (ix2 r e)) (fun p q => x0 (ix2 p q)) (fun k q => x3 (ix2 k q)) (fun q => x4 (ix1 q))) (fun k q => x5 (ix2 k q)) (fun q => x6 (ix1 q))) (fun k q => x7 (ix2 k q)) (fun q => x8 (ix1 q))) (fun j k => x9 (ix2 j k)) (fun k => x10 (ix1 k)) g k := by
  rw [val_main_v139_apply, Ideal.addf_def, val_main_v136_apply, val_main_v138_apply, val_main_v137_apply,
    show idx_main_v137 (idx_main_v138 (ix2 g k)) = ix1 k from idx1_ext _ _ rfl]
  unfold Gcn.head
  refine congrArg (fun t => t + x10 (ix1 k)) (Finset.sum_congr rfl fun j _ => ?_)
  rw [show lidx_main_v136 (ix2 g k) j = ix2 g j from idx2_ext _ _ rfl rfl,
    show ridx_main_v136 (ix2 g k) j = ix2 j k from idx2_ext _ _ rfl rfl, val_main_v135_apply, Ideal.hostDivf_def,
    gsum_at, den_at]

/-! ## The result -/

/-- The reference program's result, at every entry, is the network over the eleven argument arrays. -/
theorem result_eq (m : (ℓ : Loc nD τ sig) → Buf (Elt Ideal) ℓ) (c : Dev nD) (g : Fin 64) (k : Fin 2) :
    (Cert.ReferenceIdeal.Value.res_main_v139 (F := Ideal) m c : S64x2.Idx → EReal) (ix2 g k)
      = Gcn.netRA (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) g k := by
  rw [val_main_v139_eq]
  exact head_at _ _ _ _ _ _ _ _ _ _ _ g k

end Cert.ReferenceIdeal.RefVal

end
-- ==== Proof.Algebra.lean ====
/-
  The two arrangements of a layer agree: the kernel's (rows scaled before the gather, the sum scaled after) and the
  reference's (each message scaled by both ends' factors).

  The degree factor of a row is the inverse square root of one plus a count, hence a nonnegative REAL number; on the
  extended reals multiplication by a nonnegative finite factor distributes over every sum, whatever the summands are
  (no finiteness of the features, the weights or the bias is used).  Where every source word names a row, the index
  wrap of the reference changes no source word, and on the edges a row's sum keeps the destination word names that
  very row.
-/
import proofs.«431502_j9491877724720_3_alg».proof.Proof.Spec
import Idealize.ShloMosaic.PureOps.Ideal
import Mathlib.Data.EReal.Operations
import Mathlib.Data.EReal.Inv

noncomputable section

open scoped BigOperators

namespace Gcn

open Idealize.ShloMosaic

/-! ### The two literal words -/

/-- The word of all zeros is the extended real zero. -/
theorem lit0_eq : lit0 = 0 := by simp [Ideal.ofBits, Ideal.ieee]

/-- The word 0x3F800000 is the extended real one: exponent field 127, no fraction, 2²³ · 2⁻²³. -/
theorem lit1_eq : lit1 = 1 := by
  rw [show (1 : EReal) = ((1 : ℝ) : EReal) by norm_cast]
  simp [Ideal.ofBits, Ideal.ieee, -EReal.coe_mul]; norm_num

/-! ### The degree factor is a nonnegative real -/

/-- A sum of zeros and ones is a nonnegative real. -/
theorem count_real {ι : Type} (s : Finset ι) (c : ι → Prop) [DecidablePred c] :
    ∃ r : ℝ, 0 ≤ r ∧ (∑ e ∈ s, if c e then (1 : EReal) else 0) = (r : EReal) := by
  classical
  induction s using Finset.induction_on with
  | empty => exact ⟨0, le_rfl, by simp⟩
  | insert a s ha ih =>
    obtain ⟨r, hr, h⟩ := ih
    rw [Finset.sum_insert ha, h]
    by_cases hc : c a
    · refine ⟨1 + r, by linarith, ?_⟩
      rw [if_pos hc, EReal.coe_add, EReal.coe_one]
    · refine ⟨r, hr, ?_⟩
      rw [if_neg hc, zero_add]

/-- The degree of a row, one plus its count of incoming edges, is a real number at least one. -/
theorem deg_real (ei : EdgeWords) (p : Fin 100000) : ∃ r : ℝ, 1 ≤ r ∧ deg ei p = (r : EReal) := by
  obtain ⟨r, hr, h⟩ := count_real (Finset.univ : Finset (Fin 1600000)) (fun e => (dstW ei e).toInt = (p.val : ℤ))
  refine ⟨r + 1, by linarith, ?_⟩
  show lit0 + (∑ e : Fin 1600000, if (dstW ei e).toInt = (p.val : ℤ) then lit1 else 0) + lit1 = _
  rw [lit0_eq, lit1_eq, zero_add, h, EReal.coe_add, EReal.coe_one]

/-- The degree factor, the inverse square root of a real at least one, is a nonnegative real. -/
theorem dinv_real (ei : EdgeWords) (p : Fin 100000) : ∃ d : ℝ, 0 ≤ d ∧ dinv ei p = (d : EReal) := by
  obtain ⟨r, hr, h⟩ := deg_real ei p
  refine ⟨(Real.sqrt r)⁻¹, inv_nonneg.mpr (Real.sqrt_nonneg r), ?_⟩
  show Ideal.rsqrt (deg ei p) = _
  rw [h, Ideal.rsqrt_coe, if_neg (by linarith), if_neg (by linarith)]

theorem dinv_nonneg (ei : EdgeWords) (p : Fin 100000) : 0 ≤ dinv ei p := by
  obtain ⟨d, hd, h⟩ := dinv_real ei p
  rw [h]; exact EReal.coe_nonneg.mpr hd

theorem dinv_ne_top (ei : EdgeWords) (p : Fin 100000) : dinv ei p ≠ ⊤ := by
  obtain ⟨d, _, h⟩ := dinv_real ei p
  rw [h]; exact EReal.coe_ne_top d

/-! ### A nonnegative finite factor distributes over every sum -/

theorem mul_sum_of_nonneg {ι : Type} (c : EReal) (h0 : 0 ≤ c) (ht : c ≠ ⊤) (s : Finset ι) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-! ### The index wrap on words that name a row -/

/-- A word that is not negative is left alone by the wrap. -/
theorem wrapW_of_nonneg (w : BitVec 32) (h : 0 ≤ w.toInt) : wrapW w = w := by
  have hs : w.slt 0#32 = false := by
    simp only [BitVec.slt, BitVec.toInt_zero, decide_eq_false_iff_not, not_lt]; exact h
  simp only [wrapW, hs, Bool.false_eq_true, if_false]

/-- A word that, read signed, is the row p wraps and clamps to p. -/
theorem rowOf_wrapW_of_eq (w : BitVec 32) (p : Fin 100000) (h : w.toInt = (p.val : ℤ)) : rowOf (wrapW w) = p := by
  rw [wrapW_of_nonneg w (by omega)]
  apply Fin.ext
  show min w.toInt.toNat 99999 = p.val
  have := p.isLt
  omega

/-! ### A layer -/

/-- The message sums of the two arrangements agree at every row and column. -/
theorem seg_eq (ei : EdgeWords) (hok : SrcOk ei) (h : Feat) (W : Fin 64 → Fin 64 → EReal) (p : Fin 100000) (q : Fin 64) :
    dinv ei p * aggK ei (hsK ei h W) p q
      = segsum ei (fun e => (dinv ei (rowOf (wrapW (srcW ei e))) * dinv ei (rowOf (wrapW (dstW ei e))))
          * lin h W (rowOf (wrapW (srcW ei e))) q) p := by
  show dinv ei p * (lit0 + ∑ e : Fin 1600000, if (dstW ei e).toInt = (p.val : ℤ)
        then dinv ei (rowOf (srcW ei e)) * lin h W (rowOf (srcW ei e)) q else 0)
      = lit0 + ∑ e : Fin 1600000, if (dstW ei e).toInt = (p.val : ℤ)
        then (dinv ei (rowOf (wrapW (srcW ei e))) * dinv ei (rowOf (wrapW (dstW ei e))))
          * lin h W (rowOf (wrapW (srcW ei e))) q else 0
  rw [lit0_eq, zero_add, zero_add, mul_sum_of_nonneg _ (dinv_nonneg ei p) (dinv_ne_top ei p)]
  refine Finset.sum_congr rfl (fun e _ => ?_)
  by_cases hc : (dstW ei e).toInt = (p.val : ℤ)
  · rw [if_pos hc, if_pos hc, wrapW_of_nonneg _ (hok e).1, rowOf_wrapW_of_eq _ p hc, ← mul_assoc,
      mul_comm (dinv ei p)]
  · rw [if_neg hc, if_neg hc, mul_zero]

theorem conv_eq (relu : Bool) (ei : EdgeWords) (hok : SrcOk ei) (h : Feat) (W : Fin 64 → Fin 64 → EReal)
    (b : Fin 64 → EReal) : convK relu ei h W b = convR relu ei h W b := by
  funext p q
  show act relu (dinv ei p * (aggK ei (hsK ei h W) p q + dinv ei p * lin h W p q) + b q)
      = act relu ((segsum ei (fun e => (dinv ei (rowOf (wrapW (srcW ei e))) * dinv ei (rowOf (wrapW (dstW ei e))))
          * lin h W (rowOf (wrapW (srcW ei e))) q) p + (dinv ei p * dinv ei p) * lin h W p q) + b q)
  rw [EReal.left_distrib_of_nonneg_of_ne_top (dinv_nonneg ei p) (dinv_ne_top ei p), seg_eq ei hok, mul_assoc]

/-! ### The network -/

theorem net_eq (ei : EdgeWords) (hok : SrcOk ei) (x : Feat) (W1 : Fin 64 → Fin 64 → EReal) (b1 : Fin 64 → EReal)
    (W2 : Fin 64 → Fin 64 → EReal) (b2 : Fin 64 → EReal) (W3 : Fin 64 → Fin 64 → EReal) (b3 : Fin 64 → EReal)
    (batch : Fin 100000 → BitVec 32) (Wl : Fin 64 → Fin 2 → EReal) (bl : Fin 2 → EReal) :
    netK ei x W1 b1 W2 b2 W3 b3 batch Wl bl = netR ei x W1 b1 W2 b2 W3 b3 batch Wl bl := by
  unfold netK netR
  rw [conv_eq true ei hok x W1 b1, conv_eq true ei hok _ W2 b2, conv_eq false ei hok _ W3 b3]

theorem netA_eq (a0 : (⟨2, ![100000, 64]⟩ : Shape).Idx → EReal) (a1 : (⟨2, ![2, 1600000]⟩ : Shape).Idx → BitVec 32)
    (a2 : (⟨1, ![100000]⟩ : Shape).Idx → BitVec 32) (a3 : (⟨2, ![64, 64]⟩ : Shape).Idx → EReal)
    (a4 : (⟨1, ![64]⟩ : Shape).Idx → EReal) (a5 : (⟨2, ![64, 64]⟩ : Shape).Idx → EReal)
    (a6 : (⟨1, ![64]⟩ : Shape).Idx → EReal) (a7 : (⟨2, ![64, 64]⟩ : Shape).Idx → EReal)
    (a8 : (⟨1, ![64]⟩ : Shape).Idx → EReal) (a9 : (⟨2, ![64, 2]⟩ : Shape).Idx → EReal)
    (a10 : (⟨1, ![2]⟩ : Shape).Idx → EReal) (hok : SrcOkA a1) :
    netKA a0 a1 a2 a3 a4 a5 a6 a7 a8 a9 a10 = netRA a0 a1 a2 a3 a4 a5 a6 a7 a8 a9 a10 :=
  net_eq _ hok _ _ _ _ _ _ _ _ _ _

end Gcn

end
-- ==== Proof.lean ====
/- The certificate of a three-layer graph convolution network with a mean-pool head: a kernel program of seven
   pipelined regions (three "row times matrix, scaled" regions, three "combine" regions, one pooling region) among
   host stretches that compute the degree factors, gather rows along the edges' sources and sum them along the edges'
   destinations, against a reference that does everything on the host.

   Frames. The word-level and the idealized kernel program run to the end, fault nowhere and leave their arguments
   unchanged: the launch over the main program's fifteen items, every region's body run on its staging buffers (KB/,
   KI/: one text, generic in the float interpretation). The reference's frame is its run with the result dropped.

   Value. The idealized kernel's result is, element by element, the network in the kernel's arrangement (each row
   scaled by its degree factor before the gather and once more after the segment sum); the reference's is the network
   with each message scaled by both ends' factors. The two agree on the extended reals because a degree factor is a
   nonnegative real number, by which multiplication distributes over any sum — given that every source index names a
   row of the node table, the statement's added evident-domain precondition: outside it the kernel's gather fills with
   a junk value where the reference's clamps. No finiteness of the inputs is used.

   The ideal pass rewrote nothing, so the idealization claim is trivial. -/
import proofs.«431502_j9491877724720_3_alg».proof.Defs
import proofs.«431502_j9491877724720_3_alg».proof.Proof.Gen.Kernel
import proofs.«431502_j9491877724720_3_alg».proof.Proof.Gen.KernelIdeal
import proofs.«431502_j9491877724720_3_alg».proof.Proof.Gen.ReferenceIdeal
import proofs.«431502_j9491877724720_3_alg».proof.Proof.Gen.ReferenceIdeal.Run
import proofs.«431502_j9491877724720_3_alg».proof.Proof.Gen.ReferenceIdeal.Read
import proofs.«431502_j9491877724720_3_alg».proof.Proof.Gen.Pre_finite_inputs
import proofs.«431502_j9491877724720_3_alg».proof.Proof.KB.Ends
import proofs.«431502_j9491877724720_3_alg».proof.Proof.KI.Ends
import proofs.«431502_j9491877724720_3_alg».proof.Proof.KI.Result
import proofs.«431502_j9491877724720_3_alg».proof.Proof.KI.PreDecode
import proofs.«431502_j9491877724720_3_alg».proof.Proof.RefVal
import proofs.«431502_j9491877724720_3_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Run.run_frame (F := Bits) m ρ

theorem frame_ki : Cert.frame_KernelIdeal := fun m ρ _ => Cert.KernelIdeal.Run.run_frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network's value: the kernel's arrangement by the fold, the reference's by its run, one
    function where the source indices are in range. -/
theorem algebraic : Cert.algebraic_KernelIdeal_ReferenceIdeal := by
  intro m g m' g' hpre hagree
  refine ⟨fun c => (Cert.KernelIdeal.Run.dat6 (F := Ideal) (Cert.KernelIdeal.Run.atRefs (Cert.KernelIdeal.Run.U14 m)) c).arrAt 4 Cert.KernelIdeal.cfg6.N,
    Cert.KernelIdeal.Run.run_val (F := Ideal) m g, ?_⟩
  refine (θ_run Cert.ReferenceIdeal.defs _ _).mono (fun _ h c => ⟨(h c).1.trans ?_, (h c).2⟩)
    (Cert.ReferenceIdeal.Value.run (F := Ideal) m' g')
  funext i
  obtain ⟨a, b, rfl⟩ : ∃ (a : Fin 64) (b : Fin 2), i = ix2 a b := ⟨i 0, i 1, eq_ix2 i⟩
  have hok := Cert.KernelIdeal.HostVal.srcOk_of_pre m hpre c
  refine (Cert.ReferenceIdeal.RefVal.result_eq m' c a b).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  rw [← Gcn.netA_eq _ _ _ _ _ _ _ _ _ _ _ hok]
  exact (Cert.KernelIdeal.Result.result_eq m c hok a b).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
